-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  IdealRules.truncf_extf.Statement Cert.KernelIdeal.S480x91 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v230) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x900x91 : Shape := ⟨3, ![16, 900, 91]⟩
abbrev S16x900x4 : Shape := ⟨3, ![16, 900, 4]⟩
abbrev S16x900x2 : Shape := ⟨3, ![16, 900, 2]⟩
abbrev S16x900x1 : Shape := ⟨3, ![16, 900, 1]⟩
abbrev S1024 : Shape := ⟨1, ![1024]⟩
abbrev S1024x4 : Shape := ⟨2, ![1024, 4]⟩
abbrev S_ : Shape := ⟨0, ![]⟩

class Facts : Prop where
  bcast_S_S16x900x91 : S_.BroadcastsInDim S16x900x91 (![] : Fin 0 → Fin S16x900x91.rank)
  reducesTo_S16x900x91_S_d0_1_2 : S16x900x91.ReducesTo [0, 1, 2] S_
  h_S_ : 0 < S_.numel
  bcast_S_S16x900x4 : S_.BroadcastsInDim S16x900x4 (![] : Fin 0 → Fin S16x900x4.rank)
  reducesTo_S16x900x4_S_d0_1_2 : S16x900x4.ReducesTo [0, 1, 2] S_
  bcast_S_S16x900x2 : S_.BroadcastsInDim S16x900x2 (![] : Fin 0 → Fin S16x900x2.rank)
  reducesTo_S16x900x2_S_d0_1_2 : S16x900x2.ReducesTo [0, 1, 2] S_
  bcast_S_S16x900x1 : S_.BroadcastsInDim S16x900x1 (![] : Fin 0 → Fin S16x900x1.rank)
  reducesTo_S16x900x1_S_d0_1_2 : S16x900x1.ReducesTo [0, 1, 2] S_
  bcast_S_S1024x4 : S_.BroadcastsInDim S1024x4 (![] : Fin 0 → Fin S1024x4.rank)
  reducesTo_S1024x4_S_d0_1 : S1024x4.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : IVec S1024 32) (main_arg5 : FVec F S1024x4 .f32) (main_v13 : IVec S_ 1) (main_v16 : IVec S16x900x1 1) : IVec S_ 1 :=
  let main_c_5 : IVec S_ 1 := constantI S_ 1 1#1
  let main_v17 : IVec S_ 1 := (fun x v => Host.reduce IntOp.andi x v reducesTo_S16x900x1_S_d0_1_2 h_S_) main_v16 main_c_5
  let main_v18 : IVec S_ 1 := andi main_v13 main_v17
  let main_v19 : FVec F S1024x4 .f32 := Host.absf main_arg5
  let main_cst_6 : FVec F S_ .f32 := constant S_ .f32 0x7F800000#32
  let main_v20 : FVec F S1024x4 .f32 := broadcastInDim S1024x4 ![] bcast_S_S1024x4 main_cst_6
  let main_v21 : IVec S1024x4 1 := cmpf .olt main_v19 main_v20
  let main_c_7 : IVec S_ 1 := constantI S_ 1 1#1
  let main_v22 : IVec S_ 1 := (fun x v => Host.reduce IntOp.andi x v reducesTo_S1024x4_S_d0_1 h_S_) main_v21 main_c_7
  let main_v23 : IVec S_ 1 := andi main_v18 main_v22
  let main_c_8 : IVec S_ 32 := constantI S_ 32 0#32
  let main_v24 : IVec S1024 32 := broadcastInDim S1024 ![] bcast_S_S1024 main_c_8
  let main_v25 : IVec S1024 1 := cmpi .sge main_arg4 main_v24
  let main_c_9 : IVec S_ 1 := constantI S_ 1 1#1
  let main_v26 : IVec S_ 1 := (fun x v => Host.reduce IntOp.andi x v reducesTo_S1024_S_d0 h_S_) main_v25 main_c_9
  let main_v27 : IVec S_ 1 := andi main_v23 main_v26
  let main_c_10 : IVec S_ 32 := constantI S_ 32 91#32
  let main_v28 : IVec S1024 32 := broadcastInDim S1024 ![] bcast_S_S1024 main_c_10
  let main_v29 : IVec S1024 1 := cmpi .slt main_arg4 main_v28
  let main_c_11 : IVec S_ 1 := constantI S_ 1 1#1
  let main_v30 : IVec S_ 1 := (fun x v => Host.reduce IntOp.andi x v reducesTo_S1024_S_d0 h_S_) main_v29 main_c_11
  let main_v31 : IVec S_ 1 := andi main_v27 main_v30
  main_v31

def fn {F : FTy → Type} [FloatOps F] (main_arg0 : FVec F S16x900x91 .f32) (main_arg1 : FVec F S16x900x4 .f32) (main_arg2 : FVec F S16x900x2 .f32) (main_arg3 : FVec F S16x900x1 .f32) (main_arg4 : IVec S1024 32) (main_arg5 : FVec F S1024x4 .f32) : IVec S_ 1 :=
  let main_v0 : FVec F S16x900x91 .f32 := Host.absf main_arg0
  let main_cst : FVec F S_ .f32 := constant S_ .f32 0x7F800000#32
  let main_v1 : FVec F S16x900x91 .f32 := broadcastInDim S16x900x91 ![] bcast_S_S16x900x91 main_cst
  let main_v2 : IVec S16x900x91 1 := cmpf .olt main_v0 main_v1
  let main_c : IVec S_ 1 := constantI S_ 1 1#1
  let main_v3 : IVec S_ 1 := (fun x v => Host.reduce IntOp.andi x v reducesTo_S16x900x91_S_d0_1_2 h_S_) main_v2 main_c
  let main_v4 : FVec F S16x900x4 .f32 := Host.absf main_arg1
  let main_cst_0 : FVec F S_ .f32 := constant S_ .f32 0x7F800000#32
  let main_v5 : FVec F S16x900x4 .f32 := broadcastInDim S16x900x4 ![] bcast_S_S16x900x4 main_cst_0
  let main_v6 : IVec S16x900x4 1 := cmpf .olt main_v4 main_v5
  let main_c_1 : IVec S_ 1 := constantI S_ 1 1#1
  let main_v7 : IVec S_ 1 := (fun x v => Host.reduce IntOp.andi x v reducesTo_S16x900x4_S_d0_1_2 h_S_) main_v6 main_c_1
  let main_v8 : IVec S_ 1 := andi main_v3 main_v7
  let main_v9 : FVec F S16x900x2 .f32 := Host.absf main_arg2
  let main_cst_2 : FVec F S_ .f32 := constant S_ .f32 0x7F800000#32
  let main_v10 : FVec F S16x900x2 .f32 := broadcastInDim S16x900x2 ![] bcast_S_S16x900x2 main_cst_2
  let main_v11 : IVec S16x900x2 1 := cmpf .olt main_v9 main_v10
  let main_c_3 : IVec S_ 1 := constantI S_ 1 1#1
  let main_v12 : IVec S_ 1 := (fun x v => Host.reduce IntOp.andi x v reducesTo_S16x900x2_S_d0_1_2 h_S_) main_v11 main_c_3
  let main_v13 : IVec S_ 1 := andi main_v8 main_v12
  let main_v14 : FVec F S16x900x1 .f32 := Host.absf main_arg3
  let main_cst_4 : FVec F S_ .f32 := constant S_ .f32 0x7F800000#32
  let main_v15 : FVec F S16x900x1 .f32 := broadcastInDim S16x900x1 ![] bcast_S_S16x900x1 main_cst_4
  let main_v16 : IVec S16x900x1 1 := cmpf .olt main_v14 main_v15
  fn_part1 (F := F) main_arg4 main_arg5 main_v13 main_v16
-- ==== Kernel.lean ====
abbrev S16x900x91 : Shape := ⟨3, ![16, 900, 91]⟩
abbrev S16x900x4 : Shape := ⟨3, ![16, 900, 4]⟩
abbrev S16x900x2 : Shape := ⟨3, ![16, 900, 2]⟩
abbrev S16x900x1 : Shape := ⟨3, ![16, 900, 1]⟩
abbrev S1024 : Shape := ⟨1, ![1024]⟩
abbrev S1024x4 : Shape := ⟨2, ![1024, 4]⟩
abbrev S14400x91 : Shape := ⟨2, ![14400, 91]⟩
abbrev S14400x4 : Shape := ⟨2, ![14400, 4]⟩
abbrev S14400x2 : Shape := ⟨2, ![14400, 2]⟩
abbrev S14400x1 : Shape := ⟨2, ![14400, 1]⟩
abbrev S1024x1 : Shape := ⟨2, ![1024, 1]⟩
abbrev S_ : Shape := ⟨0, ![]⟩
abbrev S4x1024 : Shape := ⟨2, ![4, 1024]⟩
abbrev S91 : Shape := ⟨1, ![91]⟩
abbrev S91x1 : Shape := ⟨2, ![91, 1]⟩
abbrev S1x1024 : Shape := ⟨2, ![1, 1024]⟩
abbrev S91x1024 : Shape := ⟨2, ![91, 1024]⟩
abbrev S14400x1024 : Shape := ⟨2, ![14400, 1024]⟩
abbrev S480x91 : Shape := ⟨2, ![480, 91]⟩
abbrev S480x4 : Shape := ⟨2, ![480, 4]⟩
abbrev S480x2 : Shape := ⟨2, ![480, 2]⟩
abbrev S480x1 : Shape := ⟨2, ![480, 1]⟩
abbrev S480x1024 : Shape := ⟨2, ![480, 1024]⟩
abbrev S16x900x1024 : Shape := ⟨3, ![16, 900, 1024]⟩

abbrev nBuf : Space → Nat
  | .hbm => 49
  | .vmem => 12
  | .smem => 0
  | _ => 0

abbrev bufTy : (tb : Table) → Fin (tcTables nBuf tb) → BufTy
  | .hbm, ⟨0, _⟩ => ⟨S16x900x91, .f32⟩
  | .hbm, ⟨1, _⟩ => ⟨S16x900x4, .f32⟩
  | .hbm, ⟨2, _⟩ => ⟨S16x900x2, .f32⟩
  | .hbm, ⟨3, _⟩ => ⟨S16x900x1, .f32⟩
  | .hbm, ⟨4, _⟩ => ⟨S1024, .i32⟩
  | .hbm, ⟨5, _⟩ => ⟨S1024x4, .f32⟩
  | .hbm, ⟨6, _⟩ => ⟨S14400x91, .f32⟩
  | .hbm, ⟨7, _⟩ => ⟨S14400x4, .f32⟩
  | .hbm, ⟨8, _⟩ => ⟨S14400x2, .f32⟩
  | .hbm, ⟨9, _⟩ => ⟨S14400x1, .f32⟩
  | .hbm, ⟨10, _⟩ => ⟨S1024x1, .f32⟩
  | .hbm, ⟨11, _⟩ => ⟨S1024, .f32⟩
  | .hbm, ⟨12, _⟩ => ⟨S1024x1, .f32⟩
  | .hbm, ⟨13, _⟩ => ⟨S1024, .f32⟩
  | .hbm, ⟨14, _⟩ => ⟨S1024x1, .f32⟩
  | .hbm, ⟨15, _⟩ => ⟨S1024, .f32⟩
  | .hbm, ⟨16, _⟩ => ⟨S1024x1, .f32⟩
  | .hbm, ⟨17, _⟩ => ⟨S1024, .f32⟩
  | .hbm, ⟨18, _⟩ => ⟨S_, .f32⟩
  | .hbm, ⟨19, _⟩ => ⟨S1024, .f32⟩
  | .hbm, ⟨20, _⟩ => ⟨S1024, .f32⟩
  | .hbm, ⟨21, _⟩ => ⟨S1024, .f32⟩
  | .hbm, ⟨22, _⟩ => ⟨S_, .f32⟩
  | .hbm, ⟨23, _⟩ => ⟨S1024, .f32⟩
  | .hbm, ⟨24, _⟩ => ⟨S1024, .f32⟩
  | .hbm, ⟨25, _⟩ => ⟨S1024, .f32⟩
  | .hbm, ⟨26, _⟩ => ⟨S_, .f32⟩
  | .hbm, ⟨27, _⟩ => ⟨S1024, .f32⟩
  | .hbm, ⟨28, _⟩ => ⟨S1024, .f32⟩
  | .hbm, ⟨29, _⟩ => ⟨S1024, .f32⟩
  | .hbm, ⟨30, _⟩ => ⟨S_, .f32⟩
  | .hbm, ⟨31, _⟩ => ⟨S1024, .f32⟩
  | .hbm, ⟨32, _⟩ => ⟨S1024, .f32⟩
  | .hbm, ⟨33, _⟩ => ⟨S1024, .f32⟩
  | .hbm, ⟨34, _⟩ => ⟨S1024x1, .f32⟩
  | .hbm, ⟨35, _⟩ => ⟨S1024x1, .f32⟩
  | .hbm, ⟨36, _⟩ => ⟨S1024x1, .f32⟩
  | .hbm, ⟨37, _⟩ => ⟨S1024x1, .f32⟩
  | .hbm, ⟨38, _⟩ => ⟨S1024x4, .f32⟩
  | .hbm, ⟨39, _⟩ => ⟨S4x1024, .f32⟩
  | .hbm, ⟨40, _⟩ => ⟨S91, .i32⟩
  | .hbm, ⟨41, _⟩ => ⟨S91x1, .i32⟩
  | .hbm, ⟨42, _⟩ => ⟨S1x1024, .i32⟩
  | .hbm, ⟨43, _⟩ => ⟨S91x1024, .i32⟩
  | .hbm, ⟨44, _⟩ => ⟨S91x1024, .i32⟩
  | .hbm, ⟨45, _⟩ => ⟨S91x1024, .i1⟩
  | .hbm, ⟨46, _⟩ => ⟨S91x1024, .bf16⟩
  | .hbm, ⟨47, _⟩ => ⟨S14400x1024, .f32⟩
  | .hbm, ⟨48, _⟩ => ⟨S16x900x1024, .f32⟩
  | .local _ .vmem, ⟨0, _⟩ => ⟨S480x91, .f32⟩
  | .local _ .vmem, ⟨1, _⟩ => ⟨S480x91, .f32⟩
  | .local _ .vmem, ⟨2, _⟩ => ⟨S480x4, .f32⟩
  | .local _ .vmem, ⟨3, _⟩ => ⟨S480x4, .f32⟩
  | .local _ .vmem, ⟨4, _⟩ => ⟨S480x2, .f32⟩
  | .local _ .vmem, ⟨5, _⟩ => ⟨S480x2, .f32⟩
  | .local _ .vmem, ⟨6, _⟩ => ⟨S480x1, .f32⟩
  | .local _ .vmem, ⟨7, _⟩ => ⟨S480x1, .f32⟩
  | .local _ .vmem, ⟨8, _⟩ => ⟨S4x1024, .f32⟩
  | .local _ .vmem, ⟨9, _⟩ => ⟨S91x1024, .bf16⟩
  | .local _ .vmem, ⟨10, _⟩ => ⟨S480x1024, .f32⟩
  | .local _ .vmem, ⟨11, _⟩ => ⟨S480x1024, .f32⟩
  | _, _ => ⟨S16x900x91, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_0 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_1 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_2 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![30], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S480x91 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S480x4 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S480x2 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S480x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S4x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S91x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S480x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  shapeCasts_S16x900x91_S14400x91 : S16x900x91.ShapeCasts S14400x91
  shapeCasts_S16x900x4_S14400x4 : S16x900x4.ShapeCasts S14400x4
  shapeCasts_S16x900x2_S14400x2 : S16x900x2.ShapeCasts S14400x2
  shapeCasts_S16x900x1_S14400x1 : S16x900x1.ShapeCasts S14400x1
  slices_S1024x4_S1024x1_0_0 : S1024x4.Slices ![0, 0] S1024x1
  shapeCasts_S1024x1_S1024 : S1024x1.ShapeCasts S1024
  slices_S1024x4_S1024x1_0_1 : S1024x4.Slices ![0, 1] S1024x1
  slices_S1024x4_S1024x1_0_2 : S1024x4.Slices ![0, 2] S1024x1
  slices_S1024x4_S1024x1_0_3 : S1024x4.Slices ![0, 3] S1024x1
  bcast_S_S1024 : S_.BroadcastsInDim S1024 (![] : Fin 0 → Fin S1024.rank)
  bcast_S1024_S1024x1_0 : S1024.BroadcastsInDim S1024x1 (![0] : Fin 1 → Fin S1024x1.rank)
  concatenates_S1024x1_S1024x1_S1024x1_S1024x1_S1024x4_d1 : Shape.Concatenates [S1024x1, S1024x1, S1024x1, S1024x1] S1024x4 1
  transposes_S1024x4_S4x1024_1_0 : S1024x4.Transposes [1, 0] S4x1024
  bcast_S91_S91x1_0 : S91.BroadcastsInDim S91x1 (![0] : Fin 1 → Fin S91x1.rank)
  bcast_S1024_S1x1024_1 : S1024.BroadcastsInDim S1x1024 (![1] : Fin 1 → Fin S1x1024.rank)
  bcast_S91x1_S91x1024_0_1 : S91x1.BroadcastsInDim S91x1024 (![0, 1] : Fin 2 → Fin S91x1024.rank)
  bcast_S1x1024_S91x1024_0_1 : S1x1024.BroadcastsInDim S91x1024 (![0, 1] : Fin 2 → Fin S91x1024.rank)
  inb_S480x91_S480x91_0_0 : ∀ a, (![0, 0] : Fin 2 → Nat) a + S480x91.size a ≤ S480x91.size a
  h_S480x91 : 0 < S480x91.numel
  shapeCasts_S480x91_S480x91 : S480x91.ShapeCasts S480x91
  inb_S480x4_S480x4_0_0 : ∀ a, (![0, 0] : Fin 2 → Nat) a + S480x4.size a ≤ S480x4.size a
  h_S480x4 : 0 < S480x4.numel
  shapeCasts_S480x4_S480x4 : S480x4.ShapeCasts S480x4
  inb_S480x2_S480x2_0_0 : ∀ a, (![0, 0] : Fin 2 → Nat) a + S480x2.size a ≤ S480x2.size a
  h_S480x2 : 0 < S480x2.numel
  shapeCasts_S480x2_S480x2 : S480x2.ShapeCasts S480x2
  inb_S480x1_S480x1_0_0 : ∀ a, (![0, 0] : Fin 2 → Nat) a + S480x1.size a ≤ S480x1.size a
  h_S480x1 : 0 < S480x1.numel
  shapeCasts_S480x1_S480x1 : S480x1.ShapeCasts S480x1
  inb_S4x1024_S4x1024_0_0 : ∀ a, (![0, 0] : Fin 2 → Nat) a + S4x1024.size a ≤ S4x1024.size a
  h_S4x1024 : 0 < S4x1024.numel
  shapeCasts_S4x1024_S4x1024 : S4x1024.ShapeCasts S4x1024
  inb_S91x1024_S91x1024_0_0 : ∀ a, (![0, 0] : Fin 2 → Nat) a + S91x1024.size a ≤ S91x1024.size a
  h_S91x1024 : 0 < S91x1024.numel
  shapeCasts_S91x1024_S91x1024 : S91x1024.ShapeCasts S91x1024
  broadcasts_S480x1_S480x91 : S480x1.Broadcasts S480x91
  bitsLt_bf16_f32 : FTy.bits .bf16 < FTy.bits .f32
  slices_S480x4_o0_0_S480x1 : S480x4.Slices ![0, 0] S480x1
  slices_S480x4_o0_1_S480x1 : S480x4.Slices ![0, 1] S480x1
  slices_S480x4_o0_2_S480x1 : S480x4.Slices ![0, 2] S480x1
  slices_S480x4_o0_3_S480x1 : S480x4.Slices ![0, 3] S480x1
  slices_S4x1024_o0_0_S1x1024 : S4x1024.Slices ![0, 0] S1x1024
  slices_S4x1024_o1_0_S1x1024 : S4x1024.Slices ![1, 0] S1x1024
  slices_S4x1024_o2_0_S1x1024 : S4x1024.Slices ![2, 0] S1x1024
  slices_S4x1024_o3_0_S1x1024 : S4x1024.Slices ![3, 0] S1x1024
  broadcasts_S480x1_S480x1024 : S480x1.Broadcasts S480x1024
  broadcasts_S1x1024_S480x1024 : S1x1024.Broadcasts S480x1024
  slices_S480x2_o0_0_S480x1 : S480x2.Slices ![0, 0] S480x1
  slices_S480x2_o0_1_S480x1 : S480x2.Slices ![0, 1] S480x1
  inb_S480x1024_S480x1024_0_0 : ∀ a, (![0, 0] : Fin 2 → Nat) a + S480x1024.size a ≤ S480x1024.size a
  h_S480x1024 : 0 < S480x1024.numel
  shapeCasts_S14400x1024_S16x900x1024 : S14400x1024.ShapeCasts S16x900x1024
  dot_S480x91_S91x1024_S480x1024_1_0_0_1_n_n_wf : DotDims.WF S480x91 S91x1024 S480x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S480x91.size a ≤ S14400x91.size a
  hwx0_0 : ∀ i : grid0.Coords, EltTy.bits .f32 = 32 ∨ (Rect.block (s := S14400x91) S480x91.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S480x4.size a ≤ S14400x4.size a
  hwx0_1 : ∀ i : grid0.Coords, EltTy.bits .f32 = 32 ∨ (Rect.block (s := S14400x4) S480x4.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S480x2.size a ≤ S14400x2.size a
  hwx0_2 : ∀ i : grid0.Coords, EltTy.bits .f32 = 32 ∨ (Rect.block (s := S14400x2) S480x2.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S480x1.size a ≤ S14400x1.size a
  hwx0_3 : ∀ i : grid0.Coords, EltTy.bits .f32 = 32 ∨ (Rect.block (s := S14400x1) S480x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S4x1024.size a ≤ S4x1024.size a
  hwx0_4 : ∀ i : grid0.Coords, EltTy.bits .f32 = 32 ∨ (Rect.block (s := S4x1024) S4x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S91x1024.size a ≤ S91x1024.size a
  hwx0_5 : ∀ i : grid0.Coords, EltTy.bits .bf16 = 32 ∨ (Rect.block (s := S91x1024) S91x1024.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S480x1024.size a ≤ S14400x1024.size a
  hwx0_6 : ∀ i : grid0.Coords, EltTy.bits .f32 = 32 ∨ (Rect.block (s := S14400x1024) S480x1024.size (cc0_transform_6 i) (hinb0_6 i)).WholeWords (EltTy.packing .f32)

variable [Facts₀]

def dot_S480x91_S91x1024_S480x1024_1_0_0_1_n_n : DotDims S480x91 S91x1024 S480x1024 where
  lhsContracting := [1]
  rhsContracting := [0]
  lhsNonContracting := [0]
  rhsNonContracting := [1]
  lhsBatch := []
  rhsBatch := []
  wf := dot_S480x91_S91x1024_S480x1024_1_0_0_1_n_n_wf

abbrev win0_0 : Pipeline.Window sig grid0 :=
  Pipeline.Window.ofSpec (Memref.whole main_v0) S480x91.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S480x4.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S480x2.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S480x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v29) S4x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v36) S91x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v37) S480x1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S16x900x91 : Shape := ⟨3, ![16, 900, 91]⟩
abbrev S16x900x4 : Shape := ⟨3, ![16, 900, 4]⟩
abbrev S16x900x2 : Shape := ⟨3, ![16, 900, 2]⟩
abbrev S16x900x1 : Shape := ⟨3, ![16, 900, 1]⟩
abbrev S1024 : Shape := ⟨1, ![1024]⟩
abbrev S1024x4 : Shape := ⟨2, ![1024, 4]⟩
abbrev S14400x91 : Shape := ⟨2, ![14400, 91]⟩
abbrev S_ : Shape := ⟨0, ![]⟩
abbrev S14400x4 : Shape := ⟨2, ![14400, 4]⟩
abbrev S14400x2 : Shape := ⟨2, ![14400, 2]⟩
abbrev S14400x1 : Shape := ⟨2, ![14400, 1]⟩
abbrev S1024x1 : Shape := ⟨2, ![1024, 1]⟩
abbrev S1 : Shape := ⟨1, ![1]⟩
abbrev S1x1 : Shape := ⟨2, ![1, 1]⟩
abbrev S14400x1024 : Shape := ⟨2, ![14400, 1024]⟩
abbrev S14400 : Shape := ⟨1, ![14400]⟩
abbrev S14400x1x4 : Shape := ⟨3, ![14400, 1, 4]⟩
abbrev S1x1024x4 : Shape := ⟨3, ![1, 1024, 4]⟩
abbrev S14400x1024x4 : Shape := ⟨3, ![14400, 1024, 4]⟩
abbrev S14400x1x2 : Shape := ⟨3, ![14400, 1, 2]⟩
abbrev S1024x2 : Shape := ⟨2, ![1024, 2]⟩
abbrev S1x1024x2 : Shape := ⟨3, ![1, 1024, 2]⟩
abbrev S14400x1024x2 : Shape := ⟨3, ![14400, 1024, 2]⟩
abbrev S14400x1024x1 : Shape := ⟨3, ![14400, 1024, 1]⟩
abbrev S1x1024 : Shape := ⟨2, ![1, 1024]⟩
abbrev S16x900x1024 : Shape := ⟨3, ![16, 900, 1024]⟩

abbrev nBuf : Space → Nat
  | .hbm => 314
  | .vmem => 0
  | .smem => 0
  | _ => 0

abbrev hbmTy0_0 (i : Nat) : BufTy := match i % 128 with
  | 0 => ⟨S16x900x91, .f32⟩
  | 1 => ⟨S16x900x4, .f32⟩
  | 2 => ⟨S16x900x2, .f32⟩
  | 3 => ⟨S16x900x1, .f32⟩
  | 4 => ⟨S1024, .i32⟩
  | 5 => ⟨S1024x4, .f32⟩
  | 6 => ⟨S14400x91, .f32⟩
  | 7 => ⟨S14400x91, .f32⟩
  | 8 => ⟨S14400x91, .f32⟩
  | 9 => ⟨S_, .f32⟩
  | 10 => ⟨S14400x91, .f32⟩
  | 11 => ⟨S14400x91, .f32⟩
  | 12 => ⟨S_, .f32⟩
  | 13 => ⟨S14400x91, .f32⟩
  | 14 => ⟨S14400x91, .f32⟩
  | 15 => ⟨S14400x4, .f32⟩
  | 16 => ⟨S14400x2, .f32⟩
  | 17 => ⟨S14400x1, .f32⟩
  | 18 => ⟨S14400x1, .f32⟩
  | 19 => ⟨S14400x1, .f32⟩
  | 20 => ⟨S_, .f32⟩
  | 21 => ⟨S14400x1, .f32⟩
  | 22 => ⟨S14400x1, .f32⟩
  | 23 => ⟨S_, .f32⟩
  | 24 => ⟨S14400x1, .f32⟩
  | 25 => ⟨S14400x1, .f32⟩
  | 26 => ⟨S14400x91, .f32⟩
  | 27 => ⟨S14400x91, .f32⟩
  | 28 => ⟨S_, .f32⟩
  | 29 => ⟨S14400x91, .f32⟩
  | 30 => ⟨S14400x91, .f32⟩
  | 31 => ⟨S_, .f32⟩
  | 32 => ⟨S14400x91, .f32⟩
  | 33 => ⟨S14400x91, .f32⟩
  | 34 => ⟨S_, .f32⟩
  | 35 => ⟨S14400x91, .f32⟩
  | 36 => ⟨S14400x91, .f32⟩
  | 37 => ⟨S_, .f32⟩
  | 38 => ⟨S14400x91, .f32⟩
  | 39 => ⟨S14400x91, .f32⟩
  | 40 => ⟨S14400x91, .f32⟩
  | 41 => ⟨S14400x91, .f32⟩
  | 42 => ⟨S14400x91, .f32⟩
  | 43 => ⟨S_, .f32⟩
  | 44 => ⟨S14400x91, .f32⟩
  | 45 => ⟨S14400x91, .f32⟩
  | 46 => ⟨S_, .f32⟩
  | 47 => ⟨S14400x91, .f32⟩
  | 48 => ⟨S14400x91, .f32⟩
  | 49 => ⟨S_, .f32⟩
  | 50 => ⟨S14400x91, .f32⟩
  | 51 => ⟨S14400x91, .f32⟩
  | 52 => ⟨S_, .f32⟩
  | 53 => ⟨S14400x91, .f32⟩
  | 54 => ⟨S14400x91, .f32⟩
  | 55 => ⟨S14400x91, .f32⟩
  | 56 => ⟨S14400x91, .f32⟩
  | 57 => ⟨S14400x91, .f32⟩
  | 58 => ⟨S_, .i32⟩
  | 59 => ⟨S1024, .i32⟩
  | 60 => ⟨S1024, .i1⟩
  | 61 => ⟨S_, .i32⟩
  | 62 => ⟨S1024, .i32⟩
  | 63 => ⟨S1024, .i32⟩
  | 64 => ⟨S1024, .i32⟩
  | 65 => ⟨S1024x1, .i32⟩
  | 66 => ⟨S1, .i32⟩
  | 67 => ⟨S_, .i32⟩
  | 68 => ⟨S1024x1, .i32⟩
  | 69 => ⟨S1024x1, .i1⟩
  | 70 => ⟨S1x1, .i32⟩
  | 71 => ⟨S1024x1, .i32⟩
  | 72 => ⟨S1024x1, .i1⟩
  | 73 => ⟨S1024x1, .i1⟩
  | 74 => ⟨S_, .i1⟩
  | 75 => ⟨S1024, .i1⟩
  | 76 => ⟨S14400x1024, .f32⟩
  | 77 => ⟨S14400x1024, .i1⟩
  | 78 => ⟨S_, .f32⟩
  | 79 => ⟨S14400x1024, .f32⟩
  | 80 => ⟨S14400x1024, .f32⟩
  | 81 => ⟨S_, .i32⟩
  | 82 => ⟨S1024, .i32⟩
  | 83 => ⟨S1024, .i1⟩
  | 84 => ⟨S_, .i32⟩
  | 85 => ⟨S1024, .i32⟩
  | 86 => ⟨S1024, .i32⟩
  | 87 => ⟨S1024, .i32⟩
  | 88 => ⟨S1024x1, .i32⟩
  | 89 => ⟨S1, .i32⟩
  | 90 => ⟨S_, .i32⟩
  | 91 => ⟨S1024x1, .i32⟩
  | 92 => ⟨S1024x1, .i1⟩
  | 93 => ⟨S1x1, .i32⟩
  | 94 => ⟨S1024x1, .i32⟩
  | 95 => ⟨S1024x1, .i1⟩
  | 96 => ⟨S1024x1, .i1⟩
  | 97 => ⟨S_, .i1⟩
  | 98 => ⟨S1024, .i1⟩
  | 99 => ⟨S14400x1024, .f32⟩
  | 100 => ⟨S14400x1024, .i1⟩
  | 101 => ⟨S_, .f32⟩
  | 102 => ⟨S14400x1024, .f32⟩
  | 103 => ⟨S14400x1024, .f32⟩
  | 104 => ⟨S14400x1024, .f32⟩
  | 105 => ⟨S14400x1, .f32⟩
  | 106 => ⟨S14400, .f32⟩
  | 107 => ⟨S14400x1, .f32⟩
  | 108 => ⟨S14400, .f32⟩
  | 109 => ⟨S14400x1, .f32⟩
  | 110 => ⟨S14400, .f32⟩
  | 111 => ⟨S14400x1, .f32⟩
  | 112 => ⟨S14400, .f32⟩
  | 113 => ⟨S_, .f32⟩
  | 114 => ⟨S14400, .f32⟩
  | 115 => ⟨S14400, .f32⟩
  | 116 => ⟨S14400, .f32⟩
  | 117 => ⟨S_, .f32⟩
  | 118 => ⟨S14400, .f32⟩
  | 119 => ⟨S14400, .f32⟩
  | 120 => ⟨S14400, .f32⟩
  | 121 => ⟨S_, .f32⟩
  | 122 => ⟨S14400, .f32⟩
  | 123 => ⟨S14400, .f32⟩
  | 124 => ⟨S14400, .f32⟩
  | 125 => ⟨S_, .f32⟩
  | 126 => ⟨S14400, .f32⟩
  | 127 => ⟨S14400, .f32⟩
  | _ => ⟨S16x900x91, .f32⟩

abbrev hbmTy0_1 (i : Nat) : BufTy := match i % 128 with
  | 0 => ⟨S14400, .f32⟩
  | 1 => ⟨S14400x1, .f32⟩
  | 2 => ⟨S14400x1, .f32⟩
  | 3 => ⟨S14400x1, .f32⟩
  | 4 => ⟨S14400x1, .f32⟩
  | 5 => ⟨S14400x4, .f32⟩
  | 6 => ⟨S1024x1, .f32⟩
  | 7 => ⟨S1024, .f32⟩
  | 8 => ⟨S1024x1, .f32⟩
  | 9 => ⟨S1024, .f32⟩
  | 10 => ⟨S1024x1, .f32⟩
  | 11 => ⟨S1024, .f32⟩
  | 12 => ⟨S1024x1, .f32⟩
  | 13 => ⟨S1024, .f32⟩
  | 14 => ⟨S_, .f32⟩
  | 15 => ⟨S1024, .f32⟩
  | 16 => ⟨S1024, .f32⟩
  | 17 => ⟨S1024, .f32⟩
  | 18 => ⟨S_, .f32⟩
  | 19 => ⟨S1024, .f32⟩
  | 20 => ⟨S1024, .f32⟩
  | 21 => ⟨S1024, .f32⟩
  | 22 => ⟨S_, .f32⟩
  | 23 => ⟨S1024, .f32⟩
  | 24 => ⟨S1024, .f32⟩
  | 25 => ⟨S1024, .f32⟩
  | 26 => ⟨S_, .f32⟩
  | 27 => ⟨S1024, .f32⟩
  | 28 => ⟨S1024, .f32⟩
  | 29 => ⟨S1024, .f32⟩
  | 30 => ⟨S1024x1, .f32⟩
  | 31 => ⟨S1024x1, .f32⟩
  | 32 => ⟨S1024x1, .f32⟩
  | 33 => ⟨S1024x1, .f32⟩
  | 34 => ⟨S1024x4, .f32⟩
  | 35 => ⟨S14400x1x4, .f32⟩
  | 36 => ⟨S1x1024x4, .f32⟩
  | 37 => ⟨S14400x1024x4, .f32⟩
  | 38 => ⟨S14400x1024x4, .f32⟩
  | 39 => ⟨S14400x1024x4, .f32⟩
  | 40 => ⟨S14400x1024x4, .f32⟩
  | 41 => ⟨S_, .f32⟩
  | 42 => ⟨S14400x1024, .f32⟩
  | 43 => ⟨S14400x1, .f32⟩
  | 44 => ⟨S14400, .f32⟩
  | 45 => ⟨S14400x1, .f32⟩
  | 46 => ⟨S14400, .f32⟩
  | 47 => ⟨S14400, .f32⟩
  | 48 => ⟨S14400x1, .f32⟩
  | 49 => ⟨S14400, .f32⟩
  | 50 => ⟨S14400x1, .f32⟩
  | 51 => ⟨S14400, .f32⟩
  | 52 => ⟨S14400, .f32⟩
  | 53 => ⟨S14400, .f32⟩
  | 54 => ⟨S1024x1, .f32⟩
  | 55 => ⟨S1024, .f32⟩
  | 56 => ⟨S1024x1, .f32⟩
  | 57 => ⟨S1024, .f32⟩
  | 58 => ⟨S1024, .f32⟩
  | 59 => ⟨S1024x1, .f32⟩
  | 60 => ⟨S1024, .f32⟩
  | 61 => ⟨S1024x1, .f32⟩
  | 62 => ⟨S1024, .f32⟩
  | 63 => ⟨S1024, .f32⟩
  | 64 => ⟨S1024, .f32⟩
  | 65 => ⟨S14400x2, .f32⟩
  | 66 => ⟨S14400x1x2, .f32⟩
  | 67 => ⟨S1024x2, .f32⟩
  | 68 => ⟨S1x1024x2, .f32⟩
  | 69 => ⟨S14400x1024x2, .f32⟩
  | 70 => ⟨S14400x1024x2, .f32⟩
  | 71 => ⟨S14400x1024x2, .f32⟩
  | 72 => ⟨S14400x2, .f32⟩
  | 73 => ⟨S14400x1x2, .f32⟩
  | 74 => ⟨S1024x2, .f32⟩
  | 75 => ⟨S1x1024x2, .f32⟩
  | 76 => ⟨S14400x1024x2, .f32⟩
  | 77 => ⟨S14400x1024x2, .f32⟩
  | 78 => ⟨S14400x1024x2, .f32⟩
  | 79 => ⟨S14400x1024x2, .f32⟩
  | 80 => ⟨S_, .f32⟩
  | 81 => ⟨S_, .f32⟩
  | 82 => ⟨S14400x1024x2, .f32⟩
  | 83 => ⟨S14400x1024x2, .f32⟩
  | 84 => ⟨S14400x1024x1, .f32⟩
  | 85 => ⟨S14400x1024, .f32⟩
  | 86 => ⟨S14400x1024x1, .f32⟩
  | 87 => ⟨S14400x1024, .f32⟩
  | 88 => ⟨S14400x1024, .f32⟩
  | 89 => ⟨S14400x1, .f32⟩
  | 90 => ⟨S1x1024, .f32⟩
  | 91 => ⟨S14400x1024, .f32⟩
  | 92 => ⟨S14400x1024, .f32⟩
  | 93 => ⟨S14400x1024, .f32⟩
  | 94 => ⟨S14400x1024, .f32⟩
  | 95 => ⟨S14400x1024, .f32⟩
  | 96 => ⟨S14400x2, .f32⟩
  | 97 => ⟨S14400x1x2, .f32⟩
  | 98 => ⟨S1024x2, .f32⟩
  | 99 => ⟨S1x1024x2, .f32⟩
  | 100 => ⟨S14400x1024x2, .f32⟩
  | 101 => ⟨S14400x1024x2, .f32⟩
  | 102 => ⟨S14400x1024x2, .f32⟩
  | 103 => ⟨S14400x2, .f32⟩
  | 104 => ⟨S14400x1x2, .f32⟩
  | 105 => ⟨S1024x2, .f32⟩
  | 106 => ⟨S1x1024x2, .f32⟩
  | 107 => ⟨S14400x1024x2, .f32⟩
  | 108 => ⟨S14400x1024x2, .f32⟩
  | 109 => ⟨S14400x1024x2, .f32⟩
  | 110 => ⟨S14400x1024x2, .f32⟩
  | 111 => ⟨S_, .f32⟩
  | 112 => ⟨S_, .f32⟩
  | 113 => ⟨S14400x1024x2, .f32⟩
  | 114 => ⟨S14400x1024x2, .f32⟩
  | 115 => ⟨S14400x1024x1, .f32⟩
  | 116 => ⟨S14400x1024, .f32⟩
  | 117 => ⟨S14400x1024x1, .f32⟩
  | 118 => ⟨S14400x1024, .f32⟩
  | 119 => ⟨S14400x1024, .f32⟩
  | 120 => ⟨S14400x1024, .f32⟩
  | 121 => ⟨S14400x1024, .f32⟩
  | 122 => ⟨S14400x1024, .f32⟩
  | 123 => ⟨S14400x1024, .f32⟩
  | 124 => ⟨S14400x1, .f32⟩
  | 125 => ⟨S14400, .f32⟩
  | 126 => ⟨S14400x1, .f32⟩
  | 127 => ⟨S1024x1, .f32⟩
  | _ => ⟨S16x900x91, .f32⟩

abbrev hbmTy0_2 (i : Nat) : BufTy := match i % 128 with
  | 0 => ⟨S1024, .f32⟩
  | 1 => ⟨S1x1024, .f32⟩
  | 2 => ⟨S14400x1024, .f32⟩
  | 3 => ⟨S14400x1024, .f32⟩
  | 4 => ⟨S14400x1024, .f32⟩
  | 5 => ⟨S14400x1, .f32⟩
  | 6 => ⟨S14400, .f32⟩
  | 7 => ⟨S14400x1, .f32⟩
  | 8 => ⟨S1024x1, .f32⟩
  | 9 => ⟨S1024, .f32⟩
  | 10 => ⟨S1x1024, .f32⟩
  | 11 => ⟨S14400x1024, .f32⟩
  | 12 => ⟨S14400x1024, .f32⟩
  | 13 => ⟨S14400x1024, .f32⟩
  | 14 => ⟨S1024x1, .f32⟩
  | 15 => ⟨S1024, .f32⟩
  | 16 => ⟨S1x1024, .f32⟩
  | 17 => ⟨S14400x1, .f32⟩
  | 18 => ⟨S14400, .f32⟩
  | 19 => ⟨S14400x1, .f32⟩
  | 20 => ⟨S14400x1024, .f32⟩
  | 21 => ⟨S14400x1024, .f32⟩
  | 22 => ⟨S14400x1024, .f32⟩
  | 23 => ⟨S1024x1, .f32⟩
  | 24 => ⟨S1024, .f32⟩
  | 25 => ⟨S1x1024, .f32⟩
  | 26 => ⟨S14400x1, .f32⟩
  | 27 => ⟨S14400, .f32⟩
  | 28 => ⟨S14400x1, .f32⟩
  | 29 => ⟨S14400x1024, .f32⟩
  | 30 => ⟨S14400x1024, .f32⟩
  | 31 => ⟨S14400x1024, .f32⟩
  | 32 => ⟨S14400x1024, .f32⟩
  | 33 => ⟨S14400x1024, .f32⟩
  | 34 => ⟨S14400x1024, .f32⟩
  | 35 => ⟨S_, .f32⟩
  | 36 => ⟨S14400x1024, .f32⟩
  | 37 => ⟨S14400x1024, .i1⟩
  | 38 => ⟨S14400x1024, .f32⟩
  | 39 => ⟨S_, .f32⟩
  | 40 => ⟨S14400x1024, .f32⟩
  | 41 => ⟨S14400x1024, .f32⟩
  | 42 => ⟨S_, .f32⟩
  | 43 => ⟨S14400x1024, .f32⟩
  | 44 => ⟨S14400x1024, .f32⟩
  | 45 => ⟨S_, .f32⟩
  | 46 => ⟨S14400x1024, .f32⟩
  | 47 => ⟨S14400x1024, .f32⟩
  | 48 => ⟨S14400x1024, .f32⟩
  | 49 => ⟨S_, .f32⟩
  | 50 => ⟨S14400x1024, .f32⟩
  | 51 => ⟨S14400x1024, .f32⟩
  | 52 => ⟨S14400x1024, .f32⟩
  | 53 => ⟨S_, .f32⟩
  | 54 => ⟨S14400x1024, .f32⟩
  | 55 => ⟨S14400x1024, .f32⟩
  | 56 => ⟨S14400x1024, .f32⟩
  | 57 => ⟨S16x900x1024, .f32⟩
  | _ => ⟨S16x900x91, .f32⟩

abbrev hbmTy (i : Nat) : BufTy := match i / 128 with
  | 0 => hbmTy0_0 i
  | 1 => hbmTy0_1 i
  | 2 => hbmTy0_2 i
  | _ => ⟨S16x900x91, .f32⟩

abbrev bufTy : (tb : Table) → Fin (tcTables nBuf tb) → BufTy
  | .hbm, ⟨i, _⟩ => hbmTy i
  | _, _ => ⟨S16x900x91, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_cst_4 : Ref sig .tc := ⟨.hbm, 31, rfl⟩
abbrev main_v20 : Ref sig .tc := ⟨.hbm, 32, rfl⟩
abbrev main_v21 : Ref sig .tc := ⟨.hbm, 33, rfl⟩
abbrev main_cst_5 : Ref sig .tc := ⟨.hbm, 34, rfl⟩
abbrev main_v22 : Ref sig .tc := ⟨.hbm, 35, rfl⟩
abbrev main_v23 : Ref sig .tc := ⟨.hbm, 36, rfl⟩
abbrev main_cst_6 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_7 : Ref sig .tc := ⟨.hbm, 43, rfl⟩
abbrev main_v29 : Ref sig .tc := ⟨.hbm, 44, rfl⟩
abbrev main_v30 : Ref sig .tc := ⟨.hbm, 45, rfl⟩
abbrev main_cst_8 : Ref sig .tc := ⟨.hbm, 46, rfl⟩
abbrev main_v31 : Ref sig .tc := ⟨.hbm, 47, rfl⟩
abbrev main_v32 : Ref sig .tc := ⟨.hbm, 48, rfl⟩
abbrev main_cst_9 : Ref sig .tc := ⟨.hbm, 49, rfl⟩
abbrev main_v33 : Ref sig .tc := ⟨.hbm, 50, rfl⟩
abbrev main_v34 : Ref sig .tc := ⟨.hbm, 51, rfl⟩
abbrev main_cst_10 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_call0_c : Ref sig .tc := ⟨.hbm, 58, rfl⟩
abbrev main_call0_v0 : Ref sig .tc := ⟨.hbm, 59, rfl⟩
abbrev main_call0_v1 : Ref sig .tc := ⟨.hbm, 60, rfl⟩
abbrev main_call0_c_0 : Ref sig .tc := ⟨.hbm, 61, rfl⟩
abbrev main_call0_v2 : Ref sig .tc := ⟨.hbm, 62, rfl⟩
abbrev main_call0_v3 : Ref sig .tc := ⟨.hbm, 63, rfl⟩
abbrev main_call0_v4 : Ref sig .tc := ⟨.hbm, 64, rfl⟩
abbrev main_call0_v5 : Ref sig .tc := ⟨.hbm, 65, rfl⟩
abbrev main_call0_c_1 : Ref sig .tc := ⟨.hbm, 66, rfl⟩
abbrev main_call0_c_2 : Ref sig .tc := ⟨.hbm, 67, rfl⟩
abbrev main_call0_v6 : Ref sig .tc := ⟨.hbm, 68, rfl⟩
abbrev main_call0_v7 : Ref sig .tc := ⟨.hbm, 69, rfl⟩
abbrev main_call0_v8 : Ref sig .tc := ⟨.hbm, 70, rfl⟩
abbrev main_call0_v9 : Ref sig .tc := ⟨.hbm, 71, rfl⟩
abbrev main_call0_v10 : Ref sig .tc := ⟨.hbm, 72, rfl⟩
abbrev main_call0_v11 : Ref sig .tc := ⟨.hbm, 73, rfl⟩
abbrev main_call0_c_3 : Ref sig .tc := ⟨.hbm, 74, rfl⟩
abbrev main_call0_v12 : Ref sig .tc := ⟨.hbm, 75, rfl⟩
abbrev main_call0_v13 : Ref sig .tc := ⟨.hbm, 76, rfl⟩
abbrev main_call0_v14 : Ref sig .tc := ⟨.hbm, 77, rfl⟩
abbrev main_call0_cst : Ref sig .tc := ⟨.hbm, 78, rfl⟩
abbrev main_call0_v15 : Ref sig .tc := ⟨.hbm, 79, rfl⟩
abbrev main_v40 : Ref sig .tc := ⟨.hbm, 80, rfl⟩
abbrev main_call1_c : Ref sig .tc := ⟨.hbm, 81, rfl⟩
abbrev main_call1_v0 : Ref sig .tc := ⟨.hbm, 82, rfl⟩
abbrev main_call1_v1 : Ref sig .tc := ⟨.hbm, 83, rfl⟩
abbrev main_call1_c_0 : Ref sig .tc := ⟨.hbm, 84, rfl⟩
abbrev main_call1_v2 : Ref sig .tc := ⟨.hbm, 85, rfl⟩
abbrev main_call1_v3 : Ref sig .tc := ⟨.hbm, 86, rfl⟩
abbrev main_call1_v4 : Ref sig .tc := ⟨.hbm, 87, rfl⟩
abbrev main_call1_v5 : Ref sig .tc := ⟨.hbm, 88, rfl⟩
abbrev main_call1_c_1 : Ref sig .tc := ⟨.hbm, 89, rfl⟩
abbrev main_call1_c_2 : Ref sig .tc := ⟨.hbm, 90, rfl⟩
abbrev main_call1_v6 : Ref sig .tc := ⟨.hbm, 91, rfl⟩
abbrev main_call1_v7 : Ref sig .tc := ⟨.hbm, 92, rfl⟩
abbrev main_call1_v8 : Ref sig .tc := ⟨.hbm, 93, rfl⟩
abbrev main_call1_v9 : Ref sig .tc := ⟨.hbm, 94, rfl⟩
abbrev main_call1_v10 : Ref sig .tc := ⟨.hbm, 95, rfl⟩
abbrev main_call1_v11 : Ref sig .tc := ⟨.hbm, 96, rfl⟩
abbrev main_call1_c_3 : Ref sig .tc := ⟨.hbm, 97, rfl⟩
abbrev main_call1_v12 : Ref sig .tc := ⟨.hbm, 98, rfl⟩
abbrev main_call1_v13 : Ref sig .tc := ⟨.hbm, 99, rfl⟩
abbrev main_call1_v14 : Ref sig .tc := ⟨.hbm, 100, rfl⟩
abbrev main_call1_cst : Ref sig .tc := ⟨.hbm, 101, rfl⟩
abbrev main_call1_v15 : Ref sig .tc := ⟨.hbm, 102, rfl⟩
abbrev main_v41 : Ref sig .tc := ⟨.hbm, 103, rfl⟩
abbrev main_v42 : Ref sig .tc := ⟨.hbm, 104, rfl⟩
abbrev main_v43 : Ref sig .tc := ⟨.hbm, 105, rfl⟩
abbrev main_v44 : Ref sig .tc := ⟨.hbm, 106, rfl⟩
abbrev main_v45 : Ref sig .tc := ⟨.hbm, 107, rfl⟩
abbrev main_v46 : Ref sig .tc := ⟨.hbm, 108, rfl⟩
abbrev main_v47 : Ref sig .tc := ⟨.hbm, 109, rfl⟩
abbrev main_v48 : Ref sig .tc := ⟨.hbm, 110, rfl⟩
abbrev main_v49 : Ref sig .tc := ⟨.hbm, 111, rfl⟩
abbrev main_v50 : Ref sig .tc := ⟨.hbm, 112, rfl⟩
abbrev main_cst_11 : Ref sig .tc := ⟨.hbm, 113, rfl⟩
abbrev main_v51 : Ref sig .tc := ⟨.hbm, 114, rfl⟩
abbrev main_v52 : Ref sig .tc := ⟨.hbm, 115, rfl⟩
abbrev main_v53 : Ref sig .tc := ⟨.hbm, 116, rfl⟩
abbrev main_cst_12 : Ref sig .tc := ⟨.hbm, 117, rfl⟩
abbrev main_v54 : Ref sig .tc := ⟨.hbm, 118, rfl⟩
abbrev main_v55 : Ref sig .tc := ⟨.hbm, 119, rfl⟩
abbrev main_v56 : Ref sig .tc := ⟨.hbm, 120, rfl⟩
abbrev main_cst_13 : Ref sig .tc := ⟨.hbm, 121, rfl⟩
abbrev main_v57 : Ref sig .tc := ⟨.hbm, 122, rfl⟩
abbrev main_v58 : Ref sig .tc := ⟨.hbm, 123, rfl⟩
abbrev main_v59 : Ref sig .tc := ⟨.hbm, 124, rfl⟩
abbrev main_cst_14 : Ref sig .tc := ⟨.hbm, 125, rfl⟩
abbrev main_v60 : Ref sig .tc := ⟨.hbm, 126, rfl⟩
abbrev main_v61 : Ref sig .tc := ⟨.hbm, 127, rfl⟩
abbrev main_v62 : Ref sig .tc := ⟨.hbm, 128, rfl⟩
abbrev main_v63 : Ref sig .tc := ⟨.hbm, 129, rfl⟩
abbrev main_v64 : Ref sig .tc := ⟨.hbm, 130, rfl⟩
abbrev main_v65 : Ref sig .tc := ⟨.hbm, 131, rfl⟩
abbrev main_v66 : Ref sig .tc := ⟨.hbm, 132, rfl⟩
abbrev main_v67 : Ref sig .tc := ⟨.hbm, 133, rfl⟩
abbrev main_v68 : Ref sig .tc := ⟨.hbm, 134, rfl⟩
abbrev main_v69 : Ref sig .tc := ⟨.hbm, 135, rfl⟩
abbrev main_v70 : Ref sig .tc := ⟨.hbm, 136, rfl⟩
abbrev main_v71 : Ref sig .tc := ⟨.hbm, 137, rfl⟩
abbrev main_v72 : Ref sig .tc := ⟨.hbm, 138, rfl⟩
abbrev main_v73 : Ref sig .tc := ⟨.hbm, 139, rfl⟩
abbrev main_v74 : Ref sig .tc := ⟨.hbm, 140, rfl⟩
abbrev main_v75 : Ref sig .tc := ⟨.hbm, 141, rfl⟩
abbrev main_cst_15 : Ref sig .tc := ⟨.hbm, 142, rfl⟩
abbrev main_v76 : Ref sig .tc := ⟨.hbm, 143, rfl⟩
abbrev main_v77 : Ref sig .tc := ⟨.hbm, 144, rfl⟩
abbrev main_v78 : Ref sig .tc := ⟨.hbm, 145, rfl⟩
abbrev main_cst_16 : Ref sig .tc := ⟨.hbm, 146, rfl⟩
abbrev main_v79 : Ref sig .tc := ⟨.hbm, 147, rfl⟩
abbrev main_v80 : Ref sig .tc := ⟨.hbm, 148, rfl⟩
abbrev main_v81 : Ref sig .tc := ⟨.hbm, 149, rfl⟩
abbrev main_cst_17 : Ref sig .tc := ⟨.hbm, 150, rfl⟩
abbrev main_v82 : Ref sig .tc := ⟨.hbm, 151, rfl⟩
abbrev main_v83 : Ref sig .tc := ⟨.hbm, 152, rfl⟩
abbrev main_v84 : Ref sig .tc := ⟨.hbm, 153, rfl⟩
abbrev main_cst_18 : Ref sig .tc := ⟨.hbm, 154, rfl⟩
abbrev main_v85 : Ref sig .tc := ⟨.hbm, 155, rfl⟩
abbrev main_v86 : Ref sig .tc := ⟨.hbm, 156, rfl⟩
abbrev main_v87 : Ref sig .tc := ⟨.hbm, 157, rfl⟩
abbrev main_v88 : Ref sig .tc := ⟨.hbm, 158, rfl⟩
abbrev main_v89 : Ref sig .tc := ⟨.hbm, 159, rfl⟩
abbrev main_v90 : Ref sig .tc := ⟨.hbm, 160, rfl⟩
abbrev main_v91 : Ref sig .tc := ⟨.hbm, 161, rfl⟩
abbrev main_v92 : Ref sig .tc := ⟨.hbm, 162, rfl⟩
abbrev main_v93 : Ref sig .tc := ⟨.hbm, 163, rfl⟩
abbrev main_v94 : Ref sig .tc := ⟨.hbm, 164, rfl⟩
abbrev main_v95 : Ref sig .tc := ⟨.hbm, 165, rfl⟩
abbrev main_v96 : Ref sig .tc := ⟨.hbm, 166, rfl⟩
abbrev main_v97 : Ref sig .tc := ⟨.hbm, 167, rfl⟩
abbrev main_v98 : Ref sig .tc := ⟨.hbm, 168, rfl⟩
abbrev main_cst_19 : Ref sig .tc := ⟨.hbm, 169, rfl⟩
abbrev main_v99 : Ref sig .tc := ⟨.hbm, 170, rfl⟩
abbrev main_v100 : Ref sig .tc := ⟨.hbm, 171, rfl⟩
abbrev main_v101 : Ref sig .tc := ⟨.hbm, 172, rfl⟩
abbrev main_v102 : Ref sig .tc := ⟨.hbm, 173, rfl⟩
abbrev main_v103 : Ref sig .tc := ⟨.hbm, 174, rfl⟩
abbrev main_v104 : Ref sig .tc := ⟨.hbm, 175, rfl⟩
abbrev main_v105 : Ref sig .tc := ⟨.hbm, 176, rfl⟩
abbrev main_v106 : Ref sig .tc := ⟨.hbm, 177, rfl⟩
abbrev main_v107 : Ref sig .tc := ⟨.hbm, 178, rfl⟩
abbrev main_v108 : Ref sig .tc := ⟨.hbm, 179, rfl⟩
abbrev main_v109 : Ref sig .tc := ⟨.hbm, 180, rfl⟩
abbrev main_v110 : Ref sig .tc := ⟨.hbm, 181, rfl⟩
abbrev main_v111 : Ref sig .tc := ⟨.hbm, 182, rfl⟩
abbrev main_v112 : Ref sig .tc := ⟨.hbm, 183, rfl⟩
abbrev main_v113 : Ref sig .tc := ⟨.hbm, 184, rfl⟩
abbrev main_v114 : Ref sig .tc := ⟨.hbm, 185, rfl⟩
abbrev main_v115 : Ref sig .tc := ⟨.hbm, 186, rfl⟩
abbrev main_v116 : Ref sig .tc := ⟨.hbm, 187, rfl⟩
abbrev main_v117 : Ref sig .tc := ⟨.hbm, 188, rfl⟩
abbrev main_v118 : Ref sig .tc := ⟨.hbm, 189, rfl⟩
abbrev main_v119 : Ref sig .tc := ⟨.hbm, 190, rfl⟩
abbrev main_v120 : Ref sig .tc := ⟨.hbm, 191, rfl⟩
abbrev main_v121 : Ref sig .tc := ⟨.hbm, 192, rfl⟩
abbrev main_v122 : Ref sig .tc := ⟨.hbm, 193, rfl⟩
abbrev main_v123 : Ref sig .tc := ⟨.hbm, 194, rfl⟩
abbrev main_v124 : Ref sig .tc := ⟨.hbm, 195, rfl⟩
abbrev main_v125 : Ref sig .tc := ⟨.hbm, 196, rfl⟩
abbrev main_v126 : Ref sig .tc := ⟨.hbm, 197, rfl⟩
abbrev main_v127 : Ref sig .tc := ⟨.hbm, 198, rfl⟩
abbrev main_v128 : Ref sig .tc := ⟨.hbm, 199, rfl⟩
abbrev main_v129 : Ref sig .tc := ⟨.hbm, 200, rfl⟩
abbrev main_v130 : Ref sig .tc := ⟨.hbm, 201, rfl⟩
abbrev main_v131 : Ref sig .tc := ⟨.hbm, 202, rfl⟩
abbrev main_v132 : Ref sig .tc := ⟨.hbm, 203, rfl⟩
abbrev main_v133 : Ref sig .tc := ⟨.hbm, 204, rfl⟩
abbrev main_v134 : Ref sig .tc := ⟨.hbm, 205, rfl⟩
abbrev main_v135 : Ref sig .tc := ⟨.hbm, 206, rfl⟩
abbrev main_v136 : Ref sig .tc := ⟨.hbm, 207, rfl⟩
abbrev main_cst_20 : Ref sig .tc := ⟨.hbm, 208, rfl⟩
abbrev main_call2_v0 : Ref sig .tc := ⟨.hbm, 209, rfl⟩
abbrev main_call2_v1 : Ref sig .tc := ⟨.hbm, 210, rfl⟩
abbrev main_v137 : Ref sig .tc := ⟨.hbm, 211, rfl⟩
abbrev main_v138 : Ref sig .tc := ⟨.hbm, 212, rfl⟩
abbrev main_v139 : Ref sig .tc := ⟨.hbm, 213, rfl⟩
abbrev main_v140 : Ref sig .tc := ⟨.hbm, 214, rfl⟩
abbrev main_v141 : Ref sig .tc := ⟨.hbm, 215, rfl⟩
abbrev main_v142 : Ref sig .tc := ⟨.hbm, 216, rfl⟩
abbrev main_v143 : Ref sig .tc := ⟨.hbm, 217, rfl⟩
abbrev main_v144 : Ref sig .tc := ⟨.hbm, 218, rfl⟩
abbrev main_v145 : Ref sig .tc := ⟨.hbm, 219, rfl⟩
abbrev main_v146 : Ref sig .tc := ⟨.hbm, 220, rfl⟩
abbrev main_v147 : Ref sig .tc := ⟨.hbm, 221, rfl⟩
abbrev main_v148 : Ref sig .tc := ⟨.hbm, 222, rfl⟩
abbrev main_v149 : Ref sig .tc := ⟨.hbm, 223, rfl⟩
abbrev main_v150 : Ref sig .tc := ⟨.hbm, 224, rfl⟩
abbrev main_v151 : Ref sig .tc := ⟨.hbm, 225, rfl⟩
abbrev main_v152 : Ref sig .tc := ⟨.hbm, 226, rfl⟩
abbrev main_v153 : Ref sig .tc := ⟨.hbm, 227, rfl⟩
abbrev main_v154 : Ref sig .tc := ⟨.hbm, 228, rfl⟩
abbrev main_v155 : Ref sig .tc := ⟨.hbm, 229, rfl⟩
abbrev main_v156 : Ref sig .tc := ⟨.hbm, 230, rfl⟩
abbrev main_v157 : Ref sig .tc := ⟨.hbm, 231, rfl⟩
abbrev main_v158 : Ref sig .tc := ⟨.hbm, 232, rfl⟩
abbrev main_v159 : Ref sig .tc := ⟨.hbm, 233, rfl⟩
abbrev main_v160 : Ref sig .tc := ⟨.hbm, 234, rfl⟩
abbrev main_v161 : Ref sig .tc := ⟨.hbm, 235, rfl⟩
abbrev main_v162 : Ref sig .tc := ⟨.hbm, 236, rfl⟩
abbrev main_v163 : Ref sig .tc := ⟨.hbm, 237, rfl⟩
abbrev main_v164 : Ref sig .tc := ⟨.hbm, 238, rfl⟩
abbrev main_cst_21 : Ref sig .tc := ⟨.hbm, 239, rfl⟩
abbrev main_call3_v0 : Ref sig .tc := ⟨.hbm, 240, rfl⟩
abbrev main_call3_v1 : Ref sig .tc := ⟨.hbm, 241, rfl⟩
abbrev main_v165 : Ref sig .tc := ⟨.hbm, 242, rfl⟩
abbrev main_v166 : Ref sig .tc := ⟨.hbm, 243, rfl⟩
abbrev main_v167 : Ref sig .tc := ⟨.hbm, 244, rfl⟩
abbrev main_v168 : Ref sig .tc := ⟨.hbm, 245, rfl⟩
abbrev main_v169 : Ref sig .tc := ⟨.hbm, 246, rfl⟩
abbrev main_v170 : Ref sig .tc := ⟨.hbm, 247, rfl⟩
abbrev main_v171 : Ref sig .tc := ⟨.hbm, 248, rfl⟩
abbrev main_v172 : Ref sig .tc := ⟨.hbm, 249, rfl⟩
abbrev main_v173 : Ref sig .tc := ⟨.hbm, 250, rfl⟩
abbrev main_v174 : Ref sig .tc := ⟨.hbm, 251, rfl⟩
abbrev main_v175 : Ref sig .tc := ⟨.hbm, 252, rfl⟩
abbrev main_v176 : Ref sig .tc := ⟨.hbm, 253, rfl⟩
abbrev main_v177 : Ref sig .tc := ⟨.hbm, 254, rfl⟩
abbrev main_v178 : Ref sig .tc := ⟨.hbm, 255, rfl⟩
abbrev main_v179 : Ref sig .tc := ⟨.hbm, 256, rfl⟩
abbrev main_v180 : Ref sig .tc := ⟨.hbm, 257, rfl⟩
abbrev main_v181 : Ref sig .tc := ⟨.hbm, 258, rfl⟩
abbrev main_v182 : Ref sig .tc := ⟨.hbm, 259, rfl⟩
abbrev main_v183 : Ref sig .tc := ⟨.hbm, 260, rfl⟩
abbrev main_v184 : Ref sig .tc := ⟨.hbm, 261, rfl⟩
abbrev main_v185 : Ref sig .tc := ⟨.hbm, 262, rfl⟩
abbrev main_v186 : Ref sig .tc := ⟨.hbm, 263, rfl⟩
abbrev main_v187 : Ref sig .tc := ⟨.hbm, 264, rfl⟩
abbrev main_v188 : Ref sig .tc := ⟨.hbm, 265, rfl⟩
abbrev main_v189 : Ref sig .tc := ⟨.hbm, 266, rfl⟩
abbrev main_v190 : Ref sig .tc := ⟨.hbm, 267, rfl⟩
abbrev main_v191 : Ref sig .tc := ⟨.hbm, 268, rfl⟩
abbrev main_v192 : Ref sig .tc := ⟨.hbm, 269, rfl⟩
abbrev main_v193 : Ref sig .tc := ⟨.hbm, 270, rfl⟩
abbrev main_v194 : Ref sig .tc := ⟨.hbm, 271, rfl⟩
abbrev main_v195 : Ref sig .tc := ⟨.hbm, 272, rfl⟩
abbrev main_v196 : Ref sig .tc := ⟨.hbm, 273, rfl⟩
abbrev main_v197 : Ref sig .tc := ⟨.hbm, 274, rfl⟩
abbrev main_v198 : Ref sig .tc := ⟨.hbm, 275, rfl⟩
abbrev main_v199 : Ref sig .tc := ⟨.hbm, 276, rfl⟩
abbrev main_v200 : Ref sig .tc := ⟨.hbm, 277, rfl⟩
abbrev main_v201 : Ref sig .tc := ⟨.hbm, 278, rfl⟩
abbrev main_v202 : Ref sig .tc := ⟨.hbm, 279, rfl⟩
abbrev main_v203 : Ref sig .tc := ⟨.hbm, 280, rfl⟩
abbrev main_v204 : Ref sig .tc := ⟨.hbm, 281, rfl⟩
abbrev main_v205 : Ref sig .tc := ⟨.hbm, 282, rfl⟩
abbrev main_v206 : Ref sig .tc := ⟨.hbm, 283, rfl⟩
abbrev main_v207 : Ref sig .tc := ⟨.hbm, 284, rfl⟩
abbrev main_v208 : Ref sig .tc := ⟨.hbm, 285, rfl⟩
abbrev main_v209 : Ref sig .tc := ⟨.hbm, 286, rfl⟩
abbrev main_v210 : Ref sig .tc := ⟨.hbm, 287, rfl⟩
abbrev main_v211 : Ref sig .tc := ⟨.hbm, 288, rfl⟩
abbrev main_v212 : Ref sig .tc := ⟨.hbm, 289, rfl⟩
abbrev main_v213 : Ref sig .tc := ⟨.hbm, 290, rfl⟩
abbrev main_cst_22 : Ref sig .tc := ⟨.hbm, 291, rfl⟩
abbrev main_v214 : Ref sig .tc := ⟨.hbm, 292, rfl⟩
abbrev main_v215 : Ref sig .tc := ⟨.hbm, 293, rfl⟩
abbrev main_v216 : Ref sig .tc := ⟨.hbm, 294, rfl⟩
abbrev main_cst_23 : Ref sig .tc := ⟨.hbm, 295, rfl⟩
abbrev main_v217 : Ref sig .tc := ⟨.hbm, 296, rfl⟩
abbrev main_v218 : Ref sig .tc := ⟨.hbm, 297, rfl⟩
abbrev main_cst_24 : Ref sig .tc := ⟨.hbm, 298, rfl⟩
abbrev main_v219 : Ref sig .tc := ⟨.hbm, 299, rfl⟩
abbrev main_v220 : Ref sig .tc := ⟨.hbm, 300, rfl⟩
abbrev main_cst_25 : Ref sig .tc := ⟨.hbm, 301, rfl⟩
abbrev main_v221 : Ref sig .tc := ⟨.hbm, 302, rfl⟩
abbrev main_v222 : Ref sig .tc := ⟨.hbm, 303, rfl⟩
abbrev main_v223 : Ref sig .tc := ⟨.hbm, 304, rfl⟩
abbrev main_cst_26 : Ref sig .tc := ⟨.hbm, 305, rfl⟩
abbrev main_v224 : Ref sig .tc := ⟨.hbm, 306, rfl⟩
abbrev main_v225 : Ref sig .tc := ⟨.hbm, 307, rfl⟩
abbrev main_v226 : Ref sig .tc := ⟨.hbm, 308, rfl⟩
abbrev main_cst_27 : Ref sig .tc := ⟨.hbm, 309, rfl⟩
abbrev main_v227 : Ref sig .tc := ⟨.hbm, 310, rfl⟩
abbrev main_v228 : Ref sig .tc := ⟨.hbm, 311, rfl⟩
abbrev main_v229 : Ref sig .tc := ⟨.hbm, 312, rfl⟩
abbrev main_v230 : Ref sig .tc := ⟨.hbm, 313, rfl⟩

abbrev nD : Nat := 1
abbrev τ : Topo := Topo.v7x

variable {F : FTy → Type} [FloatOps F]

class Facts₀ : Prop where
  shapeCasts_S16x900x91_S14400x91 : S16x900x91.ShapeCasts S14400x91
  bcast_S_S14400x91 : S_.BroadcastsInDim S14400x91 (![] : Fin 0 → Fin S14400x91.rank)
  shapeCasts_S16x900x4_S14400x4 : S16x900x4.ShapeCasts S14400x4
  shapeCasts_S16x900x2_S14400x2 : S16x900x2.ShapeCasts S14400x2
  shapeCasts_S16x900x1_S14400x1 : S16x900x1.ShapeCasts S14400x1
  bcast_S_S14400x1 : S_.BroadcastsInDim S14400x1 (![] : Fin 0 → Fin S14400x1.rank)
  bcast_S14400x1_S14400x91_0_1 : S14400x1.BroadcastsInDim S14400x91 (![0, 1] : Fin 2 → Fin S14400x91.rank)
  bcast_S_S1024 : S_.BroadcastsInDim S1024 (![] : Fin 0 → Fin S1024.rank)
  bcast_S1024_S1024x1_0 : S1024.BroadcastsInDim S1024x1 (![0] : Fin 1 → Fin S1024x1.rank)
  bcast_S_S1024x1 : S_.BroadcastsInDim S1024x1 (![] : Fin 0 → Fin S1024x1.rank)
  bcast_S1_S1x1_1 : S1.BroadcastsInDim S1x1 (![1] : Fin 1 → Fin S1x1.rank)
  bcast_S1x1_S1024x1_0_1 : S1x1.BroadcastsInDim S1024x1 (![0, 1] : Fin 2 → Fin S1024x1.rank)
  reducesTo_S1024x1_S1024_d1 : S1024x1.ReducesTo [1] S1024
  h_S_ : 0 < S_.numel
  bcast_S1024_S14400x1024_1 : S1024.BroadcastsInDim S14400x1024 (![1] : Fin 1 → Fin S14400x1024.rank)
  bcast_S_S14400x1024 : S_.BroadcastsInDim S14400x1024 (![] : Fin 0 → Fin S14400x1024.rank)
  slices_S14400x4_S14400x1_0_0 : S14400x4.Slices ![0, 0] S14400x1
  shapeCasts_S14400x1_S14400 : S14400x1.ShapeCasts S14400
  slices_S14400x4_S14400x1_0_1 : S14400x4.Slices ![0, 1] S14400x1
  slices_S14400x4_S14400x1_0_2 : S14400x4.Slices ![0, 2] S14400x1
  slices_S14400x4_S14400x1_0_3 : S14400x4.Slices ![0, 3] S14400x1
  bcast_S_S14400 : S_.BroadcastsInDim S14400 (![] : Fin 0 → Fin S14400.rank)
  bcast_S14400_S14400x1_0 : S14400.BroadcastsInDim S14400x1 (![0] : Fin 1 → Fin S14400x1.rank)
  concatenates_S14400x1_S14400x1_S14400x1_S14400x1_S14400x4_d1 : Shape.Concatenates [S14400x1, S14400x1, S14400x1, S14400x1] S14400x4 1
  slices_S1024x4_S1024x1_0_0 : S1024x4.Slices ![0, 0] S1024x1
  shapeCasts_S1024x1_S1024 : S1024x1.ShapeCasts S1024
  slices_S1024x4_S1024x1_0_1 : S1024x4.Slices ![0, 1] S1024x1
  slices_S1024x4_S1024x1_0_2 : S1024x4.Slices ![0, 2] S1024x1
  slices_S1024x4_S1024x1_0_3 : S1024x4.Slices ![0, 3] S1024x1
  concatenates_S1024x1_S1024x1_S1024x1_S1024x1_S1024x4_d1 : Shape.Concatenates [S1024x1, S1024x1, S1024x1, S1024x1] S1024x4 1
  bcast_S14400x4_S14400x1x4_0_2 : S14400x4.BroadcastsInDim S14400x1x4 (![0, 2] : Fin 2 → Fin S14400x1x4.rank)
  bcast_S1024x4_S1x1024x4_1_2 : S1024x4.BroadcastsInDim S1x1024x4 (![1, 2] : Fin 2 → Fin S1x1024x4.rank)
  bcast_S14400x1x4_S14400x1024x4_0_1_2 : S14400x1x4.BroadcastsInDim S14400x1024x4 (![0, 1, 2] : Fin 3 → Fin S14400x1024x4.rank)
  bcast_S1x1024x4_S14400x1024x4_0_1_2 : S1x1024x4.BroadcastsInDim S14400x1024x4 (![0, 1, 2] : Fin 3 → Fin S14400x1024x4.rank)
  reducesTo_S14400x1024x4_S14400x1024_d2 : S14400x1024x4.ReducesTo [2] S14400x1024
  slices_S14400x4_S14400x2_0_0 : S14400x4.Slices ![0, 0] S14400x2
  bcast_S14400x2_S14400x1x2_0_2 : S14400x2.BroadcastsInDim S14400x1x2 (![0, 2] : Fin 2 → Fin S14400x1x2.rank)
  slices_S1024x4_S1024x2_0_0 : S1024x4.Slices ![0, 0] S1024x2
  bcast_S1024x2_S1x1024x2_1_2 : S1024x2.BroadcastsInDim S1x1024x2 (![1, 2] : Fin 2 → Fin S1x1024x2.rank)
  bcast_S14400x1x2_S14400x1024x2_0_1_2 : S14400x1x2.BroadcastsInDim S14400x1024x2 (![0, 1, 2] : Fin 3 → Fin S14400x1024x2.rank)
  bcast_S1x1024x2_S14400x1024x2_0_1_2 : S1x1024x2.BroadcastsInDim S14400x1024x2 (![0, 1, 2] : Fin 3 → Fin S14400x1024x2.rank)
  slices_S14400x4_S14400x2_0_2 : S14400x4.Slices ![0, 2] S14400x2
  slices_S1024x4_S1024x2_0_2 : S1024x4.Slices ![0, 2] S1024x2
  bcast_S_S14400x1024x2 : S_.BroadcastsInDim S14400x1024x2 (![] : Fin 0 → Fin S14400x1024x2.rank)
  slices_S14400x1024x2_S14400x1024x1_0_0_0 : S14400x1024x2.Slices ![0, 0, 0] S14400x1024x1
  shapeCasts_S14400x1024x1_S14400x1024 : S14400x1024x1.ShapeCasts S14400x1024
  slices_S14400x1024x2_S14400x1024x1_0_0_1 : S14400x1024x2.Slices ![0, 0, 1] S14400x1024x1
  bcast_S1024_S1x1024_1 : S1024.BroadcastsInDim S1x1024 (![1] : Fin 1 → Fin S1x1024.rank)
  bcast_S14400x1_S14400x1024_0_1 : S14400x1.BroadcastsInDim S14400x1024 (![0, 1] : Fin 2 → Fin S14400x1024.rank)
  bcast_S1x1024_S14400x1024_0_1 : S1x1024.BroadcastsInDim S14400x1024 (![0, 1] : Fin 2 → Fin S14400x1024.rank)
  slices_S14400x2_S14400x1_0_0 : S14400x2.Slices ![0, 0] S14400x1
  slices_S14400x2_S14400x1_0_1 : S14400x2.Slices ![0, 1] S14400x1
  shapeCasts_S14400x1024_S16x900x1024 : S14400x1024.ShapeCasts S16x900x1024
  gather_S14400x91_S1024x1_S14400x1024_0_1_n_n_1_1_144001_wf : GatherDims.WF S14400x91 S1024x1 S14400x1024 [0] [1] [] [1] [] 1 ![14400, 1]

variable [Facts₀]

def gather_S14400x91_S1024x1_S14400x1024_0_1_n_n_1_1_144001 : GatherDims S14400x91 S1024x1 S14400x1024 where
  offsetDims := [0]
  collapsedSliceDims := [1]
  operandBatchingDims := []
  startIndicesBatchingDims := []
  startIndexMap := [1]
  indexVectorDim := 1
  sliceSizes := ![14400, 1]
  wf := gather_S14400x91_S1024x1_S14400x1024_0_1_n_n_1_1_144001_wf

class Facts : Prop extends Facts₀ where

variable [Facts]
-- ==== Proof.KArrays.lean ====
/-
  The arrays as the region finds them, and a window's block at a grid point.

  Before the region the program reshapes the four query arrays to 14400 rows, turns the target boxes into
  corners (one row per corner) and builds the 91×1024 table of label matches; `V` is a core's buffer contents
  after those host operations, and `iblk` reads window `w`'s block at point `t` off its array there.
-/
import proofs.«419288_j54760833024710_2_alg».proof.Proof.Gen.Kernel.Launch
import Idealize.ShloMosaic.Lib.Pipeline.FrameBody
import Idealize.ShloMosaic.Lib.Pipeline.FrameSuffix

noncomputable section

namespace Cert.Kernel.Hand

open Idealize.ShloMosaic Idealize.ShloMosaic.TcCoe
open Idealize.SL Idealize.SL.Sem
open Idealize.ShloMosaic.Pipeline (Dat Cfg Window)
open Cert.Kernel Cert.Kernel.Gen

variable {F : FTy → Type} [FloatOps F]

variable (m : (ℓ : Loc nD τ sig) → Buf (Elt F) ℓ)

/-- Core `c`'s TensorCore buffer contents when the region is entered: after the host operations before it. -/
abbrev V0 (c : Dev nD) : Valuation τ sig (Elt F) := StableHlo.after (List.flatten [hostOps0]) (fun b => m (c, b))

/-- The same read at a TensorCore reference. -/
abbrev V (c : Dev nD) (b : Ref sig .tc) : Buf (Elt F) ((c : Thread nD τ).loc b) := V0 m c (Proc.devRef .tc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

end Cert.Kernel.Hand

end
-- ==== Proof.KBody.lean ====
/-
  What the kernel body stores, as one function of the six blocks it loads.

  The body loads its six input blocks whole (logits 480×91, boxes 480×4, points 480×2, objectness 480×1, the
  targets' corners 4×1024 and the label table 91×1024), computes, and stores one 480×1024 block. Its arithmetic
  is cut into named pieces; this is their composition: the value stored, of the values loaded.
-/
import proofs.«419288_j54760833024710_2_alg».proof.Proof.Gen.Kernel.Skeleton

noncomputable section

namespace Cert.Kernel.Hand

open Idealize.ShloMosaic Cert.Kernel Cert.Kernel.Gen

variable {F : FTy → Type} [FloatOps F]

/-- The stored block from the loaded blocks: `x0` logits, `x1` boxes, `x2` points, `x3` objectness,
    `x4` the targets' corners (one row per corner), `x5` the label table. -/
def bodyVal (x0 : Vec F S480x91 .f32) (x1 : Vec F S480x4 .f32) (x2 : Vec F S480x2 .f32) (x3 : Vec F S480x1 .f32)
    (x4 : Vec F S4x1024 .f32) (x5 : Vec F S91x1024 .bf16) : FVec F S480x1024 .f32 :=
  k0_pay1
    (k0_pay9 (k0_pay5 x5) (k0_pay7 x0 x3) (k0_pay8 x0 x3))
    (k0_pay32 (k0_pay14 (k0_pay2 x1)) (k0_pay15 (k0_pay2 x1)) (k0_pay16 (k0_pay2 x1)) (k0_pay17 (k0_pay2 x1))
      (k0_pay18 (k0_pay4 x4)) (k0_pay19 (k0_pay4 x4)) (k0_pay20 (k0_pay4 x4)) (k0_pay21 (k0_pay4 x4))
      (k0_pay26 (k0_pay2 x1) (k0_pay4 x4)) (k0_pay27 (k0_pay2 x1) (k0_pay4 x4)))
    (k0_pay33 (k0_pay14 (k0_pay2 x1)) (k0_pay15 (k0_pay2 x1)) (k0_pay16 (k0_pay2 x1)) (k0_pay17 (k0_pay2 x1))
      (k0_pay18 (k0_pay4 x4)) (k0_pay19 (k0_pay4 x4)) (k0_pay20 (k0_pay4 x4)) (k0_pay21 (k0_pay4 x4))
      (k0_pay22 (k0_pay2 x1) (k0_pay4 x4)) (k0_pay23 (k0_pay2 x1) (k0_pay4 x4))
      (k0_pay24 (k0_pay2 x1) (k0_pay4 x4)) (k0_pay25 (k0_pay2 x1) (k0_pay4 x4)))
    (k0_pay34 (k0_pay3 x2) (k0_pay18 (k0_pay4 x4)) (k0_pay19 (k0_pay4 x4)) (k0_pay20 (k0_pay4 x4)) (k0_pay21 (k0_pay4 x4)))
    (k0_pay35 (F := F)) (k0_pay36 (F := F))

end Cert.Kernel.Hand

end
-- ==== Proof.KFrame.lean ====
/-
  The frame of the kernel program: every weakly fair execution of @main terminates, nothing faults,
  and the arrays end as the pipeline library computes them from the proof data below.

  @main is forty-one host operations (reshapes of the four query arrays, the targets' corners, the table of
  label matches), one pipelined region over thirty row tiles, and one reshape of the result. Windows 0 to 3
  are query blocks indexed by the tile; windows 4 and 5 are whole arrays fetched once, at the first tile;
  window 6 is the output block, written back at every tile. The kernel body loads its six input blocks whole,
  computes, reads the output buffer once (a value it never uses) and stores the output block whole.
-/
import proofs.«419288_j54760833024710_2_alg».proof.Proof.KArrays
import proofs.«419288_j54760833024710_2_alg».proof.Proof.KBody
import proofs.«419288_j54760833024710_2_alg».proof.Proof.Gen.Kernel.Launch
import proofs.«419288_j54760833024710_2_alg».proof.Proof.Gen.Kernel.Skeleton
import proofs.«419288_j54760833024710_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main around the region -/

/-- No host operation allocates. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host operations before the region, the region, and the reshape after it: run from the start it
    reduces to the region continued by the reshape, entered with the arrays at `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The reshape after the region touches unscoped TensorCore buffers only, and with nothing prefetched every such
    buffer is an array of the pipeline or one that bypasses it. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- It allocates nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And it writes its own result only (the 16 by 900 by 1024 array), which is no array of the pipeline. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.nullary_writes, StableHlo.unary_writes, StableHlo.binary_writes, StableHlo.ternary_writes, StableHlo.quaternary_writes, StableHlo.nary_writes, StableHlo.reshape_writes, StableHlo.binaryIndexed_writes, Finset.mem_singleton] <;> exact StableHlo.devRef_ne_of_ne (by decide)

/-- Every host operation before the region writes a buffer of its own, never argument 0 (the class logits): the
    region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- Nor does the reshape after the region, and argument 0 is no array of the pipeline: it ends as launched. -/
theorem W_main_arg0 (dats : (p : Fin 1) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

/-- Every host operation before the region writes a buffer of its own, never argument 1 (the predicted boxes): the
    region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- Nor does the reshape after the region, and argument 1 is no array of the pipeline: it ends as launched. -/
theorem W_main_arg1 (dats : (p : Fin 1) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- Every host operation before the region writes a buffer of its own, never argument 2 (the reference points): the
    region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- Nor does the reshape after the region, and argument 2 is no array of the pipeline: it ends as launched. -/
theorem W_main_arg2 (dats : (p : Fin 1) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-- Every host operation before the region writes a buffer of its own, never argument 3 (the objectness logits): the
    region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- Nor does the reshape after the region, and argument 3 is no array of the pipeline: it ends as launched. -/
theorem W_main_arg3 (dats : (p : Fin 1) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

/-- Every host operation before the region writes a buffer of its own, never argument 4 (the target labels): the
    region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- Nor does the reshape after the region, and argument 4 is no array of the pipeline: it ends as launched. -/
theorem W_main_arg4 (dats : (p : Fin 1) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c

/-- Every host operation before the region writes a buffer of its own, never argument 5 (the target boxes): the
    region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- Nor does the reshape after the region, and argument 5 is no array of the pipeline: it ends as launched. -/
theorem W_main_arg5 (dats : (p : Fin 1) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c

/-! ## The windows' blocks -/

/-- Input window 0 (the logits' rows of the tile): its current staging buffer holds its block at every point, fetched there or
    not, for any proof data whose array is `V`'s and whose body leaves the block in place. The window is
    uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1 (the boxes' rows of the tile): its current staging buffer holds its block at every point, fetched there or
    not, for any proof data whose array is `V`'s and whose body leaves the block in place. The window is
    uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2 (the points' rows of the tile): its current staging buffer holds its block at every point, fetched there or
    not, for any proof data whose array is `V`'s and whose body leaves the block in place. The window is
    uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3 (the objectness rows of the tile): its current staging buffer holds its block at every point, fetched there or
    not, for any proof data whose array is `V`'s and whose body leaves the block in place. The window is
    uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4 (the targets' corners, whole): its current staging buffer holds its block at every point, fetched there or
    not (it is fetched at the first point only, and its block index never moves), for any proof data whose array is `V`'s and whose body leaves the block in place. The window is
    uncut and never idle. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5 (the label table, whole): its current staging buffer holds its block at every point, fetched there or
    not (it is fetched at the first point only, and its block index never moves), for any proof data whose array is `V`'s and whose body leaves the block in place. The window is
    uncut and never idle. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- For any proof data whose arrays are the region-entry contents, a run to the library's frame post gives the six
    argument arrays unchanged: no window stages an argument, so the post's second clause reads each at what the
    reshape after the region leaves, which is what was launched. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).2 main_arg0 (Pipeline.mem_restRefs_of main_arg0 (by decide) (by decide))).trans (W_main_arg0 m dats c),
     ((h c).2 main_arg1 (Pipeline.mem_restRefs_of main_arg1 (by decide) (by decide))).trans (W_main_arg1 m dats c),
     ((h c).2 main_arg2 (Pipeline.mem_restRefs_of main_arg2 (by decide) (by decide))).trans (W_main_arg2 m dats c),
     ((h c).2 main_arg3 (Pipeline.mem_restRefs_of main_arg3 (by decide) (by decide))).trans (W_main_arg3 m dats c),
     ((h c).2 main_arg4 (Pipeline.mem_restRefs_of main_arg4 (by decide) (by decide))).trans (W_main_arg4 m dats c),
     ((h c).2 main_arg5 (Pipeline.mem_restRefs_of main_arg5 (by decide) (by decide))).trans (W_main_arg5 m dats c)⟩) h

/-! ## The body's accesses -/

/-- Each buffer is read or written whole: the rectangle at the origin of the buffer's own extents. -/
abbrev r0 : Rect S480x91 := Rect.unit (s := S480x91) ![0, 0] S480x91.size inb_S480x91_S480x91_0_0
abbrev r1 : Rect S480x4 := Rect.unit (s := S480x4) ![0, 0] S480x4.size inb_S480x4_S480x4_0_0
abbrev r2 : Rect S480x2 := Rect.unit (s := S480x2) ![0, 0] S480x2.size inb_S480x2_S480x2_0_0
abbrev r3 : Rect S480x1 := Rect.unit (s := S480x1) ![0, 0] S480x1.size inb_S480x1_S480x1_0_0
abbrev r4 : Rect S4x1024 := Rect.unit (s := S4x1024) ![0, 0] S4x1024.size inb_S4x1024_S4x1024_0_0
abbrev r5 : Rect S91x1024 := Rect.unit (s := S91x1024) ![0, 0] S91x1024.size inb_S91x1024_S91x1024_0_0
abbrev r6 : Rect S480x1024 := Rect.unit (s := S480x1024) ![0, 0] S480x1024.size inb_S480x1024_S480x1024_0_0

/-! ## What the body leaves in the output window's buffer -/

/-- Window 6's staging buffer after the body, from the six input blocks: one store of the whole block, its
    value the body's arithmetic over the six whole loads. -/
def out0_6 (x0 : Vec F S480x91 .f32) (x1 : Vec F S480x4 .f32) (x2 : Vec F S480x2 .f32) (x3 : Vec F S480x1 .f32)
    (x4 : Vec F S4x1024 .f32) (x5 : Vec F S91x1024 .bf16) : Vec F S480x1024 .f32 :=
  View.canon [⟨r6, bodyVal (View.ld x0 r0) (View.ld x1 r1) (View.ld x2 r2) (View.ld x3 r3) (View.ld x4 r4) (View.ld x5 r5)⟩]

/-- The one store is of the whole 480 by 1024 block, so it covers the buffer. -/
theorem cover0_6 (p0 : Vec F S480x1024 .f32) (y : S480x1024.Idx) :
    ∃ pc ∈ ([⟨r6, p0⟩] : List (View.Piece (Elt F) S480x1024 .f32)), y ∈ pc.1.set :=
  View.cover_of_tiled [⟨r6, p0⟩] S480x1024.size (by rfl) y

/-! ## The body's triple -/

set_option maxHeartbeats 4000000 in
/-- The kernel body on whole staging memrefs, the six inputs' at read contents `x0` … `x5` and the output's at
    anything, runs to the continuation holding the inputs' as they were and the output's at `out0_6` of the
    inputs': the six loads read the inputs whole, the load of the output buffer reads whatever is there and its
    value is dropped, and the one store overwrites the whole buffer. -/
theorem sound_kernel (c : Dev nD) (E : Set ℕ) (i : grid0.Coords)
    (arg1 : Memref sig .tc .vmem S480x91 .f32) (harg1 : arg1.IsWhole) (arg2 : Memref sig .tc .vmem S480x4 .f32) (harg2 : arg2.IsWhole)
    (arg3 : Memref sig .tc .vmem S480x2 .f32) (harg3 : arg3.IsWhole) (arg4 : Memref sig .tc .vmem S480x1 .f32) (harg4 : arg4.IsWhole)
    (arg5 : Memref sig .tc .vmem S4x1024 .f32) (harg5 : arg5.IsWhole) (arg6 : Memref sig .tc .vmem S91x1024 .bf16) (harg6 : arg6.IsWhole)
    (arg7 : Memref sig .tc .vmem S480x1024 .f32) (harg7 : arg7.IsWhole)
    (x0 : Vec F S480x91 .f32) (x1 : Vec F S480x4 .f32) (x2 : Vec F S480x2 .f32) (x3 : Vec F S480x1 .f32)
    (x4 : Vec F S4x1024 .f32) (x5 : Vec F S91x1024 .bf16) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out0_6 x0 x1 x2 x3 x4 x5)) -∗ K ⟨⟩))
      ⊢ wp frame (wpE (defs₀ (F := F)) Variants.none c none) E
          (cc0__cost_kernel i arg1 harg1 arg2 harg2 arg3 harg3 arg4 harg4 arg5 harg5 arg6 harg6 arg7 harg7) K := by
  simp only [cc0__cost_kernel_eq_skeleton]; unfold cc0__cost_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover0_6 _)

/-! ## The pipeline's proof data -/

/-- The proof data of the one pipeline on core `c`: the arrays as the region finds them; after the body at point
    `t` each input's buffer still at its block and the output's at `out0_6` of the six input blocks; the invariant
    the scoped rest and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => out0_6 (iblk m c 0 t) (iblk m c 1 t) (iblk m c 2 t) (iblk m c 3 t) (iblk m c 4 t) (iblk m c 5 t)
  Φ _ := Pipeline.ΦA spec0 c
  q _ := fullShare
  owed _ := 0

/-- The proof data's arrays are the region-entry contents: the definition projected, `V` never unfolded. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t =
    out0_6 (iblk m c 0 t) (iblk m c 1 t) (iblk m c 2 t) (iblk m c 3 t) (iblk m c 4 t) (iblk m c 5 t) := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation, at a generic point -/

/-- What the body is called with at point `t`: the invariant, the core's dues, and each window's current staging
    buffer at what the pipeline left in it, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns: the same, each buffer at what the proof data says the body leaves. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

/-- The body at any point: the inputs' buffers hold their blocks, the output's holds anything, so the body's triple
    applies; the invariant and the core's dues pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ (grid0.coords t) _ _ _ _ _ _ _ _ _ _ _ _ _ _
    (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- At the compiled mesh, for any values, from any memory with zero counters: every weakly fair execution of @main on
    the TensorCore terminates, and every final state has every array of the pipeline at what the library computes from
    the proof data and every other unscoped buffer as the reshape after the region leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- info: 'Cert.Kernel.Hand.run_main' depends on axioms: [propext, Classical.choice, Quot.sound] -/
#guard_msgs in #print axioms run_main

/-- The frame claim, at any float instance: the program runs to the end without fault and the six argument arrays
    end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

end Cert.Kernel.Hand

end
-- ==== Proof.KIArrays.lean ====
/-
  The arrays as the region finds them, and a window's block at a grid point.

  Before the region the program reshapes the four query arrays to 14400 rows, turns the target boxes into
  corners (one row per corner) and builds the 91×1024 table of label matches; `V` is a core's buffer contents
  after those host operations, and `iblk` reads window `w`'s block at point `t` off its array there.
-/
import proofs.«419288_j54760833024710_2_alg».proof.Proof.Gen.KernelIdeal.Launch
import Idealize.ShloMosaic.Lib.Pipeline.FrameBody
import Idealize.ShloMosaic.Lib.Pipeline.FrameSuffix

noncomputable section

namespace Cert.KernelIdeal.Hand

open Idealize.ShloMosaic Idealize.ShloMosaic.TcCoe
open Idealize.SL Idealize.SL.Sem
open Idealize.ShloMosaic.Pipeline (Dat Cfg Window)
open Cert.KernelIdeal Cert.KernelIdeal.Gen

variable {F : FTy → Type} [FloatOps F]

variable (m : (ℓ : Loc nD τ sig) → Buf (Elt F) ℓ)

/-- Core `c`'s TensorCore buffer contents when the region is entered: after the host operations before it. -/
abbrev V0 (c : Dev nD) : Valuation τ sig (Elt F) := StableHlo.after (List.flatten [hostOps0]) (fun b => m (c, b))

/-- The same read at a TensorCore reference. -/
abbrev V (c : Dev nD) (b : Ref sig .tc) : Buf (Elt F) ((c : Thread nD τ).loc b) := V0 m c (Proc.devRef .tc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

end Cert.KernelIdeal.Hand

end
-- ==== Proof.KIBody.lean ====
/-
  What the kernel body stores, as one function of the six blocks it loads.

  The body loads its six input blocks whole (logits 480×91, boxes 480×4, points 480×2, objectness 480×1, the
  targets' corners 4×1024 and the label table 91×1024), computes, and stores one 480×1024 block. Its arithmetic
  is cut into named pieces; this is their composition: the value stored, of the values loaded.
-/
import proofs.«419288_j54760833024710_2_alg».proof.Proof.Gen.KernelIdeal.Skeleton

noncomputable section

namespace Cert.KernelIdeal.Hand

open Idealize.ShloMosaic Cert.KernelIdeal Cert.KernelIdeal.Gen

variable {F : FTy → Type} [FloatOps F]

/-- The stored block from the loaded blocks: `x0` logits, `x1` boxes, `x2` points, `x3` objectness,
    `x4` the targets' corners (one row per corner), `x5` the label table. -/
def bodyVal (x0 : Vec F S480x91 .f32) (x1 : Vec F S480x4 .f32) (x2 : Vec F S480x2 .f32) (x3 : Vec F S480x1 .f32)
    (x4 : Vec F S4x1024 .f32) (x5 : Vec F S91x1024 .bf16) : FVec F S480x1024 .f32 :=
  k0_pay1
    (k0_pay9 (k0_pay5 x5) (k0_pay7 x0 x3) (k0_pay8 x0 x3))
    (k0_pay32 (k0_pay14 (k0_pay2 x1)) (k0_pay15 (k0_pay2 x1)) (k0_pay16 (k0_pay2 x1)) (k0_pay17 (k0_pay2 x1))
      (k0_pay18 (k0_pay4 x4)) (k0_pay19 (k0_pay4 x4)) (k0_pay20 (k0_pay4 x4)) (k0_pay21 (k0_pay4 x4))
      (k0_pay26 (k0_pay2 x1) (k0_pay4 x4)) (k0_pay27 (k0_pay2 x1) (k0_pay4 x4)))
    (k0_pay33 (k0_pay14 (k0_pay2 x1)) (k0_pay15 (k0_pay2 x1)) (k0_pay16 (k0_pay2 x1)) (k0_pay17 (k0_pay2 x1))
      (k0_pay18 (k0_pay4 x4)) (k0_pay19 (k0_pay4 x4)) (k0_pay20 (k0_pay4 x4)) (k0_pay21 (k0_pay4 x4))
      (k0_pay22 (k0_pay2 x1) (k0_pay4 x4)) (k0_pay23 (k0_pay2 x1) (k0_pay4 x4))
      (k0_pay24 (k0_pay2 x1) (k0_pay4 x4)) (k0_pay25 (k0_pay2 x1) (k0_pay4 x4)))
    (k0_pay34 (k0_pay3 x2) (k0_pay18 (k0_pay4 x4)) (k0_pay19 (k0_pay4 x4)) (k0_pay20 (k0_pay4 x4)) (k0_pay21 (k0_pay4 x4)))
    (k0_pay35 (F := F)) (k0_pay36 (F := F))

end Cert.KernelIdeal.Hand

end
-- ==== Proof.KIFrame.lean ====
/-
  The frame of the kernel program: every weakly fair execution of @main terminates, nothing faults,
  and the arrays end as the pipeline library computes them from the proof data below.

  @main is forty-one host operations (reshapes of the four query arrays, the targets' corners, the table of
  label matches), one pipelined region over thirty row tiles, and one reshape of the result. Windows 0 to 3
  are query blocks indexed by the tile; windows 4 and 5 are whole arrays fetched once, at the first tile;
  window 6 is the output block, written back at every tile. The kernel body loads its six input blocks whole,
  computes, reads the output buffer once (a value it never uses) and stores the output block whole.
-/
import proofs.«419288_j54760833024710_2_alg».proof.Proof.KIArrays
import proofs.«419288_j54760833024710_2_alg».proof.Proof.KIBody
import proofs.«419288_j54760833024710_2_alg».proof.Proof.Gen.KernelIdeal.Launch
import proofs.«419288_j54760833024710_2_alg».proof.Proof.Gen.KernelIdeal.Skeleton
import proofs.«419288_j54760833024710_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main around the region -/

/-- No host operation allocates. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host operations before the region, the region, and the reshape after it: run from the start it
    reduces to the region continued by the reshape, entered with the arrays at `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The reshape after the region touches unscoped TensorCore buffers only, and with nothing prefetched every such
    buffer is an array of the pipeline or one that bypasses it. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- It allocates nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And it writes its own result only (the 16 by 900 by 1024 array), which is no array of the pipeline. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.nullary_writes, StableHlo.unary_writes, StableHlo.binary_writes, StableHlo.ternary_writes, StableHlo.quaternary_writes, StableHlo.nary_writes, StableHlo.reshape_writes, StableHlo.binaryIndexed_writes, Finset.mem_singleton] <;> exact StableHlo.devRef_ne_of_ne (by decide)

/-- Every host operation before the region writes a buffer of its own, never argument 0 (the class logits): the
    region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- Nor does the reshape after the region, and argument 0 is no array of the pipeline: it ends as launched. -/
theorem W_main_arg0 (dats : (p : Fin 1) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

/-- Every host operation before the region writes a buffer of its own, never argument 1 (the predicted boxes): the
    region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- Nor does the reshape after the region, and argument 1 is no array of the pipeline: it ends as launched. -/
theorem W_main_arg1 (dats : (p : Fin 1) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- Every host operation before the region writes a buffer of its own, never argument 2 (the reference points): the
    region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- Nor does the reshape after the region, and argument 2 is no array of the pipeline: it ends as launched. -/
theorem W_main_arg2 (dats : (p : Fin 1) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-- Every host operation before the region writes a buffer of its own, never argument 3 (the objectness logits): the
    region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- Nor does the reshape after the region, and argument 3 is no array of the pipeline: it ends as launched. -/
theorem W_main_arg3 (dats : (p : Fin 1) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

/-- Every host operation before the region writes a buffer of its own, never argument 4 (the target labels): the
    region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- Nor does the reshape after the region, and argument 4 is no array of the pipeline: it ends as launched. -/
theorem W_main_arg4 (dats : (p : Fin 1) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c

/-- Every host operation before the region writes a buffer of its own, never argument 5 (the target boxes): the
    region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- Nor does the reshape after the region, and argument 5 is no array of the pipeline: it ends as launched. -/
theorem W_main_arg5 (dats : (p : Fin 1) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c

/-! ## The windows' blocks -/

/-- Input window 0 (the logits' rows of the tile): its current staging buffer holds its block at every point, fetched there or
    not, for any proof data whose array is `V`'s and whose body leaves the block in place. The window is
    uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1 (the boxes' rows of the tile): its current staging buffer holds its block at every point, fetched there or
    not, for any proof data whose array is `V`'s and whose body leaves the block in place. The window is
    uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2 (the points' rows of the tile): its current staging buffer holds its block at every point, fetched there or
    not, for any proof data whose array is `V`'s and whose body leaves the block in place. The window is
    uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3 (the objectness rows of the tile): its current staging buffer holds its block at every point, fetched there or
    not, for any proof data whose array is `V`'s and whose body leaves the block in place. The window is
    uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4 (the targets' corners, whole): its current staging buffer holds its block at every point, fetched there or
    not (it is fetched at the first point only, and its block index never moves), for any proof data whose array is `V`'s and whose body leaves the block in place. The window is
    uncut and never idle. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5 (the label table, whole): its current staging buffer holds its block at every point, fetched there or
    not (it is fetched at the first point only, and its block index never moves), for any proof data whose array is `V`'s and whose body leaves the block in place. The window is
    uncut and never idle. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- For any proof data whose arrays are the region-entry contents, a run to the library's frame post gives the six
    argument arrays unchanged: no window stages an argument, so the post's second clause reads each at what the
    reshape after the region leaves, which is what was launched. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).2 main_arg0 (Pipeline.mem_restRefs_of main_arg0 (by decide) (by decide))).trans (W_main_arg0 m dats c),
     ((h c).2 main_arg1 (Pipeline.mem_restRefs_of main_arg1 (by decide) (by decide))).trans (W_main_arg1 m dats c),
     ((h c).2 main_arg2 (Pipeline.mem_restRefs_of main_arg2 (by decide) (by decide))).trans (W_main_arg2 m dats c),
     ((h c).2 main_arg3 (Pipeline.mem_restRefs_of main_arg3 (by decide) (by decide))).trans (W_main_arg3 m dats c),
     ((h c).2 main_arg4 (Pipeline.mem_restRefs_of main_arg4 (by decide) (by decide))).trans (W_main_arg4 m dats c),
     ((h c).2 main_arg5 (Pipeline.mem_restRefs_of main_arg5 (by decide) (by decide))).trans (W_main_arg5 m dats c)⟩) h

/-! ## The body's accesses -/

/-- Each buffer is read or written whole: the rectangle at the origin of the buffer's own extents. -/
abbrev r0 : Rect S480x91 := Rect.unit (s := S480x91) ![0, 0] S480x91.size inb_S480x91_S480x91_0_0
abbrev r1 : Rect S480x4 := Rect.unit (s := S480x4) ![0, 0] S480x4.size inb_S480x4_S480x4_0_0
abbrev r2 : Rect S480x2 := Rect.unit (s := S480x2) ![0, 0] S480x2.size inb_S480x2_S480x2_0_0
abbrev r3 : Rect S480x1 := Rect.unit (s := S480x1) ![0, 0] S480x1.size inb_S480x1_S480x1_0_0
abbrev r4 : Rect S4x1024 := Rect.unit (s := S4x1024) ![0, 0] S4x1024.size inb_S4x1024_S4x1024_0_0
abbrev r5 : Rect S91x1024 := Rect.unit (s := S91x1024) ![0, 0] S91x1024.size inb_S91x1024_S91x1024_0_0
abbrev r6 : Rect S480x1024 := Rect.unit (s := S480x1024) ![0, 0] S480x1024.size inb_S480x1024_S480x1024_0_0

/-! ## What the body leaves in the output window's buffer -/

/-- Window 6's staging buffer after the body, from the six input blocks: one store of the whole block, its
    value the body's arithmetic over the six whole loads. -/
def out0_6 (x0 : Vec F S480x91 .f32) (x1 : Vec F S480x4 .f32) (x2 : Vec F S480x2 .f32) (x3 : Vec F S480x1 .f32)
    (x4 : Vec F S4x1024 .f32) (x5 : Vec F S91x1024 .bf16) : Vec F S480x1024 .f32 :=
  View.canon [⟨r6, bodyVal (View.ld x0 r0) (View.ld x1 r1) (View.ld x2 r2) (View.ld x3 r3) (View.ld x4 r4) (View.ld x5 r5)⟩]

/-- The one store is of the whole 480 by 1024 block, so it covers the buffer. -/
theorem cover0_6 (p0 : Vec F S480x1024 .f32) (y : S480x1024.Idx) :
    ∃ pc ∈ ([⟨r6, p0⟩] : List (View.Piece (Elt F) S480x1024 .f32)), y ∈ pc.1.set :=
  View.cover_of_tiled [⟨r6, p0⟩] S480x1024.size (by rfl) y

/-! ## The body's triple -/

set_option maxHeartbeats 4000000 in
/-- The kernel body on whole staging memrefs, the six inputs' at read contents `x0` … `x5` and the output's at
    anything, runs to the continuation holding the inputs' as they were and the output's at `out0_6` of the
    inputs': the six loads read the inputs whole, the load of the output buffer reads whatever is there and its
    value is dropped, and the one store overwrites the whole buffer. -/
theorem sound_kernel (c : Dev nD) (E : Set ℕ) (i : grid0.Coords)
    (arg1 : Memref sig .tc .vmem S480x91 .f32) (harg1 : arg1.IsWhole) (arg2 : Memref sig .tc .vmem S480x4 .f32) (harg2 : arg2.IsWhole)
    (arg3 : Memref sig .tc .vmem S480x2 .f32) (harg3 : arg3.IsWhole) (arg4 : Memref sig .tc .vmem S480x1 .f32) (harg4 : arg4.IsWhole)
    (arg5 : Memref sig .tc .vmem S4x1024 .f32) (harg5 : arg5.IsWhole) (arg6 : Memref sig .tc .vmem S91x1024 .bf16) (harg6 : arg6.IsWhole)
    (arg7 : Memref sig .tc .vmem S480x1024 .f32) (harg7 : arg7.IsWhole)
    (x0 : Vec F S480x91 .f32) (x1 : Vec F S480x4 .f32) (x2 : Vec F S480x2 .f32) (x3 : Vec F S480x1 .f32)
    (x4 : Vec F S4x1024 .f32) (x5 : Vec F S91x1024 .bf16) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out0_6 x0 x1 x2 x3 x4 x5)) -∗ K ⟨⟩))
      ⊢ wp frame (wpE (defs₀ (F := F)) Variants.none c none) E
          (cc0__cost_kernel i arg1 harg1 arg2 harg2 arg3 harg3 arg4 harg4 arg5 harg5 arg6 harg6 arg7 harg7) K := by
  simp only [cc0__cost_kernel_eq_skeleton]; unfold cc0__cost_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover0_6 _)

/-! ## The pipeline's proof data -/

/-- The proof data of the one pipeline on core `c`: the arrays as the region finds them; after the body at point
    `t` each input's buffer still at its block and the output's at `out0_6` of the six input blocks; the invariant
    the scoped rest and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => out0_6 (iblk m c 0 t) (iblk m c 1 t) (iblk m c 2 t) (iblk m c 3 t) (iblk m c 4 t) (iblk m c 5 t)
  Φ _ := Pipeline.ΦA spec0 c
  q _ := fullShare
  owed _ := 0

/-- The proof data's arrays are the region-entry contents: the definition projected, `V` never unfolded. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t =
    out0_6 (iblk m c 0 t) (iblk m c 1 t) (iblk m c 2 t) (iblk m c 3 t) (iblk m c 4 t) (iblk m c 5 t) := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation, at a generic point -/

/-- What the body is called with at point `t`: the invariant, the core's dues, and each window's current staging
    buffer at what the pipeline left in it, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns: the same, each buffer at what the proof data says the body leaves. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

/-- The body at any point: the inputs' buffers hold their blocks, the output's holds anything, so the body's triple
    applies; the invariant and the core's dues pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ (grid0.coords t) _ _ _ _ _ _ _ _ _ _ _ _ _ _
    (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- At the compiled mesh, for any values, from any memory with zero counters: every weakly fair execution of @main on
    the TensorCore terminates, and every final state has every array of the pipeline at what the library computes from
    the proof data and every other unscoped buffer as the reshape after the region leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- info: 'Cert.KernelIdeal.Hand.run_main' depends on axioms: [propext, Classical.choice, Quot.sound] -/
#guard_msgs in #print axioms run_main

/-- The frame claim, at any float instance: the program runs to the end without fault and the six argument arrays
    end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

end Cert.KernelIdeal.Hand

end
-- ==== Proof.KIBlocks.lean ====
/-
  From the frame run to the result array: what each window's block is as rows of its array, what a grid point
  writes back, how the thirty written-back blocks make up the 14400 by 1024 array, and the final reshape.

  Point `t` of the grid works on rows `480 t … 480 t + 479`: windows 0 to 3 read those rows of the four query
  arrays, windows 4 and 5 read the targets' corners and the label table whole, and window 6 writes those rows of
  the result. No arithmetic is done here: the block a point writes back is named by the body's function of the six
  blocks it read.
-/
import proofs.«419288_j54760833024710_2_alg».proof.Proof.KIFrame
import Idealize.ShloMosaic.Lib.Pipeline.Value
import Idealize.ShloMosaic.Lib.StableHlo.Run
import Idealize.ShloMosaic.Lib.ValueIdx

noncomputable section

namespace Cert.KernelIdeal.Hand

open Idealize.ShloMosaic Idealize.ShloMosaic.TcCoe Idealize.SL.Sem Idealize.ShloMosaic.ValueIdx
open Idealize.ShloMosaic.Pipeline (Dat)
open Cert.KernelIdeal Cert.KernelIdeal.Gen

variable {F : FTy → Type} [FloatOps F]
variable (m : (ℓ : Loc nD τ sig) → Buf (Elt F) ℓ) (ρ : Dev nD → PrngReg)

/-- Every buffer of the body is accessed from its origin. -/
theorem origin2 : (![0, 0] : Fin 2 → Nat) = fun _ => 0 := funext fun a => by fin_cases a <;> rfl

/-! ## Which block each window is on -/

/-- The printed index maps, decided over the thirty points: the four query windows and the output window are on row
    block `t` at point `t` and on the only column block; the two whole-array windows are on their only block. -/
theorem block_index : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- Row `r` of point `t`'s tile is row `480 t + r` of the 14400. -/
theorem row_lt (t : Fin cfg0.N) (r : Fin 480) : 480 * t.val + r.val < 14400 := by
  have ht : t.val < 30 := lt_of_lt_of_eq t.isLt (show cfg0.N = 30 from N_0)
  have hr := r.isLt
  omega

/-! ## The input blocks as rows of their arrays -/

/-- Window 0's block at point `t`, entry `(r, j)`: row `480 t + r`, column `j` of its array as the region finds it. -/
theorem iblk0_apply (c : Dev nD) (t : Fin cfg0.N) (r : Fin 480) (j : Fin 91) :
    (iblk m c 0 t : Vec F S480x91 .f32) (ix2 r j)
      = (V m c main_v0 : Vec F S14400x91 .f32) (ix2 ⟨480 * t.val + r.val, row_lt t r⟩ j) := by
  have hi := block_index t
  unfold iblk
  rw [View.read_apply]
  show V m c main_v0 _ = V m c main_v0 _
  congr 1
  funext a
  apply Fin.ext
  match a with
  | ⟨0, _⟩ => show win0_0.index t (0 : Fin 2) * 480 + 1 * r.val = 480 * t.val + r.val; omega
  | ⟨1, _⟩ => show win0_0.index t (1 : Fin 2) * 91 + 1 * j.val = j.val; omega

/-- The same as one function of the block's index. -/
theorem iblk0_eq (c : Dev nD) (t : Fin cfg0.N) :
    (iblk m c 0 t : Vec F S480x91 .f32)
      = fun y => (V m c main_v0 : Vec F S14400x91 .f32) (ix2 ⟨480 * t.val + (y 0).val, row_lt t (y 0)⟩ (y 1)) := by
  funext y
  rw [eq_ix2 y]
  exact iblk0_apply m c t (y 0) (y 1)

/-- Window 1's block at point `t`, entry `(r, j)`: row `480 t + r`, column `j` of its array as the region finds it. -/
theorem iblk1_apply (c : Dev nD) (t : Fin cfg0.N) (r : Fin 480) (j : Fin 4) :
    (iblk m c 1 t : Vec F S480x4 .f32) (ix2 r j)
      = (V m c main_v1 : Vec F S14400x4 .f32) (ix2 ⟨480 * t.val + r.val, row_lt t r⟩ j) := by
  have hi := block_index t
  unfold iblk
  rw [View.read_apply]
  show V m c main_v1 _ = V m c main_v1 _
  congr 1
  funext a
  apply Fin.ext
  match a with
  | ⟨0, _⟩ => show win0_1.index t (0 : Fin 2) * 480 + 1 * r.val = 480 * t.val + r.val; omega
  | ⟨1, _⟩ => show win0_1.index t (1 : Fin 2) * 4 + 1 * j.val = j.val; omega

/-- The same as one function of the block's index. -/
theorem iblk1_eq (c : Dev nD) (t : Fin cfg0.N) :
    (iblk m c 1 t : Vec F S480x4 .f32)
      = fun y => (V m c main_v1 : Vec F S14400x4 .f32) (ix2 ⟨480 * t.val + (y 0).val, row_lt t (y 0)⟩ (y 1)) := by
  funext y
  rw [eq_ix2 y]
  exact iblk1_apply m c t (y 0) (y 1)

/-- Window 2's block at point `t`, entry `(r, j)`: row `480 t + r`, column `j` of its array as the region finds it. -/
theorem iblk2_apply (c : Dev nD) (t : Fin cfg0.N) (r : Fin 480) (j : Fin 2) :
    (iblk m c 2 t : Vec F S480x2 .f32) (ix2 r j)
      = (V m c main_v2 : Vec F S14400x2 .f32) (ix2 ⟨480 * t.val + r.val, row_lt t r⟩ j) := by
  have hi := block_index t
  unfold iblk
  rw [View.read_apply]
  show V m c main_v2 _ = V m c main_v2 _
  congr 1
  funext a
  apply Fin.ext
  match a with
  | ⟨0, _⟩ => show win0_2.index t (0 : Fin 2) * 480 + 1 * r.val = 480 * t.val + r.val; omega
  | ⟨1, _⟩ => show win0_2.index t (1 : Fin 2) * 2 + 1 * j.val = j.val; omega

/-- The same as one function of the block's index. -/
theorem iblk2_eq (c : Dev nD) (t : Fin cfg0.N) :
    (iblk m c 2 t : Vec F S480x2 .f32)
      = fun y => (V m c main_v2 : Vec F S14400x2 .f32) (ix2 ⟨480 * t.val + (y 0).val, row_lt t (y 0)⟩ (y 1)) := by
  funext y
  rw [eq_ix2 y]
  exact iblk2_apply m c t (y 0) (y 1)

/-- Window 3's block at point `t`, entry `(r, j)`: row `480 t + r`, column `j` of its array as the region finds it. -/
theorem iblk3_apply (c : Dev nD) (t : Fin cfg0.N) (r : Fin 480) (j : Fin 1) :
    (iblk m c 3 t : Vec F S480x1 .f32) (ix2 r j)
      = (V m c main_v3 : Vec F S14400x1 .f32) (ix2 ⟨480 * t.val + r.val, row_lt t r⟩ j) := by
  have hi := block_index t
  unfold iblk
  rw [View.read_apply]
  show V m c main_v3 _ = V m c main_v3 _
  congr 1
  funext a
  apply Fin.ext
  match a with
  | ⟨0, _⟩ => show win0_3.index t (0 : Fin 2) * 480 + 1 * r.val = 480 * t.val + r.val; omega
  | ⟨1, _⟩ => show win0_3.index t (1 : Fin 2) * 1 + 1 * j.val = j.val; omega

/-- The same as one function of the block's index. -/
theorem iblk3_eq (c : Dev nD) (t : Fin cfg0.N) :
    (iblk m c 3 t : Vec F S480x1 .f32)
      = fun y => (V m c main_v3 : Vec F S14400x1 .f32) (ix2 ⟨480 * t.val + (y 0).val, row_lt t (y 0)⟩ (y 1)) := by
  funext y
  rw [eq_ix2 y]
  exact iblk3_apply m c t (y 0) (y 1)

/-- Window 4's block is its whole array, at every point. -/
theorem iblk4_eq (c : Dev nD) (t : Fin cfg0.N) :
    (iblk m c 4 t : Vec F S4x1024 .f32) = (V m c main_v29 : Vec F S4x1024 .f32) := by
  have hi := block_index t
  funext y
  unfold iblk
  rw [View.read_apply]
  show V m c main_v29 _ = V m c main_v29 y
  congr 1
  funext a
  apply Fin.ext
  match a with
  | ⟨0, _⟩ => show win0_4.index t (0 : Fin 2) * 4 + 1 * (y 0).val = (y 0).val; omega
  | ⟨1, _⟩ => show win0_4.index t (1 : Fin 2) * 1024 + 1 * (y 1).val = (y 1).val; omega

/-- Window 5's block is its whole array, at every point. -/
theorem iblk5_eq (c : Dev nD) (t : Fin cfg0.N) :
    (iblk m c 5 t : Vec F S91x1024 .bf16) = (V m c main_v36 : Vec F S91x1024 .bf16) := by
  have hi := block_index t
  funext y
  unfold iblk
  rw [View.read_apply]
  show V m c main_v36 _ = V m c main_v36 y
  congr 1
  funext a
  apply Fin.ext
  match a with
  | ⟨0, _⟩ => show win0_5.index t (0 : Fin 2) * 91 + 1 * (y 0).val = (y 0).val; omega
  | ⟨1, _⟩ => show win0_5.index t (1 : Fin 2) * 1024 + 1 * (y 1).val = (y 1).val; omega

/-! ## What a point writes back -/

/-- The output window is never cut: what a point writes back is the whole of what its staging buffer holds. -/
theorem cut6_whole (t : Fin cfg0.N) (X : Vec F S480x1024 .f32) : (cfg0.win 6).cut (grid0.coords t) X = X := rfl

/-- Point `t` writes back the body's function of the six blocks it read: the one whole-block store read back, each
    whole-block load being the block itself. -/
theorem flushed6_eq (c : Dev nD) (t : Fin cfg0.N) :
    (dats m 0 c).flushed 6 t
      = (bodyVal (iblk m c 0 t) (iblk m c 1 t) (iblk m c 2 t) (iblk m c 3 t) (iblk m c 4 t) (iblk m c 5 t) : Vec F S480x1024 .f32) := by
  show (cfg0.win 6).cut (grid0.coords t) ((dats m 0 c).after 6 t) = _
  rw [after0_6]
  unfold out0_6
  rw [View.canon_unit_zero origin2]
  simp only [View.ld_unit_zero (S := S480x91) origin2, View.ld_unit_zero (S := S480x4) origin2,
    View.ld_unit_zero (S := S480x2) origin2, View.ld_unit_zero (S := S480x1) origin2,
    View.ld_unit_zero (S := S4x1024) origin2, View.ld_unit_zero (S := S91x1024) origin2]
  exact cut6_whole t _

/-! ## The blocks make up the array -/

/-- An index of the result array is in point `t`'s block iff each coordinate is in the block's range on its axis. -/
theorem mem_blk6 (t : Fin cfg0.N) (i : S14400x1024.Idx) :
    i ∈ ((cfg0.win 6).blk t).view.set ↔ ∀ a : Fin 2, win0_6.index t a * S480x1024.size a ≤ (i a).val
      ∧ (i a).val < win0_6.index t a * S480x1024.size a + S480x1024.size a := by
  show i ∈ ((View.whole main_v37).slice (win0_6.rect t)).set ↔ _
  rw [View.set_slice_whole, Rect.mem_set_unit]
  exact Iff.rfl

/-- Row `n` of the result is in the block of point `n / 480`, and every point writes its block back: if each point
    writes back its block of `G`, the array ends holding `G`. -/
theorem final_of_flushed (c : Dev nD) (G : Vec F S14400x1024 .f32)
    (hfl : ∀ t : Fin cfg0.N, (dats m 0 c).flushed 6 t = ((cfg0.win 6).blk t).view.read (Elt F) G) :
    (dats m 0 c).arrAt 6 cfg0.N = G :=
  (dats m 0 c).arrAt_eq_of_cover 6 G (fun t _ => hfl t) fun i => by
    have hi0 : (i 0).val < 14400 := (i 0).isLt
    have hi1 : (i 1).val < 1024 := (i 1).isLt
    have hN : cfg0.N = 30 := N_0
    refine ⟨⟨(i 0).val / 480, by rw [hN]; omega⟩, flush0_6 _, ?_⟩
    rw [mem_blk6]
    obtain ⟨-, -, -, -, -, -, -, -, -, -, -, -, e0, e1⟩ := block_index ⟨(i 0).val / 480, by rw [hN]; omega⟩
    intro a
    match a with
    | ⟨0, _⟩ =>
      show win0_6.index ⟨(i 0).val / 480, _⟩ (0 : Fin 2) * 480 ≤ (i 0).val
        ∧ (i 0).val < win0_6.index ⟨(i 0).val / 480, _⟩ (0 : Fin 2) * 480 + 480
      rw [e0]; show (i 0).val / 480 * 480 ≤ (i 0).val ∧ (i 0).val < (i 0).val / 480 * 480 + 480; omega
    | ⟨1, _⟩ =>
      show win0_6.index ⟨(i 0).val / 480, _⟩ (1 : Fin 2) * 1024 ≤ (i 1).val
        ∧ (i 1).val < win0_6.index ⟨(i 0).val / 480, _⟩ (1 : Fin 2) * 1024 + 1024
      rw [e1]; omega

/-- The output window's block at point `t`, entry `(r, q)`: row `480 t + r`, column `q` of the array. -/
theorem oblk_apply (t : Fin cfg0.N) (G : Vec F S14400x1024 .f32) (r : Fin 480) (q : Fin 1024) :
    (((cfg0.win 6).blk t).view.read (Elt F) G : Vec F S480x1024 .f32) (ix2 r q)
      = G (ix2 ⟨480 * t.val + r.val, row_lt t r⟩ q) := by
  have hi := block_index t
  rw [View.read_apply]
  show G _ = G _
  congr 1
  funext a
  apply Fin.ext
  match a with
  | ⟨0, _⟩ => show win0_6.index t (0 : Fin 2) * 480 + 1 * r.val = 480 * t.val + r.val; omega
  | ⟨1, _⟩ => show win0_6.index t (1 : Fin 2) * 1024 + 1 * q.val = q.val; omega

/-- So it is enough to know the body's function of a point's six blocks entry by entry: if at every point `t` its
    entry `(r, q)` is `G` at row `480 t + r`, column `q`, the array ends holding `G`. -/
theorem final_of_entries (c : Dev nD) (G : Vec F S14400x1024 .f32)
    (h : ∀ (t : Fin cfg0.N) (r : Fin 480) (q : Fin 1024),
      (bodyVal (iblk m c 0 t) (iblk m c 1 t) (iblk m c 2 t) (iblk m c 3 t) (iblk m c 4 t) (iblk m c 5 t) : Vec F S480x1024 .f32) (ix2 r q)
        = G (ix2 ⟨480 * t.val + r.val, row_lt t r⟩ q)) :
    (dats m 0 c).arrAt 6 cfg0.N = G :=
  final_of_flushed m c G fun t => by
    rw [flushed6_eq]
    refine funext fun (y : S480x1024.Idx) => ?_
    rw [eq_ix2 y]
    exact (h t (y 0) (y 1)).trans (oblk_apply t G (y 0) (y 1)).symm

/-! ## The reshape after the region -/

/-- What the reshape after the region leaves in the program's result buffer: the result array, as the region leaves
    it, reshaped to 16 by 900 by 1024. -/
theorem tail_result (c : Dev nD) (G : Vec F S14400x1024 .f32) (hfin : (dats m 0 c).arrAt 6 cfg0.N = G) :
    Pipeline.afterTail₀ cfgs (dats m) 0 (V0 m) [hostOps1] c main_v38
      = shapeCast S16x900x1024 G shapeCasts_S14400x1024_S16x900x1024 := by
  unfold Pipeline.afterTail₀
  show StableHlo.after hostOps1 _ (Proc.devRef .tc main_v38) = _
  after_results
  rw [Pipeline.withArrays_arr spec0 launch0.win.arr_inj c _ _ 6, hfin]
  rfl

/-! ## The run, read -/

/-- The frame run re-posted: if on every core the result array ends holding `G c`, the program's result is `G c`
    reshaped to 16 by 900 by 1024 (the reshape after the region reads the result array and writes its own buffer),
    and the six argument arrays end as launched. -/
theorem run_of_final (G : Dev nD → Vec F S14400x1024 .f32) (hfin : ∀ c, (dats m 0 c).arrAt 6 cfg0.N = G c) :
    θ_run defs (onTc (τ := τ) (main (F := F))) ⟨m, fun _ => 0, ρ⟩ (fun r => ∀ c : Dev nD,
      r.2.mem ((c.tc : Thread nD τ).loc main_v38) = shapeCast S16x900x1024 (G c) shapeCasts_S14400x1024_S16x900x1024
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).2 main_v38 (Pipeline.mem_restRefs_of main_v38 (by decide) (by decide))).trans (tail_result m c (G c) (hfin c)),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c),
     ((h c).2 main_arg3 (Pipeline.mem_restRefs_of main_arg3 (by decide) (by decide))).trans (W_main_arg3 m (dats m) c),
     ((h c).2 main_arg4 (Pipeline.mem_restRefs_of main_arg4 (by decide) (by decide))).trans (W_main_arg4 m (dats m) c),
     ((h c).2 main_arg5 (Pipeline.mem_restRefs_of main_arg5 (by decide) (by decide))).trans (W_main_arg5 m (dats m) c)⟩)
    (run_main m ρ)

end Cert.KernelIdeal.Hand

end
-- ==== Proof.Spec.lean ====
/-
  The matcher's pairwise cost as ONE function of the flattened inputs, entry by entry.

  For a query row `n` (of the 16·900 = 14400 rows) and a target `t` (of 1024) the cost is
  `5 · L1 + 2 · class + 2 · (−GIoU) + inner`, where
  • `class` is the focal term `¼ (1−p)² (−log (p + ε)) − ¾ p² (−log (1 − p + ε))` at the probability
    `p = σ(logit) · σ(objectness)` of the target's label;
  • both boxes are turned from (cx, cy, w, h) into corners (cx ∓ w/2, cy ∓ h/2); `L1` is the sum over the four
    corners of `max − min` of the two boxes' values (the absolute difference, for finite values);
  • `GIoU = inter / union − (enclose − union) / enclose` with the usual clipped widths;
  • `inner` is 0 when the query's point lies inside the target box (the least of the four signed distances is
    ≥ 0) and 9999 otherwise.
  Everything is stated on the extended reals with the operations the idealized programs use, so each program's
  value is compared with this one function. Float literals stay as the words both programs spell.
-/
import Idealize.ShloMosaic.PureOps.Ideal
import Idealize.ShloMosaic.Lib.ValueIdx

noncomputable section

namespace Cert.Spec

open Idealize.ShloMosaic Idealize.ShloMosaic.ValueIdx

/-! ## Shapes -/

abbrev SN91 : Shape := ⟨2, ![14400, 91]⟩
abbrev SN4 : Shape := ⟨2, ![14400, 4]⟩
abbrev SN2 : Shape := ⟨2, ![14400, 2]⟩
abbrev SN1 : Shape := ⟨2, ![14400, 1]⟩
abbrev ST : Shape := ⟨1, ![1024]⟩
abbrev ST4 : Shape := ⟨2, ![1024, 4]⟩
abbrev SNT : Shape := ⟨2, ![14400, 1024]⟩

/-! ## The literals (as the words the programs spell) -/

abbrev c0 : EReal := Ideal.ofBits .f32 0x00000000#32
abbrev c1 : EReal := Ideal.ofBits .f32 0x3F800000#32
abbrev c2 : EReal := Ideal.ofBits .f32 0x40000000#32
abbrev c5 : EReal := Ideal.ofBits .f32 0x40A00000#32
abbrev cHalf : EReal := Ideal.ofBits .f32 0x3F000000#32
abbrev cQuarter : EReal := Ideal.ofBits .f32 0x3E800000#32
abbrev c3Quarter : EReal := Ideal.ofBits .f32 0x3F400000#32
abbrev cEps : EReal := Ideal.ofBits .f32 0x322BCC77#32
abbrev cBig : EReal := Ideal.ofBits .f32 0x461C3C00#32

/-! ## The class term -/

/-- The probability: the product of the two logistic values. -/
def prob (l o : EReal) : EReal := Ideal.logistic l * Ideal.logistic o

/-- `¾ p² · (0 − log ((1 − p) + ε))`. -/
def negTerm (p : EReal) : EReal := (c3Quarter * (p * p)) * (c0 - Ideal.log ((c1 - p) + cEps))

/-- `¼ (1 − p)² · (0 − log (p + ε))`. -/
def posTerm (p : EReal) : EReal := (cQuarter * ((c1 - p) * (c1 - p))) * (c0 - Ideal.log (p + cEps))

/-- The focal difference. -/
def focal (p : EReal) : EReal := posTerm p - negTerm p

/-! ## The geometric terms, of the eight corners and the point -/

/-- Intersection area: the product of the clipped overlaps on the two axes. -/
def inter (ox0 oy0 ox1 oy1 tx0 ty0 tx1 ty1 : EReal) : EReal :=
  max (min ox1 tx1 - max ox0 tx0) c0 * max (min oy1 ty1 - max oy0 ty0) c0

/-- Union area: the two areas' sum less the intersection. -/
def unionArea (ox0 oy0 ox1 oy1 tx0 ty0 tx1 ty1 : EReal) : EReal :=
  ((ox1 - ox0) * (oy1 - oy0) + (tx1 - tx0) * (ty1 - ty0)) - inter ox0 oy0 ox1 oy1 tx0 ty0 tx1 ty1

/-- Area of the smallest box enclosing both. -/
def enclose (ox0 oy0 ox1 oy1 tx0 ty0 tx1 ty1 : EReal) : EReal :=
  max (max ox1 tx1 - min ox0 tx0) c0 * max (max oy1 ty1 - min oy0 ty0) c0

/-- Generalized IoU. -/
def giou (ox0 oy0 ox1 oy1 tx0 ty0 tx1 ty1 : EReal) : EReal :=
  Ideal.div (inter ox0 oy0 ox1 oy1 tx0 ty0 tx1 ty1) (unionArea ox0 oy0 ox1 oy1 tx0 ty0 tx1 ty1)
    - Ideal.div (enclose ox0 oy0 ox1 oy1 tx0 ty0 tx1 ty1 - unionArea ox0 oy0 ox1 oy1 tx0 ty0 tx1 ty1)
        (enclose ox0 oy0 ox1 oy1 tx0 ty0 tx1 ty1)

/-- The L1 distance of the corners, each `|a − b|` written `max a b − min a b`. -/
def l1 (ox0 oy0 ox1 oy1 tx0 ty0 tx1 ty1 : EReal) : EReal :=
  (((max ox0 tx0 - min ox0 tx0) + (max oy0 ty0 - min oy0 ty0)) + (max ox1 tx1 - min ox1 tx1))
    + (max oy1 ty1 - min oy1 ty1)

/-- The least signed distance of the point to the target box's four sides. -/
def minDist (tx0 ty0 tx1 ty1 px py : EReal) : EReal :=
  min (min (px - tx0) (py - ty0)) (min (tx1 - px) (ty1 - py))

/-- 0 inside the box, 9999 outside. -/
def inner (tx0 ty0 tx1 ty1 px py : EReal) : EReal :=
  Scalar.select (Ideal.cmp .oge (minDist tx0 ty0 tx1 ty1 px py) c0) c0 cBig

/-- The weighted total. -/
def total (bbox cls cg inn : EReal) : EReal := (((c5 * bbox) + (c2 * cls)) + (c2 * cg)) + inn

/-- One entry's cost from the corners, the point and the class term. -/
def pairCost (ox0 oy0 ox1 oy1 tx0 ty0 tx1 ty1 px py cls : EReal) : EReal :=
  total (l1 ox0 oy0 ox1 oy1 tx0 ty0 tx1 ty1) cls (c0 - giou ox0 oy0 ox1 oy1 tx0 ty0 tx1 ty1)
    (inner tx0 ty0 tx1 ty1 px py)

/-! ## The arrays -/

/-- Corner `k` (x0, y0, x1, y1) of row `r` of an array of (cx, cy, w, h) boxes. -/
def corner {R : Nat} (B : FVec Ideal (⟨2, ![R, 4]⟩ : Shape) .f32) (r : Fin R) : Fin 4 → EReal
  | 0 => B (ix2 r 0) - cHalf * B (ix2 r 2)
  | 1 => B (ix2 r 1) - cHalf * B (ix2 r 3)
  | 2 => B (ix2 r 0) + cHalf * B (ix2 r 2)
  | 3 => B (ix2 r 1) + cHalf * B (ix2 r 3)

/-- A target's label as a class index (the labels lie in [0, 91) under the precondition; the remainder only
    makes the definition total). -/
def labIdx (lab : IVec ST 32) (t : Fin 1024) : Fin 91 := ⟨(lab (ix1 t)).toNat % 91, Nat.mod_lt _ (by norm_num)⟩

/-- The class term of row `n` at target `t`'s label. -/
def cls (L : FVec Ideal SN91 .f32) (O : FVec Ideal SN1 .f32) (lab : IVec ST 32) (n : Fin 14400) (t : Fin 1024) : EReal :=
  focal (prob (L (ix2 n (labIdx lab t))) (O (ix2 n 0)))

/-- The cost of row `n` against target `t`. -/
def costAt (L : FVec Ideal SN91 .f32) (B : FVec Ideal SN4 .f32) (P : FVec Ideal SN2 .f32) (O : FVec Ideal SN1 .f32)
    (lab : IVec ST 32) (TB : FVec Ideal ST4 .f32) (n : Fin 14400) (t : Fin 1024) : EReal :=
  pairCost (corner B n 0) (corner B n 1) (corner B n 2) (corner B n 3)
    (corner TB t 0) (corner TB t 1) (corner TB t 2) (corner TB t 3)
    (P (ix2 n 0)) (P (ix2 n 1)) (cls L O lab n t)

/-- The whole flattened cost array. -/
def costFlat (L : FVec Ideal SN91 .f32) (B : FVec Ideal SN4 .f32) (P : FVec Ideal SN2 .f32) (O : FVec Ideal SN1 .f32)
    (lab : IVec ST 32) (TB : FVec Ideal ST4 .f32) : FVec Ideal SNT .f32 :=
  fun j => costAt L B P O lab TB (j 0) (j 1)

theorem costFlat_apply (L : FVec Ideal SN91 .f32) (B : FVec Ideal SN4 .f32) (P : FVec Ideal SN2 .f32) (O : FVec Ideal SN1 .f32)
    (lab : IVec ST 32) (TB : FVec Ideal ST4 .f32) (n : Fin 14400) (t : Fin 1024) :
    costFlat L B P O lab TB (ix2 n t) = costAt L B P O lab TB n t := rfl

/-! ## The hypotheses the two value proofs use -/

/-- Every label is a class index. -/
def LabOk (lab : IVec ST 32) : Prop := ∀ t : Fin 1024, (lab (ix1 t)).toNat < 91

/-- Every entry is a real number. -/
def FinV {S : Shape} (x : FVec Ideal S .f32) : Prop := ∀ i : S.Idx, ∃ r : ℝ, x i = (r : EReal)

end Cert.Spec

end
-- ==== Proof.KIHost.lean ====
/-
  What the host operations before the region leave in the six arrays the region reads.

  The four query arrays are the arguments with their two leading axes merged (16·900 = 14400 rows). The target
  boxes (cx, cy, w, h) become a 4 × 1024 table whose row k is corner k of every target: cx − ½w, cy − ½h,
  cx + ½w, cy + ½h. The label table has a 1 at (k, q) exactly when target q's label word is the word of class k.
-/
import proofs.«419288_j54760833024710_2_alg».proof.Proof.KIArrays
import proofs.«419288_j54760833024710_2_alg».proof.Proof.Spec
import Idealize.ShloMosaic.Lib.StableHlo.Run
import Idealize.ShloMosaic.Lib.StableHlo.Predicate
import Idealize.ShloMosaic.Lib.ValueIdx
import Idealize.ShloMosaic.Lib.Pipeline.Value
import Idealize.ShloMosaic.Lib.ValueLayout

noncomputable section

namespace Cert.KernelIdeal.Hand

open Idealize.ShloMosaic Idealize.ShloMosaic.TcCoe Idealize.ShloMosaic.ValueIdx
open Idealize.SL Idealize.SL.Sem
open Cert.KernelIdeal Cert.KernelIdeal.Gen

/-- Each operation's result read at its own reference, and at any other reference what was there before. -/
local macro "host_reads" : tactic =>
  `(tactic| (repeat (first
               | rw [StableHlo.nullary_result] | rw [StableHlo.unary_result] | rw [StableHlo.binary_result]
               | rw [StableHlo.reshape_result]
               | (rw [StableHlo.nullary_result_ne]; rotate_left; decide)
               | (rw [StableHlo.unary_result_ne]; rotate_left; decide)
               | (rw [StableHlo.binary_result_ne]; rotate_left; decide)
               | (rw [StableHlo.reshape_result_ne]; rotate_left; decide)
               | (rw [StableHlo.nary_result_ne]; rotate_left; decide))))

/-! ## Reads of the layout operations met here, at literal sizes -/

/-- A 1024 × 1 column flattened to a vector reads, at `q`, the column at `(q, 0)`. -/
theorem flatten_col_apply {α : Type} (x : S1024x1.Idx → α) (q : Fin 1024) :
    shapeCast S1024 x shapeCasts_S1024x1_S1024 (ix1 q) = x (ix2 q (0 : Fin 1)) :=
  shapeCast_apply x _ _ _ (by
    rw [Shape.rowMajor_val_two, Shape.rowMajor_val_one]
    show q.val * 1 + 0 = q.val
    omega)

/-- Column `j` of the target boxes, cut out and flattened, reads at `q` the box array at `(q, j)`. -/
theorem box_col_apply (B : FVec Ideal S1024x4 .f32) (o : Nat) (h : S1024x4.Slices ![0, o] S1024x1) (j : Fin 4) (hj : j.val = o)
    (q : Fin 1024) :
    shapeCast S1024 (extractStridedSlice S1024x1 ![0, o] B h) shapeCasts_S1024x1_S1024 (ix1 q) = B (ix2 q j) :=
  (flatten_col_apply _ q).trans (slice2_axis1_apply o B h q (0 : Fin 1) j (by rw [hj]; rfl))

/-- A vector stood up as a 1024 × 1 column reads, at `(q, 0)`, the vector at `q`. -/
theorem stand_col_apply (x : FVec Ideal S1024 .f32) (q : Fin 1024) :
    broadcastInDim S1024x1 ![0] bcast_S1024_S1024x1_0 x (ix2 q (0 : Fin 1)) = x (ix1 q) :=
  broadcastInDim_apply _ _ x _ _ (fun a => match a with | ⟨0, _⟩ => rfl)

/-- Off the column axis, entry `(q, k)` of the table and entry `(q, 0)` of a column have the same coordinate. -/
theorem off_axis (q : Fin 1024) (k : Fin 4) (b : Fin S1024x1.rank) :
    b.cast (rfl : S1024x1.rank = S1024x4.rank) ≠ (1 : Fin 2) →
      ((ix2 q (0 : Fin 1)) b).val = ((ix2 q k) (b.cast (rfl : S1024x1.rank = S1024x4.rank))).val :=
  match b with
  | ⟨0, _⟩ => fun _ => rfl
  | ⟨1, _⟩ => fun h => absurd rfl h

/-! Four columns laid side by side: entry `(q, k)` is column `k` at `(q, 0)`. -/

theorem side_by_side_0 (x0 x1 x2 x3 : FVec Ideal S1024x1 .f32) (q : Fin 1024) (k : Fin 4) (hk : k.val = 0) :
    concatenate S1024x4 1 [⟨S1024x1, x0⟩, ⟨S1024x1, x1⟩, ⟨S1024x1, x2⟩, ⟨S1024x1, x3⟩]
        concatenates_S1024x1_S1024x1_S1024x1_S1024x1_S1024x4_d1 (ix2 q k)
      = x0 (ix2 q (0 : Fin 1)) :=
  concatenate_apply_piece 1 [⟨S1024x1, x0⟩, ⟨S1024x1, x1⟩, ⟨S1024x1, x2⟩, ⟨S1024x1, x3⟩]
    concatenates_S1024x1_S1024x1_S1024x1_S1024x1_S1024x4_d1 (ix2 q k) 0 (by show 0 < 4; omega) S1024x1 x0 rfl rfl 0 rfl
    (ix2 q (0 : Fin 1)) (off_axis q k) (by show 0 + 0 = k.val; omega)

theorem side_by_side_1 (x0 x1 x2 x3 : FVec Ideal S1024x1 .f32) (q : Fin 1024) (k : Fin 4) (hk : k.val = 1) :
    concatenate S1024x4 1 [⟨S1024x1, x0⟩, ⟨S1024x1, x1⟩, ⟨S1024x1, x2⟩, ⟨S1024x1, x3⟩]
        concatenates_S1024x1_S1024x1_S1024x1_S1024x1_S1024x4_d1 (ix2 q k)
      = x1 (ix2 q (0 : Fin 1)) :=
  concatenate_apply_piece 1 [⟨S1024x1, x0⟩, ⟨S1024x1, x1⟩, ⟨S1024x1, x2⟩, ⟨S1024x1, x3⟩]
    concatenates_S1024x1_S1024x1_S1024x1_S1024x1_S1024x4_d1 (ix2 q k) 1 (by show 1 < 4; omega) S1024x1 x1 rfl rfl 1 rfl
    (ix2 q (0 : Fin 1)) (off_axis q k) (by show 1 + 0 = k.val; omega)

theorem side_by_side_2 (x0 x1 x2 x3 : FVec Ideal S1024x1 .f32) (q : Fin 1024) (k : Fin 4) (hk : k.val = 2) :
    concatenate S1024x4 1 [⟨S1024x1, x0⟩, ⟨S1024x1, x1⟩, ⟨S1024x1, x2⟩, ⟨S1024x1, x3⟩]
        concatenates_S1024x1_S1024x1_S1024x1_S1024x1_S1024x4_d1 (ix2 q k)
      = x2 (ix2 q (0 : Fin 1)) :=
  concatenate_apply_piece 1 [⟨S1024x1, x0⟩, ⟨S1024x1, x1⟩, ⟨S1024x1, x2⟩, ⟨S1024x1, x3⟩]
    concatenates_S1024x1_S1024x1_S1024x1_S1024x1_S1024x4_d1 (ix2 q k) 2 (by show 2 < 4; omega) S1024x1 x2 rfl rfl 2 rfl
    (ix2 q (0 : Fin 1)) (off_axis q k) (by show 2 + 0 = k.val; omega)

theorem side_by_side_3 (x0 x1 x2 x3 : FVec Ideal S1024x1 .f32) (q : Fin 1024) (k : Fin 4) (hk : k.val = 3) :
    concatenate S1024x4 1 [⟨S1024x1, x0⟩, ⟨S1024x1, x1⟩, ⟨S1024x1, x2⟩, ⟨S1024x1, x3⟩]
        concatenates_S1024x1_S1024x1_S1024x1_S1024x1_S1024x4_d1 (ix2 q k)
      = x3 (ix2 q (0 : Fin 1)) :=
  concatenate_apply_piece 1 [⟨S1024x1, x0⟩, ⟨S1024x1, x1⟩, ⟨S1024x1, x2⟩, ⟨S1024x1, x3⟩]
    concatenates_S1024x1_S1024x1_S1024x1_S1024x1_S1024x4_d1 (ix2 q k) 3 (by show 3 < 4; omega) S1024x1 x3 rfl rfl 3 rfl
    (ix2 q (0 : Fin 1)) (off_axis q k) (by show 3 + 0 = k.val; omega)

/-- The class numbers 0 … 90 down the rows of the 91 × 1024 table: entry `(k, q)` is the word of `k`. -/
theorem class_rows_apply (k : Fin 91) (q : Fin 1024) :
    broadcastInDim S91x1024 ![0, 1] bcast_S91x1_S91x1024_0_1
        (broadcastInDim S91x1 ![0] bcast_S91_S91x1_0 (iotaInDim S91 32 0)) (ix2 k q) = BitVec.ofNat 32 k.val :=
  (broadcastInDim_apply _ _ _ (ix2 k q) (ix2 k (0 : Fin 1)) (fun a => match a with | ⟨0, _⟩ => rfl | ⟨1, _⟩ => rfl)).trans
    ((broadcastInDim_apply _ _ _ (ix2 k (0 : Fin 1)) (ix1 k) (fun a => match a with | ⟨0, _⟩ => rfl)).trans rfl)

/-- The labels along the columns of the 91 × 1024 table: entry `(k, q)` is target `q`'s label. -/
theorem label_cols_apply (lab : IVec S1024 32) (k : Fin 91) (q : Fin 1024) :
    broadcastInDim S91x1024 ![0, 1] bcast_S1x1024_S91x1024_0_1
        (broadcastInDim S1x1024 ![1] bcast_S1024_S1x1024_1 lab) (ix2 k q) = lab (ix1 q) :=
  (broadcastInDim_apply _ _ _ (ix2 k q) (ix2 (0 : Fin 1) q) (fun a => match a with | ⟨0, _⟩ => rfl | ⟨1, _⟩ => rfl)).trans
    (broadcastInDim_apply _ _ lab (ix2 (0 : Fin 1) q) (ix1 q) (fun a => match a with | ⟨0, _⟩ => rfl))

/-- A bit turned into a float is 1 or 0; for the bit of a word equality, 1 exactly when the words agree. -/
theorem eq_bit_float (a b : BitVec 32) :
    FloatOps.uitofp (F := Ideal) .bf16 (IntOp.cmpi .eq a b) = if a = b then (1 : EReal) else 0 := by
  by_cases h : a = b
  · rw [if_pos h, StableHlo.Predicate.cmpi_eq_iff.2 h]
    show (((1#1 : BitVec 1).toNat : ℝ) : EReal) = 1
    simp
  · rw [if_neg h, eq_zero_of_ne_one (mt StableHlo.Predicate.cmpi_eq_iff.1 h)]
    show (((0#1 : BitVec 1).toNat : ℝ) : EReal) = 0
    simp

variable (m : (ℓ : Loc nD τ sig) → Buf (Elt Ideal) ℓ)

/-! ## The four query arrays: the arguments with the two leading axes merged -/

theorem V_v0 (c : Dev nD) : V (F := Ideal) m c main_v0
    = shapeCast S14400x91 (m ((c : Thread nD τ).loc main_arg0)) shapeCasts_S16x900x91_S14400x91 := by
  dsimp only [V, V0]
  simp only [hostOps0, List.flatten_cons, List.flatten_nil, List.append_nil, List.cons_append, List.nil_append]
  after_results_simp
  rfl

theorem V_v1 (c : Dev nD) : V (F := Ideal) m c main_v1
    = shapeCast S14400x4 (m ((c : Thread nD τ).loc main_arg1)) shapeCasts_S16x900x4_S14400x4 := by
  dsimp only [V, V0]
  simp only [hostOps0, List.flatten_cons, List.flatten_nil, List.append_nil, List.cons_append, List.nil_append]
  after_results_simp
  rfl

theorem V_v2 (c : Dev nD) : V (F := Ideal) m c main_v2
    = shapeCast S14400x2 (m ((c : Thread nD τ).loc main_arg2)) shapeCasts_S16x900x2_S14400x2 := by
  dsimp only [V, V0]
  simp only [hostOps0, List.flatten_cons, List.flatten_nil, List.append_nil, List.cons_append, List.nil_append]
  after_results_simp
  rfl

theorem V_v3 (c : Dev nD) : V (F := Ideal) m c main_v3
    = shapeCast S14400x1 (m ((c : Thread nD τ).loc main_arg3)) shapeCasts_S16x900x1_S14400x1 := by
  dsimp only [V, V0]
  simp only [hostOps0, List.flatten_cons, List.flatten_nil, List.append_nil, List.cons_append, List.nil_append]
  after_results_simp
  rfl

/-! ## The corner table: row k is corner k of every target -/

/-- Row 0 of the corner table: cx − ½w. -/
theorem V_v29_row0 (c : Dev nD) (q : Fin 1024) :
    (V (F := Ideal) m c main_v29 : FVec Ideal S4x1024 .f32) (ix2 (0 : Fin 4) q)
      = Cert.Spec.corner (m ((c : Thread nD τ).loc main_arg5) : FVec Ideal S1024x4 .f32) q (0 : Fin 4) := by
  dsimp only [V, V0]
  simp only [hostOps0, List.flatten_cons, List.flatten_nil, List.append_nil, List.cons_append, List.nil_append]
  after_results_simp
  refine (transpose_ix2_apply _ _ (0 : Fin 4) q).trans ?_
  refine (side_by_side_0 _ _ _ _ q _ rfl).trans ?_
  dsimp only [Matrix.cons_val]
  host_reads
  refine (stand_col_apply _ q).trans ?_
  exact congrArg₂ (fun a b : EReal => a - Cert.Spec.cHalf * b) (box_col_apply _ 0 _ 0 rfl q) (box_col_apply _ 2 _ 2 rfl q)

/-- Row 1 of the corner table: cy − ½h. -/
theorem V_v29_row1 (c : Dev nD) (q : Fin 1024) :
    (V (F := Ideal) m c main_v29 : FVec Ideal S4x1024 .f32) (ix2 (1 : Fin 4) q)
      = Cert.Spec.corner (m ((c : Thread nD τ).loc main_arg5) : FVec Ideal S1024x4 .f32) q (1 : Fin 4) := by
  dsimp only [V, V0]
  simp only [hostOps0, List.flatten_cons, List.flatten_nil, List.append_nil, List.cons_append, List.nil_append]
  after_results_simp
  refine (transpose_ix2_apply _ _ (1 : Fin 4) q).trans ?_
  refine (side_by_side_1 _ _ _ _ q _ rfl).trans ?_
  dsimp only [Matrix.cons_val]
  host_reads
  refine (stand_col_apply _ q).trans ?_
  exact congrArg₂ (fun a b : EReal => a - Cert.Spec.cHalf * b) (box_col_apply _ 1 _ 1 rfl q) (box_col_apply _ 3 _ 3 rfl q)

/-- Row 2 of the corner table: cx + ½w. -/
theorem V_v29_row2 (c : Dev nD) (q : Fin 1024) :
    (V (F := Ideal) m c main_v29 : FVec Ideal S4x1024 .f32) (ix2 (2 : Fin 4) q)
      = Cert.Spec.corner (m ((c : Thread nD τ).loc main_arg5) : FVec Ideal S1024x4 .f32) q (2 : Fin 4) := by
  dsimp only [V, V0]
  simp only [hostOps0, List.flatten_cons, List.flatten_nil, List.append_nil, List.cons_append, List.nil_append]
  after_results_simp
  refine (transpose_ix2_apply _ _ (2 : Fin 4) q).trans ?_
  refine (side_by_side_2 _ _ _ _ q _ rfl).trans ?_
  dsimp only [Matrix.cons_val]
  host_reads
  refine (stand_col_apply _ q).trans ?_
  exact congrArg₂ (fun a b : EReal => a + Cert.Spec.cHalf * b) (box_col_apply _ 0 _ 0 rfl q) (box_col_apply _ 2 _ 2 rfl q)

/-- Row 3 of the corner table: cy + ½h. -/
theorem V_v29_row3 (c : Dev nD) (q : Fin 1024) :
    (V (F := Ideal) m c main_v29 : FVec Ideal S4x1024 .f32) (ix2 (3 : Fin 4) q)
      = Cert.Spec.corner (m ((c : Thread nD τ).loc main_arg5) : FVec Ideal S1024x4 .f32) q (3 : Fin 4) := by
  dsimp only [V, V0]
  simp only [hostOps0, List.flatten_cons, List.flatten_nil, List.append_nil, List.cons_append, List.nil_append]
  after_results_simp
  refine (transpose_ix2_apply _ _ (3 : Fin 4) q).trans ?_
  refine (side_by_side_3 _ _ _ _ q _ rfl).trans ?_
  dsimp only [Matrix.cons_val]
  host_reads
  refine (stand_col_apply _ q).trans ?_
  exact congrArg₂ (fun a b : EReal => a + Cert.Spec.cHalf * b) (box_col_apply _ 1 _ 1 rfl q) (box_col_apply _ 3 _ 3 rfl q)

theorem V_v29_apply (c : Dev nD) (k : Fin 4) (q : Fin 1024) :
    (V (F := Ideal) m c main_v29 : FVec Ideal S4x1024 .f32) (ix2 k q)
      = Cert.Spec.corner (m ((c : Thread nD τ).loc main_arg5) : FVec Ideal S1024x4 .f32) q k :=
  match k with
  | ⟨0, _⟩ => V_v29_row0 m c q
  | ⟨1, _⟩ => V_v29_row1 m c q
  | ⟨2, _⟩ => V_v29_row2 m c q
  | ⟨3, _⟩ => V_v29_row3 m c q

/-! ## The label table: 1 where the target's label is the row's class -/

theorem V_v36_apply (c : Dev nD) (k : Fin 91) (q : Fin 1024) :
    (V (F := Ideal) m c main_v36 : Vec Ideal S91x1024 .bf16) (ix2 k q)
      = if BitVec.ofNat 32 k.val = (m ((c : Thread nD τ).loc main_arg4) : IVec S1024 32) (ix1 q) then (1 : EReal) else 0 := by
  dsimp only [V, V0]
  simp only [hostOps0, List.flatten_cons, List.flatten_nil, List.append_nil, List.cons_append, List.nil_append]
  after_results_simp
  refine (congrArg₂ (fun a b : BitVec 32 => FloatOps.uitofp (F := Ideal) .bf16 (IntOp.cmpi .eq a b))
    (class_rows_apply k q) (label_cols_apply _ k q)).trans ?_
  exact eq_bit_float _ _

end Cert.KernelIdeal.Hand

end
-- ==== Proof.SpecLemmas.lean ====
/-
  Scalar facts about the specification's functions on the extended reals: what the float literals denote,
  that the class term of real inputs is a real number, and the laws joining the reference's spellings
  (a square as a power, a negation, a spelled-out logistic, an absolute difference, a four-term sum,
  a 0/1 selection) to the specification's.
-/
import proofs.«419288_j54760833024710_2_alg».proof.Proof.Spec
import Idealize.ShloMosaic.PureOps.Ideal
import Mathlib.Data.EReal.Basic
import Mathlib.Data.EReal.Operations
import Mathlib.Data.EReal.Inv
import Mathlib.Analysis.SpecialFunctions.Pow.Real
import Mathlib.Analysis.SpecialFunctions.Log.Basic
import Mathlib.Algebra.BigOperators.Fin

noncomputable section

namespace Cert.Spec

open Idealize.ShloMosaic Idealize.ShloMosaic.ValueIdx

/-! ## What the literals denote -/

theorem c0_eq : c0 = 0 := by
  simp [Ideal.ofBits, Ideal.ieee]

theorem c1_eq : c1 = 1 := by
  simp [Ideal.ofBits, Ideal.ieee, -EReal.coe_mul]; norm_num

theorem c2_eq : c2 = ((2 : ℝ) : EReal) := by
  simp [Ideal.ofBits, Ideal.ieee, -EReal.coe_mul]; norm_num

theorem c5_eq : c5 = ((5 : ℝ) : EReal) := by
  simp [Ideal.ofBits, Ideal.ieee, -EReal.coe_mul]; norm_num

theorem cHalf_eq : cHalf = ((1 / 2 : ℝ) : EReal) := by
  simp [Ideal.ofBits, Ideal.ieee, -EReal.coe_mul]; norm_num

theorem cQuarter_eq : cQuarter = ((1 / 4 : ℝ) : EReal) := by
  simp [Ideal.ofBits, Ideal.ieee, -EReal.coe_mul]; norm_num

theorem c3Quarter_eq : c3Quarter = ((3 / 4 : ℝ) : EReal) := by
  simp [Ideal.ofBits, Ideal.ieee, -EReal.coe_mul]; norm_num

theorem cBig_eq : cBig = ((9999 : ℝ) : EReal) := by
  simp [Ideal.ofBits, Ideal.ieee, -EReal.coe_mul]; norm_num

/-- The small offset inside the logarithms: the significand 11258999 at the binary exponent −50. -/
theorem cEps_eq : cEps = ((11258999 / 2 ^ 50 : ℝ) : EReal) := by
  simp [Ideal.ofBits, Ideal.ieee, -EReal.coe_mul]; norm_num

theorem cEps_pos : ∃ e : ℝ, 0 < e ∧ cEps = (e : EReal) :=
  ⟨11258999 / 2 ^ 50, by positivity, cEps_eq⟩

theorem cHalf_real : ∃ h : ℝ, cHalf = (h : EReal) := ⟨_, cHalf_eq⟩
theorem cQuarter_real : ∃ h : ℝ, cQuarter = (h : EReal) := ⟨_, cQuarter_eq⟩
theorem c3Quarter_real : ∃ h : ℝ, c3Quarter = (h : EReal) := ⟨_, c3Quarter_eq⟩
theorem c5_real : ∃ h : ℝ, c5 = (h : EReal) := ⟨_, c5_eq⟩
theorem cBig_real : ∃ h : ℝ, cBig = (h : EReal) := ⟨_, cBig_eq⟩

/-! ## The class term of real inputs is a real number -/

/-- The logistic value of a real is the real `(1 + e^(−x))⁻¹`, strictly between 0 and 1. -/
theorem logistic_real (x : ℝ) : ∃ s : ℝ, 0 < s ∧ s < 1 ∧ Ideal.logistic (x : EReal) = (s : EReal) := by
  have hexp := Real.exp_pos (-x)
  refine ⟨(1 + Real.exp (-x))⁻¹, by positivity, ?_, Ideal.logistic_coe x⟩
  exact inv_lt_one_of_one_lt₀ (by linarith)

/-- The product of two logistic values is again strictly between 0 and 1. -/
theorem prob_real (l o : ℝ) : ∃ p : ℝ, 0 < p ∧ p < 1 ∧ prob (l : EReal) (o : EReal) = (p : EReal) := by
  obtain ⟨s, hs0, hs1, hs⟩ := logistic_real l
  obtain ⟨u, hu0, hu1, hu⟩ := logistic_real o
  refine ⟨s * u, by positivity, by nlinarith, ?_⟩
  rw [prob, hs, hu, EReal.coe_mul]

/-- For `0 < p < 1` both logarithms are taken of positive reals, so the focal difference is real. -/
theorem focal_real (p : ℝ) (h0 : 0 < p) (h1 : p < 1) : ∃ d : ℝ, focal (p : EReal) = (d : EReal) := by
  obtain ⟨e, he, hE⟩ := cEps_pos
  have hl1 : Ideal.log ((p : EReal) + cEps) = ((Real.log (p + e) : ℝ) : EReal) := by
    rw [hE, ← EReal.coe_add, Ideal.log_coe, if_neg (not_le.mpr (by linarith))]
  have hl2 : Ideal.log ((c1 - (p : EReal)) + cEps) = ((Real.log (1 - p + e) : ℝ) : EReal) := by
    rw [c1_eq, hE, ← EReal.coe_one, ← EReal.coe_sub, ← EReal.coe_add, Ideal.log_coe,
      if_neg (not_le.mpr (by linarith))]
  refine ⟨(1 / 4 * ((1 - p) * (1 - p))) * (0 - Real.log (p + e))
      - (3 / 4 * (p * p)) * (0 - Real.log (1 - p + e)), ?_⟩
  rw [focal, posTerm, negTerm, hl1, hl2, c0_eq, c1_eq, cQuarter_eq, c3Quarter_eq]
  norm_cast

theorem focal_prob_real (l o : ℝ) : ∃ d : ℝ, focal (prob (l : EReal) (o : EReal)) = (d : EReal) := by
  obtain ⟨p, h0, h1, hp⟩ := prob_real l o
  rw [hp]
  exact focal_real p h0 h1

theorem sub_self_real (d : ℝ) : (d : EReal) - (d : EReal) = 0 := by
  rw [← EReal.coe_sub, sub_self, EReal.coe_zero]

/-! ## The reference's spellings against the specification's -/

/-- A real raised to the power 2 is its square. -/
theorem pow_two_real (p : ℝ) : Ideal.pow (p : EReal) c2 = (p : EReal) * (p : EReal) := by
  rw [c2_eq, Ideal.pow_coe_coe, ← EReal.coe_mul]
  congr 1
  show p ^ (2 : ℝ) = p * p
  rw [Real.rpow_two, sq]

/-- Negation is subtraction from zero. -/
theorem neg_eq_zero_sub (x : EReal) : -x = c0 - x := by
  rw [c0_eq, sub_eq_add_neg, zero_add]

/-- The logistic function is by definition `1 / (1 + e^(−x))`. -/
theorem logistic_spelled (x : EReal) : Ideal.div c1 (c1 + Ideal.exp (-x)) = Ideal.logistic x := by
  rw [c1_eq]; rfl

/-- The absolute value `max d (−d)` of a difference of reals is the larger less the smaller. -/
theorem abs_eq_max_sub_min (a b : ℝ) :
    max ((a : EReal) - (b : EReal)) (-((a : EReal) - (b : EReal))) = max (a : EReal) (b : EReal) - min (a : EReal) (b : EReal) := by
  rcases le_total a b with h | h
  · have h' : (a : EReal) ≤ (b : EReal) := EReal.coe_le_coe_iff.mpr h
    rw [max_eq_right h', min_eq_left h', ← EReal.coe_sub, ← EReal.coe_sub, ← EReal.coe_neg,
      max_eq_right (EReal.coe_le_coe_iff.mpr (by linarith))]
    congr 1; ring
  · have h' : (b : EReal) ≤ (a : EReal) := EReal.coe_le_coe_iff.mpr h
    rw [max_eq_left h', min_eq_right h', ← EReal.coe_sub, ← EReal.coe_neg,
      max_eq_left (EReal.coe_le_coe_iff.mpr (by linarith))]

/-- The same with the absolute value named by the float operation. -/
theorem absf_eq_max_sub_min (a b : ℝ) :
    FloatOps.absf (F := Ideal) (φ := .f32) ((a : EReal) - (b : EReal)) = max (a : EReal) (b : EReal) - min (a : EReal) (b : EReal) :=
  abs_eq_max_sub_min a b

/-- The same with the absolute value named by the host's float operation. -/
theorem hostAbsf_eq_max_sub_min (a b : ℝ) :
    FloatOps.hostAbsf (F := Ideal) (φ := .f32) ((a : EReal) - (b : EReal)) = max (a : EReal) (b : EReal) - min (a : EReal) (b : EReal) :=
  abs_eq_max_sub_min a b

/-- A four-term sum started from zero and nested to the right is the sum nested to the left. -/
theorem l1_sum (a0 a1 a2 a3 : EReal) : c0 + (a0 + (a1 + (a2 + a3))) = ((a0 + a1) + a2) + a3 := by
  rw [c0_eq, zero_add, add_assoc, add_assoc]

/-- A sum over the four coordinates, started from zero, is the left-nested sum of the four entries. -/
theorem l1_sum_fin (f : Fin 4 → EReal) : c0 + ∑ k : Fin 4, f k = ((f 0 + f 1) + f 2) + f 3 := by
  rw [c0_eq, zero_add, Fin.sum_univ_four]

theorem sum_fin_four (f : Fin 4 → EReal) : ∑ k : Fin 4, f k = ((f 0 + f 1) + f 2) + f 3 :=
  Fin.sum_univ_four f

/-- `9999 · (1 − [b])` is 0 for the bit 1 and 9999 for the bit 0. -/
theorem inner_spelled (b : BitVec 1) :
    cBig * (c1 - (if b = 1#1 then (1 : EReal) else 0)) = Scalar.select b c0 cBig := by
  by_cases h : b = 1#1
  · subst h
    rw [select_one, if_pos rfl, c1_eq, c0_eq, ← EReal.coe_one, sub_self_real, mul_zero]
  · have h0 : b = 0#1 := eq_zero_of_ne_one h
    subst h0
    rw [select_zero, if_neg (by decide), c1_eq, sub_zero, mul_one]

/-- The same with the bit read as the real number 0 or 1. -/
theorem inner_spelled_toNat (b : BitVec 1) :
    cBig * (c1 - (((b.toNat : ℝ)) : EReal)) = Scalar.select b c0 cBig := by
  rw [← inner_spelled]
  by_cases h : b = 1#1
  · subst h; simp
  · have h0 : b = 0#1 := eq_zero_of_ne_one h
    subst h0; simp

/-- The same with the bit converted by the float conversion of unsigned words. -/
theorem inner_spelled_uitofp (b : BitVec 1) :
    cBig * (c1 - FloatOps.uitofp (F := Ideal) .f32 b) = Scalar.select b c0 cBig :=
  inner_spelled_toNat b

theorem max_zero_comm (x : EReal) : max c0 x = max x c0 := max_comm _ _

/-- A sum against a 0/1 indicator keeps the indicated entry. -/
theorem onehot_sum {K : Type} [Fintype K] [DecidableEq K] (f : K → EReal) (k0 : K) :
    (∑ k, f k * (if k = k0 then (1 : EReal) else 0)) = f k0 := by
  simp [mul_ite, Finset.sum_ite_eq']

theorem zero_sum {K : Type} [Fintype K] (g : K → EReal) : (∑ k : K, (0 : EReal) * g k) = 0 := by
  simp

/-! ## Corners of a real array are real -/

theorem corner_real {R : Nat} (B : FVec Ideal (⟨2, ![R, 4]⟩ : Shape) .f32) (hB : FinV B) (r : Fin R) (k : Fin 4) :
    ∃ a : ℝ, corner B r k = (a : EReal) := by
  obtain ⟨h, hh⟩ := cHalf_real
  obtain ⟨x0, hx0⟩ := hB (ix2 r 0)
  obtain ⟨x1, hx1⟩ := hB (ix2 r 1)
  obtain ⟨x2, hx2⟩ := hB (ix2 r 2)
  obtain ⟨x3, hx3⟩ := hB (ix2 r 3)
  fin_cases k
  · exact ⟨x0 - h * x2, by show B (ix2 r 0) - cHalf * B (ix2 r 2) = _; rw [hx0, hx2, hh]; norm_cast⟩
  · exact ⟨x1 - h * x3, by show B (ix2 r 1) - cHalf * B (ix2 r 3) = _; rw [hx1, hx3, hh]; norm_cast⟩
  · exact ⟨x0 + h * x2, by show B (ix2 r 0) + cHalf * B (ix2 r 2) = _; rw [hx0, hx2, hh]; norm_cast⟩
  · exact ⟨x1 + h * x3, by show B (ix2 r 1) + cHalf * B (ix2 r 3) = _; rw [hx1, hx3, hh]; norm_cast⟩

/-! ## A label word below 91 -/

/-- A word below 91 reads the same signed and unsigned. -/
theorem lab_toInt (w : BitVec 32) (hw : w.toNat < 91) : w.toInt = (w.toNat : ℤ) := by
  rw [BitVec.toInt_eq_toNat_cond, if_pos (by omega)]

/-- Read signed, clamped into `[0, 90]` and taken as a natural number, such a word is itself. -/
theorem lab_clamp (w : BitVec 32) (hw : w.toNat < 91) : min w.toInt.toNat (91 - 1) = w.toNat := by
  rw [lab_toInt w hw, Int.toNat_natCast]; omega

theorem lab_clamp' (w : BitVec 32) (hw : w.toNat < 91) : min w.toInt.toNat 90 = w.toNat :=
  lab_clamp w hw

/-- The test "label < 0" is false. -/
theorem lab_slt_zero (w : BitVec 32) (hw : w.toNat < 91) : IntOp.cmpi .slt w 0#32 = 0#1 := by
  have h : w.slt 0#32 = false := by
    show decide (w.toInt < (0#32).toInt) = false
    rw [lab_toInt w hw]; simp
  simp [IntOp.cmpi, h]

/-- The test "label ≥ 0" is true. -/
theorem lab_sge_zero (w : BitVec 32) (hw : w.toNat < 91) : IntOp.cmpi .sge w 0#32 = 1#1 := by
  have h : (0#32).sle w = true := by
    show decide ((0#32).toInt ≤ w.toInt) = true
    rw [lab_toInt w hw]; simp
  simp [IntOp.cmpi, h]

/-- The test "label ≤ 90" is true. -/
theorem lab_sle_90 (w : BitVec 32) (hw : w.toNat < 91) : IntOp.cmpi .sle w 90#32 = 1#1 := by
  have h : w.sle 90#32 = true := by
    show decide (w.toInt ≤ (90#32).toInt) = true
    rw [lab_toInt w hw]
    have : (90#32 : BitVec 32).toInt = 90 := by decide
    rw [this]; simp; omega
  simp [IntOp.cmpi, h]

/-- Both range tests together. -/
theorem lab_inrange (w : BitVec 32) (hw : w.toNat < 91) :
    IntOp.andi (IntOp.cmpi .sge w 0#32) (IntOp.cmpi .sle w 90#32) = 1#1 := by
  rw [lab_sge_zero w hw, lab_sle_90 w hw]; decide

/-- The wrap-around of a negative index leaves such a word alone. -/
theorem lab_norm (w : BitVec 32) (hw : w.toNat < 91) (y : BitVec 32) :
    Scalar.select (IntOp.cmpi .slt w 0#32) y w = w := by
  rw [lab_slt_zero w hw, select_zero]

/-- The class whose number, as a word, is the label is the label's class index. -/
theorem lab_eq_iff (w : BitVec 32) (hw : w.toNat < 91) (k : Fin 91) :
    BitVec.ofNat 32 k.val = w ↔ k = ⟨w.toNat % 91, Nat.mod_lt _ (by norm_num)⟩ := by
  have hk := k.isLt
  constructor
  · intro h
    apply Fin.ext
    show k.val = w.toNat % 91
    rw [Nat.mod_eq_of_lt hw, ← h, BitVec.toNat_ofNat]
    exact (Nat.mod_eq_of_lt (by omega)).symm
  · intro h
    have hkw : k.val = w.toNat := by rw [h]; exact Nat.mod_eq_of_lt hw
    apply BitVec.eq_of_toNat_eq
    rw [BitVec.toNat_ofNat, hkw]
    exact Nat.mod_eq_of_lt (by omega)

theorem lab_cmpi_eq (w : BitVec 32) (hw : w.toNat < 91) (k : Fin 91) :
    IntOp.cmpi .eq (BitVec.ofNat 32 k.val) w
      = if k = ⟨w.toNat % 91, Nat.mod_lt _ (by norm_num)⟩ then 1#1 else 0#1 := by
  by_cases h : k = ⟨w.toNat % 91, Nat.mod_lt _ (by norm_num)⟩
  · rw [if_pos h]
    have := (lab_eq_iff w hw k).mpr h
    simp [IntOp.cmpi, this]
  · rw [if_neg h]
    have hne : ¬ BitVec.ofNat 32 k.val = w := fun e => h ((lab_eq_iff w hw k).mp e)
    have hb : (BitVec.ofNat 32 k.val == w) = false := beq_eq_false_iff_ne.mpr hne
    simp [IntOp.cmpi, hb]

theorem lab_cmpi_eq_one_iff (w : BitVec 32) (hw : w.toNat < 91) (k : Fin 91) :
    IntOp.cmpi .eq (BitVec.ofNat 32 k.val) w = 1#1 ↔ k = ⟨w.toNat % 91, Nat.mod_lt _ (by norm_num)⟩ := by
  rw [lab_cmpi_eq w hw k]
  by_cases h : k = ⟨w.toNat % 91, Nat.mod_lt _ (by norm_num)⟩
  · simp [h]
  · simp [h]

theorem lab_cmpi_eq_zero_iff (w : BitVec 32) (hw : w.toNat < 91) (k : Fin 91) :
    IntOp.cmpi .eq (BitVec.ofNat 32 k.val) w = 0#1 ↔ k ≠ ⟨w.toNat % 91, Nat.mod_lt _ (by norm_num)⟩ := by
  rw [lab_cmpi_eq w hw k]
  by_cases h : k = ⟨w.toNat % 91, Nat.mod_lt _ (by norm_num)⟩
  · simp [h]
  · simp [h]

/-- The comparison with the operands the other way round. -/
theorem lab_cmpi_eq_symm (w : BitVec 32) (hw : w.toNat < 91) (k : Fin 91) :
    IntOp.cmpi .eq w (BitVec.ofNat 32 k.val)
      = if k = ⟨w.toNat % 91, Nat.mod_lt _ (by norm_num)⟩ then 1#1 else 0#1 := by
  rw [← lab_cmpi_eq w hw k]
  show BitVec.ofBool (w == BitVec.ofNat 32 k.val) = BitVec.ofBool (BitVec.ofNat 32 k.val == w)
  rw [BEq.comm]

/-- A bit converted to a float is the number 1 or 0. -/
theorem uitofp_bit (φ : FTy) (b : BitVec 1) :
    FloatOps.uitofp (F := Ideal) φ b = if b = 1#1 then (1 : EReal) else 0 := by
  show ((b.toNat : ℝ) : EReal) = _
  by_cases h : b = 1#1
  · subst h; simp
  · have h0 : b = 0#1 := eq_zero_of_ne_one h
    subst h0; simp

/-- An entry of the 0/1 label table: the indicator of the label's class. -/
theorem onehot_entry (φ : FTy) (w : BitVec 32) (hw : w.toNat < 91) (k : Fin 91) :
    FloatOps.uitofp (F := Ideal) φ (IntOp.cmpi .eq (BitVec.ofNat 32 k.val) w)
      = if k = ⟨w.toNat % 91, Nat.mod_lt _ (by norm_num)⟩ then (1 : EReal) else 0 := by
  rw [uitofp_bit, lab_cmpi_eq w hw k]
  by_cases h : k = ⟨w.toNat % 91, Nat.mod_lt _ (by norm_num)⟩
  · simp [h]
  · simp [h]

/-- Under the label hypothesis the class index of a target is its label word's number. -/
theorem labIdx_val (lab : IVec ST 32) (hlab : LabOk lab) (t : Fin 1024) :
    (labIdx lab t).val = (lab (ix1 t)).toNat :=
  Nat.mod_eq_of_lt (hlab t)

/-! ## Real entries through a re-indexing -/

theorem finV_shapeCast {S T : Shape} (x : FVec Ideal S .f32) (h : S.ShapeCasts T) (hx : FinV x) :
    FinV (shapeCast T x h) :=
  fun j => hx (Shape.reshapeEquiv h j)

end Cert.Spec

end
-- ==== Proof.KIPayload.lean ====
/-
  The block the kernel body stores, read at one index, at the ideal values.

  Every piece of the body is a short chain of entrywise operations, spreads of a column over the 1024 targets or
  of a row over the 480 query rows, and cuts of one column or one row. Read at `(r, q)` each geometric piece is
  the specification's function of the same meaning, of the query box's four corners, the target's four corners
  and the query's point: the intersection and the two areas' sum, the enclosing area, −GIoU, the corner distance,
  the inside test, and the weighted total.

  The class term is a sum of two products with the 0/1 label table `T`:
  `Σ_k d(r,k) · T(k,q) + Σ_k (d(r,k) − d(r,k)) · T(k,q)`, with `d` the focal difference of every class. For real
  logits and objectness every `d(r,k)` is a real number, so the second sum is a sum of zeros, and in the first each
  product with a 0/1 entry is the entry-selected value: the sum over the 91 classes is `d(r, label q)`.
-/
import proofs.«419288_j54760833024710_2_alg».proof.Proof.KIBody
import proofs.«419288_j54760833024710_2_alg».proof.Proof.Spec
import proofs.«419288_j54760833024710_2_alg».proof.Proof.SpecLemmas
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Hand

open Cert.KernelIdeal Cert.KernelIdeal.Gen Cert.Spec Idealize.ShloMosaic Idealize.ShloMosaic.ValueIdx

/-! ## Layout reads -/

/-- A column `[a, 1]` broadcast to `[a, b]` reads, at `(p, c)`, the column's entry at row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A 480-column spread over the 1024 targets reads its row's entry. -/
theorem colB (v : FVec Ideal S480x1 .f32) (r : Fin 480) (q : Fin 1024) :
    broadcastTo S480x1024 v broadcasts_S480x1_S480x1024 (ix2 r q) = v (ix2 r (0 : Fin 1)) :=
  broadcastTo_a1_ab_apply v _ r q

/-- A 1024-row spread over the 480 query rows reads its column's entry. -/
theorem rowB (v : FVec Ideal S1x1024 .f32) (r : Fin 480) (q : Fin 1024) :
    broadcastTo S480x1024 v broadcasts_S1x1024_S480x1024 (ix2 r q) = v (ix2 (0 : Fin 1) q) :=
  broadcastTo_1b_ab_apply v _ r q

/-- A 480-column spread over the 91 classes reads its row's entry. -/
theorem colB91 (v : FVec Ideal S480x1 .f32) (r : Fin 480) (k : Fin 91) :
    broadcastTo S480x91 v broadcasts_S480x1_S480x91 (ix2 r k) = v (ix2 r (0 : Fin 1)) :=
  broadcastTo_a1_ab_apply v _ r k

/-! ## The loaded blocks pass through their casts unchanged -/

theorem pay2_eq (x : FVec Ideal S480x4 .f32) : k0_pay2 x = x := shapeCast_self x _
theorem pay3_eq (x : FVec Ideal S480x2 .f32) : k0_pay3 x = x := shapeCast_self x _
theorem pay4_eq (x : FVec Ideal S4x1024 .f32) : k0_pay4 x = x := shapeCast_self x _
theorem pay5_eq (x : FVec Ideal S91x1024 .bf16) : k0_pay5 x = x := shapeCast_self x _

/-! ## The four columns of the boxes and the four rows of the targets -/

theorem pay10_apply (v : FVec Ideal S480x4 .f32) (r : Fin 480) : k0_pay10 v (ix2 r (0 : Fin 1)) = v (ix2 r (0 : Fin 4)) :=
  slice2_axis1_apply 0 v slices_S480x4_o0_0_S480x1 r 0 0 rfl
theorem pay11_apply (v : FVec Ideal S480x4 .f32) (r : Fin 480) : k0_pay11 v (ix2 r (0 : Fin 1)) = v (ix2 r (1 : Fin 4)) :=
  slice2_axis1_apply 1 v slices_S480x4_o0_1_S480x1 r 0 1 rfl
theorem pay12_apply (v : FVec Ideal S480x4 .f32) (r : Fin 480) : k0_pay12 v (ix2 r (0 : Fin 1)) = v (ix2 r (2 : Fin 4)) :=
  slice2_axis1_apply 2 v slices_S480x4_o0_2_S480x1 r 0 2 rfl
theorem pay13_apply (v : FVec Ideal S480x4 .f32) (r : Fin 480) : k0_pay13 v (ix2 r (0 : Fin 1)) = v (ix2 r (3 : Fin 4)) :=
  slice2_axis1_apply 3 v slices_S480x4_o0_3_S480x1 r 0 3 rfl

theorem pay18_apply (v : FVec Ideal S4x1024 .f32) (q : Fin 1024) : k0_pay18 v (ix2 (0 : Fin 1) q) = v (ix2 (0 : Fin 4) q) :=
  slice2_axis0_apply 0 v slices_S4x1024_o0_0_S1x1024 0 q 0 rfl
theorem pay19_apply (v : FVec Ideal S4x1024 .f32) (q : Fin 1024) : k0_pay19 v (ix2 (0 : Fin 1) q) = v (ix2 (1 : Fin 4) q) :=
  slice2_axis0_apply 1 v slices_S4x1024_o1_0_S1x1024 0 q 1 rfl
theorem pay20_apply (v : FVec Ideal S4x1024 .f32) (q : Fin 1024) : k0_pay20 v (ix2 (0 : Fin 1) q) = v (ix2 (2 : Fin 4) q) :=
  slice2_axis0_apply 2 v slices_S4x1024_o2_0_S1x1024 0 q 2 rfl
theorem pay21_apply (v : FVec Ideal S4x1024 .f32) (q : Fin 1024) : k0_pay21 v (ix2 (0 : Fin 1) q) = v (ix2 (3 : Fin 4) q) :=
  slice2_axis0_apply 3 v slices_S4x1024_o3_0_S1x1024 0 q 3 rfl

/-! ## The query box's corners -/

theorem pay14_apply (v : FVec Ideal S480x4 .f32) (r : Fin 480) : k0_pay14 v (ix2 r (0 : Fin 1)) = corner v r 0 := by
  show k0_pay10 v (ix2 r (0 : Fin 1)) - cHalf * k0_pay12 v (ix2 r (0 : Fin 1)) = _
  rw [pay10_apply, pay12_apply]; rfl
theorem pay15_apply (v : FVec Ideal S480x4 .f32) (r : Fin 480) : k0_pay15 v (ix2 r (0 : Fin 1)) = corner v r 1 := by
  show k0_pay11 v (ix2 r (0 : Fin 1)) - cHalf * k0_pay13 v (ix2 r (0 : Fin 1)) = _
  rw [pay11_apply, pay13_apply]; rfl
theorem pay16_apply (v : FVec Ideal S480x4 .f32) (r : Fin 480) : k0_pay16 v (ix2 r (0 : Fin 1)) = corner v r 2 := by
  show k0_pay10 v (ix2 r (0 : Fin 1)) + cHalf * k0_pay12 v (ix2 r (0 : Fin 1)) = _
  rw [pay10_apply, pay12_apply]; rfl
theorem pay17_apply (v : FVec Ideal S480x4 .f32) (r : Fin 480) : k0_pay17 v (ix2 r (0 : Fin 1)) = corner v r 3 := by
  show k0_pay11 v (ix2 r (0 : Fin 1)) + cHalf * k0_pay13 v (ix2 r (0 : Fin 1)) = _
  rw [pay11_apply, pay13_apply]; rfl

/-! ## The pairwise extremes of the corners -/

theorem pay28_apply (a : FVec Ideal S480x1 .f32) (b : FVec Ideal S1x1024 .f32) (r : Fin 480) (q : Fin 1024) :
    k0_pay28 a b (ix2 r q) = min (a (ix2 r (0 : Fin 1))) (b (ix2 (0 : Fin 1) q)) :=
  congrArg₂ min (colB a r q) (rowB b r q)
theorem pay29_apply (a : FVec Ideal S480x1 .f32) (b : FVec Ideal S1x1024 .f32) (r : Fin 480) (q : Fin 1024) :
    k0_pay29 a b (ix2 r q) = min (a (ix2 r (0 : Fin 1))) (b (ix2 (0 : Fin 1) q)) :=
  congrArg₂ min (colB a r q) (rowB b r q)
theorem pay30_apply (a : FVec Ideal S480x1 .f32) (b : FVec Ideal S1x1024 .f32) (r : Fin 480) (q : Fin 1024) :
    k0_pay30 a b (ix2 r q) = max (a (ix2 r (0 : Fin 1))) (b (ix2 (0 : Fin 1) q)) :=
  congrArg₂ max (colB a r q) (rowB b r q)
theorem pay31_apply (a : FVec Ideal S480x1 .f32) (b : FVec Ideal S1x1024 .f32) (r : Fin 480) (q : Fin 1024) :
    k0_pay31 a b (ix2 r q) = max (a (ix2 r (0 : Fin 1))) (b (ix2 (0 : Fin 1) q)) :=
  congrArg₂ max (colB a r q) (rowB b r q)

theorem pay22_apply (x : FVec Ideal S480x4 .f32) (t : FVec Ideal S4x1024 .f32) (r : Fin 480) (q : Fin 1024) :
    k0_pay22 x t (ix2 r q) = max (corner x r 0) (t (ix2 (0 : Fin 4) q)) :=
  (congrArg₂ max (colB (k0_pay14 x) r q) (rowB (k0_pay18 t) r q)).trans
    (congrArg₂ max (pay14_apply x r) (pay18_apply t q))
theorem pay23_apply (x : FVec Ideal S480x4 .f32) (t : FVec Ideal S4x1024 .f32) (r : Fin 480) (q : Fin 1024) :
    k0_pay23 x t (ix2 r q) = max (corner x r 1) (t (ix2 (1 : Fin 4) q)) :=
  (congrArg₂ max (colB (k0_pay15 x) r q) (rowB (k0_pay19 t) r q)).trans
    (congrArg₂ max (pay15_apply x r) (pay19_apply t q))
theorem pay24_apply (x : FVec Ideal S480x4 .f32) (t : FVec Ideal S4x1024 .f32) (r : Fin 480) (q : Fin 1024) :
    k0_pay24 x t (ix2 r q) = min (corner x r 2) (t (ix2 (2 : Fin 4) q)) :=
  (congrArg₂ min (colB (k0_pay16 x) r q) (rowB (k0_pay20 t) r q)).trans
    (congrArg₂ min (pay16_apply x r) (pay20_apply t q))
theorem pay25_apply (x : FVec Ideal S480x4 .f32) (t : FVec Ideal S4x1024 .f32) (r : Fin 480) (q : Fin 1024) :
    k0_pay25 x t (ix2 r q) = min (corner x r 3) (t (ix2 (3 : Fin 4) q)) :=
  (congrArg₂ min (colB (k0_pay17 x) r q) (rowB (k0_pay21 t) r q)).trans
    (congrArg₂ min (pay17_apply x r) (pay21_apply t q))

/-! ## Intersection area, and the two areas' sum -/

theorem pay26_apply (x : FVec Ideal S480x4 .f32) (t : FVec Ideal S4x1024 .f32) (r : Fin 480) (q : Fin 1024) :
    k0_pay26 x t (ix2 r q)
      = Spec.inter (corner x r 0) (corner x r 1) (corner x r 2) (corner x r 3)
          (t (ix2 (0 : Fin 4) q)) (t (ix2 (1 : Fin 4) q)) (t (ix2 (2 : Fin 4) q)) (t (ix2 (3 : Fin 4) q)) := by
  show max (k0_pay24 x t (ix2 r q) - k0_pay22 x t (ix2 r q)) c0 * max (k0_pay25 x t (ix2 r q) - k0_pay23 x t (ix2 r q)) c0 = _
  rw [pay22_apply, pay23_apply, pay24_apply, pay25_apply]; rfl

theorem pay27_apply (x : FVec Ideal S480x4 .f32) (t : FVec Ideal S4x1024 .f32) (r : Fin 480) (q : Fin 1024) :
    k0_pay27 x t (ix2 r q)
      = (corner x r 2 - corner x r 0) * (corner x r 3 - corner x r 1)
        + (t (ix2 (2 : Fin 4) q) - t (ix2 (0 : Fin 4) q)) * (t (ix2 (3 : Fin 4) q) - t (ix2 (1 : Fin 4) q)) := by
  unfold k0_pay27
  refine (congrArg₂ (· + ·) (colB _ r q) (rowB _ r q)).trans ?_
  show (k0_pay16 x (ix2 r (0 : Fin 1)) - k0_pay14 x (ix2 r (0 : Fin 1))) * (k0_pay17 x (ix2 r (0 : Fin 1)) - k0_pay15 x (ix2 r (0 : Fin 1)))
      + (k0_pay20 t (ix2 (0 : Fin 1) q) - k0_pay18 t (ix2 (0 : Fin 1) q)) * (k0_pay21 t (ix2 (0 : Fin 1) q) - k0_pay19 t (ix2 (0 : Fin 1) q)) = _
  rw [pay14_apply, pay15_apply, pay16_apply, pay17_apply, pay18_apply, pay19_apply, pay20_apply, pay21_apply]

/-! ## −GIoU, the corner distance, the inside test: over the pieces they read -/

theorem pay32_apply (a0 a1 a2 a3 : FVec Ideal S480x1 .f32) (b0 b1 b2 b3 : FVec Ideal S1x1024 .f32)
    (I A : FVec Ideal S480x1024 .f32) (r : Fin 480) (q : Fin 1024) :
    k0_pay32 a0 a1 a2 a3 b0 b1 b2 b3 I A (ix2 r q)
      = c0 - (Ideal.div (I (ix2 r q)) (A (ix2 r q) - I (ix2 r q))
          - Ideal.div
              (max (max (a2 (ix2 r (0 : Fin 1))) (b2 (ix2 (0 : Fin 1) q)) - min (a0 (ix2 r (0 : Fin 1))) (b0 (ix2 (0 : Fin 1) q))) c0
                  * max (max (a3 (ix2 r (0 : Fin 1))) (b3 (ix2 (0 : Fin 1) q)) - min (a1 (ix2 r (0 : Fin 1))) (b1 (ix2 (0 : Fin 1) q))) c0
                - (A (ix2 r q) - I (ix2 r q)))
              (max (max (a2 (ix2 r (0 : Fin 1))) (b2 (ix2 (0 : Fin 1) q)) - min (a0 (ix2 r (0 : Fin 1))) (b0 (ix2 (0 : Fin 1) q))) c0
                  * max (max (a3 (ix2 r (0 : Fin 1))) (b3 (ix2 (0 : Fin 1) q)) - min (a1 (ix2 r (0 : Fin 1))) (b1 (ix2 (0 : Fin 1) q))) c0)) := by
  show c0 - (Ideal.div (I (ix2 r q)) (A (ix2 r q) - I (ix2 r q))
          - Ideal.div
              (max (k0_pay30 a2 b2 (ix2 r q) - k0_pay28 a0 b0 (ix2 r q)) c0 * max (k0_pay31 a3 b3 (ix2 r q) - k0_pay29 a1 b1 (ix2 r q)) c0
                - (A (ix2 r q) - I (ix2 r q)))
              (max (k0_pay30 a2 b2 (ix2 r q) - k0_pay28 a0 b0 (ix2 r q)) c0 * max (k0_pay31 a3 b3 (ix2 r q) - k0_pay29 a1 b1 (ix2 r q)) c0)) = _
  rw [pay28_apply, pay29_apply, pay30_apply, pay31_apply]

theorem pay33_apply (a0 a1 a2 a3 : FVec Ideal S480x1 .f32) (b0 b1 b2 b3 : FVec Ideal S1x1024 .f32)
    (M0 M1 m2 m3 : FVec Ideal S480x1024 .f32) (r : Fin 480) (q : Fin 1024) :
    k0_pay33 a0 a1 a2 a3 b0 b1 b2 b3 M0 M1 m2 m3 (ix2 r q)
      = (((M0 (ix2 r q) - min (a0 (ix2 r (0 : Fin 1))) (b0 (ix2 (0 : Fin 1) q)))
            + (M1 (ix2 r q) - min (a1 (ix2 r (0 : Fin 1))) (b1 (ix2 (0 : Fin 1) q))))
          + (max (a2 (ix2 r (0 : Fin 1))) (b2 (ix2 (0 : Fin 1) q)) - m2 (ix2 r q)))
        + (max (a3 (ix2 r (0 : Fin 1))) (b3 (ix2 (0 : Fin 1) q)) - m3 (ix2 r q)) := by
  show (((M0 (ix2 r q) - k0_pay28 a0 b0 (ix2 r q)) + (M1 (ix2 r q) - k0_pay29 a1 b1 (ix2 r q)))
          + (k0_pay30 a2 b2 (ix2 r q) - m2 (ix2 r q)))
        + (k0_pay31 a3 b3 (ix2 r q) - m3 (ix2 r q)) = _
  rw [pay28_apply, pay29_apply, pay30_apply, pay31_apply]

/-- A column of the 480×2 points. -/
theorem ptx_apply (p : FVec Ideal S480x2 .f32) (r : Fin 480) :
    extractStridedSlice S480x1 ![0, 0] p slices_S480x2_o0_0_S480x1 (ix2 r (0 : Fin 1)) = p (ix2 r (0 : Fin 2)) :=
  slice2_axis1_apply 0 p slices_S480x2_o0_0_S480x1 r 0 0 rfl
theorem pty_apply (p : FVec Ideal S480x2 .f32) (r : Fin 480) :
    extractStridedSlice S480x1 ![0, 1] p slices_S480x2_o0_1_S480x1 (ix2 r (0 : Fin 1)) = p (ix2 r (1 : Fin 2)) :=
  slice2_axis1_apply 1 p slices_S480x2_o0_1_S480x1 r 0 1 rfl

theorem pay34_apply (p : FVec Ideal S480x2 .f32) (b0 b1 b2 b3 : FVec Ideal S1x1024 .f32) (r : Fin 480) (q : Fin 1024) :
    k0_pay34 p b0 b1 b2 b3 (ix2 r q)
      = Ideal.cmp .oge (minDist (b0 (ix2 (0 : Fin 1) q)) (b1 (ix2 (0 : Fin 1) q)) (b2 (ix2 (0 : Fin 1) q)) (b3 (ix2 (0 : Fin 1) q))
          (p (ix2 r (0 : Fin 2))) (p (ix2 r (1 : Fin 2)))) c0 := by
  unfold k0_pay34
  refine (cmpf_apply (F := Ideal) .oge _ _ (ix2 r q)).trans ?_
  refine congrArg₂ (Ideal.cmp .oge) ?_ rfl
  refine congrArg₂ min (congrArg₂ min ?_ ?_) (congrArg₂ min ?_ ?_)
  · exact congrArg₂ (· - ·) ((colB _ r q).trans (ptx_apply p r)) (rowB b0 r q)
  · exact congrArg₂ (· - ·) ((colB _ r q).trans (pty_apply p r)) (rowB b1 r q)
  · exact congrArg₂ (· - ·) (rowB b2 r q) ((colB _ r q).trans (ptx_apply p r))
  · exact congrArg₂ (· - ·) (rowB b3 r q) ((colB _ r q).trans (pty_apply p r))

/-! ## The weighted total -/

theorem pay1_apply (cl g l : FVec Ideal S480x1024 .f32) (c : IVec S480x1024 1) (z big : FVec Ideal S480x1024 .f32)
    (j : S480x1024.Idx) :
    k0_pay1 cl g l c z big j = total (l j) (cl j) (g j) (Scalar.select (c j) (z j) (big j)) := rfl

theorem pay35_apply (j : S480x1024.Idx) : (k0_pay35 (F := Ideal)) j = c0 := rfl
theorem pay36_apply (j : S480x1024.Idx) : (k0_pay36 (F := Ideal)) j = cBig := rfl

/-! ## The focal difference of every class -/

/-- The probability block at `(r, k)`: the logit's logistic value times the row's objectness logistic value. -/
theorem probBlock_apply (l : FVec Ideal S480x91 .f32) (o : FVec Ideal S480x1 .f32) (r : Fin 480) (k : Fin 91) :
    mulf (logistic (shapeCast S480x91 l shapeCasts_S480x91_S480x91))
        (broadcastTo S480x91 (logistic (shapeCast S480x1 o shapeCasts_S480x1_S480x1)) broadcasts_S480x1_S480x91) (ix2 r k)
      = prob (l (ix2 r k)) (o (ix2 r (0 : Fin 1))) := by
  refine (mulf_apply _ _ (ix2 r k)).trans ?_
  rw [colB91, shapeCast_self, shapeCast_self]; rfl

theorem pay6_apply (l : Vec Ideal S480x91 .f32) (o : Vec Ideal S480x1 .f32) (r : Fin 480) (k : Fin 91) :
    k0_pay6 (F := Ideal) l o (ix2 r k) = focal (prob (l (ix2 r k)) (o (ix2 r (0 : Fin 1)))) := by
  rw [← probBlock_apply l o r k]
  unfold k0_pay6
  generalize mulf (F := Ideal) (logistic (shapeCast S480x91 (l : FVec Ideal S480x91 .f32) shapeCasts_S480x91_S480x91))
        (broadcastTo S480x91 (logistic (F := Ideal) (shapeCast S480x1 (o : FVec Ideal S480x1 .f32) shapeCasts_S480x1_S480x1))
          broadcasts_S480x1_S480x91) = P
  rfl

/-! ## The product with the label table -/

theorem lhs_dot_0 (j : S480x1024.Idx) (c : dot_S480x91_S91x1024_S480x1024_1_0_0_1_n_n.contr.Idx) :
    (dot_S480x91_S91x1024_S480x1024_1_0_0_1_n_n.lhsIdx j c 0).val = (j 0).val := by
  simp [DotDims.lhsIdx, dot_S480x91_S91x1024_S480x1024_1_0_0_1_n_n]; rfl
theorem lhs_dot_1 (j : S480x1024.Idx) (c : dot_S480x91_S91x1024_S480x1024_1_0_0_1_n_n.contr.Idx) :
    (dot_S480x91_S91x1024_S480x1024_1_0_0_1_n_n.lhsIdx j c 1).val = (c ⟨0, by decide⟩).val :=
  DotDims.lhsIdx_val_of_single _ rfl j c
theorem rhs_dot_0 (j : S480x1024.Idx) (c : dot_S480x91_S91x1024_S480x1024_1_0_0_1_n_n.contr.Idx) :
    (dot_S480x91_S91x1024_S480x1024_1_0_0_1_n_n.rhsIdx j c 0).val = (c ⟨0, by decide⟩).val :=
  DotDims.rhsIdx_val_of_single _ rfl j c
theorem rhs_dot_1 (j : S480x1024.Idx) (c : dot_S480x91_S91x1024_S480x1024_1_0_0_1_n_n.contr.Idx) :
    (dot_S480x91_S91x1024_S480x1024_1_0_0_1_n_n.rhsIdx j c 1).val = (j 1).val := by
  simp [DotDims.rhsIdx, dot_S480x91_S91x1024_S480x1024_1_0_0_1_n_n]; rfl

/-- The 480×91 by 91×1024 product into the zero block, read at `(r, q)`: the sum over the 91 classes. -/
theorem matmul_read {φ₁ φ₂ : FTy} (A : FVec Ideal S480x91 φ₁) (B : FVec Ideal S91x1024 φ₂) (r : Fin 480) (q : Fin 1024) :
    matmul dot_S480x91_S91x1024_S480x1024_1_0_0_1_n_n none A B (constant (F := Ideal) S480x1024 .f32 0x00000000#32) (ix2 r q)
      = ∑ k : Fin 91, A (ix2 r k) * B (ix2 k q) := by
  refine (Ideal.matmul_constant_zero_apply dot_S480x91_S91x1024_S480x1024_1_0_0_1_n_n none A B (ix2 r q)).trans ?_
  rw [← Equiv.sum_comp (contrEquiv1 dot_S480x91_S91x1024_S480x1024_1_0_0_1_n_n 91 rfl rfl).symm]
  refine Finset.sum_congr rfl fun k _ => ?_
  have ck := contrEquiv1_symm_val dot_S480x91_S91x1024_S480x1024_1_0_0_1_n_n 91 rfl rfl k
  have hl : dot_S480x91_S91x1024_S480x1024_1_0_0_1_n_n.lhsIdx (ix2 r q)
      ((contrEquiv1 dot_S480x91_S91x1024_S480x1024_1_0_0_1_n_n 91 rfl rfl).symm k) = ix2 r k := by
    funext ax; apply Fin.ext
    match ax with
    | ⟨0, _⟩ => exact lhs_dot_0 _ _
    | ⟨1, _⟩ => exact (lhs_dot_1 _ _).trans ck
  have hr : dot_S480x91_S91x1024_S480x1024_1_0_0_1_n_n.rhsIdx (ix2 r q)
      ((contrEquiv1 dot_S480x91_S91x1024_S480x1024_1_0_0_1_n_n 91 rfl rfl).symm k) = ix2 k q := by
    funext ax; apply Fin.ext
    match ax with
    | ⟨0, _⟩ => exact (rhs_dot_0 _ _).trans ck
    | ⟨1, _⟩ => exact rhs_dot_1 _ _
  rw [hl, hr]

/-! ## The class term: the table keeps the label's focal difference -/

/-- The two products' sum, over the difference block `d` when every entry of it is real: the entry at the label. -/
theorem pay9_apply (T : FVec Ideal S91x1024 .bf16) (l : Vec Ideal S480x91 .f32) (o : Vec Ideal S480x1 .f32)
    (lab : Fin 1024 → Fin 91)
    (hd : ∀ (r : Fin 480) (k : Fin 91), ∃ a : ℝ, k0_pay6 (F := Ideal) l o (ix2 r k) = (a : EReal))
    (hT : ∀ (k : Fin 91) (q : Fin 1024), T (ix2 k q) = if k = lab q then (1 : EReal) else 0)
    (r : Fin 480) (q : Fin 1024) :
    k0_pay9 T (k0_pay7 (F := Ideal) l o) (k0_pay8 (F := Ideal) l o) (ix2 r q) = k0_pay6 (F := Ideal) l o (ix2 r (lab q)) := by
  unfold k0_pay9
  refine (addf_apply _ _ (ix2 r q)).trans ?_
  rw [matmul_read, matmul_read]
  have h1 : (∑ k : Fin 91, k0_pay7 (F := Ideal) l o (ix2 r k) * T (ix2 k q)) = k0_pay6 (F := Ideal) l o (ix2 r (lab q)) := by
    refine Eq.trans (Finset.sum_congr rfl fun k _ => ?_) (onehot_sum (fun k : Fin 91 => k0_pay6 (F := Ideal) l o (ix2 r k)) (lab q))
    rw [hT k q]; rfl
  have h2 : (∑ k : Fin 91, truncf (F := Ideal) .bf16 (k0_pay8 (F := Ideal) l o) bitsLt_bf16_f32 (ix2 r k) * T (ix2 k q)) = 0 := by
    refine Eq.trans (Finset.sum_congr rfl fun k _ => ?_) (zero_sum (fun k : Fin 91 => T (ix2 k q)))
    obtain ⟨a, ha⟩ := hd r k
    have : truncf (F := Ideal) .bf16 (k0_pay8 (F := Ideal) l o) bitsLt_bf16_f32 (ix2 r k) = 0 := by
      show k0_pay6 (F := Ideal) l o (ix2 r k) - k0_pay6 (F := Ideal) l o (ix2 r k) = 0
      rw [ha]; exact sub_self_real a
    rw [this]
  rw [h1, h2, add_zero]

/-! ## The stored block at an index -/

/-- The stored block at `(r, q)` is the specification's cost of query row `r` against target `q`: every geometric
    piece reads as the specification's function of the corners and the point, and the product with the 0/1 label
    table keeps, of the 91 real focal differences of the row, the one at the target's label. -/
theorem bodyVal_apply (x0 : Vec Ideal S480x91 .f32) (x1 : Vec Ideal S480x4 .f32) (x2 : Vec Ideal S480x2 .f32) (x3 : Vec Ideal S480x1 .f32) (x4 : Vec Ideal S4x1024 .f32) (x5 : Vec Ideal S91x1024 .bf16)
    (lab : Fin 1024 → Fin 91)
    (hx0 : ∀ i, ∃ a : ℝ, x0 i = (a : EReal)) (hx3 : ∀ i, ∃ a : ℝ, x3 i = (a : EReal))
    (hx5 : ∀ (k : Fin 91) (q : Fin 1024), x5 (ix2 k q) = if k = lab q then (1 : EReal) else 0)
    (r : Fin 480) (q : Fin 1024) :
    bodyVal (F := Ideal) x0 x1 x2 x3 x4 x5 (ix2 r q)
      = pairCost (corner x1 r 0) (corner x1 r 1) (corner x1 r 2) (corner x1 r 3)
          (x4 (ix2 0 q)) (x4 (ix2 1 q)) (x4 (ix2 2 q)) (x4 (ix2 3 q))
          (x2 (ix2 r 0)) (x2 (ix2 r 1)) (focal (prob (x0 (ix2 r (lab q))) (x3 (ix2 r 0)))) := by
  have hd : ∀ (r : Fin 480) (k : Fin 91), ∃ a : ℝ, k0_pay6 (F := Ideal) x0 x3 (ix2 r k) = (a : EReal) := fun r k => by
    obtain ⟨a, ha⟩ := hx0 (ix2 r k)
    obtain ⟨b, hb⟩ := hx3 (ix2 r (0 : Fin 1))
    rw [pay6_apply, ha, hb]
    exact focal_prob_real a b
  unfold bodyVal
  rw [pay1_apply, pay2_eq x1, pay3_eq x2, pay4_eq x4, pay5_eq x5, pay9_apply x5 x0 x3 lab hd hx5, pay6_apply,
    pay32_apply, pay33_apply, pay34_apply, pay35_apply, pay36_apply, pay26_apply, pay27_apply,
    pay22_apply, pay23_apply, pay24_apply, pay25_apply,
    pay14_apply, pay15_apply, pay16_apply, pay17_apply, pay18_apply, pay19_apply, pay20_apply, pay21_apply]
  rfl

end Cert.KernelIdeal.Hand

end
-- ==== Proof.KIValue.lean ====
/-
  The idealized kernel's value: after the run the result array holds the specification's cost array.

  Point t of the grid writes rows 480 t … 480 t + 479. Its entry (r, q) is the body's function of the six blocks;
  the query blocks are rows 480 t + r of the reshaped arguments, the corner block is the table of the targets'
  corners, and the label block has its 1 in column q at the row of target q's class. So the entry is the
  specification's cost of row 480 t + r against target q, and the thirty blocks make up the whole array.
-/
import proofs.«419288_j54760833024710_2_alg».proof.Proof.KIBlocks
import proofs.«419288_j54760833024710_2_alg».proof.Proof.KIHost
import proofs.«419288_j54760833024710_2_alg».proof.Proof.KIPayload
import proofs.«419288_j54760833024710_2_alg».proof.Proof.Spec
import proofs.«419288_j54760833024710_2_alg».proof.Proof.SpecLemmas
import Idealize.ShloMosaic.Lib.Pipeline.Value

noncomputable section

namespace Cert.KernelIdeal.Hand

open Idealize.ShloMosaic Idealize.ShloMosaic.TcCoe Idealize.SL.Sem Idealize.ShloMosaic.ValueIdx
open Cert.KernelIdeal Cert.KernelIdeal.Gen Cert.Spec

/-! ## One entry, over any blocks that are the right rows -/

/-- A box's corners depend only on its row: equal rows give equal corners. -/
theorem corner_of_row (X : FVec Ideal S480x4 .f32) (Y : FVec Ideal S14400x4 .f32) (r : Fin 480) (n : Fin 14400)
    (h : ∀ j : Fin 4, X (ix2 r j) = Y (ix2 n j)) (k : Fin 4) : corner X r k = corner Y n k :=
  match k with
  | ⟨0, _⟩ => by show X (ix2 r 0) - cHalf * X (ix2 r 2) = Y (ix2 n 0) - cHalf * Y (ix2 n 2); rw [h, h]
  | ⟨1, _⟩ => by show X (ix2 r 1) - cHalf * X (ix2 r 3) = Y (ix2 n 1) - cHalf * Y (ix2 n 3); rw [h, h]
  | ⟨2, _⟩ => by show X (ix2 r 0) + cHalf * X (ix2 r 2) = Y (ix2 n 0) + cHalf * Y (ix2 n 2); rw [h, h]
  | ⟨3, _⟩ => by show X (ix2 r 1) + cHalf * X (ix2 r 3) = Y (ix2 n 1) + cHalf * Y (ix2 n 3); rw [h, h]

/-- If row `r` of the four query blocks is row `n` of the query arrays, the corner block is the table of the
    targets' corners and the label block marks each target's label word, then the body's entry `(r, q)` is the
    cost of row `n` against target `q`. -/
theorem entry_of_rows (L : FVec Ideal S14400x91 .f32) (B : FVec Ideal S14400x4 .f32) (P : FVec Ideal S14400x2 .f32)
    (O : FVec Ideal S14400x1 .f32) (lab : IVec S1024 32) (TB : FVec Ideal S1024x4 .f32)
    (x0 : Vec Ideal S480x91 .f32) (x1 : Vec Ideal S480x4 .f32) (x2 : Vec Ideal S480x2 .f32) (x3 : Vec Ideal S480x1 .f32)
    (x4 : Vec Ideal S4x1024 .f32) (x5 : Vec Ideal S91x1024 .bf16) (n : Fin 14400) (r : Fin 480) (q : Fin 1024)
    (h0 : ∀ j : Fin 91, x0 (ix2 r j) = L (ix2 n j)) (h1 : ∀ j : Fin 4, x1 (ix2 r j) = B (ix2 n j))
    (h2 : ∀ j : Fin 2, x2 (ix2 r j) = P (ix2 n j)) (h3 : ∀ j : Fin 1, x3 (ix2 r j) = O (ix2 n j))
    (h4 : ∀ (k : Fin 4) (q : Fin 1024), x4 (ix2 k q) = corner TB q k)
    (h5 : ∀ (k : Fin 91) (q : Fin 1024), x5 (ix2 k q) = if BitVec.ofNat 32 k.val = lab (ix1 q) then (1 : EReal) else 0)
    (hx0 : ∀ i, ∃ a : ℝ, x0 i = (a : EReal)) (hx3 : ∀ i, ∃ a : ℝ, x3 i = (a : EReal)) (hlab : LabOk lab) :
    bodyVal (F := Ideal) x0 x1 x2 x3 x4 x5 (ix2 r q) = costFlat L B P O lab TB (ix2 n q) := by
  have hx5 : ∀ (k : Fin 91) (q : Fin 1024), x5 (ix2 k q) = if k = labIdx lab q then (1 : EReal) else 0 := fun k q => by
    rw [h5 k q]
    exact if_congr (lab_eq_iff (lab (ix1 q)) (hlab q) k) rfl rfl
  rw [bodyVal_apply x0 x1 x2 x3 x4 x5 (labIdx lab) hx0 hx3 hx5 r q, costFlat_apply]
  unfold costAt cls
  rw [corner_of_row x1 B r n h1 0, corner_of_row x1 B r n h1 1, corner_of_row x1 B r n h1 2, corner_of_row x1 B r n h1 3,
    h4 0 q, h4 1 q, h4 2 q, h4 3 q, h2 0, h2 1, h0 (labIdx lab q), h3 0]

/-! ## The entries of the kernel's blocks -/

variable (m : (ℓ : Loc nD τ sig) → Buf (Elt Ideal) ℓ) (ρ : Dev nD → PrngReg)

/-- The specification's cost array of core `c`'s arguments. -/
abbrev costOf (c : Dev nD) : FVec Ideal S14400x1024 .f32 :=
  costFlat (shapeCast S14400x91 (m ((c.tc : Thread nD τ).loc main_arg0)) shapeCasts_S16x900x91_S14400x91)
    (shapeCast S14400x4 (m ((c.tc : Thread nD τ).loc main_arg1)) shapeCasts_S16x900x4_S14400x4)
    (shapeCast S14400x2 (m ((c.tc : Thread nD τ).loc main_arg2)) shapeCasts_S16x900x2_S14400x2)
    (shapeCast S14400x1 (m ((c.tc : Thread nD τ).loc main_arg3)) shapeCasts_S16x900x1_S14400x1)
    (m ((c.tc : Thread nD τ).loc main_arg4)) (m ((c.tc : Thread nD τ).loc main_arg5))

/-- Entry `(r, q)` of the block point `t` writes is the cost of row `480 t + r` against target `q`. -/
theorem entry_eq (c : Dev nD)
    (hL : FinV (S := S16x900x91) (m ((c.tc : Thread nD τ).loc main_arg0)))
    (hO : FinV (S := S16x900x1) (m ((c.tc : Thread nD τ).loc main_arg3)))
    (hlab : LabOk (m ((c.tc : Thread nD τ).loc main_arg4)))
    (t : Fin cfg0.N) (r : Fin 480) (q : Fin 1024) :
    (bodyVal (iblk m c 0 t) (iblk m c 1 t) (iblk m c 2 t) (iblk m c 3 t) (iblk m c 4 t) (iblk m c 5 t) : Vec Ideal S480x1024 .f32) (ix2 r q)
      = costOf m c (ix2 ⟨480 * t.val + r.val, row_lt t r⟩ q) := by
  have h0 : ∀ (r' : Fin 480) (j : Fin 91), (iblk m c 0 t : Vec Ideal S480x91 .f32) (ix2 r' j)
      = shapeCast S14400x91 (m ((c.tc : Thread nD τ).loc main_arg0)) shapeCasts_S16x900x91_S14400x91 (ix2 ⟨480 * t.val + r'.val, row_lt t r'⟩ j) :=
    fun r' j => by rw [iblk0_apply m c t r' j, V_v0 m c]
  have h1 : ∀ j : Fin 4, (iblk m c 1 t : Vec Ideal S480x4 .f32) (ix2 r j)
      = shapeCast S14400x4 (m ((c.tc : Thread nD τ).loc main_arg1)) shapeCasts_S16x900x4_S14400x4 (ix2 ⟨480 * t.val + r.val, row_lt t r⟩ j) :=
    fun j => by rw [iblk1_apply m c t r j, V_v1 m c]
  have h2 : ∀ j : Fin 2, (iblk m c 2 t : Vec Ideal S480x2 .f32) (ix2 r j)
      = shapeCast S14400x2 (m ((c.tc : Thread nD τ).loc main_arg2)) shapeCasts_S16x900x2_S14400x2 (ix2 ⟨480 * t.val + r.val, row_lt t r⟩ j) :=
    fun j => by rw [iblk2_apply m c t r j, V_v2 m c]
  have h3 : ∀ (r' : Fin 480) (j : Fin 1), (iblk m c 3 t : Vec Ideal S480x1 .f32) (ix2 r' j)
      = shapeCast S14400x1 (m ((c.tc : Thread nD τ).loc main_arg3)) shapeCasts_S16x900x1_S14400x1 (ix2 ⟨480 * t.val + r'.val, row_lt t r'⟩ j) :=
    fun r' j => by rw [iblk3_apply m c t r' j, V_v3 m c]
  have h4 : ∀ (k : Fin 4) (q : Fin 1024), (iblk m c 4 t : Vec Ideal S4x1024 .f32) (ix2 k q)
      = corner (m ((c.tc : Thread nD τ).loc main_arg5) : FVec Ideal S1024x4 .f32) q k :=
    fun k q => by rw [iblk4_eq m c t]; exact V_v29_apply m c k q
  have h5 : ∀ (k : Fin 91) (q : Fin 1024), (iblk m c 5 t : Vec Ideal S91x1024 .bf16) (ix2 k q)
      = if BitVec.ofNat 32 k.val = (m ((c.tc : Thread nD τ).loc main_arg4) : IVec S1024 32) (ix1 q) then (1 : EReal) else 0 :=
    fun k q => by rw [iblk5_eq m c t]; exact V_v36_apply m c k q
  have hx0 : ∀ i : S480x91.Idx, ∃ a : ℝ, (iblk m c 0 t : Vec Ideal S480x91 .f32) i = (a : EReal) := fun i => by
    obtain ⟨a, ha⟩ := finV_shapeCast _ shapeCasts_S16x900x91_S14400x91 hL (ix2 ⟨480 * t.val + (i 0).val, row_lt t (i 0)⟩ (i 1))
    exact ⟨a, ((congrArg (iblk m c 0 t : Vec Ideal S480x91 .f32) (eq_ix2 i)).trans (h0 (i 0) (i 1))).trans ha⟩
  have hx3 : ∀ i : S480x1.Idx, ∃ a : ℝ, (iblk m c 3 t : Vec Ideal S480x1 .f32) i = (a : EReal) := fun i => by
    obtain ⟨a, ha⟩ := finV_shapeCast _ shapeCasts_S16x900x1_S14400x1 hO (ix2 ⟨480 * t.val + (i 0).val, row_lt t (i 0)⟩ (i 1))
    exact ⟨a, ((congrArg (iblk m c 3 t : Vec Ideal S480x1 .f32) (eq_ix2 i)).trans (h3 (i 0) (i 1))).trans ha⟩
  exact entry_of_rows _ _ _ _ _ _ (iblk m c 0 t) (iblk m c 1 t) (iblk m c 2 t) (iblk m c 3 t) (iblk m c 4 t) (iblk m c 5 t)
    ⟨480 * t.val + r.val, row_lt t r⟩ r q (h0 r) h1 h2 (h3 r) h4 h5 hx0 hx3 hlab

/-! ## The run -/

theorem run_value
    (hL : ∀ c : Dev nD, FinV (S := S16x900x91) (m ((c.tc : Thread nD τ).loc main_arg0)))
    (hO : ∀ c : Dev nD, FinV (S := S16x900x1) (m ((c.tc : Thread nD τ).loc main_arg3)))
    (hlab : ∀ c : Dev nD, LabOk (m ((c.tc : Thread nD τ).loc main_arg4))) :
    θ_run defs (onTc (τ := τ) (main (F := Ideal))) ⟨m, fun _ => 0, ρ⟩ (fun r => ∀ c : Dev nD,
      r.2.mem ((c.tc : Thread nD τ).loc main_v38)
        = shapeCast S16x900x1024
            (costFlat (shapeCast S14400x91 (m ((c.tc : Thread nD τ).loc main_arg0)) shapeCasts_S16x900x91_S14400x91)
              (shapeCast S14400x4 (m ((c.tc : Thread nD τ).loc main_arg1)) shapeCasts_S16x900x4_S14400x4)
              (shapeCast S14400x2 (m ((c.tc : Thread nD τ).loc main_arg2)) shapeCasts_S16x900x2_S14400x2)
              (shapeCast S14400x1 (m ((c.tc : Thread nD τ).loc main_arg3)) shapeCasts_S16x900x1_S14400x1)
              (m ((c.tc : Thread nD τ).loc main_arg4)) (m ((c.tc : Thread nD τ).loc main_arg5)))
            shapeCasts_S14400x1024_S16x900x1024
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  run_of_final m ρ (costOf m) fun c => final_of_entries m c (costOf m c) (entry_eq m c (hL c) (hO c) (hlab c))

end Cert.KernelIdeal.Hand

end
-- ==== Proof.ROps.lean ====
/- A table only: the reference program's host operations in program order, cut into six stretches — A the class
   term (through %42), B the corners of both box arrays (through %92), C the corners' L1 distance (through %99),
   D the generalized IoU (through %174), E the inner-point term (through %218), F the weighted total and the final
   reshape —, each outlined function's operations listed at its call over that call's buffers, and per stretch the
   references its operations write. -/
import proofs.«419288_j54760833024710_2_alg».proof.ReferenceIdeal
import Idealize.ShloMosaic.Lib.StableHlo.Run

noncomputable section

namespace Cert.ReferenceIdeal.Hand

open Idealize.ShloMosaic Idealize.ShloMosaic.StableHlo Cert.ReferenceIdeal
open Cert.ReferenceIdeal.Facts₀ Cert.ReferenceIdeal.Facts

variable {F : FTy → Type} [FloatOps F] [Cert.ReferenceIdeal.Facts]

/-- Stretch A: 99 operations. -/
abbrev opsA : List (HloOp τ sig (Elt F)) :=
  [ StableHlo.reshape main_arg0 main_v0 rfl shapeCasts_S16x900x91_S14400x91,
    StableHlo.unary main_v0 main_v1 (Host.negf : (⟨S14400x91, .f32⟩ : BufTy).Contents (Elt F) → (⟨S14400x91, .f32⟩ : BufTy).Contents (Elt F)),
    StableHlo.unary main_v1 main_v2 (Host.exp : (⟨S14400x91, .f32⟩ : BufTy).Contents (Elt F) → (⟨S14400x91, .f32⟩ : BufTy).Contents (Elt F)),
    StableHlo.nullary main_cst (constant S_ .f32 0x3F800000#32),
    StableHlo.unary main_cst main_v3 (broadcastInDim S14400x91 ![] bcast_S_S14400x91 : (⟨S_, .f32⟩ : BufTy).Contents (Elt F) → (⟨S14400x91, .f32⟩ : BufTy).Contents (Elt F)),
    StableHlo.binary main_v3 main_v2 main_v4 (addf : (⟨S14400x91, .f32⟩ : BufTy).Contents (Elt F) → (⟨S14400x91, .f32⟩ : BufTy).Contents (Elt F) → (⟨S14400x91, .f32⟩ : BufTy).Contents (Elt F)),
    StableHlo.nullary main_cst_0 (constant S_ .f32 0x3F800000#32),
    StableHlo.unary main_cst_0 main_v5 (broadcastInDim S14400x91 ![] bcast_S_S14400x91 : (⟨S_, .f32⟩ : BufTy).Contents (Elt F) → (⟨S14400x91, .f32⟩ : BufTy).Contents (Elt F)),
    StableHlo.binary main_v5 main_v4 main_v6 (Host.divf : (⟨S14400x91, .f32⟩ : BufTy).Contents (Elt F) → (⟨S14400x91, .f32⟩ : BufTy).Contents (Elt F) → (⟨S14400x91, .f32⟩ : BufTy).Contents (Elt F)),
    StableHlo.reshape main_arg1 main_v7 rfl shapeCasts_S16x900x4_S14400x4,
    StableHlo.reshape main_arg2 main_v8 rfl shapeCasts_S16x900x2_S14400x2,
    StableHlo.reshape main_arg3 main_v9 rfl shapeCasts_S16x900x1_S14400x1,
    StableHlo.unary main_v9 main_v10 (Host.negf : (⟨S14400x1, .f32⟩ : BufTy).Contents (Elt F) → (⟨S14400x1, .f32⟩ : BufTy).Contents (Elt F)),
    StableHlo.unary main_v10 main_v11 (Host.exp : (⟨S14400x1, .f32⟩ : BufTy).Contents (Elt F) → (⟨S14400x1, .f32⟩ : BufTy).Contents (Elt F)),
    StableHlo.nullary main_cst_1 (constant S_ .f32 0x3F800000#32),
    StableHlo.unary main_cst_1 main_v12 (broadcastInDim S14400x1 ![] bcast_S_S14400x1 : (⟨S_, .f32⟩ : BufTy).Contents (Elt F) → (⟨S14400x1, .f32⟩ : BufTy).Contents (Elt F)),
    StableHlo.binary main_v12 main_v11 main_v13 (addf : (⟨S14400x1, .f32⟩ : BufTy).Contents (Elt F) → (⟨S14400x1, .f32⟩ : BufTy).Contents (Elt F) → (⟨S14400x1, .f32⟩ : BufTy).Contents (Elt F)),
    StableHlo.nullary main_cst_2 (constant S_ .f32 0x3F800000#32),
    StableHlo.unary main_cst_2 main_v14 (broadcastInDim S14400x1 ![] bcast_S_S14400x1 : (⟨S_, .f32⟩ : BufTy).Contents (Elt F) → (⟨S14400x1, .f32⟩ : BufTy).Contents (Elt F)),
    StableHlo.binary main_v14 main_v13 main_v15 (Host.divf : (⟨S14400x1, .f32⟩ : BufTy).Contents (Elt F) → (⟨S14400x1, .f32⟩ : BufTy).Contents (Elt F) → (⟨S14400x1, .f32⟩ : BufTy).Contents (Elt F)),
    StableHlo.unary main_v15 main_v16 (broadcastInDim S14400x91 ![0, 1] bcast_S14400x1_S14400x91_0_1 : (⟨S14400x1, .f32⟩ : BufTy).Contents (Elt F) → (⟨S14400x91, .f32⟩ : BufTy).Contents (Elt F)),
    StableHlo.binary main_v6 main_v16 main_v17 (mulf : (⟨S14400x91, .f32⟩ : BufTy).Contents (Elt F) → (⟨S14400x91, .f32⟩ : BufTy).Contents (Elt F) → (⟨S14400x91, .f32⟩ : BufTy).Contents (Elt F)),
    StableHlo.nullary main_cst_3 (constant S_ .f32 0x40000000#32),
    StableHlo.unary main_cst_3 main_v18 (broadcastInDim S14400x91 ![] bcast_S_S14400x91 : (⟨S_, .f32⟩ : BufTy).Contents (Elt F) → (⟨S14400x91, .f32⟩ : BufTy).Contents (Elt F)),
    StableHlo.binary main_v17 main_v18 main_v19 (Host.powf : (⟨S14400x91, .f32⟩ : BufTy).Contents (Elt F) → (⟨S14400x91, .f32⟩ : BufTy).Contents (Elt F) → (⟨S14400x91, .f32⟩ : BufTy).Contents (Elt F)),
    StableHlo.nullary main_cst_4 (constant S_ .f32 0x3F400000#32),
    StableHlo.unary main_cst_4 main_v20 (broadcastInDim S14400x91 ![] bcast_S_S14400x91 : (⟨S_, .f32⟩ : BufTy).Contents (Elt F) → (⟨S14400x91, .f32⟩ : BufTy).Contents (Elt F)),
    StableHlo.binary main_v20 main_v19 main_v21 (mulf : (⟨S14400x91, .f32⟩ : BufTy).Contents (Elt F) → (⟨S14400x91, .f32⟩ : BufTy).Contents (Elt F) → (⟨S14400x91, .f32⟩ : BufTy).Contents (Elt F)),
    StableHlo.nullary main_cst_5 (constant S_ .f32 0x3F800000#32),
    StableHlo.unary main_cst_5 main_v22 (broadcastInDim S14400x91 ![] bcast_S_S14400x91 : (⟨S_, .f32⟩ : BufTy).Contents (Elt F) → (⟨S14400x91, .f32⟩ : BufTy).Contents (Elt F)),
    StableHlo.binary main_v22 main_v17 main_v23 (subf : (⟨S14400x91, .f32⟩ : BufTy).Contents (Elt F) → (⟨S14400x91, .f32⟩ : BufTy).Contents (Elt F) → (⟨S14400x91, .f32⟩ : BufTy).Contents (Elt F)),
    StableHlo.nullary main_cst_6 (constant S_ .f32 0x322BCC77#32),
    StableHlo.unary main_cst_6 main_v24 (broadcastInDim S14400x91 ![] bcast_S_S14400x91 : (⟨S_, .f32⟩ : BufTy).Contents (Elt F) → (⟨S14400x91, .f32⟩ : BufTy).Contents (Elt F)),
    StableHlo.binary main_v23 main_v24 main_v25 (addf : (⟨S14400x91, .f32⟩ : BufTy).Contents (Elt F) → (⟨S14400x91, .f32⟩ : BufTy).Contents (Elt F) → (⟨S14400x91, .f32⟩ : BufTy).Contents (Elt F)),
    StableHlo.unary main_v25 main_v26 (Host.log : (⟨S14400x91, .f32⟩ : BufTy).Contents (Elt F) → (⟨S14400x91, .f32⟩ : BufTy).Contents (Elt F)),
    StableHlo.unary main_v26 main_v27 (Host.negf : (⟨S14400x91, .f32⟩ : BufTy).Contents (Elt F) → (⟨S14400x91, .f32⟩ : BufTy).Contents (Elt F)),
    StableHlo.binary main_v21 main_v27 main_v28 (mulf : (⟨S14400x91, .f32⟩ : BufTy).Contents (Elt F) → (⟨S14400x91, .f32⟩ : BufTy).Contents (Elt F) → (⟨S14400x91, .f32⟩ : BufTy).Contents (Elt F)),
    StableHlo.nullary main_cst_7 (constant S_ .f32 0x3F800000#32),
    StableHlo.unary main_cst_7 main_v29 (broadcastInDim S14400x91 ![] bcast_S_S14400x91 : (⟨S_, .f32⟩ : BufTy).Contents (Elt F) → (⟨S14400x91, .f32⟩ : BufTy).Contents (Elt F)),
    StableHlo.binary main_v29 main_v17 main_v30 (subf : (⟨S14400x91, .f32⟩ : BufTy).Contents (Elt F) → (⟨S14400x91, .f32⟩ : BufTy).Contents (Elt F) → (⟨S14400x91, .f32⟩ : BufTy).Contents (Elt F)),
    StableHlo.nullary main_cst_8 (constant S_ .f32 0x40000000#32),
    StableHlo.unary main_cst_8 main_v31 (broadcastInDim S14400x91 ![] bcast_S_S14400x91 : (⟨S_, .f32⟩ : BufTy).Contents (Elt F) → (⟨S14400x91, .f32⟩ : BufTy).Contents (Elt F)),
    StableHlo.binary main_v30 main_v31 main_v32 (Host.powf : (⟨S14400x91, .f32⟩ : BufTy).Contents (Elt F) → (⟨S14400x91, .f32⟩ : BufTy).Contents (Elt F) → (⟨S14400x91, .f32⟩ : BufTy).Contents (Elt F)),
    StableHlo.nullary main_cst_9 (constant S_ .f32 0x3E800000#32),
    StableHlo.unary main_cst_9 main_v33 (broadcastInDim S14400x91 ![] bcast_S_S14400x91 : (⟨S_, .f32⟩ : BufTy).Contents (Elt F) → (⟨S14400x91, .f32⟩ : BufTy).Contents (Elt F)),
    StableHlo.binary main_v33 main_v32 main_v34 (mulf : (⟨S14400x91, .f32⟩ : BufTy).Contents (Elt F) → (⟨S14400x91, .f32⟩ : BufTy).Contents (Elt F) → (⟨S14400x91, .f32⟩ : BufTy).Contents (Elt F)),
    StableHlo.nullary main_cst_10 (constant S_ .f32 0x322BCC77#32),
    StableHlo.unary main_cst_10 main_v35 (broadcastInDim S14400x91 ![] bcast_S_S14400x91 : (⟨S_, .f32⟩ : BufTy).Contents (Elt F) → (⟨S14400x91, .f32⟩ : BufTy).Contents (Elt F)),
    StableHlo.binary main_v17 main_v35 main_v36 (addf : (⟨S14400x91, .f32⟩ : BufTy).Contents (Elt F) → (⟨S14400x91, .f32⟩ : BufTy).Contents (Elt F) → (⟨S14400x91, .f32⟩ : BufTy).Contents (Elt F)),
    StableHlo.unary main_v36 main_v37 (Host.log : (⟨S14400x91, .f32⟩ : BufTy).Contents (Elt F) → (⟨S14400x91, .f32⟩ : BufTy).Contents (Elt F)),
    StableHlo.unary main_v37 main_v38 (Host.negf : (⟨S14400x91, .f32⟩ : BufTy).Contents (Elt F) → (⟨S14400x91, .f32⟩ : BufTy).Contents (Elt F)),
    StableHlo.binary main_v34 main_v38 main_v39 (mulf : (⟨S14400x91, .f32⟩ : BufTy).Contents (Elt F) → (⟨S14400x91, .f32⟩ : BufTy).Contents (Elt F) → (⟨S14400x91, .f32⟩ : BufTy).Contents (Elt F)),
    StableHlo.TRef.nullary main_call0.c (constantI S_ 32 0#32),
    StableHlo.TRef.unary main_call0.c main_call0.v0 (broadcastInDim S1024 ![] bcast_S_S1024),
    StableHlo.TRef.binary (.of main_arg4) main_call0.v0 main_call0.v1 (cmpi .slt),
    StableHlo.TRef.nullary main_call0.c_0 (constantI S_ 32 91#32),
    StableHlo.TRef.unary main_call0.c_0 main_call0.v2 (broadcastInDim S1024 ![] bcast_S_S1024),
    StableHlo.TRef.binary (.of main_arg4) main_call0.v2 main_call0.v3 addi,
    StableHlo.TRef.ternary main_call0.v1 main_call0.v3 (.of main_arg4) main_call0.call0.v0 select,
    StableHlo.TRef.unary main_call0.call0.v0 main_call0.v5 (broadcastInDim S1024x1 ![0] bcast_S1024_S1024x1_0),
    StableHlo.TRef.nullary main_call0.c_1 (constantI S1 32 90#32),
    StableHlo.TRef.nullary main_call0.c_2 (constantI S_ 32 0#32),
    StableHlo.TRef.unary main_call0.c_2 main_call0.v6 (broadcastInDim S1024x1 ![] bcast_S_S1024x1),
    StableHlo.TRef.binary main_call0.v5 main_call0.v6 main_call0.v7 (cmpi .sge),
    StableHlo.TRef.unary main_call0.c_1 main_call0.v8 (broadcastInDim S1x1 ![1] bcast_S1_S1x1_1),
    StableHlo.TRef.unary main_call0.v8 main_call0.v9 (broadcastInDim S1024x1 ![0, 1] bcast_S1x1_S1024x1_0_1),
    StableHlo.TRef.binary main_call0.v5 main_call0.v9 main_call0.v10 (cmpi .sle),
    StableHlo.TRef.binary main_call0.v7 main_call0.v10 main_call0.v11 andi,
    StableHlo.TRef.nullary main_call0.c_3 (constantI S_ 1 1#1),
    StableHlo.TRef.binary main_call0.v11 main_call0.c_3 main_call0.v12 (fun x v => Host.reduce IntOp.andi x v reducesTo_S1024x1_S1024_d1 h_S_),
    StableHlo.TRef.binary (.of main_v39) main_call0.v5 main_call0.v13 (fun x i => Host.gather gather_S14400x91_S1024x1_S14400x1024_0_1_n_n_1_1_144001 x i),
    StableHlo.TRef.unary main_call0.v12 main_call0.v14 (broadcastInDim S14400x1024 ![1] bcast_S1024_S14400x1024_1),
    StableHlo.TRef.nullary main_call0.cst (constant S_ .f32 0x7FC00000#32),
    StableHlo.TRef.unary main_call0.cst main_call0.v15 (broadcastInDim S14400x1024 ![] bcast_S_S14400x1024),
    StableHlo.TRef.ternary main_call0.v14 main_call0.v13 main_call0.v15 main_call0.v16 select,
    StableHlo.TRef.nullary main_call1.c (constantI S_ 32 0#32),
    StableHlo.TRef.unary main_call1.c main_call1.v0 (broadcastInDim S1024 ![] bcast_S_S1024),
    StableHlo.TRef.binary (.of main_arg4) main_call1.v0 main_call1.v1 (cmpi .slt),
    StableHlo.TRef.nullary main_call1.c_0 (constantI S_ 32 91#32),
    StableHlo.TRef.unary main_call1.c_0 main_call1.v2 (broadcastInDim S1024 ![] bcast_S_S1024),
    StableHlo.TRef.binary (.of main_arg4) main_call1.v2 main_call1.v3 addi,
    StableHlo.TRef.ternary main_call1.v1 main_call1.v3 (.of main_arg4) main_call1.call0.v0 select,
    StableHlo.TRef.unary main_call1.call0.v0 main_call1.v5 (broadcastInDim S1024x1 ![0] bcast_S1024_S1024x1_0),
    StableHlo.TRef.nullary main_call1.c_1 (constantI S1 32 90#32),
    StableHlo.TRef.nullary main_call1.c_2 (constantI S_ 32 0#32),
    StableHlo.TRef.unary main_call1.c_2 main_call1.v6 (broadcastInDim S1024x1 ![] bcast_S_S1024x1),
    StableHlo.TRef.binary main_call1.v5 main_call1.v6 main_call1.v7 (cmpi .sge),
    StableHlo.TRef.unary main_call1.c_1 main_call1.v8 (broadcastInDim S1x1 ![1] bcast_S1_S1x1_1),
    StableHlo.TRef.unary main_call1.v8 main_call1.v9 (broadcastInDim S1024x1 ![0, 1] bcast_S1x1_S1024x1_0_1),
    StableHlo.TRef.binary main_call1.v5 main_call1.v9 main_call1.v10 (cmpi .sle),
    StableHlo.TRef.binary main_call1.v7 main_call1.v10 main_call1.v11 andi,
    StableHlo.TRef.nullary main_call1.c_3 (constantI S_ 1 1#1),
    StableHlo.TRef.binary main_call1.v11 main_call1.c_3 main_call1.v12 (fun x v => Host.reduce IntOp.andi x v reducesTo_S1024x1_S1024_d1 h_S_),
    StableHlo.TRef.binary (.of main_v28) main_call1.v5 main_call1.v13 (fun x i => Host.gather gather_S14400x91_S1024x1_S14400x1024_0_1_n_n_1_1_144001 x i),
    StableHlo.TRef.unary main_call1.v12 main_call1.v14 (broadcastInDim S14400x1024 ![1] bcast_S1024_S14400x1024_1),
    StableHlo.TRef.nullary main_call1.cst (constant S_ .f32 0x7FC00000#32),
    StableHlo.TRef.unary main_call1.cst main_call1.v15 (broadcastInDim S14400x1024 ![] bcast_S_S14400x1024),
    StableHlo.TRef.ternary main_call1.v14 main_call1.v13 main_call1.v15 main_call1.v16 select,
    StableHlo.binary main_v40 main_v41 main_v42 (subf : (⟨S14400x1024, .f32⟩ : BufTy).Contents (Elt F) → (⟨S14400x1024, .f32⟩ : BufTy).Contents (Elt F) → (⟨S14400x1024, .f32⟩ : BufTy).Contents (Elt F)) ]

/-- The references stretch A writes, in order. -/
abbrev wA : List (Ref sig .tc) :=
  [ main_v0, main_v1, main_v2, main_cst, main_v3, main_v4, main_cst_0, main_v5,
    main_v6, main_v7, main_v8, main_v9, main_v10, main_v11, main_cst_1, main_v12,
    main_v13, main_cst_2, main_v14, main_v15, main_v16, main_v17, main_cst_3, main_v18,
    main_v19, main_cst_4, main_v20, main_v21, main_cst_5, main_v22, main_v23, main_cst_6,
    main_v24, main_v25, main_v26, main_v27, main_v28, main_cst_7, main_v29, main_v30,
    main_cst_8, main_v31, main_v32, main_cst_9, main_v33, main_v34, main_cst_10, main_v35,
    main_v36, main_v37, main_v38, main_v39, main_call0_c, main_call0_v0, main_call0_v1, main_call0_c_0,
    main_call0_v2, main_call0_v3, main_call0_v4, main_call0_v5, main_call0_c_1, main_call0_c_2, main_call0_v6, main_call0_v7,
    main_call0_v8, main_call0_v9, main_call0_v10, main_call0_v11, main_call0_c_3, main_call0_v12, main_call0_v13, main_call0_v14,
    main_call0_cst, main_call0_v15, main_v40, main_call1_c, main_call1_v0, main_call1_v1, main_call1_c_0, main_call1_v2,
    main_call1_v3, main_call1_v4, main_call1_v5, main_call1_c_1, main_call1_c_2, main_call1_v6, main_call1_v7, main_call1_v8,
    main_call1_v9, main_call1_v10, main_call1_v11, main_call1_c_3, main_call1_v12, main_call1_v13, main_call1_v14, main_call1_cst,
    main_call1_v15, main_v41, main_v42 ]

/-- Stretch B: 58 operations. -/
abbrev opsB : List (HloOp τ sig (Elt F)) :=
  [ StableHlo.unary main_v7 main_v43 ((extractStridedSlice S14400x1 ![0, 0] · slices_S14400x4_S14400x1_0_0) : (⟨S14400x4, .f32⟩ : BufTy).Contents (Elt F) → (⟨S14400x1, .f32⟩ : BufTy).Contents (Elt F)),
    StableHlo.reshape main_v43 main_v44 rfl shapeCasts_S14400x1_S14400,
    StableHlo.unary main_v7 main_v45 ((extractStridedSlice S14400x1 ![0, 1] · slices_S14400x4_S14400x1_0_1) : (⟨S14400x4, .f32⟩ : BufTy).Contents (Elt F) → (⟨S14400x1, .f32⟩ : BufTy).Contents (Elt F)),
    StableHlo.reshape main_v45 main_v46 rfl shapeCasts_S14400x1_S14400,
    StableHlo.unary main_v7 main_v47 ((extractStridedSlice S14400x1 ![0, 2] · slices_S14400x4_S14400x1_0_2) : (⟨S14400x4, .f32⟩ : BufTy).Contents (Elt F) → (⟨S14400x1, .f32⟩ : BufTy).Contents (Elt F)),
    StableHlo.reshape main_v47 main_v48 rfl shapeCasts_S14400x1_S14400,
    StableHlo.unary main_v7 main_v49 ((extractStridedSlice S14400x1 ![0, 3] · slices_S14400x4_S14400x1_0_3) : (⟨S14400x4, .f32⟩ : BufTy).Contents (Elt F) → (⟨S14400x1, .f32⟩ : BufTy).Contents (Elt F)),
    StableHlo.reshape main_v49 main_v50 rfl shapeCasts_S14400x1_S14400,
    StableHlo.nullary main_cst_11 (constant S_ .f32 0x3F000000#32),
    StableHlo.unary main_cst_11 main_v51 (broadcastInDim S14400 ![] bcast_S_S14400 : (⟨S_, .f32⟩ : BufTy).Contents (Elt F) → (⟨S14400, .f32⟩ : BufTy).Contents (Elt F)),
    StableHlo.binary main_v51 main_v48 main_v52 (mulf : (⟨S14400, .f32⟩ : BufTy).Contents (Elt F) → (⟨S14400, .f32⟩ : BufTy).Contents (Elt F) → (⟨S14400, .f32⟩ : BufTy).Contents (Elt F)),
    StableHlo.binary main_v44 main_v52 main_v53 (subf : (⟨S14400, .f32⟩ : BufTy).Contents (Elt F) → (⟨S14400, .f32⟩ : BufTy).Contents (Elt F) → (⟨S14400, .f32⟩ : BufTy).Contents (Elt F)),
    StableHlo.nullary main_cst_12 (constant S_ .f32 0x3F000000#32),
    StableHlo.unary main_cst_12 main_v54 (broadcastInDim S14400 ![] bcast_S_S14400 : (⟨S_, .f32⟩ : BufTy).Contents (Elt F) → (⟨S14400, .f32⟩ : BufTy).Contents (Elt F)),
    StableHlo.binary main_v54 main_v50 main_v55 (mulf : (⟨S14400, .f32⟩ : BufTy).Contents (Elt F) → (⟨S14400, .f32⟩ : BufTy).Contents (Elt F) → (⟨S14400, .f32⟩ : BufTy).Contents (Elt F)),
    StableHlo.binary main_v46 main_v55 main_v56 (subf : (⟨S14400, .f32⟩ : BufTy).Contents (Elt F) → (⟨S14400, .f32⟩ : BufTy).Contents (Elt F) → (⟨S14400, .f32⟩ : BufTy).Contents (Elt F)),
    StableHlo.nullary main_cst_13 (constant S_ .f32 0x3F000000#32),
    StableHlo.unary main_cst_13 main_v57 (broadcastInDim S14400 ![] bcast_S_S14400 : (⟨S_, .f32⟩ : BufTy).Contents (Elt F) → (⟨S14400, .f32⟩ : BufTy).Contents (Elt F)),
    StableHlo.binary main_v57 main_v48 main_v58 (mulf : (⟨S14400, .f32⟩ : BufTy).Contents (Elt F) → (⟨S14400, .f32⟩ : BufTy).Contents (Elt F) → (⟨S14400, .f32⟩ : BufTy).Contents (Elt F)),
    StableHlo.binary main_v44 main_v58 main_v59 (addf : (⟨S14400, .f32⟩ : BufTy).Contents (Elt F) → (⟨S14400, .f32⟩ : BufTy).Contents (Elt F) → (⟨S14400, .f32⟩ : BufTy).Contents (Elt F)),
    StableHlo.nullary main_cst_14 (constant S_ .f32 0x3F000000#32),
    StableHlo.unary main_cst_14 main_v60 (broadcastInDim S14400 ![] bcast_S_S14400 : (⟨S_, .f32⟩ : BufTy).Contents (Elt F) → (⟨S14400, .f32⟩ : BufTy).Contents (Elt F)),
    StableHlo.binary main_v60 main_v50 main_v61 (mulf : (⟨S14400, .f32⟩ : BufTy).Contents (Elt F) → (⟨S14400, .f32⟩ : BufTy).Contents (Elt F) → (⟨S14400, .f32⟩ : BufTy).Contents (Elt F)),
    StableHlo.binary main_v46 main_v61 main_v62 (addf : (⟨S14400, .f32⟩ : BufTy).Contents (Elt F) → (⟨S14400, .f32⟩ : BufTy).Contents (Elt F) → (⟨S14400, .f32⟩ : BufTy).Contents (Elt F)),
    StableHlo.unary main_v53 main_v63 (broadcastInDim S14400x1 ![0] bcast_S14400_S14400x1_0 : (⟨S14400, .f32⟩ : BufTy).Contents (Elt F) → (⟨S14400x1, .f32⟩ : BufTy).Contents (Elt F)),
    StableHlo.unary main_v56 main_v64 (broadcastInDim S14400x1 ![0] bcast_S14400_S14400x1_0 : (⟨S14400, .f32⟩ : BufTy).Contents (Elt F) → (⟨S14400x1, .f32⟩ : BufTy).Contents (Elt F)),
    StableHlo.unary main_v59 main_v65 (broadcastInDim S14400x1 ![0] bcast_S14400_S14400x1_0 : (⟨S14400, .f32⟩ : BufTy).Contents (Elt F) → (⟨S14400x1, .f32⟩ : BufTy).Contents (Elt F)),
    StableHlo.unary main_v62 main_v66 (broadcastInDim S14400x1 ![0] bcast_S14400_S14400x1_0 : (⟨S14400, .f32⟩ : BufTy).Contents (Elt F) → (⟨S14400x1, .f32⟩ : BufTy).Contents (Elt F)),
    StableHlo.nary ![main_v63, main_v64, main_v65, main_v66] main_v67 (fun u => concatenate S14400x4 1 [⟨S14400x1, u 0⟩, ⟨S14400x1, u 1⟩, ⟨S14400x1, u 2⟩, ⟨S14400x1, u 3⟩] concatenates_S14400x1_S14400x1_S14400x1_S14400x1_S14400x4_d1),
    StableHlo.unary main_arg5 main_v68 ((extractStridedSlice S1024x1 ![0, 0] · slices_S1024x4_S1024x1_0_0) : (⟨S1024x4, .f32⟩ : BufTy).Contents (Elt F) → (⟨S1024x1, .f32⟩ : BufTy).Contents (Elt F)),
    StableHlo.reshape main_v68 main_v69 rfl shapeCasts_S1024x1_S1024,
    StableHlo.unary main_arg5 main_v70 ((extractStridedSlice S1024x1 ![0, 1] · slices_S1024x4_S1024x1_0_1) : (⟨S1024x4, .f32⟩ : BufTy).Contents (Elt F) → (⟨S1024x1, .f32⟩ : BufTy).Contents (Elt F)),
    StableHlo.reshape main_v70 main_v71 rfl shapeCasts_S1024x1_S1024,
    StableHlo.unary main_arg5 main_v72 ((extractStridedSlice S1024x1 ![0, 2] · slices_S1024x4_S1024x1_0_2) : (⟨S1024x4, .f32⟩ : BufTy).Contents (Elt F) → (⟨S1024x1, .f32⟩ : BufTy).Contents (Elt F)),
    StableHlo.reshape main_v72 main_v73 rfl shapeCasts_S1024x1_S1024,
    StableHlo.unary main_arg5 main_v74 ((extractStridedSlice S1024x1 ![0, 3] · slices_S1024x4_S1024x1_0_3) : (⟨S1024x4, .f32⟩ : BufTy).Contents (Elt F) → (⟨S1024x1, .f32⟩ : BufTy).Contents (Elt F)),
    StableHlo.reshape main_v74 main_v75 rfl shapeCasts_S1024x1_S1024,
    StableHlo.nullary main_cst_15 (constant S_ .f32 0x3F000000#32),
    StableHlo.unary main_cst_15 main_v76 (broadcastInDim S1024 ![] bcast_S_S1024 : (⟨S_, .f32⟩ : BufTy).Contents (Elt F) → (⟨S1024, .f32⟩ : BufTy).Contents (Elt F)),
    StableHlo.binary main_v76 main_v73 main_v77 (mulf : (⟨S1024, .f32⟩ : BufTy).Contents (Elt F) → (⟨S1024, .f32⟩ : BufTy).Contents (Elt F) → (⟨S1024, .f32⟩ : BufTy).Contents (Elt F)),
    StableHlo.binary main_v69 main_v77 main_v78 (subf : (⟨S1024, .f32⟩ : BufTy).Contents (Elt F) → (⟨S1024, .f32⟩ : BufTy).Contents (Elt F) → (⟨S1024, .f32⟩ : BufTy).Contents (Elt F)),
    StableHlo.nullary main_cst_16 (constant S_ .f32 0x3F000000#32),
    StableHlo.unary main_cst_16 main_v79 (broadcastInDim S1024 ![] bcast_S_S1024 : (⟨S_, .f32⟩ : BufTy).Contents (Elt F) → (⟨S1024, .f32⟩ : BufTy).Contents (Elt F)),
    StableHlo.binary main_v79 main_v75 main_v80 (mulf : (⟨S1024, .f32⟩ : BufTy).Contents (Elt F) → (⟨S1024, .f32⟩ : BufTy).Contents (Elt F) → (⟨S1024, .f32⟩ : BufTy).Contents (Elt F)),
    StableHlo.binary main_v71 main_v80 main_v81 (subf : (⟨S1024, .f32⟩ : BufTy).Contents (Elt F) → (⟨S1024, .f32⟩ : BufTy).Contents (Elt F) → (⟨S1024, .f32⟩ : BufTy).Contents (Elt F)),
    StableHlo.nullary main_cst_17 (constant S_ .f32 0x3F000000#32),
    StableHlo.unary main_cst_17 main_v82 (broadcastInDim S1024 ![] bcast_S_S1024 : (⟨S_, .f32⟩ : BufTy).Contents (Elt F) → (⟨S1024, .f32⟩ : BufTy).Contents (Elt F)),
    StableHlo.binary main_v82 main_v73 main_v83 (mulf : (⟨S1024, .f32⟩ : BufTy).Contents (Elt F) → (⟨S1024, .f32⟩ : BufTy).Contents (Elt F) → (⟨S1024, .f32⟩ : BufTy).Contents (Elt F)),
    StableHlo.binary main_v69 main_v83 main_v84 (addf : (⟨S1024, .f32⟩ : BufTy).Contents (Elt F) → (⟨S1024, .f32⟩ : BufTy).Contents (Elt F) → (⟨S1024, .f32⟩ : BufTy).Contents (Elt F)),
    StableHlo.nullary main_cst_18 (constant S_ .f32 0x3F000000#32),
    StableHlo.unary main_cst_18 main_v85 (broadcastInDim S1024 ![] bcast_S_S1024 : (⟨S_, .f32⟩ : BufTy).Contents (Elt F) → (⟨S1024, .f32⟩ : BufTy).Contents (Elt F)),
    StableHlo.binary main_v85 main_v75 main_v86 (mulf : (⟨S1024, .f32⟩ : BufTy).Contents (Elt F) → (⟨S1024, .f32⟩ : BufTy).Contents (Elt F) → (⟨S1024, .f32⟩ : BufTy).Contents (Elt F)),
    StableHlo.binary main_v71 main_v86 main_v87 (addf : (⟨S1024, .f32⟩ : BufTy).Contents (Elt F) → (⟨S1024, .f32⟩ : BufTy).Contents (Elt F) → (⟨S1024, .f32⟩ : BufTy).Contents (Elt F)),
    StableHlo.unary main_v78 main_v88 (broadcastInDim S1024x1 ![0] bcast_S1024_S1024x1_0 : (⟨S1024, .f32⟩ : BufTy).Contents (Elt F) → (⟨S1024x1, .f32⟩ : BufTy).Contents (Elt F)),
    StableHlo.unary main_v81 main_v89 (broadcastInDim S1024x1 ![0] bcast_S1024_S1024x1_0 : (⟨S1024, .f32⟩ : BufTy).Contents (Elt F) → (⟨S1024x1, .f32⟩ : BufTy).Contents (Elt F)),
    StableHlo.unary main_v84 main_v90 (broadcastInDim S1024x1 ![0] bcast_S1024_S1024x1_0 : (⟨S1024, .f32⟩ : BufTy).Contents (Elt F) → (⟨S1024x1, .f32⟩ : BufTy).Contents (Elt F)),
    StableHlo.unary main_v87 main_v91 (broadcastInDim S1024x1 ![0] bcast_S1024_S1024x1_0 : (⟨S1024, .f32⟩ : BufTy).Contents (Elt F) → (⟨S1024x1, .f32⟩ : BufTy).Contents (Elt F)),
    StableHlo.nary ![main_v88, main_v89, main_v90, main_v91] main_v92 (fun u => concatenate S1024x4 1 [⟨S1024x1, u 0⟩, ⟨S1024x1, u 1⟩, ⟨S1024x1, u 2⟩, ⟨S1024x1, u 3⟩] concatenates_S1024x1_S1024x1_S1024x1_S1024x1_S1024x4_d1) ]

/-- The references stretch B writes, in order. -/
abbrev wB : List (Ref sig .tc) :=
  [ main_v43, main_v44, main_v45, main_v46, main_v47, main_v48, main_v49, main_v50,
    main_cst_11, main_v51, main_v52, main_v53, main_cst_12, main_v54, main_v55, main_v56,
    main_cst_13, main_v57, main_v58, main_v59, main_cst_14, main_v60, main_v61, main_v62,
    main_v63, main_v64, main_v65, main_v66, main_v67, main_v68, main_v69, main_v70,
    main_v71, main_v72, main_v73, main_v74, main_v75, main_cst_15, main_v76, main_v77,
    main_v78, main_cst_16, main_v79, main_v80, main_v81, main_cst_17, main_v82, main_v83,
    main_v84, main_cst_18, main_v85, main_v86, main_v87, main_v88, main_v89, main_v90,
    main_v91, main_v92 ]

/-- Stretch C: 8 operations. -/
abbrev opsC : List (HloOp τ sig (Elt F)) :=
  [ StableHlo.unary main_v67 main_v93 (broadcastInDim S14400x1x4 ![0, 2] bcast_S14400x4_S14400x1x4_0_2 : (⟨S14400x4, .f32⟩ : BufTy).Contents (Elt F) → (⟨S14400x1x4, .f32⟩ : BufTy).Contents (Elt F)),
    StableHlo.unary main_v92 main_v94 (broadcastInDim S1x1024x4 ![1, 2] bcast_S1024x4_S1x1024x4_1_2 : (⟨S1024x4, .f32⟩ : BufTy).Contents (Elt F) → (⟨S1x1024x4, .f32⟩ : BufTy).Contents (Elt F)),
    StableHlo.unary main_v93 main_v95 (broadcastInDim S14400x1024x4 ![0, 1, 2] bcast_S14400x1x4_S14400x1024x4_0_1_2 : (⟨S14400x1x4, .f32⟩ : BufTy).Contents (Elt F) → (⟨S14400x1024x4, .f32⟩ : BufTy).Contents (Elt F)),
    StableHlo.unary main_v94 main_v96 (broadcastInDim S14400x1024x4 ![0, 1, 2] bcast_S1x1024x4_S14400x1024x4_0_1_2 : (⟨S1x1024x4, .f32⟩ : BufTy).Contents (Elt F) → (⟨S14400x1024x4, .f32⟩ : BufTy).Contents (Elt F)),
    StableHlo.binary main_v95 main_v96 main_v97 (subf : (⟨S14400x1024x4, .f32⟩ : BufTy).Contents (Elt F) → (⟨S14400x1024x4, .f32⟩ : BufTy).Contents (Elt F) → (⟨S14400x1024x4, .f32⟩ : BufTy).Contents (Elt F)),
    StableHlo.unary main_v97 main_v98 (Host.absf : (⟨S14400x1024x4, .f32⟩ : BufTy).Contents (Elt F) → (⟨S14400x1024x4, .f32⟩ : BufTy).Contents (Elt F)),
    StableHlo.nullary main_cst_19 (constant S_ .f32 0x00000000#32),
    StableHlo.binary main_v98 main_cst_19 main_v99 ((fun x v => Host.reduceAdd x v reducesTo_S14400x1024x4_S14400x1024_d2 h_S_) : (⟨S14400x1024x4, .f32⟩ : BufTy).Contents (Elt F) → (⟨S_, .f32⟩ : BufTy).Contents (Elt F) → (⟨S14400x1024, .f32⟩ : BufTy).Contents (Elt F)) ]

/-- The references stretch C writes, in order. -/
abbrev wC : List (Ref sig .tc) :=
  [ main_v93, main_v94, main_v95, main_v96, main_v97, main_v98, main_cst_19, main_v99 ]

/-- Stretch D: 81 operations. -/
abbrev opsD : List (HloOp τ sig (Elt F)) :=
  [ StableHlo.unary main_v67 main_v100 ((extractStridedSlice S14400x1 ![0, 2] · slices_S14400x4_S14400x1_0_2) : (⟨S14400x4, .f32⟩ : BufTy).Contents (Elt F) → (⟨S14400x1, .f32⟩ : BufTy).Contents (Elt F)),
    StableHlo.reshape main_v100 main_v101 rfl shapeCasts_S14400x1_S14400,
    StableHlo.unary main_v67 main_v102 ((extractStridedSlice S14400x1 ![0, 0] · slices_S14400x4_S14400x1_0_0) : (⟨S14400x4, .f32⟩ : BufTy).Contents (Elt F) → (⟨S14400x1, .f32⟩ : BufTy).Contents (Elt F)),
    StableHlo.reshape main_v102 main_v103 rfl shapeCasts_S14400x1_S14400,
    StableHlo.binary main_v101 main_v103 main_v104 (subf : (⟨S14400, .f32⟩ : BufTy).Contents (Elt F) → (⟨S14400, .f32⟩ : BufTy).Contents (Elt F) → (⟨S14400, .f32⟩ : BufTy).Contents (Elt F)),
    StableHlo.unary main_v67 main_v105 ((extractStridedSlice S14400x1 ![0, 3] · slices_S14400x4_S14400x1_0_3) : (⟨S14400x4, .f32⟩ : BufTy).Contents (Elt F) → (⟨S14400x1, .f32⟩ : BufTy).Contents (Elt F)),
    StableHlo.reshape main_v105 main_v106 rfl shapeCasts_S14400x1_S14400,
    StableHlo.unary main_v67 main_v107 ((extractStridedSlice S14400x1 ![0, 1] · slices_S14400x4_S14400x1_0_1) : (⟨S14400x4, .f32⟩ : BufTy).Contents (Elt F) → (⟨S14400x1, .f32⟩ : BufTy).Contents (Elt F)),
    StableHlo.reshape main_v107 main_v108 rfl shapeCasts_S14400x1_S14400,
    StableHlo.binary main_v106 main_v108 main_v109 (subf : (⟨S14400, .f32⟩ : BufTy).Contents (Elt F) → (⟨S14400, .f32⟩ : BufTy).Contents (Elt F) → (⟨S14400, .f32⟩ : BufTy).Contents (Elt F)),
    StableHlo.binary main_v104 main_v109 main_v110 (mulf : (⟨S14400, .f32⟩ : BufTy).Contents (Elt F) → (⟨S14400, .f32⟩ : BufTy).Contents (Elt F) → (⟨S14400, .f32⟩ : BufTy).Contents (Elt F)),
    StableHlo.unary main_v92 main_v111 ((extractStridedSlice S1024x1 ![0, 2] · slices_S1024x4_S1024x1_0_2) : (⟨S1024x4, .f32⟩ : BufTy).Contents (Elt F) → (⟨S1024x1, .f32⟩ : BufTy).Contents (Elt F)),
    StableHlo.reshape main_v111 main_v112 rfl shapeCasts_S1024x1_S1024,
    StableHlo.unary main_v92 main_v113 ((extractStridedSlice S1024x1 ![0, 0] · slices_S1024x4_S1024x1_0_0) : (⟨S1024x4, .f32⟩ : BufTy).Contents (Elt F) → (⟨S1024x1, .f32⟩ : BufTy).Contents (Elt F)),
    StableHlo.reshape main_v113 main_v114 rfl shapeCasts_S1024x1_S1024,
    StableHlo.binary main_v112 main_v114 main_v115 (subf : (⟨S1024, .f32⟩ : BufTy).Contents (Elt F) → (⟨S1024, .f32⟩ : BufTy).Contents (Elt F) → (⟨S1024, .f32⟩ : BufTy).Contents (Elt F)),
    StableHlo.unary main_v92 main_v116 ((extractStridedSlice S1024x1 ![0, 3] · slices_S1024x4_S1024x1_0_3) : (⟨S1024x4, .f32⟩ : BufTy).Contents (Elt F) → (⟨S1024x1, .f32⟩ : BufTy).Contents (Elt F)),
    StableHlo.reshape main_v116 main_v117 rfl shapeCasts_S1024x1_S1024,
    StableHlo.unary main_v92 main_v118 ((extractStridedSlice S1024x1 ![0, 1] · slices_S1024x4_S1024x1_0_1) : (⟨S1024x4, .f32⟩ : BufTy).Contents (Elt F) → (⟨S1024x1, .f32⟩ : BufTy).Contents (Elt F)),
    StableHlo.reshape main_v118 main_v119 rfl shapeCasts_S1024x1_S1024,
    StableHlo.binary main_v117 main_v119 main_v120 (subf : (⟨S1024, .f32⟩ : BufTy).Contents (Elt F) → (⟨S1024, .f32⟩ : BufTy).Contents (Elt F) → (⟨S1024, .f32⟩ : BufTy).Contents (Elt F)),
    StableHlo.binary main_v115 main_v120 main_v121 (mulf : (⟨S1024, .f32⟩ : BufTy).Contents (Elt F) → (⟨S1024, .f32⟩ : BufTy).Contents (Elt F) → (⟨S1024, .f32⟩ : BufTy).Contents (Elt F)),
    StableHlo.unary main_v67 main_v122 ((extractStridedSlice S14400x2 ![0, 0] · slices_S14400x4_S14400x2_0_0) : (⟨S14400x4, .f32⟩ : BufTy).Contents (Elt F) → (⟨S14400x2, .f32⟩ : BufTy).Contents (Elt F)),
    StableHlo.unary main_v122 main_v123 (broadcastInDim S14400x1x2 ![0, 2] bcast_S14400x2_S14400x1x2_0_2 : (⟨S14400x2, .f32⟩ : BufTy).Contents (Elt F) → (⟨S14400x1x2, .f32⟩ : BufTy).Contents (Elt F)),
    StableHlo.unary main_v92 main_v124 ((extractStridedSlice S1024x2 ![0, 0] · slices_S1024x4_S1024x2_0_0) : (⟨S1024x4, .f32⟩ : BufTy).Contents (Elt F) → (⟨S1024x2, .f32⟩ : BufTy).Contents (Elt F)),
    StableHlo.unary main_v124 main_v125 (broadcastInDim S1x1024x2 ![1, 2] bcast_S1024x2_S1x1024x2_1_2 : (⟨S1024x2, .f32⟩ : BufTy).Contents (Elt F) → (⟨S1x1024x2, .f32⟩ : BufTy).Contents (Elt F)),
    StableHlo.unary main_v123 main_v126 (broadcastInDim S14400x1024x2 ![0, 1, 2] bcast_S14400x1x2_S14400x1024x2_0_1_2 : (⟨S14400x1x2, .f32⟩ : BufTy).Contents (Elt F) → (⟨S14400x1024x2, .f32⟩ : BufTy).Contents (Elt F)),
    StableHlo.unary main_v125 main_v127 (broadcastInDim S14400x1024x2 ![0, 1, 2] bcast_S1x1024x2_S14400x1024x2_0_1_2 : (⟨S1x1024x2, .f32⟩ : BufTy).Contents (Elt F) → (⟨S14400x1024x2, .f32⟩ : BufTy).Contents (Elt F)),
    StableHlo.binary main_v126 main_v127 main_v128 (maximumf : (⟨S14400x1024x2, .f32⟩ : BufTy).Contents (Elt F) → (⟨S14400x1024x2, .f32⟩ : BufTy).Contents (Elt F) → (⟨S14400x1024x2, .f32⟩ : BufTy).Contents (Elt F)),
    StableHlo.unary main_v67 main_v129 ((extractStridedSlice S14400x2 ![0, 2] · slices_S14400x4_S14400x2_0_2) : (⟨S14400x4, .f32⟩ : BufTy).Contents (Elt F) → (⟨S14400x2, .f32⟩ : BufTy).Contents (Elt F)),
    StableHlo.unary main_v129 main_v130 (broadcastInDim S14400x1x2 ![0, 2] bcast_S14400x2_S14400x1x2_0_2 : (⟨S14400x2, .f32⟩ : BufTy).Contents (Elt F) → (⟨S14400x1x2, .f32⟩ : BufTy).Contents (Elt F)),
    StableHlo.unary main_v92 main_v131 ((extractStridedSlice S1024x2 ![0, 2] · slices_S1024x4_S1024x2_0_2) : (⟨S1024x4, .f32⟩ : BufTy).Contents (Elt F) → (⟨S1024x2, .f32⟩ : BufTy).Contents (Elt F)),
    StableHlo.unary main_v131 main_v132 (broadcastInDim S1x1024x2 ![1, 2] bcast_S1024x2_S1x1024x2_1_2 : (⟨S1024x2, .f32⟩ : BufTy).Contents (Elt F) → (⟨S1x1024x2, .f32⟩ : BufTy).Contents (Elt F)),
    StableHlo.unary main_v130 main_v133 (broadcastInDim S14400x1024x2 ![0, 1, 2] bcast_S14400x1x2_S14400x1024x2_0_1_2 : (⟨S14400x1x2, .f32⟩ : BufTy).Contents (Elt F) → (⟨S14400x1024x2, .f32⟩ : BufTy).Contents (Elt F)),
    StableHlo.unary main_v132 main_v134 (broadcastInDim S14400x1024x2 ![0, 1, 2] bcast_S1x1024x2_S14400x1024x2_0_1_2 : (⟨S1x1024x2, .f32⟩ : BufTy).Contents (Elt F) → (⟨S14400x1024x2, .f32⟩ : BufTy).Contents (Elt F)),
    StableHlo.binary main_v133 main_v134 main_v135 (minimumf : (⟨S14400x1024x2, .f32⟩ : BufTy).Contents (Elt F) → (⟨S14400x1024x2, .f32⟩ : BufTy).Contents (Elt F) → (⟨S14400x1024x2, .f32⟩ : BufTy).Contents (Elt F)),
    StableHlo.binary main_v135 main_v128 main_v136 (subf : (⟨S14400x1024x2, .f32⟩ : BufTy).Contents (Elt F) → (⟨S14400x1024x2, .f32⟩ : BufTy).Contents (Elt F) → (⟨S14400x1024x2, .f32⟩ : BufTy).Contents (Elt F)),
    StableHlo.nullary main_cst_20 (constant S_ .f32 0x00000000#32),
    StableHlo.TRef.unary (.of main_cst_20) main_call2.v0 id,
    StableHlo.TRef.unary main_call2.v0 main_call2.v1 (broadcastInDim S14400x1024x2 ![] bcast_S_S14400x1024x2),
    StableHlo.TRef.binary main_call2.v1 (.of main_v136) main_call2.v2 maximumf,
    StableHlo.unary main_v137 main_v138 ((extractStridedSlice S14400x1024x1 ![0, 0, 0] · slices_S14400x1024x2_S14400x1024x1_0_0_0) : (⟨S14400x1024x2, .f32⟩ : BufTy).Contents (Elt F) → (⟨S14400x1024x1, .f32⟩ : BufTy).Contents (Elt F)),
    StableHlo.reshape main_v138 main_v139 rfl shapeCasts_S14400x1024x1_S14400x1024,
    StableHlo.unary main_v137 main_v140 ((extractStridedSlice S14400x1024x1 ![0, 0, 1] · slices_S14400x1024x2_S14400x1024x1_0_0_1) : (⟨S14400x1024x2, .f32⟩ : BufTy).Contents (Elt F) → (⟨S14400x1024x1, .f32⟩ : BufTy).Contents (Elt F)),
    StableHlo.reshape main_v140 main_v141 rfl shapeCasts_S14400x1024x1_S14400x1024,
    StableHlo.binary main_v139 main_v141 main_v142 (mulf : (⟨S14400x1024, .f32⟩ : BufTy).Contents (Elt F) → (⟨S14400x1024, .f32⟩ : BufTy).Contents (Elt F) → (⟨S14400x1024, .f32⟩ : BufTy).Contents (Elt F)),
    StableHlo.unary main_v110 main_v143 (broadcastInDim S14400x1 ![0] bcast_S14400_S14400x1_0 : (⟨S14400, .f32⟩ : BufTy).Contents (Elt F) → (⟨S14400x1, .f32⟩ : BufTy).Contents (Elt F)),
    StableHlo.unary main_v121 main_v144 (broadcastInDim S1x1024 ![1] bcast_S1024_S1x1024_1 : (⟨S1024, .f32⟩ : BufTy).Contents (Elt F) → (⟨S1x1024, .f32⟩ : BufTy).Contents (Elt F)),
    StableHlo.unary main_v143 main_v145 (broadcastInDim S14400x1024 ![0, 1] bcast_S14400x1_S14400x1024_0_1 : (⟨S14400x1, .f32⟩ : BufTy).Contents (Elt F) → (⟨S14400x1024, .f32⟩ : BufTy).Contents (Elt F)),
    StableHlo.unary main_v144 main_v146 (broadcastInDim S14400x1024 ![0, 1] bcast_S1x1024_S14400x1024_0_1 : (⟨S1x1024, .f32⟩ : BufTy).Contents (Elt F) → (⟨S14400x1024, .f32⟩ : BufTy).Contents (Elt F)),
    StableHlo.binary main_v145 main_v146 main_v147 (addf : (⟨S14400x1024, .f32⟩ : BufTy).Contents (Elt F) → (⟨S14400x1024, .f32⟩ : BufTy).Contents (Elt F) → (⟨S14400x1024, .f32⟩ : BufTy).Contents (Elt F)),
    StableHlo.binary main_v147 main_v142 main_v148 (subf : (⟨S14400x1024, .f32⟩ : BufTy).Contents (Elt F) → (⟨S14400x1024, .f32⟩ : BufTy).Contents (Elt F) → (⟨S14400x1024, .f32⟩ : BufTy).Contents (Elt F)),
    StableHlo.binary main_v142 main_v148 main_v149 (Host.divf : (⟨S14400x1024, .f32⟩ : BufTy).Contents (Elt F) → (⟨S14400x1024, .f32⟩ : BufTy).Contents (Elt F) → (⟨S14400x1024, .f32⟩ : BufTy).Contents (Elt F)),
    StableHlo.unary main_v67 main_v150 ((extractStridedSlice S14400x2 ![0, 0] · slices_S14400x4_S14400x2_0_0) : (⟨S14400x4, .f32⟩ : BufTy).Contents (Elt F) → (⟨S14400x2, .f32⟩ : BufTy).Contents (Elt F)),
    StableHlo.unary main_v150 main_v151 (broadcastInDim S14400x1x2 ![0, 2] bcast_S14400x2_S14400x1x2_0_2 : (⟨S14400x2, .f32⟩ : BufTy).Contents (Elt F) → (⟨S14400x1x2, .f32⟩ : BufTy).Contents (Elt F)),
    StableHlo.unary main_v92 main_v152 ((extractStridedSlice S1024x2 ![0, 0] · slices_S1024x4_S1024x2_0_0) : (⟨S1024x4, .f32⟩ : BufTy).Contents (Elt F) → (⟨S1024x2, .f32⟩ : BufTy).Contents (Elt F)),
    StableHlo.unary main_v152 main_v153 (broadcastInDim S1x1024x2 ![1, 2] bcast_S1024x2_S1x1024x2_1_2 : (⟨S1024x2, .f32⟩ : BufTy).Contents (Elt F) → (⟨S1x1024x2, .f32⟩ : BufTy).Contents (Elt F)),
    StableHlo.unary main_v151 main_v154 (broadcastInDim S14400x1024x2 ![0, 1, 2] bcast_S14400x1x2_S14400x1024x2_0_1_2 : (⟨S14400x1x2, .f32⟩ : BufTy).Contents (Elt F) → (⟨S14400x1024x2, .f32⟩ : BufTy).Contents (Elt F)),
    StableHlo.unary main_v153 main_v155 (broadcastInDim S14400x1024x2 ![0, 1, 2] bcast_S1x1024x2_S14400x1024x2_0_1_2 : (⟨S1x1024x2, .f32⟩ : BufTy).Contents (Elt F) → (⟨S14400x1024x2, .f32⟩ : BufTy).Contents (Elt F)),
    StableHlo.binary main_v154 main_v155 main_v156 (minimumf : (⟨S14400x1024x2, .f32⟩ : BufTy).Contents (Elt F) → (⟨S14400x1024x2, .f32⟩ : BufTy).Contents (Elt F) → (⟨S14400x1024x2, .f32⟩ : BufTy).Contents (Elt F)),
    StableHlo.unary main_v67 main_v157 ((extractStridedSlice S14400x2 ![0, 2] · slices_S14400x4_S14400x2_0_2) : (⟨S14400x4, .f32⟩ : BufTy).Contents (Elt F) → (⟨S14400x2, .f32⟩ : BufTy).Contents (Elt F)),
    StableHlo.unary main_v157 main_v158 (broadcastInDim S14400x1x2 ![0, 2] bcast_S14400x2_S14400x1x2_0_2 : (⟨S14400x2, .f32⟩ : BufTy).Contents (Elt F) → (⟨S14400x1x2, .f32⟩ : BufTy).Contents (Elt F)),
    StableHlo.unary main_v92 main_v159 ((extractStridedSlice S1024x2 ![0, 2] · slices_S1024x4_S1024x2_0_2) : (⟨S1024x4, .f32⟩ : BufTy).Contents (Elt F) → (⟨S1024x2, .f32⟩ : BufTy).Contents (Elt F)),
    StableHlo.unary main_v159 main_v160 (broadcastInDim S1x1024x2 ![1, 2] bcast_S1024x2_S1x1024x2_1_2 : (⟨S1024x2, .f32⟩ : BufTy).Contents (Elt F) → (⟨S1x1024x2, .f32⟩ : BufTy).Contents (Elt F)),
    StableHlo.unary main_v158 main_v161 (broadcastInDim S14400x1024x2 ![0, 1, 2] bcast_S14400x1x2_S14400x1024x2_0_1_2 : (⟨S14400x1x2, .f32⟩ : BufTy).Contents (Elt F) → (⟨S14400x1024x2, .f32⟩ : BufTy).Contents (Elt F)),
    StableHlo.unary main_v160 main_v162 (broadcastInDim S14400x1024x2 ![0, 1, 2] bcast_S1x1024x2_S14400x1024x2_0_1_2 : (⟨S1x1024x2, .f32⟩ : BufTy).Contents (Elt F) → (⟨S14400x1024x2, .f32⟩ : BufTy).Contents (Elt F)),
    StableHlo.binary main_v161 main_v162 main_v163 (maximumf : (⟨S14400x1024x2, .f32⟩ : BufTy).Contents (Elt F) → (⟨S14400x1024x2, .f32⟩ : BufTy).Contents (Elt F) → (⟨S14400x1024x2, .f32⟩ : BufTy).Contents (Elt F)),
    StableHlo.binary main_v163 main_v156 main_v164 (subf : (⟨S14400x1024x2, .f32⟩ : BufTy).Contents (Elt F) → (⟨S14400x1024x2, .f32⟩ : BufTy).Contents (Elt F) → (⟨S14400x1024x2, .f32⟩ : BufTy).Contents (Elt F)),
    StableHlo.nullary main_cst_21 (constant S_ .f32 0x00000000#32),
    StableHlo.TRef.unary (.of main_cst_21) main_call3.v0 id,
    StableHlo.TRef.unary main_call3.v0 main_call3.v1 (broadcastInDim S14400x1024x2 ![] bcast_S_S14400x1024x2),
    StableHlo.TRef.binary main_call3.v1 (.of main_v164) main_call3.v2 maximumf,
    StableHlo.unary main_v165 main_v166 ((extractStridedSlice S14400x1024x1 ![0, 0, 0] · slices_S14400x1024x2_S14400x1024x1_0_0_0) : (⟨S14400x1024x2, .f32⟩ : BufTy).Contents (Elt F) → (⟨S14400x1024x1, .f32⟩ : BufTy).Contents (Elt F)),
    StableHlo.reshape main_v166 main_v167 rfl shapeCasts_S14400x1024x1_S14400x1024,
    StableHlo.unary main_v165 main_v168 ((extractStridedSlice S14400x1024x1 ![0, 0, 1] · slices_S14400x1024x2_S14400x1024x1_0_0_1) : (⟨S14400x1024x2, .f32⟩ : BufTy).Contents (Elt F) → (⟨S14400x1024x1, .f32⟩ : BufTy).Contents (Elt F)),
    StableHlo.reshape main_v168 main_v169 rfl shapeCasts_S14400x1024x1_S14400x1024,
    StableHlo.binary main_v167 main_v169 main_v170 (mulf : (⟨S14400x1024, .f32⟩ : BufTy).Contents (Elt F) → (⟨S14400x1024, .f32⟩ : BufTy).Contents (Elt F) → (⟨S14400x1024, .f32⟩ : BufTy).Contents (Elt F)),
    StableHlo.binary main_v170 main_v148 main_v171 (subf : (⟨S14400x1024, .f32⟩ : BufTy).Contents (Elt F) → (⟨S14400x1024, .f32⟩ : BufTy).Contents (Elt F) → (⟨S14400x1024, .f32⟩ : BufTy).Contents (Elt F)),
    StableHlo.binary main_v171 main_v170 main_v172 (Host.divf : (⟨S14400x1024, .f32⟩ : BufTy).Contents (Elt F) → (⟨S14400x1024, .f32⟩ : BufTy).Contents (Elt F) → (⟨S14400x1024, .f32⟩ : BufTy).Contents (Elt F)),
    StableHlo.binary main_v149 main_v172 main_v173 (subf : (⟨S14400x1024, .f32⟩ : BufTy).Contents (Elt F) → (⟨S14400x1024, .f32⟩ : BufTy).Contents (Elt F) → (⟨S14400x1024, .f32⟩ : BufTy).Contents (Elt F)),
    StableHlo.unary main_v173 main_v174 (Host.negf : (⟨S14400x1024, .f32⟩ : BufTy).Contents (Elt F) → (⟨S14400x1024, .f32⟩ : BufTy).Contents (Elt F)) ]

/-- The references stretch D writes, in order. -/
abbrev wD : List (Ref sig .tc) :=
  [ main_v100, main_v101, main_v102, main_v103, main_v104, main_v105, main_v106, main_v107,
    main_v108, main_v109, main_v110, main_v111, main_v112, main_v113, main_v114, main_v115,
    main_v116, main_v117, main_v118, main_v119, main_v120, main_v121, main_v122, main_v123,
    main_v124, main_v125, main_v126, main_v127, main_v128, main_v129, main_v130, main_v131,
    main_v132, main_v133, main_v134, main_v135, main_v136, main_cst_20, main_call2_v0, main_call2_v1,
    main_v137, main_v138, main_v139, main_v140, main_v141, main_v142, main_v143, main_v144,
    main_v145, main_v146, main_v147, main_v148, main_v149, main_v150, main_v151, main_v152,
    main_v153, main_v154, main_v155, main_v156, main_v157, main_v158, main_v159, main_v160,
    main_v161, main_v162, main_v163, main_v164, main_cst_21, main_call3_v0, main_call3_v1, main_v165,
    main_v166, main_v167, main_v168, main_v169, main_v170, main_v171, main_v172, main_v173,
    main_v174 ]

/-- Stretch E: 46 operations. -/
abbrev opsE : List (HloOp τ sig (Elt F)) :=
  [ StableHlo.unary main_v8 main_v175 ((extractStridedSlice S14400x1 ![0, 0] · slices_S14400x2_S14400x1_0_0) : (⟨S14400x2, .f32⟩ : BufTy).Contents (Elt F) → (⟨S14400x1, .f32⟩ : BufTy).Contents (Elt F)),
    StableHlo.reshape main_v175 main_v176 rfl shapeCasts_S14400x1_S14400,
    StableHlo.unary main_v176 main_v177 (broadcastInDim S14400x1 ![0] bcast_S14400_S14400x1_0 : (⟨S14400, .f32⟩ : BufTy).Contents (Elt F) → (⟨S14400x1, .f32⟩ : BufTy).Contents (Elt F)),
    StableHlo.unary main_v92 main_v178 ((extractStridedSlice S1024x1 ![0, 0] · slices_S1024x4_S1024x1_0_0) : (⟨S1024x4, .f32⟩ : BufTy).Contents (Elt F) → (⟨S1024x1, .f32⟩ : BufTy).Contents (Elt F)),
    StableHlo.reshape main_v178 main_v179 rfl shapeCasts_S1024x1_S1024,
    StableHlo.unary main_v179 main_v180 (broadcastInDim S1x1024 ![1] bcast_S1024_S1x1024_1 : (⟨S1024, .f32⟩ : BufTy).Contents (Elt F) → (⟨S1x1024, .f32⟩ : BufTy).Contents (Elt F)),
    StableHlo.unary main_v177 main_v181 (broadcastInDim S14400x1024 ![0, 1] bcast_S14400x1_S14400x1024_0_1 : (⟨S14400x1, .f32⟩ : BufTy).Contents (Elt F) → (⟨S14400x1024, .f32⟩ : BufTy).Contents (Elt F)),
    StableHlo.unary main_v180 main_v182 (broadcastInDim S14400x1024 ![0, 1] bcast_S1x1024_S14400x1024_0_1 : (⟨S1x1024, .f32⟩ : BufTy).Contents (Elt F) → (⟨S14400x1024, .f32⟩ : BufTy).Contents (Elt F)),
    StableHlo.binary main_v181 main_v182 main_v183 (subf : (⟨S14400x1024, .f32⟩ : BufTy).Contents (Elt F) → (⟨S14400x1024, .f32⟩ : BufTy).Contents (Elt F) → (⟨S14400x1024, .f32⟩ : BufTy).Contents (Elt F)),
    StableHlo.unary main_v8 main_v184 ((extractStridedSlice S14400x1 ![0, 1] · slices_S14400x2_S14400x1_0_1) : (⟨S14400x2, .f32⟩ : BufTy).Contents (Elt F) → (⟨S14400x1, .f32⟩ : BufTy).Contents (Elt F)),
    StableHlo.reshape main_v184 main_v185 rfl shapeCasts_S14400x1_S14400,
    StableHlo.unary main_v185 main_v186 (broadcastInDim S14400x1 ![0] bcast_S14400_S14400x1_0 : (⟨S14400, .f32⟩ : BufTy).Contents (Elt F) → (⟨S14400x1, .f32⟩ : BufTy).Contents (Elt F)),
    StableHlo.unary main_v92 main_v187 ((extractStridedSlice S1024x1 ![0, 1] · slices_S1024x4_S1024x1_0_1) : (⟨S1024x4, .f32⟩ : BufTy).Contents (Elt F) → (⟨S1024x1, .f32⟩ : BufTy).Contents (Elt F)),
    StableHlo.reshape main_v187 main_v188 rfl shapeCasts_S1024x1_S1024,
    StableHlo.unary main_v188 main_v189 (broadcastInDim S1x1024 ![1] bcast_S1024_S1x1024_1 : (⟨S1024, .f32⟩ : BufTy).Contents (Elt F) → (⟨S1x1024, .f32⟩ : BufTy).Contents (Elt F)),
    StableHlo.unary main_v186 main_v190 (broadcastInDim S14400x1024 ![0, 1] bcast_S14400x1_S14400x1024_0_1 : (⟨S14400x1, .f32⟩ : BufTy).Contents (Elt F) → (⟨S14400x1024, .f32⟩ : BufTy).Contents (Elt F)),
    StableHlo.unary main_v189 main_v191 (broadcastInDim S14400x1024 ![0, 1] bcast_S1x1024_S14400x1024_0_1 : (⟨S1x1024, .f32⟩ : BufTy).Contents (Elt F) → (⟨S14400x1024, .f32⟩ : BufTy).Contents (Elt F)),
    StableHlo.binary main_v190 main_v191 main_v192 (subf : (⟨S14400x1024, .f32⟩ : BufTy).Contents (Elt F) → (⟨S14400x1024, .f32⟩ : BufTy).Contents (Elt F) → (⟨S14400x1024, .f32⟩ : BufTy).Contents (Elt F)),
    StableHlo.unary main_v92 main_v193 ((extractStridedSlice S1024x1 ![0, 2] · slices_S1024x4_S1024x1_0_2) : (⟨S1024x4, .f32⟩ : BufTy).Contents (Elt F) → (⟨S1024x1, .f32⟩ : BufTy).Contents (Elt F)),
    StableHlo.reshape main_v193 main_v194 rfl shapeCasts_S1024x1_S1024,
    StableHlo.unary main_v194 main_v195 (broadcastInDim S1x1024 ![1] bcast_S1024_S1x1024_1 : (⟨S1024, .f32⟩ : BufTy).Contents (Elt F) → (⟨S1x1024, .f32⟩ : BufTy).Contents (Elt F)),
    StableHlo.unary main_v8 main_v196 ((extractStridedSlice S14400x1 ![0, 0] · slices_S14400x2_S14400x1_0_0) : (⟨S14400x2, .f32⟩ : BufTy).Contents (Elt F) → (⟨S14400x1, .f32⟩ : BufTy).Contents (Elt F)),
    StableHlo.reshape main_v196 main_v197 rfl shapeCasts_S14400x1_S14400,
    StableHlo.unary main_v197 main_v198 (broadcastInDim S14400x1 ![0] bcast_S14400_S14400x1_0 : (⟨S14400, .f32⟩ : BufTy).Contents (Elt F) → (⟨S14400x1, .f32⟩ : BufTy).Contents (Elt F)),
    StableHlo.unary main_v195 main_v199 (broadcastInDim S14400x1024 ![0, 1] bcast_S1x1024_S14400x1024_0_1 : (⟨S1x1024, .f32⟩ : BufTy).Contents (Elt F) → (⟨S14400x1024, .f32⟩ : BufTy).Contents (Elt F)),
    StableHlo.unary main_v198 main_v200 (broadcastInDim S14400x1024 ![0, 1] bcast_S14400x1_S14400x1024_0_1 : (⟨S14400x1, .f32⟩ : BufTy).Contents (Elt F) → (⟨S14400x1024, .f32⟩ : BufTy).Contents (Elt F)),
    StableHlo.binary main_v199 main_v200 main_v201 (subf : (⟨S14400x1024, .f32⟩ : BufTy).Contents (Elt F) → (⟨S14400x1024, .f32⟩ : BufTy).Contents (Elt F) → (⟨S14400x1024, .f32⟩ : BufTy).Contents (Elt F)),
    StableHlo.unary main_v92 main_v202 ((extractStridedSlice S1024x1 ![0, 3] · slices_S1024x4_S1024x1_0_3) : (⟨S1024x4, .f32⟩ : BufTy).Contents (Elt F) → (⟨S1024x1, .f32⟩ : BufTy).Contents (Elt F)),
    StableHlo.reshape main_v202 main_v203 rfl shapeCasts_S1024x1_S1024,
    StableHlo.unary main_v203 main_v204 (broadcastInDim S1x1024 ![1] bcast_S1024_S1x1024_1 : (⟨S1024, .f32⟩ : BufTy).Contents (Elt F) → (⟨S1x1024, .f32⟩ : BufTy).Contents (Elt F)),
    StableHlo.unary main_v8 main_v205 ((extractStridedSlice S14400x1 ![0, 1] · slices_S14400x2_S14400x1_0_1) : (⟨S14400x2, .f32⟩ : BufTy).Contents (Elt F) → (⟨S14400x1, .f32⟩ : BufTy).Contents (Elt F)),
    StableHlo.reshape main_v205 main_v206 rfl shapeCasts_S14400x1_S14400,
    StableHlo.unary main_v206 main_v207 (broadcastInDim S14400x1 ![0] bcast_S14400_S14400x1_0 : (⟨S14400, .f32⟩ : BufTy).Contents (Elt F) → (⟨S14400x1, .f32⟩ : BufTy).Contents (Elt F)),
    StableHlo.unary main_v204 main_v208 (broadcastInDim S14400x1024 ![0, 1] bcast_S1x1024_S14400x1024_0_1 : (⟨S1x1024, .f32⟩ : BufTy).Contents (Elt F) → (⟨S14400x1024, .f32⟩ : BufTy).Contents (Elt F)),
    StableHlo.unary main_v207 main_v209 (broadcastInDim S14400x1024 ![0, 1] bcast_S14400x1_S14400x1024_0_1 : (⟨S14400x1, .f32⟩ : BufTy).Contents (Elt F) → (⟨S14400x1024, .f32⟩ : BufTy).Contents (Elt F)),
    StableHlo.binary main_v208 main_v209 main_v210 (subf : (⟨S14400x1024, .f32⟩ : BufTy).Contents (Elt F) → (⟨S14400x1024, .f32⟩ : BufTy).Contents (Elt F) → (⟨S14400x1024, .f32⟩ : BufTy).Contents (Elt F)),
    StableHlo.binary main_v183 main_v192 main_v211 (minimumf : (⟨S14400x1024, .f32⟩ : BufTy).Contents (Elt F) → (⟨S14400x1024, .f32⟩ : BufTy).Contents (Elt F) → (⟨S14400x1024, .f32⟩ : BufTy).Contents (Elt F)),
    StableHlo.binary main_v201 main_v210 main_v212 (minimumf : (⟨S14400x1024, .f32⟩ : BufTy).Contents (Elt F) → (⟨S14400x1024, .f32⟩ : BufTy).Contents (Elt F) → (⟨S14400x1024, .f32⟩ : BufTy).Contents (Elt F)),
    StableHlo.binary main_v211 main_v212 main_v213 (minimumf : (⟨S14400x1024, .f32⟩ : BufTy).Contents (Elt F) → (⟨S14400x1024, .f32⟩ : BufTy).Contents (Elt F) → (⟨S14400x1024, .f32⟩ : BufTy).Contents (Elt F)),
    StableHlo.nullary main_cst_22 (constant S_ .f32 0x00000000#32),
    StableHlo.unary main_cst_22 main_v214 (broadcastInDim S14400x1024 ![] bcast_S_S14400x1024 : (⟨S_, .f32⟩ : BufTy).Contents (Elt F) → (⟨S14400x1024, .f32⟩ : BufTy).Contents (Elt F)),
    StableHlo.binary main_v213 main_v214 main_v215 (cmpf .oge : (⟨S14400x1024, .f32⟩ : BufTy).Contents (Elt F) → (⟨S14400x1024, .f32⟩ : BufTy).Contents (Elt F) → (⟨S14400x1024, .i1⟩ : BufTy).Contents (Elt F)),
    StableHlo.unary main_v215 main_v216 (uitofp .f32 : (⟨S14400x1024, .i1⟩ : BufTy).Contents (Elt F) → (⟨S14400x1024, .f32⟩ : BufTy).Contents (Elt F)),
    StableHlo.nullary main_cst_23 (constant S_ .f32 0x3F800000#32),
    StableHlo.unary main_cst_23 main_v217 (broadcastInDim S14400x1024 ![] bcast_S_S14400x1024 : (⟨S_, .f32⟩ : BufTy).Contents (Elt F) → (⟨S14400x1024, .f32⟩ : BufTy).Contents (Elt F)),
    StableHlo.binary main_v217 main_v216 main_v218 (subf : (⟨S14400x1024, .f32⟩ : BufTy).Contents (Elt F) → (⟨S14400x1024, .f32⟩ : BufTy).Contents (Elt F) → (⟨S14400x1024, .f32⟩ : BufTy).Contents (Elt F)) ]

/-- The references stretch E writes, in order. -/
abbrev wE : List (Ref sig .tc) :=
  [ main_v175, main_v176, main_v177, main_v178, main_v179, main_v180, main_v181, main_v182,
    main_v183, main_v184, main_v185, main_v186, main_v187, main_v188, main_v189, main_v190,
    main_v191, main_v192, main_v193, main_v194, main_v195, main_v196, main_v197, main_v198,
    main_v199, main_v200, main_v201, main_v202, main_v203, main_v204, main_v205, main_v206,
    main_v207, main_v208, main_v209, main_v210, main_v211, main_v212, main_v213, main_cst_22,
    main_v214, main_v215, main_v216, main_cst_23, main_v217, main_v218 ]

/-- Stretch F: 16 operations. -/
abbrev opsF : List (HloOp τ sig (Elt F)) :=
  [ StableHlo.nullary main_cst_24 (constant S_ .f32 0x40A00000#32),
    StableHlo.unary main_cst_24 main_v219 (broadcastInDim S14400x1024 ![] bcast_S_S14400x1024 : (⟨S_, .f32⟩ : BufTy).Contents (Elt F) → (⟨S14400x1024, .f32⟩ : BufTy).Contents (Elt F)),
    StableHlo.binary main_v219 main_v99 main_v220 (mulf : (⟨S14400x1024, .f32⟩ : BufTy).Contents (Elt F) → (⟨S14400x1024, .f32⟩ : BufTy).Contents (Elt F) → (⟨S14400x1024, .f32⟩ : BufTy).Contents (Elt F)),
    StableHlo.nullary main_cst_25 (constant S_ .f32 0x40000000#32),
    StableHlo.unary main_cst_25 main_v221 (broadcastInDim S14400x1024 ![] bcast_S_S14400x1024 : (⟨S_, .f32⟩ : BufTy).Contents (Elt F) → (⟨S14400x1024, .f32⟩ : BufTy).Contents (Elt F)),
    StableHlo.binary main_v221 main_v42 main_v222 (mulf : (⟨S14400x1024, .f32⟩ : BufTy).Contents (Elt F) → (⟨S14400x1024, .f32⟩ : BufTy).Contents (Elt F) → (⟨S14400x1024, .f32⟩ : BufTy).Contents (Elt F)),
    StableHlo.binary main_v220 main_v222 main_v223 (addf : (⟨S14400x1024, .f32⟩ : BufTy).Contents (Elt F) → (⟨S14400x1024, .f32⟩ : BufTy).Contents (Elt F) → (⟨S14400x1024, .f32⟩ : BufTy).Contents (Elt F)),
    StableHlo.nullary main_cst_26 (constant S_ .f32 0x40000000#32),
    StableHlo.unary main_cst_26 main_v224 (broadcastInDim S14400x1024 ![] bcast_S_S14400x1024 : (⟨S_, .f32⟩ : BufTy).Contents (Elt F) → (⟨S14400x1024, .f32⟩ : BufTy).Contents (Elt F)),
    StableHlo.binary main_v224 main_v174 main_v225 (mulf : (⟨S14400x1024, .f32⟩ : BufTy).Contents (Elt F) → (⟨S14400x1024, .f32⟩ : BufTy).Contents (Elt F) → (⟨S14400x1024, .f32⟩ : BufTy).Contents (Elt F)),
    StableHlo.binary main_v223 main_v225 main_v226 (addf : (⟨S14400x1024, .f32⟩ : BufTy).Contents (Elt F) → (⟨S14400x1024, .f32⟩ : BufTy).Contents (Elt F) → (⟨S14400x1024, .f32⟩ : BufTy).Contents (Elt F)),
    StableHlo.nullary main_cst_27 (constant S_ .f32 0x461C3C00#32),
    StableHlo.unary main_cst_27 main_v227 (broadcastInDim S14400x1024 ![] bcast_S_S14400x1024 : (⟨S_, .f32⟩ : BufTy).Contents (Elt F) → (⟨S14400x1024, .f32⟩ : BufTy).Contents (Elt F)),
    StableHlo.binary main_v227 main_v218 main_v228 (mulf : (⟨S14400x1024, .f32⟩ : BufTy).Contents (Elt F) → (⟨S14400x1024, .f32⟩ : BufTy).Contents (Elt F) → (⟨S14400x1024, .f32⟩ : BufTy).Contents (Elt F)),
    StableHlo.binary main_v226 main_v228 main_v229 (addf : (⟨S14400x1024, .f32⟩ : BufTy).Contents (Elt F) → (⟨S14400x1024, .f32⟩ : BufTy).Contents (Elt F) → (⟨S14400x1024, .f32⟩ : BufTy).Contents (Elt F)),
    StableHlo.reshape main_v229 main_v230 rfl shapeCasts_S14400x1024_S16x900x1024 ]

/-- The references stretch F writes, in order. -/
abbrev wF : List (Ref sig .tc) :=
  [ main_cst_24, main_v219, main_v220, main_cst_25, main_v221, main_v222, main_v223, main_cst_26,
    main_v224, main_v225, main_v226, main_cst_27, main_v227, main_v228, main_v229, main_v230 ]

end Cert.ReferenceIdeal.Hand

end
-- ==== Proof.RRun.lean ====
/-
  The reference program's run, as the fold of its host operations.

  The printed program is five consecutive parts; the outlined functions it calls are applied at their calls.
  Unfolding the parts and the functions, and re-associating the sequencing, the program is the straight line of
  the six stretches of operations laid end to end. The run of a straight line ends with every buffer at the fold
  of the operations' results over the launch contents; a buffer that a stretch does not write keeps its contents
  across that stretch.
-/
import proofs.«419288_j54760833024710_2_alg».proof.Proof.ROps
import Idealize.ShloMosaic.Lib.StableHlo.Run

noncomputable section

namespace Cert.ReferenceIdeal.Hand

open Idealize.ShloMosaic Idealize.ShloMosaic.StableHlo Idealize.ShloMosaic.TcCoe Idealize.SL.Sem Cert.ReferenceIdeal
open Cert.ReferenceIdeal.Facts₀ Cert.ReferenceIdeal.Facts

variable {F : FTy → Type} [FloatOps F] [Cert.ReferenceIdeal.Facts]

/-- The whole line: the six stretches in program order. -/
abbrev ops : List (HloOp τ sig (Elt F)) := opsA ++ opsB ++ opsC ++ opsD ++ opsE ++ opsF

set_option maxRecDepth 8192 in
set_option maxHeartbeats 4000000 in
/-- The program is that line: its five parts and the three outlined functions unfolded at their calls, both sides
    are one chain of steps once the sequencing is re-associated. -/
theorem main_eq (c : Dev nD) : main (F := F) c = StableHlo.seq ops := by
  simp only [main, main_part0, main_part1, main_part2, main_part3, main_part4, fn_take.body, fn_where.body, fn_clip.body,
    seq, bind_assoc, pure_bind, List.cons_append, List.nil_append]
  rfl

theorem scopedRefs_eq : (Finset.univ.filter fun b : Ref sig .tc => b.isScoped) = ∅ := by decide
theorem scopedSems_eq : (Finset.univ.filter fun sm : SemLoc sig => sm.isScoped .tc) = ∅ := by decide

/-! ## Every operation touches TensorCore references only, and determines what it writes

Stretch by stretch (each builder's buffers are TensorCore references; none allocates), then joined along the
concatenation. -/

set_option maxRecDepth 8192 in
theorem opsA_sub : (opsA : List (HloOp τ sig (Elt F))).Forall fun op => op.bufs ⊆ tcRefs τ sig := by
  simp only [List.Forall, nullary_bufs_sub, unary_bufs_sub, binary_bufs_sub, ternary_bufs_sub, reshape_bufs_sub, nary_bufs_sub, and_self]

set_option maxRecDepth 8192 in
theorem opsA_fresh : (opsA : List (HloOp τ sig (Elt F))).Forall fun op => op.fresh = ∅ := by
  simp only [List.Forall, and_self]
  trivial

set_option maxRecDepth 8192 in
theorem opsB_sub : (opsB : List (HloOp τ sig (Elt F))).Forall fun op => op.bufs ⊆ tcRefs τ sig := by
  simp only [List.Forall, nullary_bufs_sub, unary_bufs_sub, binary_bufs_sub, ternary_bufs_sub, reshape_bufs_sub, nary_bufs_sub, and_self]

set_option maxRecDepth 8192 in
theorem opsB_fresh : (opsB : List (HloOp τ sig (Elt F))).Forall fun op => op.fresh = ∅ := by
  simp only [List.Forall, and_self]
  trivial

set_option maxRecDepth 8192 in
theorem opsC_sub : (opsC : List (HloOp τ sig (Elt F))).Forall fun op => op.bufs ⊆ tcRefs τ sig := by
  simp only [List.Forall, nullary_bufs_sub, unary_bufs_sub, binary_bufs_sub, ternary_bufs_sub, reshape_bufs_sub, nary_bufs_sub, and_self]

set_option maxRecDepth 8192 in
theorem opsC_fresh : (opsC : List (HloOp τ sig (Elt F))).Forall fun op => op.fresh = ∅ := by
  simp only [List.Forall, and_self]
  trivial

set_option maxRecDepth 8192 in
theorem opsD_sub : (opsD : List (HloOp τ sig (Elt F))).Forall fun op => op.bufs ⊆ tcRefs τ sig := by
  simp only [List.Forall, nullary_bufs_sub, unary_bufs_sub, binary_bufs_sub, ternary_bufs_sub, reshape_bufs_sub, nary_bufs_sub, and_self]

set_option maxRecDepth 8192 in
theorem opsD_fresh : (opsD : List (HloOp τ sig (Elt F))).Forall fun op => op.fresh = ∅ := by
  simp only [List.Forall, and_self]
  trivial

set_option maxRecDepth 8192 in
theorem opsE_sub : (opsE : List (HloOp τ sig (Elt F))).Forall fun op => op.bufs ⊆ tcRefs τ sig := by
  simp only [List.Forall, nullary_bufs_sub, unary_bufs_sub, binary_bufs_sub, ternary_bufs_sub, reshape_bufs_sub, nary_bufs_sub, and_self]

set_option maxRecDepth 8192 in
theorem opsE_fresh : (opsE : List (HloOp τ sig (Elt F))).Forall fun op => op.fresh = ∅ := by
  simp only [List.Forall, and_self]
  trivial

set_option maxRecDepth 8192 in
theorem opsF_sub : (opsF : List (HloOp τ sig (Elt F))).Forall fun op => op.bufs ⊆ tcRefs τ sig := by
  simp only [List.Forall, nullary_bufs_sub, unary_bufs_sub, binary_bufs_sub, ternary_bufs_sub, reshape_bufs_sub, nary_bufs_sub, and_self]

set_option maxRecDepth 8192 in
theorem opsF_fresh : (opsF : List (HloOp τ sig (Elt F))).Forall fun op => op.fresh = ∅ := by
  simp only [List.Forall, and_self]
  trivial

theorem ops_sub : (ops : List (HloOp τ sig (Elt F))).Forall fun op => op.bufs ⊆ tcRefs τ sig :=
  List.forall_append.mpr ⟨List.forall_append.mpr ⟨List.forall_append.mpr ⟨List.forall_append.mpr
    ⟨List.forall_append.mpr ⟨opsA_sub, opsB_sub⟩, opsC_sub⟩, opsD_sub⟩, opsE_sub⟩, opsF_sub⟩

theorem ops_fresh : ∀ op ∈ (ops : List (HloOp τ sig (Elt F))), op.fresh = ∅ :=
  List.forall_iff_forall_mem.mp
    (List.forall_append.mpr ⟨List.forall_append.mpr ⟨List.forall_append.mpr ⟨List.forall_append.mpr
      ⟨List.forall_append.mpr ⟨opsA_fresh, opsB_fresh⟩, opsC_fresh⟩, opsD_fresh⟩, opsE_fresh⟩, opsF_fresh⟩)

/-! ## The run -/

/-- From any memory with zero counters, every weakly fair execution of the program on the TensorCores terminates,
    and every final state has each TensorCore buffer at the fold of the line's results over the launch contents. -/
theorem run (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b)
        = StableHlo.after ops (StableHlo.launchContents m c) (Proc.devRef .tc b) :=
  run_seq scopedRefs_eq scopedSems_eq defs main (fun _ => ops) main_eq (fun _ => ops_sub) m ρ (fun _ => ops_fresh)

/-- The fold over two lines laid end to end is the second line's fold over the first's. -/
theorem after_append (l₁ l₂ : List (HloOp τ sig (Elt F))) (V : Valuation τ sig (Elt F)) :
    StableHlo.after (l₁ ++ l₂) V = StableHlo.after l₂ (StableHlo.after l₁ V) := by
  induction l₁ generalizing V with
  | nil => rfl
  | cons op l ih => simp only [List.cons_append, after_cons, ih]

/-! ## What a stretch leaves alone

Each operation writes exactly its result reference, and that reference is in the stretch's list; so a reference
outside the list keeps its contents across the stretch. -/

/-- A listed reference's buffer, alone, is among the listed references' buffers. -/
theorem sub_of_mem {W : List (Ref sig .tc)} {y : Ref sig .tc} (h : y ∈ W) :
    ({Proc.devRef (τ := τ) .tc y} : Finset (DevRef τ sig)) ⊆ (W.map (Proc.devRef (τ := τ) .tc)).toFinset :=
  Finset.singleton_subset_iff.mpr (List.mem_toFinset.mpr (List.mem_map_of_mem h))

set_option maxRecDepth 16384 in
theorem opsA_writes : (opsA : List (HloOp τ sig (Elt F))).Forall fun op =>
    op.writes ⊆ (wA.map (Proc.devRef (τ := τ) .tc)).toFinset := by
  simp only [List.Forall]
  repeat' apply And.intro
  all_goals exact sub_of_mem (by decide)

theorem keepA {r : Ref sig .tc} (W : Valuation τ sig (Elt F)) (hr : r ∉ wA) :
    StableHlo.after opsA W (Proc.devRef .tc r) = W (Proc.devRef .tc r) :=
  after_of_writes_sub opsA W opsA_writes hr

set_option maxRecDepth 16384 in
theorem opsB_writes : (opsB : List (HloOp τ sig (Elt F))).Forall fun op =>
    op.writes ⊆ (wB.map (Proc.devRef (τ := τ) .tc)).toFinset := by
  simp only [List.Forall]
  repeat' apply And.intro
  all_goals exact sub_of_mem (by decide)

theorem keepB {r : Ref sig .tc} (W : Valuation τ sig (Elt F)) (hr : r ∉ wB) :
    StableHlo.after opsB W (Proc.devRef .tc r) = W (Proc.devRef .tc r) :=
  after_of_writes_sub opsB W opsB_writes hr

set_option maxRecDepth 16384 in
theorem opsC_writes : (opsC : List (HloOp τ sig (Elt F))).Forall fun op =>
    op.writes ⊆ (wC.map (Proc.devRef (τ := τ) .tc)).toFinset := by
  simp only [List.Forall]
  repeat' apply And.intro
  all_goals exact sub_of_mem (by decide)

theorem keepC {r : Ref sig .tc} (W : Valuation τ sig (Elt F)) (hr : r ∉ wC) :
    StableHlo.after opsC W (Proc.devRef .tc r) = W (Proc.devRef .tc r) :=
  after_of_writes_sub opsC W opsC_writes hr

set_option maxRecDepth 16384 in
theorem opsD_writes : (opsD : List (HloOp τ sig (Elt F))).Forall fun op =>
    op.writes ⊆ (wD.map (Proc.devRef (τ := τ) .tc)).toFinset := by
  simp only [List.Forall]
  repeat' apply And.intro
  all_goals exact sub_of_mem (by decide)

theorem keepD {r : Ref sig .tc} (W : Valuation τ sig (Elt F)) (hr : r ∉ wD) :
    StableHlo.after opsD W (Proc.devRef .tc r) = W (Proc.devRef .tc r) :=
  after_of_writes_sub opsD W opsD_writes hr

set_option maxRecDepth 16384 in
theorem opsE_writes : (opsE : List (HloOp τ sig (Elt F))).Forall fun op =>
    op.writes ⊆ (wE.map (Proc.devRef (τ := τ) .tc)).toFinset := by
  simp only [List.Forall]
  repeat' apply And.intro
  all_goals exact sub_of_mem (by decide)

theorem keepE {r : Ref sig .tc} (W : Valuation τ sig (Elt F)) (hr : r ∉ wE) :
    StableHlo.after opsE W (Proc.devRef .tc r) = W (Proc.devRef .tc r) :=
  after_of_writes_sub opsE W opsE_writes hr

set_option maxRecDepth 16384 in
theorem opsF_writes : (opsF : List (HloOp τ sig (Elt F))).Forall fun op =>
    op.writes ⊆ (wF.map (Proc.devRef (τ := τ) .tc)).toFinset := by
  simp only [List.Forall]
  repeat' apply And.intro
  all_goals exact sub_of_mem (by decide)

theorem keepF {r : Ref sig .tc} (W : Valuation τ sig (Elt F)) (hr : r ∉ wF) :
    StableHlo.after opsF W (Proc.devRef .tc r) = W (Proc.devRef .tc r) :=
  after_of_writes_sub opsF W opsF_writes hr

/-- A reference no stretch writes keeps its contents across the whole line. -/
theorem keep {r : Ref sig .tc} (W : Valuation τ sig (Elt F)) (hA : r ∉ wA) (hB : r ∉ wB) (hC : r ∉ wC) (hD : r ∉ wD)
    (hE : r ∉ wE) (hF : r ∉ wF) : StableHlo.after ops W (Proc.devRef .tc r) = W (Proc.devRef .tc r) := by
  simp only [ops, after_append]
  rw [keepF _ hF, keepE _ hE, keepD _ hD, keepC _ hC, keepB _ hB, keepA _ hA]

/-! ## The frame: the arguments end as they started -/

theorem frame (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(h c main_arg0).trans (keep _ (by decide) (by decide) (by decide) (by decide) (by decide) (by decide)),
     (h c main_arg1).trans (keep _ (by decide) (by decide) (by decide) (by decide) (by decide) (by decide)),
     (h c main_arg2).trans (keep _ (by decide) (by decide) (by decide) (by decide) (by decide) (by decide)),
     (h c main_arg3).trans (keep _ (by decide) (by decide) (by decide) (by decide) (by decide) (by decide)),
     (h c main_arg4).trans (keep _ (by decide) (by decide) (by decide) (by decide) (by decide) (by decide)),
     (h c main_arg5).trans (keep _ (by decide) (by decide) (by decide) (by decide) (by decide) (by decide))⟩)
    (run m ρ)

end Cert.ReferenceIdeal.Hand

end
-- ==== Proof.RClass.lean ====
/-
  The class term of the reference, stretch A of its run (the operations through %42).

  Both inputs are flattened to 14400 rows. Every logit and every objectness value goes through the logistic
  function, spelled `1 / (1 + e^(−x))`; their product along a row is the probability `p`. From `p` two arrays are
  formed, `(¾ · p^2) · (−log ((1 − p) + ε))` and `(¼ · (1 − p)^2) · (−log (p + ε))`, and each is read at the
  targets' labels by a take: a gather of the label's column, kept where the label (a negative one first moved up
  by 91) lies in [0, 90] and replaced by a filler elsewhere. The class term is the second take minus the first.

  Under the hypothesis that every label is below 91 the label is never moved, the range test always holds and the
  clamp inside the gather is the identity, so the take at row `n`, target `t` is the array's entry at row `n` and
  the label's class. At real inputs the probability is a real number, where a power with exponent 2 is the
  square and a negation is a subtraction from zero: the two arrays' entries are the specification's two terms,
  and their difference is its focal term.
-/
import proofs.«419288_j54760833024710_2_alg».proof.Proof.ROps
import proofs.«419288_j54760833024710_2_alg».proof.Proof.Spec
import proofs.«419288_j54760833024710_2_alg».proof.Proof.SpecLemmas
import Idealize.ShloMosaic.Lib.StableHlo.Run
import Idealize.ShloMosaic.Lib.StableHlo.Predicate
import Idealize.ShloMosaic.Lib.ValueIdx
import Idealize.ShloMosaic.Lib.Pipeline.Value
import Idealize.ShloMosaic.Lib.ValueLayout
import Idealize.ShloMosaic.PureOps.Ideal.Laws

noncomputable section

namespace Cert.ReferenceIdeal.Hand

open Idealize.ShloMosaic Idealize.ShloMosaic.StableHlo Idealize.ShloMosaic.ValueIdx Cert.ReferenceIdeal Cert.Spec
open Cert.ReferenceIdeal.Facts₀ Cert.ReferenceIdeal.Facts

variable [Cert.ReferenceIdeal.Facts]

local notation "R" b => Proc.devRef (τ := τ) (sig := sig) Proc.tc b

/-! ## The gather's read at an entry

The gather keeps the whole first axis of the table and takes, on the second, the one column its start index names:
the entry at row `n` and target `t` is the table's entry at row `n` and at the column the `t`-th start index
names, read as a signed number and brought into the table's columns. -/

section GatherRead
variable {w : Nat}
    (d : GatherDims (⟨2, ![14400, 91]⟩ : Shape) (⟨2, ![1024, 1]⟩ : Shape) (⟨2, ![14400, 1024]⟩ : Shape))
    (hoff : d.offsetDims = [0]) (hcoll : d.collapsedSliceDims = [1]) (hob : d.operandBatchingDims = [])
    (hsim : d.startIndexMap = [1]) (hivd : d.indexVectorDim = 1)
    (idx : IVec (⟨2, ![1024, 1]⟩ : Shape) w) (n : Fin 14400) (t : Fin 1024)
include hoff hcoll hob hsim hivd

/-- On the first axis the table is read at the result's own row: that axis is neither indexed nor collapsed. -/
theorem gather_coord0 : (d.operandIdx (ix2 n t) idx (0 : Fin 2)).val = n.val := by
  have hb : (0 : Fin 2) ∉ d.operandBatchingDims := by rw [hob]; exact List.not_mem_nil
  have hk : (0 : Fin 2) ∈ d.sKept := by rw [GatherDims.mem_sKept, hcoll, hob]; simp
  have hm : (0 : Fin 2) ∉ d.startIndexMap := by rw [hsim]; simp
  simp only [GatherDims.operandIdx, GatherDims.batchCoord_eq_zero _ _ _ hb, GatherDims.start]
  rw [dif_neg hm]
  unfold GatherDims.offCoord
  rw [dif_pos hk]
  have key : ∀ (l : List (Fin 2)) (k : Nat) (h : k < l.length), l = [0] → l[k]'h = 0 := by
    intro l k h e; subst e
    have : k = 0 := by simpa using h
    subst this; rfl
  rw [key _ _ _ hoff]
  show 0 + 0 + n.val = n.val
  omega

/-- On the second axis the table is read at the start index of the result's column, clamped into the 91 columns. -/
theorem gather_coord1 :
    (d.operandIdx (ix2 n t) idx (1 : Fin 2)).val = min (idx (ix2 t (0 : Fin 1))).toInt.toNat 90 := by
  have hb : (1 : Fin 2) ∉ d.operandBatchingDims := by rw [hob]; exact List.not_mem_nil
  have hk : (1 : Fin 2) ∉ d.sKept := by rw [GatherDims.mem_sKept, hcoll]; simp
  have hm : (1 : Fin 2) ∈ d.startIndexMap := by rw [hsim]; simp
  have hsl : d.sliceSizes 1 = 1 := d.slice_collapsed 1 (by rw [hcoll]; exact List.mem_singleton.mpr rfl)
  simp only [GatherDims.operandIdx, GatherDims.batchCoord_eq_zero _ _ _ hb, GatherDims.offCoord_eq_zero _ _ _ hk,
    Nat.add_zero, GatherDims.start]
  rw [dif_pos hm, hsl]
  have hsi : d.siIdx (ix2 n t) ⟨List.idxOf 1 d.startIndexMap, List.idxOf_lt_length_iff.2 hm⟩ = ix2 t (0 : Fin 1) := by
    funext b
    revert b
    show ∀ b : Fin 2, d.siIdx (ix2 n t) ⟨List.idxOf 1 d.startIndexMap, List.idxOf_lt_length_iff.2 hm⟩ b
      = (ix2 t (0 : Fin 1) : (⟨2, ![1024, 1]⟩ : Shape).Idx) b
    rw [Fin.forall_fin_two]
    constructor
    · unfold GatherDims.siIdx
      rw [dif_neg (by rw [hivd]; decide)]
      unfold GatherDims.siCoord
      apply Fin.ext
      simp only [Fin.val_cast]
      have key : ∀ (l : List (Fin 2)) (k : Nat) (h : k < l.length), l = [1] → l[k]'h = 1 := by
        intro l k h e; subst e
        have : k = 0 := by simpa using h
        subst this; rfl
      have hbd : d.batchDims = [1] := by
        show (⟨2, ![14400, 1024]⟩ : Shape).kept d.offsetDims = [1]
        rw [hoff]; decide
      rw [key _ _ _ hbd]
    · unfold GatherDims.siIdx
      rw [dif_pos (by rw [hivd]; rfl)]
      apply Fin.ext
      show List.idxOf (1 : Fin 2) d.startIndexMap = 0
      rw [hsim]; simp
  rw [hsi]
  rfl

/-- The gather read at row `n`, target `t`. -/
theorem gather_row_read {α : Type} (x : (⟨2, ![14400, 91]⟩ : Shape).Idx → α) :
    Host.gather d x idx (ix2 n t)
      = x (ix2 n ⟨min (idx (ix2 t (0 : Fin 1))).toInt.toNat 90, by omega⟩) := by
  unfold Host.gather
  congr 1
  funext a
  revert a
  show ∀ a : Fin 2, d.operandIdx (ix2 n t) idx a
    = (ix2 n ⟨min (idx (ix2 t (0 : Fin 1))).toInt.toNat 90, by omega⟩ : (⟨2, ![14400, 91]⟩ : Shape).Idx) a
  rw [Fin.forall_fin_two]
  exact ⟨Fin.ext (gather_coord0 d hoff hcoll hob hsim hivd idx n t),
    Fin.ext (gather_coord1 d hoff hcoll hob hsim hivd idx n t)⟩

end GatherRead

/-! ## The stretch's operations as functions of the arrays -/

/-- A literal spread over the [14400, 91] array. -/
abbrev lit91 (b : BitVec 32) : FVec Ideal S14400x91 .f32 :=
  broadcastInDim S14400x91 ![] bcast_S_S14400x91 (constant S_ .f32 b)
/-- A literal spread over the [14400, 1] array. -/
abbrev lit1 (b : BitVec 32) : FVec Ideal S14400x1 .f32 :=
  broadcastInDim S14400x1 ![] bcast_S_S14400x1 (constant S_ .f32 b)

/-- The spelled-out logistic function `1 / (1 + e^(−x))` of every logit. -/
def sig91 (x : FVec Ideal S14400x91 .f32) : FVec Ideal S14400x91 .f32 :=
  Host.divf (lit91 0x3F800000#32) (addf (lit91 0x3F800000#32) (Host.exp (Host.negf x)))
/-- The same of every objectness value. -/
def sig1 (o : FVec Ideal S14400x1 .f32) : FVec Ideal S14400x1 .f32 :=
  Host.divf (lit1 0x3F800000#32) (addf (lit1 0x3F800000#32) (Host.exp (Host.negf o)))
/-- The probabilities: each row's logistic logits times the row's logistic objectness. -/
def probV (x : FVec Ideal S14400x91 .f32) (o : FVec Ideal S14400x1 .f32) : FVec Ideal S14400x91 .f32 :=
  mulf (sig91 x) (broadcastInDim S14400x91 ![0, 1] bcast_S14400x1_S14400x91_0_1 (sig1 o))
/-- `(¾ · p^2) · (−log ((1 − p) + ε))` of every probability. -/
def negV (p : FVec Ideal S14400x91 .f32) : FVec Ideal S14400x91 .f32 :=
  mulf (mulf (lit91 0x3F400000#32) (Host.powf p (lit91 0x40000000#32)))
    (Host.negf (Host.log (addf (subf (lit91 0x3F800000#32) p) (lit91 0x322BCC77#32))))
/-- `(¼ · (1 − p)^2) · (−log (p + ε))` of every probability. -/
def posV (p : FVec Ideal S14400x91 .f32) : FVec Ideal S14400x91 .f32 :=
  mulf (mulf (lit91 0x3E800000#32) (Host.powf (subf (lit91 0x3F800000#32) p) (lit91 0x40000000#32)))
    (Host.negf (Host.log (addf p (lit91 0x322BCC77#32))))

/-- The labels with a negative one moved up by 91. -/
def wrapLab (lab : IVec S1024 32) : IVec S1024 32 :=
  select (cmpi .slt lab (broadcastInDim S1024 ![] bcast_S_S1024 (constantI S_ 32 0#32)))
    (addi lab (broadcastInDim S1024 ![] bcast_S_S1024 (constantI S_ 32 91#32))) lab
/-- Those as a column: the gather's start indices. -/
def colLab (lab : IVec S1024 32) : IVec S1024x1 32 :=
  broadcastInDim S1024x1 ![0] bcast_S1024_S1024x1_0 (wrapLab lab)
/-- Per target, whether its start index lies in `[0, 90]`. -/
def okLab (lab : IVec S1024 32) : IVec S1024 1 :=
  Host.reduce IntOp.andi
    (andi (cmpi .sge (colLab lab) (broadcastInDim S1024x1 ![] bcast_S_S1024x1 (constantI S_ 32 0#32)))
      (cmpi .sle (colLab lab)
        (broadcastInDim S1024x1 ![0, 1] bcast_S1x1_S1024x1_0_1 (broadcastInDim S1x1 ![1] bcast_S1_S1x1_1 (constantI S1 32 90#32)))))
    (constantI S_ 1 1#1) reducesTo_S1024x1_S1024_d1 h_S_
/-- The table's columns taken at the labels: the gathered entry where the index is in range, else the filler. -/
def takeV (x : FVec Ideal S14400x91 .f32) (lab : IVec S1024 32) : FVec Ideal S14400x1024 .f32 :=
  select (broadcastInDim S14400x1024 ![1] bcast_S1024_S14400x1024_1 (okLab lab))
    (Host.gather gather_S14400x91_S1024x1_S14400x1024_0_1_n_n_1_1_144001 x (colLab lab))
    (broadcastInDim S14400x1024 ![] bcast_S_S14400x1024 (constant S_ .f32 0x7FC00000#32))

/-! ## The stretch's results as those functions of its inputs -/

theorem segA_v42_term (W : Valuation τ sig (Elt Ideal)) :
    StableHlo.after (opsA (F := Ideal)) W (R main_v42)
      = subf
          (takeV (posV (probV (shapeCast S14400x91 (W (R main_arg0)) shapeCasts_S16x900x91_S14400x91)
            (shapeCast S14400x1 (W (R main_arg3)) shapeCasts_S16x900x1_S14400x1))) (W (R main_arg4)))
          (takeV (negV (probV (shapeCast S14400x91 (W (R main_arg0)) shapeCasts_S16x900x91_S14400x91)
            (shapeCast S14400x1 (W (R main_arg3)) shapeCasts_S16x900x1_S14400x1))) (W (R main_arg4))) := by
  after_results_simp
  rfl

/-! ## The functions read at an entry -/

theorem sig91_apply (x : FVec Ideal S14400x91 .f32) (i : S14400x91.Idx) : sig91 x i = Ideal.logistic (x i) :=
  logistic_spelled (x i)

theorem sig1_apply (o : FVec Ideal S14400x1 .f32) (i : S14400x1.Idx) : sig1 o i = Ideal.logistic (o i) :=
  logistic_spelled (o i)

/-- An entry of the probabilities: the product of the two logistic values of its row. -/
theorem probV_apply (x : FVec Ideal S14400x91 .f32) (o : FVec Ideal S14400x1 .f32) (n : Fin 14400) (k : Fin 91) :
    probV x o (ix2 n k) = prob (x (ix2 n k)) (o (ix2 n (0 : Fin 1))) := by
  show sig91 x (ix2 n k) * broadcastInDim S14400x91 ![0, 1] bcast_S14400x1_S14400x91_0_1 (sig1 o) (ix2 n k) = _
  rw [broadcastInDim_apply _ _ _ (ix2 n k) (ix2 n (0 : Fin 1)) (fun a => match a with | ⟨0, _⟩ => rfl | ⟨1, _⟩ => rfl),
    sig91_apply, sig1_apply]
  rfl

/-- At a real probability the first spelled term is the specification's. -/
theorem negV_apply (p : FVec Ideal S14400x91 .f32) (i : S14400x91.Idx) (r : ℝ) (hp : p i = (r : EReal)) :
    negV p i = negTerm (p i) := by
  show (c3Quarter * Ideal.pow (p i) c2) * (-(Ideal.log ((c1 - p i) + cEps))) = _
  rw [hp, pow_two_real, neg_eq_zero_sub]
  rfl

/-- At a real probability the second spelled term is the specification's. -/
theorem posV_apply (p : FVec Ideal S14400x91 .f32) (i : S14400x91.Idx) (r : ℝ) (hp : p i = (r : EReal)) :
    posV p i = posTerm (p i) := by
  show (cQuarter * Ideal.pow (c1 - p i) c2) * (-(Ideal.log (p i + cEps))) = _
  have h1 : c1 - (r : EReal) = ((1 - r : ℝ) : EReal) := by
    rw [c1_eq, ← EReal.coe_one, ← EReal.coe_sub]
  rw [hp, h1, pow_two_real, neg_eq_zero_sub, ← h1]
  rfl

/-- A left fold of `and` from 1 over entries that are all 1 is 1. -/
theorem foldl_andi_one {ι : Type} (f : ι → BitVec 1) (hf : ∀ i, f i = 1#1) :
    ∀ l : List ι, l.foldl (fun r i => IntOp.andi r (f i)) 1#1 = 1#1
  | [] => rfl
  | a :: l => by
    rw [List.foldl_cons, hf a, show IntOp.andi 1#1 1#1 = 1#1 from by decide]
    exact foldl_andi_one f hf l

section Labels
variable (lab : IVec S1024 32) (hlab : LabOk lab)
include hlab

/-- A label in range is not moved. -/
theorem wrapLab_apply (t : Fin 1024) : wrapLab lab (ix1 t) = lab (ix1 t) :=
  lab_norm (lab (ix1 t)) (hlab t) _

/-- The start index of target `t` is its label. -/
theorem colLab_apply (t : Fin 1024) (z : Fin 1) : colLab lab (ix2 t z) = lab (ix1 t) := by
  show broadcastInDim S1024x1 ![0] bcast_S1024_S1024x1_0 (wrapLab lab) (ix2 t z) = _
  rw [broadcastInDim_apply _ _ _ (ix2 t z) (ix1 t) (fun a => match a with | ⟨0, _⟩ => rfl)]
  exact wrapLab_apply lab hlab t

/-- Every start index is in range. -/
theorem okLab_apply (t : Fin 1024) : okLab lab (ix1 t) = 1#1 := by
  unfold okLab
  rw [Host.reduce_eq_foldl]
  refine foldl_andi_one (ι := S1024x1.Idx) (fun i => IntOp.andi (IntOp.cmpi .sge (colLab lab i) 0#32) (IntOp.cmpi .sle (colLab lab i) 90#32))
    (fun i => ?_) _
  obtain ⟨a, b, rfl⟩ : ∃ (a : Fin 1024) (b : Fin 1), i = ix2 a b := ⟨_, _, eq_ix2 i⟩
  show IntOp.andi (IntOp.cmpi .sge (colLab lab (ix2 a b)) 0#32) (IntOp.cmpi .sle (colLab lab (ix2 a b)) 90#32) = 1#1
  rw [colLab_apply lab hlab a b]
  exact lab_inrange _ (hlab a)

/-- The take read at row `n`, target `t`: the table at the target's class. -/
theorem takeV_apply (x : FVec Ideal S14400x91 .f32) (n : Fin 14400) (t : Fin 1024) :
    takeV x lab (ix2 n t) = x (ix2 n (labIdx lab t)) := by
  show Scalar.select (broadcastInDim S14400x1024 ![1] bcast_S1024_S14400x1024_1 (okLab lab) (ix2 n t))
    (Host.gather gather_S14400x91_S1024x1_S14400x1024_0_1_n_n_1_1_144001 x (colLab lab) (ix2 n t)) _ = _
  rw [broadcastInDim_apply _ _ _ (ix2 n t) (ix1 t) (fun a => match a with | ⟨0, _⟩ => rfl),
    okLab_apply lab hlab t, select_one,
    gather_row_read gather_S14400x91_S1024x1_S14400x1024_0_1_n_n_1_1_144001 rfl rfl rfl rfl rfl (colLab lab) n t x]
  refine congrArg (fun k => x (ix2 n k)) (Fin.ext ?_)
  show min (colLab lab (ix2 t (0 : Fin 1))).toInt.toNat 90 = (labIdx lab t).val
  rw [colLab_apply lab hlab, labIdx_val lab hlab t]
  exact lab_clamp' _ (hlab t)

end Labels

/-! ## The stretch's three results -/

theorem segA_v42 (W : Valuation τ sig (Elt Ideal)) (hL : FinV (W (R main_arg0) : FVec Ideal S16x900x91 .f32))
    (hO : FinV (W (R main_arg3) : FVec Ideal S16x900x1 .f32)) (hlab : LabOk (W (R main_arg4)))
    (n : Fin 14400) (t : Fin 1024) :
    (StableHlo.after (opsA (F := Ideal)) W (R main_v42) : FVec Ideal S14400x1024 .f32) (ix2 n t)
      = cls (shapeCast S14400x91 (W (R main_arg0)) shapeCasts_S16x900x91_S14400x91)
          (shapeCast S14400x1 (W (R main_arg3)) shapeCasts_S16x900x1_S14400x1) (W (R main_arg4)) n t := by
  rw [segA_v42_term]
  obtain ⟨l, hl⟩ := finV_shapeCast _ shapeCasts_S16x900x91_S14400x91 hL (ix2 n (labIdx (W (R main_arg4)) t))
  obtain ⟨o, ho⟩ := finV_shapeCast _ shapeCasts_S16x900x1_S14400x1 hO (ix2 n (0 : Fin 1))
  obtain ⟨p, -, -, hp⟩ := prob_real l o
  have hP : probV (shapeCast S14400x91 (W (R main_arg0)) shapeCasts_S16x900x91_S14400x91)
      (shapeCast S14400x1 (W (R main_arg3)) shapeCasts_S16x900x1_S14400x1) (ix2 n (labIdx (W (R main_arg4)) t)) = (p : EReal) := by
    rw [probV_apply, hl, ho, hp]
  show takeV _ _ (ix2 n t) - takeV _ _ (ix2 n t) = _
  rw [takeV_apply _ hlab, takeV_apply _ hlab, posV_apply _ _ p hP, negV_apply _ _ p hP, probV_apply]
  rfl

theorem segA_v7 (W : Valuation τ sig (Elt Ideal)) :
    StableHlo.after (opsA (F := Ideal)) W (R main_v7) = shapeCast S14400x4 (W (R main_arg1)) shapeCasts_S16x900x4_S14400x4 := by
  after_results_simp
  rfl

theorem segA_v8 (W : Valuation τ sig (Elt Ideal)) :
    StableHlo.after (opsA (F := Ideal)) W (R main_v8) = shapeCast S14400x2 (W (R main_arg2)) shapeCasts_S16x900x2_S14400x2 := by
  after_results_simp
  rfl

end Cert.ReferenceIdeal.Hand
end
-- ==== Proof.RBoxes.lean ====
/-
  Two stretches of the reference read entry by entry: the corners of the two box arrays, and the weighted total with
  its final reshape. Each theorem says what one buffer holds after a stretch of operations as the specification's
  function of the buffers the stretch started from.
-/
import proofs.«419288_j54760833024710_2_alg».proof.Proof.ROps
import proofs.«419288_j54760833024710_2_alg».proof.Proof.Spec
import proofs.«419288_j54760833024710_2_alg».proof.Proof.SpecLemmas
import Idealize.ShloMosaic.Lib.StableHlo.Run
import Idealize.ShloMosaic.Lib.ValueIdx
import Idealize.ShloMosaic.Lib.Pipeline.Value
import Idealize.ShloMosaic.Lib.ValueLayout
import Idealize.ShloMosaic.PureOps.Ideal.Laws

noncomputable section

namespace Cert.ReferenceIdeal.Hand

open Idealize.ShloMosaic Idealize.ShloMosaic.StableHlo Idealize.ShloMosaic.ValueIdx Cert.ReferenceIdeal Cert.Spec
open Cert.ReferenceIdeal.Facts₀ Cert.ReferenceIdeal.Facts

variable [Cert.ReferenceIdeal.Facts]

local notation "R " b:max => Proc.devRef (τ := τ) Proc.tc b

namespace Boxes

/-! ## Corners of a box array -/

section Corners

variable {N : Nat}

/-- Column `c` of an [N,4] array, cut out as an [N,1] block and reshaped to a vector, reads the array's entry
    `(n, c)` at `n`: the reshape keeps the row-major position and the block starts at column `c`. -/
theorem column_apply (B : FVec Ideal (⟨2, ![N, 4]⟩ : Shape) .f32) (off : Fin 2 → Nat) (c : Fin 4)
    (h0 : off 0 = 0) (h1 : off 1 = c.val)
    (hs : (⟨2, ![N, 4]⟩ : Shape).Slices off ⟨2, ![N, 1]⟩) (hc : (⟨2, ![N, 1]⟩ : Shape).ShapeCasts ⟨1, ![N]⟩) (n : Fin N) :
    shapeCast (⟨1, ![N]⟩ : Shape) (extractStridedSlice (⟨2, ![N, 1]⟩ : Shape) off B hs) hc (ix1 n) = B (ix2 n c) := by
  refine (shapeCast_apply _ hc (ix1 n) (ix2 n (0 : Fin 1)) ?_).trans ?_
  · rw [Shape.rowMajor_val_two, Shape.rowMajor_val_one]
    show n.val * 1 + 0 = n.val
    omega
  · refine extractStridedSlice_apply off B hs (ix2 n (0 : Fin 1)) (ix2 n c) fun a => ?_
    match a with
    | ⟨0, _⟩ => show n.val = off 0 + n.val; omega
    | ⟨1, _⟩ => show c.val = off 1 + 0; omega

/-- A vector broadcast back to an [N,1] column reads its entry `n` at `(n, 0)`. -/
theorem backToColumn_apply (x : FVec Ideal (⟨1, ![N]⟩ : Shape) .f32) (hN : N ≠ 1)
    (hb : (⟨1, ![N]⟩ : Shape).BroadcastsInDim ⟨2, ![N, 1]⟩ ![0]) (n : Fin N) :
    broadcastInDim (⟨2, ![N, 1]⟩ : Shape) ![0] hb x (ix2 n (0 : Fin 1)) = x (ix1 n) := by
  refine broadcastInDim_apply ![0] hb x (ix2 n (0 : Fin 1)) (ix1 n) fun a => ?_
  match a with
  | ⟨0, _⟩ => exact (if_neg hN).symm

end Corners

section Corners

variable {N : Nat}

/-! Four [N,1] columns joined along the second axis read column `k` at `(n, k)`: the index falls in piece `k`, whose
    span along that axis is the single position `k`. -/

theorem joinColumns_apply0 (x0 x1 x2 x3 : FVec Ideal (⟨2, ![N, 1]⟩ : Shape) .f32)
    (hcat : Shape.Concatenates [(⟨2, ![N, 1]⟩ : Shape), ⟨2, ![N, 1]⟩, ⟨2, ![N, 1]⟩, ⟨2, ![N, 1]⟩] ⟨2, ![N, 4]⟩ 1)
    (n : Fin N) :
    concatenate (⟨2, ![N, 4]⟩ : Shape) 1
      [⟨(⟨2, ![N, 1]⟩ : Shape), x0⟩, ⟨(⟨2, ![N, 1]⟩ : Shape), x1⟩, ⟨(⟨2, ![N, 1]⟩ : Shape), x2⟩, ⟨(⟨2, ![N, 1]⟩ : Shape), x3⟩]
      hcat (ix2 n (0 : Fin 4)) = x0 (ix2 n (0 : Fin 1)) := by
  have hcat' : Shape.Concatenates (List.map (·.1) ([⟨(⟨2, ![N, 1]⟩ : Shape), x0⟩, ⟨(⟨2, ![N, 1]⟩ : Shape), x1⟩, ⟨(⟨2, ![N, 1]⟩ : Shape), x2⟩, ⟨(⟨2, ![N, 1]⟩ : Shape), x3⟩] : List ((s : Shape) × (s.Idx → Ideal .f32))))
      (⟨2, ![N, 4]⟩ : Shape) 1 := hcat
  exact concatenate_apply_piece (t := (⟨2, ![N, 4]⟩ : Shape)) (1 : Fin 2) [⟨(⟨2, ![N, 1]⟩ : Shape), x0⟩, ⟨(⟨2, ![N, 1]⟩ : Shape), x1⟩, ⟨(⟨2, ![N, 1]⟩ : Shape), x2⟩, ⟨(⟨2, ![N, 1]⟩ : Shape), x3⟩] hcat' (ix2 n (0 : Fin 4)) 0
    (by show 0 < 4; omega) (⟨2, ![N, 1]⟩ : Shape) x0 rfl rfl 0 rfl (ix2 n (0 : Fin 1))
    (fun b hb1 => match b, hb1 with
      | ⟨0, _⟩, _ => rfl
      | ⟨1, _⟩, hb1 => absurd rfl hb1) rfl

theorem joinColumns_apply1 (x0 x1 x2 x3 : FVec Ideal (⟨2, ![N, 1]⟩ : Shape) .f32)
    (hcat : Shape.Concatenates [(⟨2, ![N, 1]⟩ : Shape), ⟨2, ![N, 1]⟩, ⟨2, ![N, 1]⟩, ⟨2, ![N, 1]⟩] ⟨2, ![N, 4]⟩ 1)
    (n : Fin N) :
    concatenate (⟨2, ![N, 4]⟩ : Shape) 1
      [⟨(⟨2, ![N, 1]⟩ : Shape), x0⟩, ⟨(⟨2, ![N, 1]⟩ : Shape), x1⟩, ⟨(⟨2, ![N, 1]⟩ : Shape), x2⟩, ⟨(⟨2, ![N, 1]⟩ : Shape), x3⟩]
      hcat (ix2 n (1 : Fin 4)) = x1 (ix2 n (0 : Fin 1)) := by
  have hcat' : Shape.Concatenates (List.map (·.1) ([⟨(⟨2, ![N, 1]⟩ : Shape), x0⟩, ⟨(⟨2, ![N, 1]⟩ : Shape), x1⟩, ⟨(⟨2, ![N, 1]⟩ : Shape), x2⟩, ⟨(⟨2, ![N, 1]⟩ : Shape), x3⟩] : List ((s : Shape) × (s.Idx → Ideal .f32))))
      (⟨2, ![N, 4]⟩ : Shape) 1 := hcat
  exact concatenate_apply_piece (t := (⟨2, ![N, 4]⟩ : Shape)) (1 : Fin 2) [⟨(⟨2, ![N, 1]⟩ : Shape), x0⟩, ⟨(⟨2, ![N, 1]⟩ : Shape), x1⟩, ⟨(⟨2, ![N, 1]⟩ : Shape), x2⟩, ⟨(⟨2, ![N, 1]⟩ : Shape), x3⟩] hcat' (ix2 n (1 : Fin 4)) 1
    (by show 1 < 4; omega) (⟨2, ![N, 1]⟩ : Shape) x1 rfl rfl 1 rfl (ix2 n (0 : Fin 1))
    (fun b hb1 => match b, hb1 with
      | ⟨0, _⟩, _ => rfl
      | ⟨1, _⟩, hb1 => absurd rfl hb1) rfl

theorem joinColumns_apply2 (x0 x1 x2 x3 : FVec Ideal (⟨2, ![N, 1]⟩ : Shape) .f32)
    (hcat : Shape.Concatenates [(⟨2, ![N, 1]⟩ : Shape), ⟨2, ![N, 1]⟩, ⟨2, ![N, 1]⟩, ⟨2, ![N, 1]⟩] ⟨2, ![N, 4]⟩ 1)
    (n : Fin N) :
    concatenate (⟨2, ![N, 4]⟩ : Shape) 1
      [⟨(⟨2, ![N, 1]⟩ : Shape), x0⟩, ⟨(⟨2, ![N, 1]⟩ : Shape), x1⟩, ⟨(⟨2, ![N, 1]⟩ : Shape), x2⟩, ⟨(⟨2, ![N, 1]⟩ : Shape), x3⟩]
      hcat (ix2 n (2 : Fin 4)) = x2 (ix2 n (0 : Fin 1)) := by
  have hcat' : Shape.Concatenates (List.map (·.1) ([⟨(⟨2, ![N, 1]⟩ : Shape), x0⟩, ⟨(⟨2, ![N, 1]⟩ : Shape), x1⟩, ⟨(⟨2, ![N, 1]⟩ : Shape), x2⟩, ⟨(⟨2, ![N, 1]⟩ : Shape), x3⟩] : List ((s : Shape) × (s.Idx → Ideal .f32))))
      (⟨2, ![N, 4]⟩ : Shape) 1 := hcat
  exact concatenate_apply_piece (t := (⟨2, ![N, 4]⟩ : Shape)) (1 : Fin 2) [⟨(⟨2, ![N, 1]⟩ : Shape), x0⟩, ⟨(⟨2, ![N, 1]⟩ : Shape), x1⟩, ⟨(⟨2, ![N, 1]⟩ : Shape), x2⟩, ⟨(⟨2, ![N, 1]⟩ : Shape), x3⟩] hcat' (ix2 n (2 : Fin 4)) 2
    (by show 2 < 4; omega) (⟨2, ![N, 1]⟩ : Shape) x2 rfl rfl 2 rfl (ix2 n (0 : Fin 1))
    (fun b hb1 => match b, hb1 with
      | ⟨0, _⟩, _ => rfl
      | ⟨1, _⟩, hb1 => absurd rfl hb1) rfl

theorem joinColumns_apply3 (x0 x1 x2 x3 : FVec Ideal (⟨2, ![N, 1]⟩ : Shape) .f32)
    (hcat : Shape.Concatenates [(⟨2, ![N, 1]⟩ : Shape), ⟨2, ![N, 1]⟩, ⟨2, ![N, 1]⟩, ⟨2, ![N, 1]⟩] ⟨2, ![N, 4]⟩ 1)
    (n : Fin N) :
    concatenate (⟨2, ![N, 4]⟩ : Shape) 1
      [⟨(⟨2, ![N, 1]⟩ : Shape), x0⟩, ⟨(⟨2, ![N, 1]⟩ : Shape), x1⟩, ⟨(⟨2, ![N, 1]⟩ : Shape), x2⟩, ⟨(⟨2, ![N, 1]⟩ : Shape), x3⟩]
      hcat (ix2 n (3 : Fin 4)) = x3 (ix2 n (0 : Fin 1)) := by
  have hcat' : Shape.Concatenates (List.map (·.1) ([⟨(⟨2, ![N, 1]⟩ : Shape), x0⟩, ⟨(⟨2, ![N, 1]⟩ : Shape), x1⟩, ⟨(⟨2, ![N, 1]⟩ : Shape), x2⟩, ⟨(⟨2, ![N, 1]⟩ : Shape), x3⟩] : List ((s : Shape) × (s.Idx → Ideal .f32))))
      (⟨2, ![N, 4]⟩ : Shape) 1 := hcat
  exact concatenate_apply_piece (t := (⟨2, ![N, 4]⟩ : Shape)) (1 : Fin 2) [⟨(⟨2, ![N, 1]⟩ : Shape), x0⟩, ⟨(⟨2, ![N, 1]⟩ : Shape), x1⟩, ⟨(⟨2, ![N, 1]⟩ : Shape), x2⟩, ⟨(⟨2, ![N, 1]⟩ : Shape), x3⟩] hcat' (ix2 n (3 : Fin 4)) 3
    (by show 3 < 4; omega) (⟨2, ![N, 1]⟩ : Shape) x3 rfl rfl 3 rfl (ix2 n (0 : Fin 1))
    (fun b hb1 => match b, hb1 with
      | ⟨0, _⟩, _ => rfl
      | ⟨1, _⟩, hb1 => absurd rfl hb1) rfl

/-- A low corner as the reference computes it: column `a` less half of column `b`, as an [N,1] column. -/
abbrev loCol (B : FVec Ideal (⟨2, ![N, 4]⟩ : Shape) .f32) (oa ob : Fin 2 → Nat)
    (hsa : (⟨2, ![N, 4]⟩ : Shape).Slices oa ⟨2, ![N, 1]⟩) (hsb : (⟨2, ![N, 4]⟩ : Shape).Slices ob ⟨2, ![N, 1]⟩)
    (hc : (⟨2, ![N, 1]⟩ : Shape).ShapeCasts ⟨1, ![N]⟩) (hh : (⟨0, ![]⟩ : Shape).BroadcastsInDim ⟨1, ![N]⟩ ![])
    (hb : (⟨1, ![N]⟩ : Shape).BroadcastsInDim ⟨2, ![N, 1]⟩ ![0]) : FVec Ideal (⟨2, ![N, 1]⟩ : Shape) .f32 :=
  broadcastInDim (⟨2, ![N, 1]⟩ : Shape) ![0] hb
    (subf (shapeCast (⟨1, ![N]⟩ : Shape) (extractStridedSlice (⟨2, ![N, 1]⟩ : Shape) oa B hsa) hc)
      (mulf (broadcastInDim (⟨1, ![N]⟩ : Shape) ![] hh (constant (F := Ideal) (⟨0, ![]⟩ : Shape) .f32 0x3F000000#32))
        (shapeCast (⟨1, ![N]⟩ : Shape) (extractStridedSlice (⟨2, ![N, 1]⟩ : Shape) ob B hsb) hc)))

/-- A high corner as the reference computes it: column `a` plus half of column `b`, as an [N,1] column. -/
abbrev hiCol (B : FVec Ideal (⟨2, ![N, 4]⟩ : Shape) .f32) (oa ob : Fin 2 → Nat)
    (hsa : (⟨2, ![N, 4]⟩ : Shape).Slices oa ⟨2, ![N, 1]⟩) (hsb : (⟨2, ![N, 4]⟩ : Shape).Slices ob ⟨2, ![N, 1]⟩)
    (hc : (⟨2, ![N, 1]⟩ : Shape).ShapeCasts ⟨1, ![N]⟩) (hh : (⟨0, ![]⟩ : Shape).BroadcastsInDim ⟨1, ![N]⟩ ![])
    (hb : (⟨1, ![N]⟩ : Shape).BroadcastsInDim ⟨2, ![N, 1]⟩ ![0]) : FVec Ideal (⟨2, ![N, 1]⟩ : Shape) .f32 :=
  broadcastInDim (⟨2, ![N, 1]⟩ : Shape) ![0] hb
    (addf (shapeCast (⟨1, ![N]⟩ : Shape) (extractStridedSlice (⟨2, ![N, 1]⟩ : Shape) oa B hsa) hc)
      (mulf (broadcastInDim (⟨1, ![N]⟩ : Shape) ![] hh (constant (F := Ideal) (⟨0, ![]⟩ : Shape) .f32 0x3F000000#32))
        (shapeCast (⟨1, ![N]⟩ : Shape) (extractStridedSlice (⟨2, ![N, 1]⟩ : Shape) ob B hsb) hc)))

/-- The array of corners as the reference builds it: the four columns `cx − ½w`, `cy − ½h`, `cx + ½w`, `cy + ½h`
    joined along the second axis. -/
abbrev cornersArr (B : FVec Ideal (⟨2, ![N, 4]⟩ : Shape) .f32)
    (hs0 : (⟨2, ![N, 4]⟩ : Shape).Slices ![0, 0] ⟨2, ![N, 1]⟩) (hs1 : (⟨2, ![N, 4]⟩ : Shape).Slices ![0, 1] ⟨2, ![N, 1]⟩)
    (hs2 : (⟨2, ![N, 4]⟩ : Shape).Slices ![0, 2] ⟨2, ![N, 1]⟩) (hs3 : (⟨2, ![N, 4]⟩ : Shape).Slices ![0, 3] ⟨2, ![N, 1]⟩)
    (hc : (⟨2, ![N, 1]⟩ : Shape).ShapeCasts ⟨1, ![N]⟩) (hh : (⟨0, ![]⟩ : Shape).BroadcastsInDim ⟨1, ![N]⟩ ![])
    (hb : (⟨1, ![N]⟩ : Shape).BroadcastsInDim ⟨2, ![N, 1]⟩ ![0])
    (hcat : Shape.Concatenates [(⟨2, ![N, 1]⟩ : Shape), ⟨2, ![N, 1]⟩, ⟨2, ![N, 1]⟩, ⟨2, ![N, 1]⟩] ⟨2, ![N, 4]⟩ 1) : FVec Ideal (⟨2, ![N, 4]⟩ : Shape) .f32 :=
  concatenate (⟨2, ![N, 4]⟩ : Shape) 1
    [⟨(⟨2, ![N, 1]⟩ : Shape), loCol B ![0, 0] ![0, 2] hs0 hs2 hc hh hb⟩, ⟨(⟨2, ![N, 1]⟩ : Shape), loCol B ![0, 1] ![0, 3] hs1 hs3 hc hh hb⟩,
     ⟨(⟨2, ![N, 1]⟩ : Shape), hiCol B ![0, 0] ![0, 2] hs0 hs2 hc hh hb⟩, ⟨(⟨2, ![N, 1]⟩ : Shape), hiCol B ![0, 1] ![0, 3] hs1 hs3 hc hh hb⟩] hcat

/-- That array reads the specification's corner `k` of row `n` at `(n, k)`. -/
theorem corners_apply (B : FVec Ideal (⟨2, ![N, 4]⟩ : Shape) .f32) (hN : N ≠ 1)
    (hs0 : (⟨2, ![N, 4]⟩ : Shape).Slices ![0, 0] ⟨2, ![N, 1]⟩) (hs1 : (⟨2, ![N, 4]⟩ : Shape).Slices ![0, 1] ⟨2, ![N, 1]⟩)
    (hs2 : (⟨2, ![N, 4]⟩ : Shape).Slices ![0, 2] ⟨2, ![N, 1]⟩) (hs3 : (⟨2, ![N, 4]⟩ : Shape).Slices ![0, 3] ⟨2, ![N, 1]⟩)
    (hc : (⟨2, ![N, 1]⟩ : Shape).ShapeCasts ⟨1, ![N]⟩) (hh : (⟨0, ![]⟩ : Shape).BroadcastsInDim ⟨1, ![N]⟩ ![])
    (hb : (⟨1, ![N]⟩ : Shape).BroadcastsInDim ⟨2, ![N, 1]⟩ ![0])
    (hcat : Shape.Concatenates [(⟨2, ![N, 1]⟩ : Shape), ⟨2, ![N, 1]⟩, ⟨2, ![N, 1]⟩, ⟨2, ![N, 1]⟩] ⟨2, ![N, 4]⟩ 1)
    (n : Fin N) (k : Fin 4) :
    cornersArr B hs0 hs1 hs2 hs3 hc hh hb hcat (ix2 n k) = corner B n k := by
  match k with
  | 0 => ?_
  | 1 => ?_
  | 2 => ?_
  | 3 => ?_
  · refine (joinColumns_apply0 _ _ _ _ hcat n).trans ?_
    refine (backToColumn_apply _ hN hb n).trans ?_
    show _ - _ * _ = _
    rw [column_apply B ![0, 0] 0 rfl rfl hs0 hc n, column_apply B ![0, 2] 2 rfl rfl hs2 hc n]
    rfl
  · refine (joinColumns_apply1 _ _ _ _ hcat n).trans ?_
    refine (backToColumn_apply _ hN hb n).trans ?_
    show _ - _ * _ = _
    rw [column_apply B ![0, 1] 1 rfl rfl hs1 hc n, column_apply B ![0, 3] 3 rfl rfl hs3 hc n]
    rfl
  · refine (joinColumns_apply2 _ _ _ _ hcat n).trans ?_
    refine (backToColumn_apply _ hN hb n).trans ?_
    show _ + _ * _ = _
    rw [column_apply B ![0, 0] 0 rfl rfl hs0 hc n, column_apply B ![0, 2] 2 rfl rfl hs2 hc n]
    rfl
  · refine (joinColumns_apply3 _ _ _ _ hcat n).trans ?_
    refine (backToColumn_apply _ hN hb n).trans ?_
    show _ + _ * _ = _
    rw [column_apply B ![0, 1] 1 rfl rfl hs1 hc n, column_apply B ![0, 3] 3 rfl rfl hs3 hc n]
    rfl

end Corners

/-! ### The two runs

The stretch is cut where each array of corners is joined: the operations before a join compute its four columns from the
box array, the join writes the corners, and no later operation of the stretch writes them again. -/

/-- The first join writes the four columns' contents joined. -/
theorem runB_join67 (V : Valuation τ sig (Elt Ideal)) :
    (StableHlo.after ((opsB (F := Ideal)).drop 28 |>.take 1) V (R main_v67) : FVec Ideal S14400x4 .f32)
      = concatenate S14400x4 1 [⟨S14400x1, V (R main_v63)⟩, ⟨S14400x1, V (R main_v64)⟩, ⟨S14400x1, V (R main_v65)⟩,
          ⟨S14400x1, V (R main_v66)⟩] concatenates_S14400x1_S14400x1_S14400x1_S14400x1_S14400x4_d1 := by
  simp only [opsB, List.drop_succ_cons, List.drop_zero, List.take_succ_cons, List.take_zero, after_cons, after_nil]
  rw [nary4_result]
  rfl

/-- The columns of the first array after the operations before its join. -/
theorem runB_cols67 (V : Valuation τ sig (Elt Ideal)) :
    (StableHlo.after ((opsB (F := Ideal)).take 28) V (R main_v63) : FVec Ideal S14400x1 .f32)
        = loCol (V (R main_v7)) ![0, 0] ![0, 2] slices_S14400x4_S14400x1_0_0 slices_S14400x4_S14400x1_0_2
            shapeCasts_S14400x1_S14400 bcast_S_S14400 bcast_S14400_S14400x1_0
    ∧ (StableHlo.after ((opsB (F := Ideal)).take 28) V (R main_v64) : FVec Ideal S14400x1 .f32)
        = loCol (V (R main_v7)) ![0, 1] ![0, 3] slices_S14400x4_S14400x1_0_1 slices_S14400x4_S14400x1_0_3
            shapeCasts_S14400x1_S14400 bcast_S_S14400 bcast_S14400_S14400x1_0
    ∧ (StableHlo.after ((opsB (F := Ideal)).take 28) V (R main_v65) : FVec Ideal S14400x1 .f32)
        = hiCol (V (R main_v7)) ![0, 0] ![0, 2] slices_S14400x4_S14400x1_0_0 slices_S14400x4_S14400x1_0_2
            shapeCasts_S14400x1_S14400 bcast_S_S14400 bcast_S14400_S14400x1_0
    ∧ (StableHlo.after ((opsB (F := Ideal)).take 28) V (R main_v66) : FVec Ideal S14400x1 .f32)
        = hiCol (V (R main_v7)) ![0, 1] ![0, 3] slices_S14400x4_S14400x1_0_1 slices_S14400x4_S14400x1_0_3
            shapeCasts_S14400x1_S14400 bcast_S_S14400 bcast_S14400_S14400x1_0 := by
  simp only [opsB, List.take_succ_cons, List.take_zero]
  refine ⟨?_, ?_, ?_, ?_⟩ <;> (after_results_simp; rfl)

/-- No operation after the first join writes the first array of corners. -/
theorem runB_keep67 (V : Valuation τ sig (Elt Ideal)) :
    StableHlo.after ((opsB (F := Ideal)).drop 29) V (R main_v67) = V (R main_v67) := by
  simp only [opsB, List.drop_succ_cons, List.drop_zero]
  after_results_simp

/-- The second join writes the four columns' contents joined. -/
theorem runB_join92 (V : Valuation τ sig (Elt Ideal)) :
    (StableHlo.after ((opsB (F := Ideal)).drop 57) V (R main_v92) : FVec Ideal S1024x4 .f32)
      = concatenate S1024x4 1 [⟨S1024x1, V (R main_v88)⟩, ⟨S1024x1, V (R main_v89)⟩, ⟨S1024x1, V (R main_v90)⟩,
          ⟨S1024x1, V (R main_v91)⟩] concatenates_S1024x1_S1024x1_S1024x1_S1024x1_S1024x4_d1 := by
  simp only [opsB, List.drop_succ_cons, List.drop_zero, after_cons, after_nil]
  rw [nary4_result]
  rfl

/-- The columns of the second array after the operations between the two joins. -/
theorem runB_cols92 (V : Valuation τ sig (Elt Ideal)) :
    (StableHlo.after ((opsB (F := Ideal)).drop 29 |>.take 28) V (R main_v88) : FVec Ideal S1024x1 .f32)
        = loCol (V (R main_arg5)) ![0, 0] ![0, 2] slices_S1024x4_S1024x1_0_0 slices_S1024x4_S1024x1_0_2
            shapeCasts_S1024x1_S1024 bcast_S_S1024 bcast_S1024_S1024x1_0
    ∧ (StableHlo.after ((opsB (F := Ideal)).drop 29 |>.take 28) V (R main_v89) : FVec Ideal S1024x1 .f32)
        = loCol (V (R main_arg5)) ![0, 1] ![0, 3] slices_S1024x4_S1024x1_0_1 slices_S1024x4_S1024x1_0_3
            shapeCasts_S1024x1_S1024 bcast_S_S1024 bcast_S1024_S1024x1_0
    ∧ (StableHlo.after ((opsB (F := Ideal)).drop 29 |>.take 28) V (R main_v90) : FVec Ideal S1024x1 .f32)
        = hiCol (V (R main_arg5)) ![0, 0] ![0, 2] slices_S1024x4_S1024x1_0_0 slices_S1024x4_S1024x1_0_2
            shapeCasts_S1024x1_S1024 bcast_S_S1024 bcast_S1024_S1024x1_0
    ∧ (StableHlo.after ((opsB (F := Ideal)).drop 29 |>.take 28) V (R main_v91) : FVec Ideal S1024x1 .f32)
        = hiCol (V (R main_arg5)) ![0, 1] ![0, 3] slices_S1024x4_S1024x1_0_1 slices_S1024x4_S1024x1_0_3
            shapeCasts_S1024x1_S1024 bcast_S_S1024 bcast_S1024_S1024x1_0 := by
  simp only [opsB, List.drop_succ_cons, List.drop_zero, List.take_succ_cons, List.take_zero]
  refine ⟨?_, ?_, ?_, ?_⟩ <;> (after_results_simp; rfl)

/-- No operation up to the first join writes the second box array. -/
theorem runB_keep_arg5 (V : Valuation τ sig (Elt Ideal)) :
    StableHlo.after ((opsB (F := Ideal)).take 29) V (R main_arg5) = V (R main_arg5) := by
  simp only [opsB, List.take_succ_cons, List.take_zero]
  after_results_simp

end Boxes

open Boxes

/-- After the corner stretch the first array of corners holds, at `(n, k)`, the specification's corner `k` of row `n`
    of the query boxes. -/
theorem segB_v67 (W : Valuation τ sig (Elt Ideal)) (n : Fin 14400) (k : Fin 4) :
    (StableHlo.after (opsB (F := Ideal)) W (R main_v67) : FVec Ideal S14400x4 .f32) (ix2 n k)
      = corner (W (R main_v7) : FVec Ideal S14400x4 .f32) n k := by
  have e : (opsB (F := Ideal)) = opsB.take 28 ++ ((opsB.drop 28).take 1 ++ opsB.drop 29) := rfl
  rw [e, StableHlo.after_append, StableHlo.after_append, runB_keep67, runB_join67]
  obtain ⟨h63, h64, h65, h66⟩ := runB_cols67 W
  rw [h63, h64, h65, h66]
  exact corners_apply (W (R main_v7) : FVec Ideal S14400x4 .f32) (by decide) slices_S14400x4_S14400x1_0_0
    slices_S14400x4_S14400x1_0_1 slices_S14400x4_S14400x1_0_2 slices_S14400x4_S14400x1_0_3 shapeCasts_S14400x1_S14400
    bcast_S_S14400 bcast_S14400_S14400x1_0 concatenates_S14400x1_S14400x1_S14400x1_S14400x1_S14400x4_d1 n k

/-- After the corner stretch the second array of corners holds, at `(t, k)`, the specification's corner `k` of
    target box `t`. -/
theorem segB_v92 (W : Valuation τ sig (Elt Ideal)) (t : Fin 1024) (k : Fin 4) :
    (StableHlo.after (opsB (F := Ideal)) W (R main_v92) : FVec Ideal S1024x4 .f32) (ix2 t k)
      = corner (W (R main_arg5) : FVec Ideal S1024x4 .f32) t k := by
  have e : (opsB (F := Ideal)) = opsB.take 29 ++ ((opsB.drop 29).take 28 ++ opsB.drop 57) := rfl
  rw [e, StableHlo.after_append, StableHlo.after_append, runB_join92]
  obtain ⟨h88, h89, h90, h91⟩ := runB_cols92 (StableHlo.after ((opsB (F := Ideal)).take 29) W)
  rw [h88, h89, h90, h91, runB_keep_arg5]
  exact corners_apply (W (R main_arg5) : FVec Ideal S1024x4 .f32) (by decide) slices_S1024x4_S1024x1_0_0
    slices_S1024x4_S1024x1_0_1 slices_S1024x4_S1024x1_0_2 slices_S1024x4_S1024x1_0_3 shapeCasts_S1024x1_S1024
    bcast_S_S1024 bcast_S1024_S1024x1_0 concatenates_S1024x1_S1024x1_S1024x1_S1024x1_S1024x4_d1 t k

/-! ## The weighted total and the reshape -/

/-- After the last stretch the result is the reshape of the pointwise combination
    `5 · L1 + 2 · class + 2 · (−GIoU) + 9999 · indicator`: each broadcast literal reads its value at every index, and
    sums and products of arrays are taken entry by entry. -/
theorem segF_v230 (W : Valuation τ sig (Elt Ideal)) :
    StableHlo.after (opsF (F := Ideal)) W (R main_v230)
      = shapeCast S16x900x1024 (fun j => (((c5 * (W (R main_v99) : FVec Ideal S14400x1024 .f32) j)
          + (c2 * (W (R main_v42) : FVec Ideal S14400x1024 .f32) j))
          + (c2 * (W (R main_v174) : FVec Ideal S14400x1024 .f32) j))
          + (cBig * (W (R main_v218) : FVec Ideal S14400x1024 .f32) j)) shapeCasts_S14400x1024_S16x900x1024 := by
  after_results
  rfl

end Cert.ReferenceIdeal.Hand

end
-- ==== Proof.RGiou.lean ====
/-
  The generalized IoU stretch of the plain program, read entry by entry.

  The stretch starts from the two corner arrays — the query boxes `[14400, 4]` and the target boxes `[1024, 4]`,
  each row `(x0, y0, x1, y1)` — and ends with the array `[14400, 1024]` whose entry `(n, t)` is the negated
  generalized IoU of query box `n` and target box `t`. Its arrays are named here as functions of the two corner
  arrays, stage by stage:
  • the two area vectors, `(x1 − x0) · (y1 − y0)` of each box, and their sum over all pairs;
  • the intersection: on each axis the smaller far corner less the larger near corner, clipped at zero from below,
    the two axes multiplied;
  • the union: the areas' sum less the intersection;
  • the enclosing box: on each axis the larger far corner less the smaller near corner, clipped and multiplied;
  • `−(inter / union − (enclose − union) / enclose)`.
  Each stage is read at an index: a column slice reshaped to a vector reads the column's entry; a two-column slice
  spread over all pairs reads the box's coordinate; the slices of the last axis read the two axes' entries. The
  entry of the last stage is then the specification's `c0 − giou` at the eight corners: the clip's `max 0 x` is
  `max x 0` by commutativity of `max`, and a negation is zero less the value.
-/
import proofs.«419288_j54760833024710_2_alg».proof.Proof.ROps
import proofs.«419288_j54760833024710_2_alg».proof.Proof.Spec
import proofs.«419288_j54760833024710_2_alg».proof.Proof.SpecLemmas
import Idealize.ShloMosaic.Lib.StableHlo.Run
import Idealize.ShloMosaic.Lib.ValueIdx
import Idealize.ShloMosaic.Lib.Pipeline.Value
import Idealize.ShloMosaic.Lib.ValueLayout

noncomputable section

namespace Cert.ReferenceIdeal.Hand

open Idealize.ShloMosaic Idealize.ShloMosaic.StableHlo Idealize.ShloMosaic.ValueIdx Cert.ReferenceIdeal Cert.Spec
open Cert.ReferenceIdeal.Facts₀ Cert.ReferenceIdeal.Facts

variable [Cert.ReferenceIdeal.Facts]

set_option quotPrecheck false in
local notation "R" b => Proc.devRef (τ := τ) Proc.tc b

namespace Giou

/-! ## Layout readings at literal shapes -/

/-- Column `k` of the query boxes, as a vector: entry `n` is the box's `k`-th coordinate. -/
theorem colA_apply (A : FVec Ideal S14400x4 .f32) (o : Nat) (hs : S14400x4.Slices ![0, o] S14400x1)
    (n : Fin 14400) (k : Fin 4) (hk : k.val = o) :
    shapeCast S14400 (extractStridedSlice S14400x1 ![0, o] A hs) shapeCasts_S14400x1_S14400 (ix1 n) = A (ix2 n k) :=
  (shapeCast_apply _ _ (ix1 n) (ix2 n (0 : Fin 1)) (by
      rw [Shape.rowMajor_val_two, Shape.rowMajor_val_one]
      show n.val * 1 + 0 = n.val
      omega)).trans
    (slice2_axis1_apply o A hs n 0 k (by rw [hk]; rfl))

/-- Column `k` of the target boxes, as a vector. -/
theorem colB_apply (B : FVec Ideal S1024x4 .f32) (o : Nat) (hs : S1024x4.Slices ![0, o] S1024x1)
    (t : Fin 1024) (k : Fin 4) (hk : k.val = o) :
    shapeCast S1024 (extractStridedSlice S1024x1 ![0, o] B hs) shapeCasts_S1024x1_S1024 (ix1 t) = B (ix2 t k) :=
  (shapeCast_apply _ _ (ix1 t) (ix2 t (0 : Fin 1)) (by
      rw [Shape.rowMajor_val_two, Shape.rowMajor_val_one]
      show t.val * 1 + 0 = t.val
      omega)).trans
    (slice2_axis1_apply o B hs t 0 k (by rw [hk]; rfl))

/-- Two neighbouring columns `o, o+1` of the query boxes spread over all pairs: entry `(n, t, c)` is coordinate
    `o + c` of box `n`. -/
def pairA (A : FVec Ideal S14400x4 .f32) (o : Nat) (hs : S14400x4.Slices ![0, o] S14400x2) : FVec Ideal S14400x1024x2 .f32 :=
  broadcastInDim S14400x1024x2 ![0, 1, 2] bcast_S14400x1x2_S14400x1024x2_0_1_2
    (broadcastInDim S14400x1x2 ![0, 2] bcast_S14400x2_S14400x1x2_0_2
      (extractStridedSlice S14400x2 ![0, o] A hs))

theorem pairA_apply (A : FVec Ideal S14400x4 .f32) (o : Nat) (hs : S14400x4.Slices ![0, o] S14400x2)
    (n : Fin 14400) (t : Fin 1024) (c : Fin 2) (k : Fin 4) (hk : k.val = o + c.val) :
    pairA A o hs (ix3 n t c) = A (ix2 n k) := by
  unfold pairA
  refine (broadcastInDim_apply _ _ _ (ix3 n t c) (ix3 n (0 : Fin 1) c) (fun a => ?_)).trans ?_
  · match a with
    | ⟨0, _⟩ => rfl
    | ⟨1, _⟩ => rfl
    | ⟨2, _⟩ => rfl
  refine (broadcastInDim_apply _ _ _ (ix3 n (0 : Fin 1) c) (ix2 n c) (fun a => ?_)).trans ?_
  · match a with
    | ⟨0, _⟩ => rfl
    | ⟨1, _⟩ => rfl
  exact slice2_axis1_apply o A hs n c k hk

/-- The same for the target boxes: entry `(n, t, c)` is coordinate `o + c` of box `t`. -/
def pairB (B : FVec Ideal S1024x4 .f32) (o : Nat) (hs : S1024x4.Slices ![0, o] S1024x2) : FVec Ideal S14400x1024x2 .f32 :=
  broadcastInDim S14400x1024x2 ![0, 1, 2] bcast_S1x1024x2_S14400x1024x2_0_1_2
    (broadcastInDim S1x1024x2 ![1, 2] bcast_S1024x2_S1x1024x2_1_2
      (extractStridedSlice S1024x2 ![0, o] B hs))

theorem pairB_apply (B : FVec Ideal S1024x4 .f32) (o : Nat) (hs : S1024x4.Slices ![0, o] S1024x2)
    (n : Fin 14400) (t : Fin 1024) (c : Fin 2) (k : Fin 4) (hk : k.val = o + c.val) :
    pairB B o hs (ix3 n t c) = B (ix2 t k) := by
  unfold pairB
  refine (broadcastInDim_apply _ _ _ (ix3 n t c) (ix3 (0 : Fin 1) t c) (fun a => ?_)).trans ?_
  · match a with
    | ⟨0, _⟩ => rfl
    | ⟨1, _⟩ => rfl
    | ⟨2, _⟩ => rfl
  refine (broadcastInDim_apply _ _ _ (ix3 (0 : Fin 1) t c) (ix2 t c) (fun a => ?_)).trans ?_
  · match a with
    | ⟨0, _⟩ => rfl
    | ⟨1, _⟩ => rfl
  exact slice2_axis1_apply o B hs t c k hk

/-- The clip from below at zero: entry by entry the larger of zero (spread over the whole array) and the entry. -/
def clip0 (X : FVec Ideal S14400x1024x2 .f32) : FVec Ideal S14400x1024x2 .f32 :=
  maximumf (broadcastInDim S14400x1024x2 ![] bcast_S_S14400x1024x2 (constant S_ .f32 0x00000000#32)) X

theorem clip0_apply (X : FVec Ideal S14400x1024x2 .f32) (j : S14400x1024x2.Idx) :
    clip0 X j = max (X j) c0 := by
  unfold clip0
  rw [maximumf_apply, max_comm]
  rfl

/-- The product over the last axis of a `[14400, 1024, 2]` array: entry `(n, t)` is the product of the two entries
    `(n, t, 0)` and `(n, t, 1)`. -/
def axisProd (X : FVec Ideal S14400x1024x2 .f32) : FVec Ideal S14400x1024 .f32 :=
  mulf
    (shapeCast S14400x1024 (extractStridedSlice S14400x1024x1 ![0, 0, 0] X slices_S14400x1024x2_S14400x1024x1_0_0_0)
      shapeCasts_S14400x1024x1_S14400x1024)
    (shapeCast S14400x1024 (extractStridedSlice S14400x1024x1 ![0, 0, 1] X slices_S14400x1024x2_S14400x1024x1_0_0_1)
      shapeCasts_S14400x1024x1_S14400x1024)

theorem lastAxis_apply (X : FVec Ideal S14400x1024x2 .f32) (o : Nat) (hs : S14400x1024x2.Slices ![0, 0, o] S14400x1024x1)
    (n : Fin 14400) (t : Fin 1024) (c : Fin 2) (hc : c.val = o) :
    shapeCast S14400x1024 (extractStridedSlice S14400x1024x1 ![0, 0, o] X hs) shapeCasts_S14400x1024x1_S14400x1024 (ix2 n t)
      = X (ix3 n t c) :=
  (shapeCast_apply _ _ (ix2 n t) (ix3 n t (0 : Fin 1)) (by
      rw [Shape.rowMajor_val_three, Shape.rowMajor_val_two]
      show (n.val * 1024 + t.val) * 1 + 0 = n.val * 1024 + t.val
      omega)).trans
    (extractStridedSlice_apply _ _ _ (ix3 n t (0 : Fin 1)) (ix3 n t c) (fun a => by
      match a with
      | ⟨0, _⟩ => exact (Nat.zero_add _).symm
      | ⟨1, _⟩ => exact (Nat.zero_add _).symm
      | ⟨2, _⟩ => rw [show (ix3 n t c (⟨2, by decide⟩ : Fin 3)).val = c.val from rfl, hc]; rfl))

theorem axisProd_apply (X : FVec Ideal S14400x1024x2 .f32) (n : Fin 14400) (t : Fin 1024) :
    axisProd X (ix2 n t) = X (ix3 n t 0) * X (ix3 n t 1) := by
  unfold axisProd
  rw [mulf_apply, lastAxis_apply X 0 _ n t 0 rfl, lastAxis_apply X 1 _ n t 1 rfl]

/-! ## The stages of the generalized IoU, as arrays -/

section Stages

variable (A : FVec Ideal S14400x4 .f32) (B : FVec Ideal S1024x4 .f32)

/-- Area of each query box: width times height. -/
def areaA : FVec Ideal S14400 .f32 :=
  mulf
    (subf (shapeCast S14400 (extractStridedSlice S14400x1 ![0, 2] A slices_S14400x4_S14400x1_0_2) shapeCasts_S14400x1_S14400)
      (shapeCast S14400 (extractStridedSlice S14400x1 ![0, 0] A slices_S14400x4_S14400x1_0_0) shapeCasts_S14400x1_S14400))
    (subf (shapeCast S14400 (extractStridedSlice S14400x1 ![0, 3] A slices_S14400x4_S14400x1_0_3) shapeCasts_S14400x1_S14400)
      (shapeCast S14400 (extractStridedSlice S14400x1 ![0, 1] A slices_S14400x4_S14400x1_0_1) shapeCasts_S14400x1_S14400))

theorem areaA_apply (n : Fin 14400) :
    areaA A (ix1 n) = (A (ix2 n 2) - A (ix2 n 0)) * (A (ix2 n 3) - A (ix2 n 1)) := by
  unfold areaA
  rw [mulf_apply, subf_apply, subf_apply, colA_apply A 2 _ n 2 rfl, colA_apply A 0 _ n 0 rfl,
    colA_apply A 3 _ n 3 rfl, colA_apply A 1 _ n 1 rfl]

/-- Area of each target box. -/
def areaB : FVec Ideal S1024 .f32 :=
  mulf
    (subf (shapeCast S1024 (extractStridedSlice S1024x1 ![0, 2] B slices_S1024x4_S1024x1_0_2) shapeCasts_S1024x1_S1024)
      (shapeCast S1024 (extractStridedSlice S1024x1 ![0, 0] B slices_S1024x4_S1024x1_0_0) shapeCasts_S1024x1_S1024))
    (subf (shapeCast S1024 (extractStridedSlice S1024x1 ![0, 3] B slices_S1024x4_S1024x1_0_3) shapeCasts_S1024x1_S1024)
      (shapeCast S1024 (extractStridedSlice S1024x1 ![0, 1] B slices_S1024x4_S1024x1_0_1) shapeCasts_S1024x1_S1024))

theorem areaB_apply (t : Fin 1024) :
    areaB B (ix1 t) = (B (ix2 t 2) - B (ix2 t 0)) * (B (ix2 t 3) - B (ix2 t 1)) := by
  unfold areaB
  rw [mulf_apply, subf_apply, subf_apply, colB_apply B 2 _ t 2 rfl, colB_apply B 0 _ t 0 rfl,
    colB_apply B 3 _ t 3 rfl, colB_apply B 1 _ t 1 rfl]

/-- The two areas' sum over all pairs. -/
def areaSum : FVec Ideal S14400x1024 .f32 :=
  addf
    (broadcastInDim S14400x1024 ![0, 1] bcast_S14400x1_S14400x1024_0_1
      (broadcastInDim S14400x1 ![0] bcast_S14400_S14400x1_0 (areaA A)))
    (broadcastInDim S14400x1024 ![0, 1] bcast_S1x1024_S14400x1024_0_1
      (broadcastInDim S1x1024 ![1] bcast_S1024_S1x1024_1 (areaB B)))

theorem areaSum_apply (n : Fin 14400) (t : Fin 1024) :
    areaSum A B (ix2 n t) = areaA A (ix1 n) + areaB B (ix1 t) := by
  unfold areaSum
  rw [addf_apply]
  refine congrArg₂ (· + ·) ?_ ?_
  · refine (broadcastInDim_apply _ _ _ (ix2 n t) (ix2 n (0 : Fin 1)) (fun a => ?_)).trans ?_
    · match a with
      | ⟨0, _⟩ => rfl
      | ⟨1, _⟩ => rfl
    refine broadcastInDim_apply _ _ _ (ix2 n (0 : Fin 1)) (ix1 n) (fun a => ?_)
    match a with
    | ⟨0, _⟩ => rfl
  · refine (broadcastInDim_apply _ _ _ (ix2 n t) (ix2 (0 : Fin 1) t) (fun a => ?_)).trans ?_
    · match a with
      | ⟨0, _⟩ => rfl
      | ⟨1, _⟩ => rfl
    refine broadcastInDim_apply _ _ _ (ix2 (0 : Fin 1) t) (ix1 t) (fun a => ?_)
    match a with
    | ⟨0, _⟩ => rfl

/-- The intersection's area over all pairs: clipped overlap on each axis, multiplied. -/
def interV : FVec Ideal S14400x1024 .f32 :=
  axisProd (clip0 (subf
    (minimumf (pairA A 2 slices_S14400x4_S14400x2_0_2) (pairB B 2 slices_S1024x4_S1024x2_0_2))
    (maximumf (pairA A 0 slices_S14400x4_S14400x2_0_0) (pairB B 0 slices_S1024x4_S1024x2_0_0))))

theorem interV_apply (n : Fin 14400) (t : Fin 1024) :
    interV A B (ix2 n t)
      = inter (A (ix2 n 0)) (A (ix2 n 1)) (A (ix2 n 2)) (A (ix2 n 3)) (B (ix2 t 0)) (B (ix2 t 1)) (B (ix2 t 2)) (B (ix2 t 3)) := by
  unfold interV inter
  rw [axisProd_apply, clip0_apply, clip0_apply, subf_apply, subf_apply, minimumf_apply, minimumf_apply,
    maximumf_apply, maximumf_apply,
    pairA_apply A 2 _ n t 0 2 rfl, pairA_apply A 2 _ n t 1 3 rfl, pairA_apply A 0 _ n t 0 0 rfl, pairA_apply A 0 _ n t 1 1 rfl,
    pairB_apply B 2 _ n t 0 2 rfl, pairB_apply B 2 _ n t 1 3 rfl, pairB_apply B 0 _ n t 0 0 rfl, pairB_apply B 0 _ n t 1 1 rfl]

/-- The union's area over all pairs. -/
def unionV : FVec Ideal S14400x1024 .f32 := subf (areaSum A B) (interV A B)

theorem unionV_apply (n : Fin 14400) (t : Fin 1024) :
    unionV A B (ix2 n t)
      = unionArea (A (ix2 n 0)) (A (ix2 n 1)) (A (ix2 n 2)) (A (ix2 n 3)) (B (ix2 t 0)) (B (ix2 t 1)) (B (ix2 t 2)) (B (ix2 t 3)) := by
  unfold unionV unionArea
  rw [subf_apply, areaSum_apply, areaA_apply, areaB_apply, interV_apply]

/-- The enclosing box's area over all pairs. -/
def encloseV : FVec Ideal S14400x1024 .f32 :=
  axisProd (clip0 (subf
    (maximumf (pairA A 2 slices_S14400x4_S14400x2_0_2) (pairB B 2 slices_S1024x4_S1024x2_0_2))
    (minimumf (pairA A 0 slices_S14400x4_S14400x2_0_0) (pairB B 0 slices_S1024x4_S1024x2_0_0))))

theorem encloseV_apply (n : Fin 14400) (t : Fin 1024) :
    encloseV A B (ix2 n t)
      = enclose (A (ix2 n 0)) (A (ix2 n 1)) (A (ix2 n 2)) (A (ix2 n 3)) (B (ix2 t 0)) (B (ix2 t 1)) (B (ix2 t 2)) (B (ix2 t 3)) := by
  unfold encloseV enclose
  rw [axisProd_apply, clip0_apply, clip0_apply, subf_apply, subf_apply, minimumf_apply, minimumf_apply,
    maximumf_apply, maximumf_apply,
    pairA_apply A 2 _ n t 0 2 rfl, pairA_apply A 2 _ n t 1 3 rfl, pairA_apply A 0 _ n t 0 0 rfl, pairA_apply A 0 _ n t 1 1 rfl,
    pairB_apply B 2 _ n t 0 2 rfl, pairB_apply B 2 _ n t 1 3 rfl, pairB_apply B 0 _ n t 0 0 rfl, pairB_apply B 0 _ n t 1 1 rfl]

/-- The negated generalized IoU over all pairs. -/
def negGiouV : FVec Ideal S14400x1024 .f32 :=
  Host.negf (subf (Host.divf (interV A B) (unionV A B))
    (Host.divf (subf (encloseV A B) (unionV A B)) (encloseV A B)))

theorem negGiouV_apply (n : Fin 14400) (t : Fin 1024) :
    negGiouV A B (ix2 n t)
      = c0 - giou (A (ix2 n 0)) (A (ix2 n 1)) (A (ix2 n 2)) (A (ix2 n 3)) (B (ix2 t 0)) (B (ix2 t 1)) (B (ix2 t 2)) (B (ix2 t 3)) := by
  rw [← neg_eq_zero_sub]
  unfold giou
  rw [← interV_apply A B n t, ← unionV_apply A B n t, ← encloseV_apply A B n t]
  rfl

end Stages

end Giou

/-! ## The run of the stretch -/

set_option maxHeartbeats 4000000 in
/-- What the stretch leaves in its last buffer: the negated generalized IoU of the two corner arrays it starts from. -/
theorem after_opsD_v174 (W : Valuation τ sig (Elt Ideal)) :
    (StableHlo.after (opsD (F := Ideal)) W (R main_v174) : FVec Ideal S14400x1024 .f32)
      = Giou.negGiouV (W (R main_v67)) (W (R main_v92)) := by
  after_results_simp
  rfl

/-- Entry `(n, t)` of the stretch's result is zero less the generalized IoU of query box `n` and target box `t`. -/
theorem segD_v174 (W : Valuation τ sig (Elt Ideal)) (n : Fin 14400) (t : Fin 1024) :
    (StableHlo.after (opsD (F := Ideal)) W (R main_v174) : FVec Ideal S14400x1024 .f32) (ix2 n t)
      = c0 - giou ((W (R main_v67) : FVec Ideal S14400x4 .f32) (ix2 n 0)) ((W (R main_v67) : FVec Ideal S14400x4 .f32) (ix2 n 1))
          ((W (R main_v67) : FVec Ideal S14400x4 .f32) (ix2 n 2)) ((W (R main_v67) : FVec Ideal S14400x4 .f32) (ix2 n 3))
          ((W (R main_v92) : FVec Ideal S1024x4 .f32) (ix2 t 0)) ((W (R main_v92) : FVec Ideal S1024x4 .f32) (ix2 t 1))
          ((W (R main_v92) : FVec Ideal S1024x4 .f32) (ix2 t 2)) ((W (R main_v92) : FVec Ideal S1024x4 .f32) (ix2 t 3)) := by
  rw [after_opsD_v174]
  exact Giou.negGiouV_apply _ _ n t

end Cert.ReferenceIdeal.Hand

end
-- ==== Proof.RInner.lean ====
/-
  The inner-point stretch of the plain program, read entry by entry.

  The stretch starts from the query points `[14400, 2]` (rows `(px, py)`) and the target boxes' corners
  `[1024, 4]` (rows `(x0, y0, x1, y1)`) and ends with the array `[14400, 1024]` whose entry `(n, t)` is
  `1 − [d ≥ 0]`, where `d` is the least of the four signed distances `px − x0`, `py − y0`, `x1 − px`, `y1 − py`
  of point `n` to the sides of box `t` and `[·]` is the comparison's bit read as the number 0 or 1.
  A column of either array, reshaped to a vector and spread over all pairs — the points' along the targets, the
  boxes' along the queries — reads, at `(n, t)`, the point's or the box's coordinate. The four differences, the
  three minima, the comparison with zero, the bit's conversion and the subtraction from one are entrywise. Times
  9999 the entry is 0 where the point lies inside the box and 9999 elsewhere: the specification's inner term.
-/
import proofs.«419288_j54760833024710_2_alg».proof.Proof.ROps
import proofs.«419288_j54760833024710_2_alg».proof.Proof.Spec
import proofs.«419288_j54760833024710_2_alg».proof.Proof.SpecLemmas
import Idealize.ShloMosaic.Lib.StableHlo.Run
import Idealize.ShloMosaic.Lib.ValueIdx
import Idealize.ShloMosaic.Lib.Pipeline.Value
import Idealize.ShloMosaic.Lib.ValueLayout

noncomputable section

namespace Cert.ReferenceIdeal.Hand

open Idealize.ShloMosaic Idealize.ShloMosaic.StableHlo Idealize.ShloMosaic.ValueIdx Cert.ReferenceIdeal Cert.Spec
open Cert.ReferenceIdeal.Facts₀ Cert.ReferenceIdeal.Facts

variable [Cert.ReferenceIdeal.Facts]

set_option quotPrecheck false in
local notation "R" b => Proc.devRef (τ := τ) Proc.tc b

namespace Inner

/-! ## A column spread over all pairs -/

/-- Column `o` of the points, as a vector, spread along the targets: entry `(n, t)` is coordinate `o` of point `n`. -/
def alongTargets (P : FVec Ideal S14400x2 .f32) (o : Nat) (hs : S14400x2.Slices ![0, o] S14400x1) :
    FVec Ideal S14400x1024 .f32 :=
  broadcastInDim S14400x1024 ![0, 1] bcast_S14400x1_S14400x1024_0_1
    (broadcastInDim S14400x1 ![0] bcast_S14400_S14400x1_0
      (shapeCast S14400 (extractStridedSlice S14400x1 ![0, o] P hs) shapeCasts_S14400x1_S14400))

theorem alongTargets_apply (P : FVec Ideal S14400x2 .f32) (o : Nat) (hs : S14400x2.Slices ![0, o] S14400x1)
    (n : Fin 14400) (t : Fin 1024) (k : Fin 2) (hk : k.val = o) :
    alongTargets P o hs (ix2 n t) = P (ix2 n k) := by
  unfold alongTargets
  -- the spread along the targets forgets `t`
  refine (broadcastInDim_apply _ _ _ (ix2 n t) (ix2 n (0 : Fin 1)) (fun a => ?_)).trans ?_
  · match a with
    | ⟨0, _⟩ => rfl
    | ⟨1, _⟩ => rfl
  -- the unit axis added to the vector
  refine (broadcastInDim_apply _ _ _ (ix2 n (0 : Fin 1)) (ix1 n) (fun a => ?_)).trans ?_
  · match a with
    | ⟨0, _⟩ => rfl
  -- the one-column matrix as a vector: the same row-major position
  refine (shapeCast_apply _ _ (ix1 n) (ix2 n (0 : Fin 1)) ?_).trans ?_
  · rw [Shape.rowMajor_val_two, Shape.rowMajor_val_one]
    show n.val * 1 + 0 = n.val
    omega
  -- the column cut out of the matrix
  exact slice2_axis1_apply o P hs n 0 k (by rw [hk]; rfl)

/-- Column `o` of the boxes, as a vector, spread along the queries: entry `(n, t)` is coordinate `o` of box `t`. -/
def alongQueries (B : FVec Ideal S1024x4 .f32) (o : Nat) (hs : S1024x4.Slices ![0, o] S1024x1) :
    FVec Ideal S14400x1024 .f32 :=
  broadcastInDim S14400x1024 ![0, 1] bcast_S1x1024_S14400x1024_0_1
    (broadcastInDim S1x1024 ![1] bcast_S1024_S1x1024_1
      (shapeCast S1024 (extractStridedSlice S1024x1 ![0, o] B hs) shapeCasts_S1024x1_S1024))

theorem alongQueries_apply (B : FVec Ideal S1024x4 .f32) (o : Nat) (hs : S1024x4.Slices ![0, o] S1024x1)
    (n : Fin 14400) (t : Fin 1024) (k : Fin 4) (hk : k.val = o) :
    alongQueries B o hs (ix2 n t) = B (ix2 t k) := by
  unfold alongQueries
  -- the spread along the queries forgets `n`
  refine (broadcastInDim_apply _ _ _ (ix2 n t) (ix2 (0 : Fin 1) t) (fun a => ?_)).trans ?_
  · match a with
    | ⟨0, _⟩ => rfl
    | ⟨1, _⟩ => rfl
  refine (broadcastInDim_apply _ _ _ (ix2 (0 : Fin 1) t) (ix1 t) (fun a => ?_)).trans ?_
  · match a with
    | ⟨0, _⟩ => rfl
  refine (shapeCast_apply _ _ (ix1 t) (ix2 t (0 : Fin 1)) ?_).trans ?_
  · rw [Shape.rowMajor_val_two, Shape.rowMajor_val_one]
    show t.val * 1 + 0 = t.val
    omega
  exact slice2_axis1_apply o B hs t 0 k (by rw [hk]; rfl)

/-- A float literal spread over all pairs reads the literal everywhere. -/
theorem fill_apply (w : BitVec 32) (j : S14400x1024.Idx) :
    broadcastInDim S14400x1024 ![] bcast_S_S14400x1024 (constant (F := Ideal) S_ .f32 w) j = Ideal.ofBits .f32 w :=
  rfl

/-! ## The stages, as arrays -/

section Stages

variable (P : FVec Ideal S14400x2 .f32) (B : FVec Ideal S1024x4 .f32)

/-- The least signed distance of each point to the four sides of each box. -/
def minDistV : FVec Ideal S14400x1024 .f32 :=
  minimumf
    (minimumf
      (subf (alongTargets P 0 slices_S14400x2_S14400x1_0_0) (alongQueries B 0 slices_S1024x4_S1024x1_0_0))
      (subf (alongTargets P 1 slices_S14400x2_S14400x1_0_1) (alongQueries B 1 slices_S1024x4_S1024x1_0_1)))
    (minimumf
      (subf (alongQueries B 2 slices_S1024x4_S1024x1_0_2) (alongTargets P 0 slices_S14400x2_S14400x1_0_0))
      (subf (alongQueries B 3 slices_S1024x4_S1024x1_0_3) (alongTargets P 1 slices_S14400x2_S14400x1_0_1)))

theorem minDistV_apply (n : Fin 14400) (t : Fin 1024) :
    minDistV P B (ix2 n t)
      = minDist (B (ix2 t 0)) (B (ix2 t 1)) (B (ix2 t 2)) (B (ix2 t 3)) (P (ix2 n 0)) (P (ix2 n 1)) := by
  unfold minDistV minDist
  rw [minimumf_apply, minimumf_apply, minimumf_apply, subf_apply, subf_apply, subf_apply, subf_apply,
    alongTargets_apply P 0 _ n t 0 rfl, alongTargets_apply P 1 _ n t 1 rfl,
    alongQueries_apply B 0 _ n t 0 rfl, alongQueries_apply B 1 _ n t 1 rfl,
    alongQueries_apply B 2 _ n t 2 rfl, alongQueries_apply B 3 _ n t 3 rfl]

/-- One less the bit "the least distance is at least zero", as a number. -/
def outsideV : FVec Ideal S14400x1024 .f32 :=
  subf (broadcastInDim S14400x1024 ![] bcast_S_S14400x1024 (constant S_ .f32 0x3F800000#32))
    (uitofp .f32 (cmpf .oge (minDistV P B)
      (broadcastInDim S14400x1024 ![] bcast_S_S14400x1024 (constant S_ .f32 0x00000000#32))))

theorem outsideV_apply (n : Fin 14400) (t : Fin 1024) :
    outsideV P B (ix2 n t)
      = c1 - FloatOps.uitofp (F := Ideal) .f32
          (Ideal.cmp .oge (minDist (B (ix2 t 0)) (B (ix2 t 1)) (B (ix2 t 2)) (B (ix2 t 3)) (P (ix2 n 0)) (P (ix2 n 1))) c0) := by
  rw [← minDistV_apply P B n t]
  rfl

end Stages

end Inner

/-! ## The run of the stretch -/

set_option maxHeartbeats 4000000 in
/-- What the stretch leaves in its last buffer, as a function of the points and the boxes' corners it starts from. -/
theorem after_opsE_v218 (W : Valuation τ sig (Elt Ideal)) :
    (StableHlo.after (opsE (F := Ideal)) W (R main_v218) : FVec Ideal S14400x1024 .f32)
      = Inner.outsideV (W (R main_v8)) (W (R main_v92)) := by
  after_results_simp
  rfl

/-- 9999 times entry `(n, t)` of the stretch's result is the specification's inner term of box `t` and point `n`. -/
theorem segE_v218 (W : Valuation τ sig (Elt Ideal)) (n : Fin 14400) (t : Fin 1024) :
    cBig * (StableHlo.after (opsE (F := Ideal)) W (R main_v218) : FVec Ideal S14400x1024 .f32) (ix2 n t)
      = inner ((W (R main_v92) : FVec Ideal S1024x4 .f32) (ix2 t 0)) ((W (R main_v92) : FVec Ideal S1024x4 .f32) (ix2 t 1))
          ((W (R main_v92) : FVec Ideal S1024x4 .f32) (ix2 t 2)) ((W (R main_v92) : FVec Ideal S1024x4 .f32) (ix2 t 3))
          ((W (R main_v8) : FVec Ideal S14400x2 .f32) (ix2 n 0)) ((W (R main_v8) : FVec Ideal S14400x2 .f32) (ix2 n 1)) := by
  rw [after_opsE_v218, Inner.outsideV_apply]
  exact inner_spelled_uitofp _

end Cert.ReferenceIdeal.Hand

end
-- ==== Proof.RL1.lean ====
/-
  The corners' L1 stretch of the plain program, read entry by entry.

  The stretch starts from the two corner arrays — the query boxes `[14400, 4]` and the target boxes `[1024, 4]` —
  spreads each over all pairs to `[14400, 1024, 4]` (the queries' along the targets, the targets' along the
  queries), subtracts, takes absolute values and sums over the last axis from the initial value zero. Entry
  `(n, t)` of the result is therefore `0 + Σ_k |a_k − b_k|` over the four corners of query box `n` and target box
  `t`. For real corners each `|a − b|` is the larger less the smaller, and the four-term sum started from zero is
  the specification's left-nested sum.
-/
import proofs.«419288_j54760833024710_2_alg».proof.Proof.ROps
import proofs.«419288_j54760833024710_2_alg».proof.Proof.Spec
import proofs.«419288_j54760833024710_2_alg».proof.Proof.SpecLemmas
import Idealize.ShloMosaic.Lib.StableHlo.Run
import Idealize.ShloMosaic.Lib.ValueIdx
import Idealize.ShloMosaic.Lib.Pipeline.Value
import Idealize.ShloMosaic.Lib.ValueLayout
import Idealize.ShloMosaic.Lib.IdealHost
import Idealize.ShloMosaic.PureOps.Ideal.Laws

noncomputable section

namespace Cert.ReferenceIdeal.Hand

open Idealize.ShloMosaic Idealize.ShloMosaic.StableHlo Idealize.ShloMosaic.ValueIdx Cert.ReferenceIdeal Cert.Spec
open Cert.ReferenceIdeal.Facts₀ Cert.ReferenceIdeal.Facts

variable [Cert.ReferenceIdeal.Facts]

set_option quotPrecheck false in
local notation "R" b => Proc.devRef (τ := τ) Proc.tc b

namespace L1

/-! ## The two arrays spread over all pairs -/

/-- The query boxes spread along the targets: entry `(n, t, k)` is corner `k` of query box `n`. -/
def overTargets (A : FVec Ideal S14400x4 .f32) : FVec Ideal S14400x1024x4 .f32 :=
  broadcastInDim S14400x1024x4 ![0, 1, 2] bcast_S14400x1x4_S14400x1024x4_0_1_2
    (broadcastInDim S14400x1x4 ![0, 2] bcast_S14400x4_S14400x1x4_0_2 A)

theorem overTargets_apply (A : FVec Ideal S14400x4 .f32) (n : Fin 14400) (t : Fin 1024) (k : Fin 4) :
    overTargets A (ix3 n t k) = A (ix2 n k) := by
  unfold overTargets
  -- the spread over the unit middle axis forgets `t`
  refine (broadcastInDim_apply _ _ _ (ix3 n t k) (ix3 n (0 : Fin 1) k) (fun a => ?_)).trans ?_
  · match a with
    | ⟨0, _⟩ => rfl
    | ⟨1, _⟩ => rfl
    | ⟨2, _⟩ => rfl
  -- the unit middle axis added to the matrix
  refine broadcastInDim_apply _ _ _ (ix3 n (0 : Fin 1) k) (ix2 n k) (fun a => ?_)
  match a with
  | ⟨0, _⟩ => rfl
  | ⟨1, _⟩ => rfl

/-- The target boxes spread along the queries: entry `(n, t, k)` is corner `k` of target box `t`. -/
def overQueries (B : FVec Ideal S1024x4 .f32) : FVec Ideal S14400x1024x4 .f32 :=
  broadcastInDim S14400x1024x4 ![0, 1, 2] bcast_S1x1024x4_S14400x1024x4_0_1_2
    (broadcastInDim S1x1024x4 ![1, 2] bcast_S1024x4_S1x1024x4_1_2 B)

theorem overQueries_apply (B : FVec Ideal S1024x4 .f32) (n : Fin 14400) (t : Fin 1024) (k : Fin 4) :
    overQueries B (ix3 n t k) = B (ix2 t k) := by
  unfold overQueries
  refine (broadcastInDim_apply _ _ _ (ix3 n t k) (ix3 (0 : Fin 1) t k) (fun a => ?_)).trans ?_
  · match a with
    | ⟨0, _⟩ => rfl
    | ⟨1, _⟩ => rfl
    | ⟨2, _⟩ => rfl
  refine broadcastInDim_apply _ _ _ (ix3 (0 : Fin 1) t k) (ix2 t k) (fun a => ?_)
  match a with
  | ⟨0, _⟩ => rfl
  | ⟨1, _⟩ => rfl

/-! ## The absolute differences and their sum over the corners -/

section Stages

variable (A : FVec Ideal S14400x4 .f32) (B : FVec Ideal S1024x4 .f32)

/-- The absolute difference of every pair of boxes at every corner. -/
def absDiffV : FVec Ideal S14400x1024x4 .f32 := Host.absf (subf (overTargets A) (overQueries B))

theorem absDiffV_apply (n : Fin 14400) (t : Fin 1024) (k : Fin 4) :
    absDiffV A B (ix3 n t k) = FloatOps.hostAbsf (F := Ideal) (φ := .f32) (A (ix2 n k) - B (ix2 t k)) := by
  rw [← overTargets_apply A n t k, ← overQueries_apply B n t k]
  rfl

/-- The sum over the corners, from the initial value zero. -/
def l1V : FVec Ideal S14400x1024 .f32 :=
  Host.reduceAdd (absDiffV A B) (constant S_ .f32 0x00000000#32) reducesTo_S14400x1024x4_S14400x1024_d2 h_S_

/-- The last axis is the one summed over: the pair's index with a corner inserted is the triple. -/
theorem lift_last (h : S14400x1024x4.Reduces [2] S14400x1024) (n : Fin 14400) (t : Fin 1024) (k : Fin 4) :
    h.lift (ix2 n t) k = ix3 n t k := by
  funext c
  apply Fin.ext
  match c with
  | ⟨0, _⟩ => rfl
  | ⟨1, _⟩ => rfl
  | ⟨2, _⟩ => rfl

theorem l1V_apply (n : Fin 14400) (t : Fin 1024) :
    l1V A B (ix2 n t) = c0 + ∑ k : Fin 4, absDiffV A B (ix3 n t k) := by
  have h : S14400x1024x4.Reduces [2] S14400x1024 := by decide
  unfold l1V
  rw [hostReduceAdd_apply, Ideal.hostReduceAdd_single reducesTo_S14400x1024x4_S14400x1024_d2 h]
  refine congrArg₂ (· + ·) rfl (Finset.sum_congr rfl fun k _ => ?_)
  exact congrArg (absDiffV A B) (lift_last h n t k)

/-- For real corners the entry is the specification's L1 distance. -/
theorem l1V_eq (hA : FinV A) (hB : FinV B) (n : Fin 14400) (t : Fin 1024) :
    l1V A B (ix2 n t)
      = l1 (A (ix2 n 0)) (A (ix2 n 1)) (A (ix2 n 2)) (A (ix2 n 3)) (B (ix2 t 0)) (B (ix2 t 1)) (B (ix2 t 2)) (B (ix2 t 3)) := by
  obtain ⟨a0, ha0⟩ := hA (ix2 n 0)
  obtain ⟨a1, ha1⟩ := hA (ix2 n 1)
  obtain ⟨a2, ha2⟩ := hA (ix2 n 2)
  obtain ⟨a3, ha3⟩ := hA (ix2 n 3)
  obtain ⟨b0, hb0⟩ := hB (ix2 t 0)
  obtain ⟨b1, hb1⟩ := hB (ix2 t 1)
  obtain ⟨b2, hb2⟩ := hB (ix2 t 2)
  obtain ⟨b3, hb3⟩ := hB (ix2 t 3)
  rw [l1V_apply, l1_sum_fin, absDiffV_apply, absDiffV_apply, absDiffV_apply, absDiffV_apply, l1,
    ha0, ha1, ha2, ha3, hb0, hb1, hb2, hb3,
    hostAbsf_eq_max_sub_min, hostAbsf_eq_max_sub_min, hostAbsf_eq_max_sub_min, hostAbsf_eq_max_sub_min]

end Stages

end L1

/-! ## The run of the stretch -/

set_option maxHeartbeats 4000000 in
/-- What the stretch leaves in its last buffer, as a function of the two corner arrays it starts from. -/
theorem after_opsC_v99 (W : Valuation τ sig (Elt Ideal)) :
    (StableHlo.after (opsC (F := Ideal)) W (R main_v99) : FVec Ideal S14400x1024 .f32)
      = L1.l1V (W (R main_v67)) (W (R main_v92)) := by
  after_results_simp
  rfl

/-- Entry `(n, t)` of the stretch's result is the L1 distance of query box `n`'s and target box `t`'s corners. -/
theorem segC_v99 (W : Valuation τ sig (Elt Ideal)) (h67 : FinV (W (R main_v67) : FVec Ideal S14400x4 .f32))
    (h92 : FinV (W (R main_v92) : FVec Ideal S1024x4 .f32)) (n : Fin 14400) (t : Fin 1024) :
    (StableHlo.after (opsC (F := Ideal)) W (R main_v99) : FVec Ideal S14400x1024 .f32) (ix2 n t)
      = l1 ((W (R main_v67) : FVec Ideal S14400x4 .f32) (ix2 n 0)) ((W (R main_v67) : FVec Ideal S14400x4 .f32) (ix2 n 1))
          ((W (R main_v67) : FVec Ideal S14400x4 .f32) (ix2 n 2)) ((W (R main_v67) : FVec Ideal S14400x4 .f32) (ix2 n 3))
          ((W (R main_v92) : FVec Ideal S1024x4 .f32) (ix2 t 0)) ((W (R main_v92) : FVec Ideal S1024x4 .f32) (ix2 t 1))
          ((W (R main_v92) : FVec Ideal S1024x4 .f32) (ix2 t 2)) ((W (R main_v92) : FVec Ideal S1024x4 .f32) (ix2 t 3)) := by
  rw [after_opsC_v99]
  exact L1.l1V_eq _ _ h67 h92 n t

end Cert.ReferenceIdeal.Hand

end
-- ==== Proof.RValue.lean ====
/-
  The reference program's value.

  The program is a straight line of host operations cut into six stretches: the class term, the corners of both
  box arrays, the corners' L1 distance, the generalized IoU, the inner-point term, and the weighted total with the
  final reshape. The run leaves every buffer at the fold of the line over the launch contents. Folding stretch by
  stretch, each stretch's result is read by a later one through the stretches between, which do not write it; so
  each of the four terms of an entry is the specification's term of the flattened inputs, the weighted sum of the
  four is the specification's cost of the entry, and the result buffer is the reshape of the specification's cost
  array. No stretch writes an argument, so the six arguments end as they started.
-/
import proofs.«419288_j54760833024710_2_alg».proof.Proof.ROps
import proofs.«419288_j54760833024710_2_alg».proof.Proof.Spec
import proofs.«419288_j54760833024710_2_alg».proof.Proof.SpecLemmas
import proofs.«419288_j54760833024710_2_alg».proof.Proof.RRun
import proofs.«419288_j54760833024710_2_alg».proof.Proof.RClass
import proofs.«419288_j54760833024710_2_alg».proof.Proof.RBoxes
import proofs.«419288_j54760833024710_2_alg».proof.Proof.RGiou
import proofs.«419288_j54760833024710_2_alg».proof.Proof.RInner
import proofs.«419288_j54760833024710_2_alg».proof.Proof.RL1
import Idealize.ShloMosaic.Lib.StableHlo.Run
import Idealize.ShloMosaic.Lib.ValueIdx

noncomputable section

namespace Cert.ReferenceIdeal.Hand

open Idealize.ShloMosaic Idealize.ShloMosaic.StableHlo Idealize.ShloMosaic.TcCoe Idealize.ShloMosaic.ValueIdx Idealize.SL.Sem
open Cert.ReferenceIdeal Cert.Spec
open Cert.ReferenceIdeal.Facts₀ Cert.ReferenceIdeal.Facts

/-! ## The contents stretch by stretch -/

namespace RV

section Value
variable [Cert.ReferenceIdeal.Facts]
local notation "R " b:max => Proc.devRef (τ := τ) Proc.tc b

variable (W : Valuation τ sig (Elt Ideal))

/-- The contents after the class stretch, the corner stretch, the L1 stretch, the GIoU stretch and the inner-point
    stretch, each over the one before. -/
abbrev W1 : Valuation τ sig (Elt Ideal) := StableHlo.after (opsA (F := Ideal)) W
abbrev W2 : Valuation τ sig (Elt Ideal) := StableHlo.after (opsB (F := Ideal)) (W1 W)
abbrev W3 : Valuation τ sig (Elt Ideal) := StableHlo.after (opsC (F := Ideal)) (W2 W)
abbrev W4 : Valuation τ sig (Elt Ideal) := StableHlo.after (opsD (F := Ideal)) (W3 W)
abbrev W5 : Valuation τ sig (Elt Ideal) := StableHlo.after (opsE (F := Ideal)) (W4 W)

/-- The fold over the whole line is the last stretch's fold over the five before it. -/
theorem after_ops : StableHlo.after (ops (F := Ideal)) W = StableHlo.after (opsF (F := Ideal)) (W5 W) := by
  simp only [ops, after_append]

/-- The five float inputs flattened to 14400 rows. -/
abbrev fL : FVec Ideal S14400x91 .f32 := shapeCast S14400x91 (W (R main_arg0)) shapeCasts_S16x900x91_S14400x91
abbrev fB : FVec Ideal S14400x4 .f32 := shapeCast S14400x4 (W (R main_arg1)) shapeCasts_S16x900x4_S14400x4
abbrev fP : FVec Ideal S14400x2 .f32 := shapeCast S14400x2 (W (R main_arg2)) shapeCasts_S16x900x2_S14400x2
abbrev fO : FVec Ideal S14400x1 .f32 := shapeCast S14400x1 (W (R main_arg3)) shapeCasts_S16x900x1_S14400x1

/-! ### Each buffer back at the stretch that wrote it -/

theorem a67_3 : W3 W (R main_v67) = W2 W (R main_v67) := keepC _ (by decide)
theorem a92_3 : W3 W (R main_v92) = W2 W (R main_v92) := keepC _ (by decide)
theorem a92_4 : W4 W (R main_v92) = W2 W (R main_v92) := (keepD _ (by decide)).trans (keepC _ (by decide))
theorem a8_4 : W4 W (R main_v8) = fP W :=
  (keepD _ (by decide)).trans ((keepC _ (by decide)).trans ((keepB _ (by decide)).trans (segA_v8 W)))
theorem a99_5 : W5 W (R main_v99) = W3 W (R main_v99) := (keepE _ (by decide)).trans (keepD _ (by decide))
theorem a42_5 : W5 W (R main_v42) = W1 W (R main_v42) :=
  (keepE _ (by decide)).trans ((keepD _ (by decide)).trans ((keepC _ (by decide)).trans (keepB _ (by decide))))
theorem a174_5 : W5 W (R main_v174) = W4 W (R main_v174) := keepE _ (by decide)

/-- The query corners: the corner stretch reads the flattened query boxes. -/
theorem v67_at (n : Fin 14400) (k : Fin 4) :
    (W2 W (R main_v67) : FVec Ideal S14400x4 .f32) (ix2 n k) = corner (fB W) n k :=
  (segB_v67 (W1 W) n k).trans (congrArg (fun B : FVec Ideal S14400x4 .f32 => corner B n k) (segA_v7 W))

/-- The target corners: the target boxes pass the class stretch untouched. -/
theorem v92_at (t : Fin 1024) (k : Fin 4) :
    (W2 W (R main_v92) : FVec Ideal S1024x4 .f32) (ix2 t k) = corner (W (R main_arg5) : FVec Ideal S1024x4 .f32) t k :=
  (segB_v92 (W1 W) t k).trans (congrArg (fun B : FVec Ideal S1024x4 .f32 => corner B t k) (keepA W (by decide)))

/-- Corners of real boxes are real. -/
theorem finV_v67 (hB : FinV (W (R main_arg1) : FVec Ideal S16x900x4 .f32)) :
    FinV (W2 W (R main_v67) : FVec Ideal S14400x4 .f32) := by
  intro i
  obtain ⟨n, k, rfl⟩ : ∃ (n : Fin 14400) (k : Fin 4), i = ix2 n k := ⟨i 0, i 1, eq_ix2 i⟩
  obtain ⟨a, ha⟩ := corner_real (fB W) (finV_shapeCast _ _ hB) n k
  exact ⟨a, (v67_at W n k).trans ha⟩

theorem finV_v92 (hT : FinV (W (R main_arg5) : FVec Ideal S1024x4 .f32)) :
    FinV (W2 W (R main_v92) : FVec Ideal S1024x4 .f32) := by
  intro i
  obtain ⟨t, k, rfl⟩ : ∃ (t : Fin 1024) (k : Fin 4), i = ix2 t k := ⟨i 0, i 1, eq_ix2 i⟩
  obtain ⟨a, ha⟩ := corner_real (W (R main_arg5) : FVec Ideal S1024x4 .f32) hT t k
  exact ⟨a, (v92_at W t k).trans ha⟩

/-! ### The four terms at one entry -/

/-- The L1 term: the L1 stretch reads the two corner arrays. -/
theorem v99_at (hB : FinV (W (R main_arg1) : FVec Ideal S16x900x4 .f32)) (hT : FinV (W (R main_arg5) : FVec Ideal S1024x4 .f32))
    (n : Fin 14400) (t : Fin 1024) :
    (W3 W (R main_v99) : FVec Ideal S14400x1024 .f32) (ix2 n t)
      = l1 (corner (fB W) n 0) (corner (fB W) n 1) (corner (fB W) n 2) (corner (fB W) n 3)
          (corner (W (R main_arg5) : FVec Ideal S1024x4 .f32) t 0) (corner (W (R main_arg5) : FVec Ideal S1024x4 .f32) t 1)
          (corner (W (R main_arg5) : FVec Ideal S1024x4 .f32) t 2) (corner (W (R main_arg5) : FVec Ideal S1024x4 .f32) t 3) := by
  refine (segC_v99 (W2 W) (finV_v67 W hB) (finV_v92 W hT) n t).trans ?_
  rw [v67_at W n 0, v67_at W n 1, v67_at W n 2, v67_at W n 3, v92_at W t 0, v92_at W t 1, v92_at W t 2, v92_at W t 3]

/-- The GIoU term: the corner arrays pass the L1 stretch untouched. -/
theorem v174_at (n : Fin 14400) (t : Fin 1024) :
    (W4 W (R main_v174) : FVec Ideal S14400x1024 .f32) (ix2 n t)
      = c0 - giou (corner (fB W) n 0) (corner (fB W) n 1) (corner (fB W) n 2) (corner (fB W) n 3)
          (corner (W (R main_arg5) : FVec Ideal S1024x4 .f32) t 0) (corner (W (R main_arg5) : FVec Ideal S1024x4 .f32) t 1)
          (corner (W (R main_arg5) : FVec Ideal S1024x4 .f32) t 2) (corner (W (R main_arg5) : FVec Ideal S1024x4 .f32) t 3) := by
  refine (segD_v174 (W3 W) n t).trans ?_
  rw [a67_3 W, a92_3 W, v67_at W n 0, v67_at W n 1, v67_at W n 2, v67_at W n 3, v92_at W t 0, v92_at W t 1, v92_at W t 2,
    v92_at W t 3]

/-- The inner-point term: the target corners and the flattened points pass the stretches between untouched. -/
theorem v218_at (n : Fin 14400) (t : Fin 1024) :
    cBig * (W5 W (R main_v218) : FVec Ideal S14400x1024 .f32) (ix2 n t)
      = inner (corner (W (R main_arg5) : FVec Ideal S1024x4 .f32) t 0) (corner (W (R main_arg5) : FVec Ideal S1024x4 .f32) t 1)
          (corner (W (R main_arg5) : FVec Ideal S1024x4 .f32) t 2) (corner (W (R main_arg5) : FVec Ideal S1024x4 .f32) t 3)
          (fP W (ix2 n 0)) (fP W (ix2 n 1)) := by
  refine (segE_v218 (W4 W) n t).trans ?_
  rw [a92_4 W, a8_4 W, v92_at W t 0, v92_at W t 1, v92_at W t 2, v92_at W t 3]

/-- The class term. -/
theorem v42_at (hL : FinV (W (R main_arg0) : FVec Ideal S16x900x91 .f32)) (hO : FinV (W (R main_arg3) : FVec Ideal S16x900x1 .f32))
    (hlab : LabOk (W (R main_arg4))) (n : Fin 14400) (t : Fin 1024) :
    (W1 W (R main_v42) : FVec Ideal S14400x1024 .f32) (ix2 n t) = cls (fL W) (fO W) (W (R main_arg4)) n t :=
  segA_v42 W hL hO hlab n t

/-! ### One entry of the weighted total -/

/-- The four terms weighted and summed are the specification's cost of the entry, term for term. -/
theorem total_at (hL : FinV (W (R main_arg0) : FVec Ideal S16x900x91 .f32))
    (hB : FinV (W (R main_arg1) : FVec Ideal S16x900x4 .f32)) (hO : FinV (W (R main_arg3) : FVec Ideal S16x900x1 .f32))
    (hlab : LabOk (W (R main_arg4))) (hT : FinV (W (R main_arg5) : FVec Ideal S1024x4 .f32))
    (n : Fin 14400) (t : Fin 1024) :
    (((c5 * (W5 W (R main_v99) : FVec Ideal S14400x1024 .f32) (ix2 n t))
        + (c2 * (W5 W (R main_v42) : FVec Ideal S14400x1024 .f32) (ix2 n t)))
        + (c2 * (W5 W (R main_v174) : FVec Ideal S14400x1024 .f32) (ix2 n t)))
        + (cBig * (W5 W (R main_v218) : FVec Ideal S14400x1024 .f32) (ix2 n t))
      = costAt (fL W) (fB W) (fP W) (fO W) (W (R main_arg4)) (W (R main_arg5)) n t := by
  rw [a99_5 W, a42_5 W, a174_5 W, v99_at W hB hT n t, v42_at W hL hO hlab n t, v174_at W n t, v218_at W n t]
  rfl

/-- The whole line's result: the reshape of the specification's cost array of the flattened inputs. -/
theorem value_eq (hL : FinV (W (R main_arg0) : FVec Ideal S16x900x91 .f32))
    (hB : FinV (W (R main_arg1) : FVec Ideal S16x900x4 .f32)) (hO : FinV (W (R main_arg3) : FVec Ideal S16x900x1 .f32))
    (hlab : LabOk (W (R main_arg4))) (hT : FinV (W (R main_arg5) : FVec Ideal S1024x4 .f32)) :
    StableHlo.after (ops (F := Ideal)) W (R main_v230)
      = shapeCast S16x900x1024 (costFlat (fL W) (fB W) (fP W) (fO W) (W (R main_arg4)) (W (R main_arg5)))
          shapeCasts_S14400x1024_S16x900x1024 := by
  refine (congrFun (after_ops W) (R main_v230)).trans ((segF_v230 (W5 W)).trans ?_)
  refine congrArg (fun A : FVec Ideal S14400x1024 .f32 => shapeCast S16x900x1024 A shapeCasts_S14400x1024_S16x900x1024)
    (funext fun j => ?_)
  obtain ⟨n, t, rfl⟩ : ∃ (n : Fin 14400) (t : Fin 1024), j = ix2 n t := ⟨j 0, j 1, eq_ix2 j⟩
  exact total_at W hL hB hO hlab hT n t

end Value

end RV

/-! ## The run's value -/

section RunValue
variable [Cert.ReferenceIdeal.Facts]

/-- From any memory whose float inputs are real and whose labels are class indices, every weakly fair execution of
    the reference ends with its result buffer at the reshape of the specification's cost array of the flattened
    inputs, and with the six arguments as they started: the run leaves every buffer at the fold of the line over the
    launch contents, the fold at the result is the specification's array, and no stretch writes an argument. -/
theorem run_value (m : (ℓ : Loc nD τ sig) → Buf (Elt Ideal) ℓ) (ρ : Dev nD → PrngReg)
    (hL : ∀ c : Dev nD, FinV (m ((c.tc : Thread nD τ).loc main_arg0) : FVec Ideal S16x900x91 .f32))
    (hB : ∀ c : Dev nD, FinV (m ((c.tc : Thread nD τ).loc main_arg1) : FVec Ideal S16x900x4 .f32))
    (hO : ∀ c : Dev nD, FinV (m ((c.tc : Thread nD τ).loc main_arg3) : FVec Ideal S16x900x1 .f32))
    (hlab : ∀ c : Dev nD, LabOk (m ((c.tc : Thread nD τ).loc main_arg4)))
    (hT : ∀ c : Dev nD, FinV (m ((c.tc : Thread nD τ).loc main_arg5) : FVec Ideal S1024x4 .f32)) :
    θ_run defs (onTc (τ := τ) (main (F := Ideal))) ⟨m, fun _ => 0, ρ⟩ (fun r => ∀ c : Dev nD,
      r.2.mem ((c.tc : Thread nD τ).loc main_v230)
        = shapeCast S16x900x1024
            (costFlat (shapeCast S14400x91 (m ((c.tc : Thread nD τ).loc main_arg0)) shapeCasts_S16x900x91_S14400x91)
              (shapeCast S14400x4 (m ((c.tc : Thread nD τ).loc main_arg1)) shapeCasts_S16x900x4_S14400x4)
              (shapeCast S14400x2 (m ((c.tc : Thread nD τ).loc main_arg2)) shapeCasts_S16x900x2_S14400x2)
              (shapeCast S14400x1 (m ((c.tc : Thread nD τ).loc main_arg3)) shapeCasts_S16x900x1_S14400x1)
              (m ((c.tc : Thread nD τ).loc main_arg4)) (m ((c.tc : Thread nD τ).loc main_arg5)))
            shapeCasts_S14400x1024_S16x900x1024
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(h c main_v230).trans (RV.value_eq (StableHlo.launchContents m c) (hL c) (hB c) (hO c) (hlab c) (hT c)),
     (h c main_arg0).trans (keep _ (by decide) (by decide) (by decide) (by decide) (by decide) (by decide)),
     (h c main_arg1).trans (keep _ (by decide) (by decide) (by decide) (by decide) (by decide) (by decide)),
     (h c main_arg2).trans (keep _ (by decide) (by decide) (by decide) (by decide) (by decide) (by decide)),
     (h c main_arg3).trans (keep _ (by decide) (by decide) (by decide) (by decide) (by decide) (by decide)),
     (h c main_arg4).trans (keep _ (by decide) (by decide) (by decide) (by decide) (by decide) (by decide)),
     (h c main_arg5).trans (keep _ (by decide) (by decide) (by decide) (by decide) (by decide) (by decide))⟩)
    (run m ρ)

end RunValue

end Cert.ReferenceIdeal.Hand

end
-- ==== Proof.PreDecode.lean ====
/-
  Reading the printed precondition back: from "the printed predicate is true" to the facts the value proofs use.

  The predicate is a conjunction of seven `all`s. Five say of a float array that every entry's absolute value is
  below +∞; on the extended reals `|x| = max x (−x)`, which is +∞ at both infinities, so such an entry is a real
  number. Two say of the label words that each is ≥ 0 and < 91 as a signed integer; a word whose signed value lies
  in [0, 91) has that same unsigned value, so it is below 91.
-/
import proofs.«419288_j54760833024710_2_alg».proof.Pre_finite_inputs
import proofs.«419288_j54760833024710_2_alg».proof.Proof.Gen.Pre_finite_inputs
import proofs.«419288_j54760833024710_2_alg».proof.Proof.Spec
import Idealize.ShloMosaic.Lib.ReduceAll
import Idealize.ShloMosaic.Lib.StableHlo.Predicate
import Idealize.ShloMosaic.Lib.ValueIdx

noncomputable section

namespace Cert.Spec

open Idealize.ShloMosaic Idealize.ShloMosaic.ValueIdx
open Cert.Pre_finite_inputs (S_ S16x900x91 S16x900x4 S16x900x2 S16x900x1 S1024 S1024x4)

/-- The rank-0 shape has one index. -/
instance subsingleton_S_Idx : Subsingleton S_.Idx := ⟨fun a b => funext fun d => d.elim0⟩

/-! ## One element of a float `all` -/

/-- The word 0x7F800000 denotes +∞. -/
theorem inf_word : Ideal.ofBits .f32 0x7F800000#32 = (⊤ : EReal) := by
  simp [Ideal.ofBits, Ideal.ieee]

/-- An extended real whose absolute value `max x (−x)` is below +∞ is a real number: at −∞ and at +∞ the
    maximum is +∞. -/
theorem real_of_abs_lt_top (x : EReal) (h : Ideal.cmp .olt (max x (-x)) (⊤ : EReal) = 1#1) : ∃ r : ℝ, x = (r : EReal) := by
  induction x using EReal.rec with
  | bot => exact absurd h (by simp [Ideal.cmp])
  | coe r => exact ⟨r, rfl⟩
  | top => exact absurd h (by simp [Ideal.cmp])

/-- A float `all(|x| < +∞)` that came out true: every entry of `x` is a real number. -/
theorem finV_of_all {S : Shape} {axes : List (Fin S.rank)} (x : FVec Ideal S .f32)
    (hb : S_.BroadcastsInDim S (![] : Fin 0 → Fin S.rank)) (hr : S.ReducesTo axes S_) (h0 : 0 < S_.numel)
    (e : Host.reduce IntOp.andi
          (cmpf .olt (Host.absf x) (broadcastInDim S ![] hb (constant (F := Ideal) S_ .f32 0x7F800000#32)))
          (constantI S_ 1 1#1) hr h0 ix0 = 1#1) :
    FinV x := by
  intro i
  have hi := Host.reduce_andi_all _ _ hr h0 ix0 e i
  refine real_of_abs_lt_top (x i) ?_
  rw [← inf_word]
  exact hi

/-! ## One element of the two label `all`s -/

/-- A word that is ≥ 0 and < 91 as a signed integer is below 91 as a natural number: a nonnegative signed value
    is the unsigned value. -/
theorem toNat_lt_of_signed (w : BitVec 32) (h0 : IntOp.cmpi .sge w 0#32 = 1#1) (h1 : IntOp.cmpi .slt w 91#32 = 1#1) :
    w.toNat < 91 := by
  rw [IntOp.cmpi_sge] at h0
  rw [IntOp.cmpi_slt] at h1
  have e0 : (0#32 : BitVec 32).toInt = 0 := by decide
  have e1 : (91#32 : BitVec 32).toInt = 91 := by decide
  rw [e0] at h0
  rw [e1] at h1
  have hw := w.isLt
  rw [BitVec.toInt_eq_toNat_cond] at h0 h1
  split at h0 <;> omega

/-- The two label `all`s that came out true: every label is a class index. -/
theorem labOk_of_all (lab : IVec S1024 32)
    (hb : S_.BroadcastsInDim S1024 (![] : Fin 0 → Fin S1024.rank)) (hr : S1024.ReducesTo [0] S_) (h0 : 0 < S_.numel)
    (eGe : Host.reduce IntOp.andi (cmpi .sge lab (broadcastInDim S1024 ![] hb (constantI S_ 32 0#32)))
            (constantI S_ 1 1#1) hr h0 ix0 = 1#1)
    (eLt : Host.reduce IntOp.andi (cmpi .slt lab (broadcastInDim S1024 ![] hb (constantI S_ 32 91#32)))
            (constantI S_ 1 1#1) hr h0 ix0 = 1#1) :
    LabOk lab := by
  intro t
  have hGe := Host.reduce_andi_all _ _ hr h0 ix0 eGe (ix1 t)
  have hLt := Host.reduce_andi_all _ _ hr h0 ix0 eLt (ix1 t)
  exact toNat_lt_of_signed (lab (ix1 t)) hGe hLt

/-! ## The printed predicate, conjunct by conjunct -/

/-- The predicate at its one index is the conjunction of the seven `all`s, nested to the left in the order
    logits, boxes, points, objectness, target boxes, labels ≥ 0, labels < 91; each is read back by the lemmas above. -/
theorem pre_decode [Cert.Pre_finite_inputs.Facts] (a0 : FVec Ideal Cert.Pre_finite_inputs.S16x900x91 .f32)
    (a1 : FVec Ideal Cert.Pre_finite_inputs.S16x900x4 .f32) (a2 : FVec Ideal Cert.Pre_finite_inputs.S16x900x2 .f32)
    (a3 : FVec Ideal Cert.Pre_finite_inputs.S16x900x1 .f32) (a4 : IVec Cert.Pre_finite_inputs.S1024 32)
    (a5 : FVec Ideal Cert.Pre_finite_inputs.S1024x4 .f32)
    (h : Cert.Pre_finite_inputs.fn (F := Ideal) a0 a1 a2 a3 a4 a5 = fun _ => 1#1) :
    FinV a0 ∧ FinV a1 ∧ FinV a2 ∧ FinV a3 ∧ LabOk a4 ∧ FinV a5 := by
  have e := congrFun h ix0
  dsimp only [Cert.Pre_finite_inputs.fn, Cert.Pre_finite_inputs.fn_part1] at e
  simp only [andi, IntOp.andi_eq_one] at e
  obtain ⟨⟨⟨⟨⟨⟨h0, h1⟩, h2⟩, h3⟩, h5⟩, hGe⟩, hLt⟩ := e
  exact ⟨finV_of_all a0 _ _ _ h0, finV_of_all a1 _ _ _ h1, finV_of_all a2 _ _ _ h2, finV_of_all a3 _ _ _ h3,
    labOk_of_all a4 _ _ _ hGe hLt, finV_of_all a5 _ _ _ h5⟩

/-! ## Each conjunct by name -/

section
variable [Cert.Pre_finite_inputs.Facts]
variable {a0 : FVec Ideal S16x900x91 .f32} {a1 : FVec Ideal S16x900x4 .f32} {a2 : FVec Ideal S16x900x2 .f32}
  {a3 : FVec Ideal S16x900x1 .f32} {a4 : IVec S1024 32} {a5 : FVec Ideal S1024x4 .f32}
  (h : Cert.Pre_finite_inputs.fn (F := Ideal) a0 a1 a2 a3 a4 a5 = fun _ => 1#1)
include h

/-- The class logits are real numbers. -/
theorem fin0 : FinV a0 := (pre_decode a0 a1 a2 a3 a4 a5 h).1
/-- The query boxes are real numbers. -/
theorem fin1 : FinV a1 := (pre_decode a0 a1 a2 a3 a4 a5 h).2.1
/-- The query points are real numbers. -/
theorem fin2 : FinV a2 := (pre_decode a0 a1 a2 a3 a4 a5 h).2.2.1
/-- The objectness logits are real numbers. -/
theorem fin3 : FinV a3 := (pre_decode a0 a1 a2 a3 a4 a5 h).2.2.2.1
/-- Every target label is a class index. -/
theorem labOk : LabOk a4 := (pre_decode a0 a1 a2 a3 a4 a5 h).2.2.2.2.1
/-- The target boxes are real numbers. -/
theorem fin5 : FinV a5 := (pre_decode a0 a1 a2 a3 a4 a5 h).2.2.2.2.2

end

end Cert.Spec

end
-- ==== Proof.lean ====
/-
  The certificate of the matcher-cost kernel against its jnp reference.

  Each program runs to its end with its arguments unchanged (the three frames); the idealized kernel is the
  kernel with one round trip through bf16 read as the identity (preserves); and at the extended reals, from
  arguments that agree, are finite, and whose labels are class indices, both programs leave the same array: entry
  (n, t) is 5 · L1 of the corners + 2 · the focal class term at the target's label + 2 · (−GIoU) + the inner-point
  term, the specification `Cert.Spec.costFlat` reshaped to [16, 900, 1024]. The kernel reaches it tile by tile,
  selecting the class term by a product with the 0/1 label table (a sum with one nonzero term, plus the same
  sum of zeros for the residual `d − d`); the reference gathers it and spells the same arithmetic with a power,
  an absolute value and a converted comparison.
-/
import proofs.«419288_j54760833024710_2_alg».proof.Defs
import proofs.«419288_j54760833024710_2_alg».proof.Proof.Gen.Kernel
import proofs.«419288_j54760833024710_2_alg».proof.Proof.Gen.KernelIdeal
import proofs.«419288_j54760833024710_2_alg».proof.Proof.Gen.ReferenceIdeal
import proofs.«419288_j54760833024710_2_alg».proof.Proof.Gen.Pre_finite_inputs
import proofs.«419288_j54760833024710_2_alg».proof.Proof.KFrame
import proofs.«419288_j54760833024710_2_alg».proof.Proof.KIFrame
import proofs.«419288_j54760833024710_2_alg».proof.Proof.KIValue
import proofs.«419288_j54760833024710_2_alg».proof.Proof.RRun
import proofs.«419288_j54760833024710_2_alg».proof.Proof.RValue
import proofs.«419288_j54760833024710_2_alg».proof.Proof.PreDecode

noncomputable section

namespace Cert.Proof

open Idealize.ShloMosaic Idealize.SL.Sem

/-- The kernel at the word level runs and keeps its arguments. -/
theorem frame_k : Cert.frame_Kernel := fun m ρ _ => Cert.Kernel.Hand.frame m ρ

/-- So does its idealization. -/
theorem frame_ki : Cert.frame_KernelIdeal := fun m ρ _ => Cert.KernelIdeal.Hand.frame m ρ

/-- And the reference. -/
theorem frame_ri : Cert.frame_ReferenceIdeal := fun m ρ _ => Cert.ReferenceIdeal.Hand.frame m ρ

/-- The one rewrite of the idealization: widening back what was narrowed to bf16 is the identity at the
    extended reals. -/
theorem preserves : Cert.preserves_Kernel_KernelIdeal :=
  IdealRules.truncf_extf.statement Cert.KernelIdeal.S480x91 .f32 .bf16

/-- From arguments that agree and satisfy the precondition both programs end at the specification's array. -/
theorem algebraic : Cert.algebraic_KernelIdeal_ReferenceIdeal := by
  intro m ρ m' ρ' hpre hagree
  have hk : ∀ c : Dev Cert.KernelIdeal.nD, _ := fun c => Cert.Spec.pre_decode _ _ _ _ _ _ (hpre c)
  have hr : ∀ c : Dev Cert.ReferenceIdeal.nD, _ := fun c => by
    have := hk c
    rw [← (hagree c).1, ← (hagree c).2.1, ← (hagree c).2.2.1, ← (hagree c).2.2.2.1, ← (hagree c).2.2.2.2.1,
      ← (hagree c).2.2.2.2.2] at this
    exact this
  refine ⟨_, Cert.KernelIdeal.Hand.run_value m ρ (fun c => (hk c).1) (fun c => (hk c).2.2.2.1) (fun c => (hk c).2.2.2.2.1), ?_⟩
  refine (θ_run Cert.ReferenceIdeal.defs _ _).mono (fun _ h c => ⟨(h c).1.trans ?_, (h c).2⟩)
    (Cert.ReferenceIdeal.Hand.run_value m' ρ' (fun c => (hr c).1) (fun c => (hr c).2.1) (fun c => (hr c).2.2.2.1)
      (fun c => (hr c).2.2.2.2.1) (fun c => (hr c).2.2.2.2.2))
  rw [(hagree c).1, (hagree c).2.1, (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
